-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg6 : FVec F S3x64 .f32) (main_arg7 : FVec F S3x64x64 .f32) (main_arg8 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S3x64x64 .f32) (main_arg4 : FVec F S3x64 .f32) (main_arg5 : FVec F S3x64 .f32) (main_arg6 : FVec F S3x64 .f32) (main_arg7 : FVec F S3x64x64 .f32) (main_arg8 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S256 : Shape := ⟨1, ![256]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S256x64 : Shape := ⟨2, ![256, 64]⟩
abbrev S5000x1 : Shape := ⟨2, ![5000, 1]⟩
abbrev S1x256 : Shape := ⟨2, ![1, 256]⟩
abbrev S5000x256 : Shape := ⟨2, ![5000, 256]⟩
abbrev S256x1 : Shape := ⟨2, ![256, 1]⟩

abbrev nBuf : Space → Nat
  | .hbm => 158
  | .vmem => 67
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S1x1600000, .i32⟩
  | 10 => ⟨S1600000, .i32⟩
  | 11 => ⟨S1x1600000, .i32⟩
  | 12 => ⟨S1600000, .i32⟩
  | 13 => ⟨S100000x1, .i32⟩
  | 14 => ⟨S_, .f32⟩
  | 15 => ⟨S100000, .f32⟩
  | 16 => ⟨S_, .f32⟩
  | 17 => ⟨S256, .f32⟩
  | 18 => ⟨S100000x1, .i32⟩
  | 19 => ⟨S256, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x64, .f32⟩
  | 29 => ⟨S_, .f32⟩
  | 30 => ⟨S100000x64, .f32⟩
  | 31 => ⟨S1600000x1, .i32⟩
  | 32 => ⟨S100000x64, .f32⟩
  | 33 => ⟨S1x64x64, .f32⟩
  | 34 => ⟨S64x64, .f32⟩
  | 35 => ⟨S1x64, .f32⟩
  | 36 => ⟨S64, .f32⟩
  | 37 => ⟨S1x64, .f32⟩
  | 38 => ⟨S1x64, .f32⟩
  | 39 => ⟨S64, .f32⟩
  | 40 => ⟨S1x64, .f32⟩
  | 41 => ⟨S1x64, .f32⟩
  | 42 => ⟨S64, .f32⟩
  | 43 => ⟨S1x64, .f32⟩
  | 44 => ⟨S1x64x64, .f32⟩
  | 45 => ⟨S64x64, .f32⟩
  | 46 => ⟨S1x64, .f32⟩
  | 47 => ⟨S64, .f32⟩
  | 48 => ⟨S1x64, .f32⟩
  | 49 => ⟨S100000x64, .f32⟩
  | 50 => ⟨S1x64, .f32⟩
  | 51 => ⟨S1x64, .f32⟩
  | 52 => ⟨S_, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S1x64, .f32⟩
  | 59 => ⟨S1x64, .f32⟩
  | 60 => ⟨S_, .f32⟩
  | 61 => ⟨S1x64, .f32⟩
  | 62 => ⟨S1x64, .f32⟩
  | 63 => ⟨S100000x64, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S1x64x64, .f32⟩
  | 78 => ⟨S64x64, .f32⟩
  | 79 => ⟨S1x64, .f32⟩
  | 80 => ⟨S64, .f32⟩
  | 81 => ⟨S1x64, .f32⟩
  | 82 => ⟨S1x64, .f32⟩
  | 83 => ⟨S64, .f32⟩
  | 84 => ⟨S1x64, .f32⟩
  | 85 => ⟨S1x64, .f32⟩
  | 86 => ⟨S64, .f32⟩
  | 87 => ⟨S1x64, .f32⟩
  | 88 => ⟨S1x64x64, .f32⟩
  | 89 => ⟨S64x64, .f32⟩
  | 90 => ⟨S1x64, .f32⟩
  | 91 => ⟨S64, .f32⟩
  | 92 => ⟨S1x64, .f32⟩
  | 93 => ⟨S100000x64, .f32⟩
  | 94 => ⟨S1x64, .f32⟩
  | 95 => ⟨S1x64, .f32⟩
  | 96 => ⟨S_, .f32⟩
  | 97 => ⟨S1x64, .f32⟩
  | 98 => ⟨S1x64, .f32⟩
  | 99 => ⟨S_, .f32⟩
  | 100 => ⟨S1x64, .f32⟩
  | 101 => ⟨S1x64, .f32⟩
  | 102 => ⟨S1x64, .f32⟩
  | 103 => ⟨S1x64, .f32⟩
  | 104 => ⟨S_, .f32⟩
  | 105 => ⟨S1x64, .f32⟩
  | 106 => ⟨S1x64, .f32⟩
  | 107 => ⟨S100000x64, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S_, .f32⟩
  | 118 => ⟨S100000x64, .f32⟩
  | 119 => ⟨S1600000x1, .i32⟩
  | 120 => ⟨S100000x64, .f32⟩
  | 121 => ⟨S1x64x64, .f32⟩
  | 122 => ⟨S64x64, .f32⟩
  | 123 => ⟨S1x64, .f32⟩
  | 124 => ⟨S64, .f32⟩
  | 125 => ⟨S1x64, .f32⟩
  | 126 => ⟨S1x64, .f32⟩
  | 127 => ⟨S64, .f32⟩
  | _ => ⟨S100000x64, .f32⟩

abbrev hbmTy0_1 (i : Nat) : BufTy := match i % 128 with
  | 0 => ⟨S1x64, .f32⟩
  | 1 => ⟨S1x64, .f32⟩
  | 2 => ⟨S64, .f32⟩
  | 3 => ⟨S1x64, .f32⟩
  | 4 => ⟨S1x64x64, .f32⟩
  | 5 => ⟨S64x64, .f32⟩
  | 6 => ⟨S1x64, .f32⟩
  | 7 => ⟨S64, .f32⟩
  | 8 => ⟨S1x64, .f32⟩
  | 9 => ⟨S100000x64, .f32⟩
  | 10 => ⟨S1x64, .f32⟩
  | 11 => ⟨S1x64, .f32⟩
  | 12 => ⟨S_, .f32⟩
  | 13 => ⟨S1x64, .f32⟩
  | 14 => ⟨S1x64, .f32⟩
  | 15 => ⟨S_, .f32⟩
  | 16 => ⟨S1x64, .f32⟩
  | 17 => ⟨S1x64, .f32⟩
  | 18 => ⟨S1x64, .f32⟩
  | 19 => ⟨S1x64, .f32⟩
  | 20 => ⟨S_, .f32⟩
  | 21 => ⟨S1x64, .f32⟩
  | 22 => ⟨S1x64, .f32⟩
  | 23 => ⟨S256x64, .f32⟩
  | 24 => ⟨S_, .f32⟩
  | 25 => ⟨S256, .f32⟩
  | 26 => ⟨S256, .f32⟩
  | 27 => ⟨S256x1, .f32⟩
  | 28 => ⟨S256x64, .f32⟩
  | 29 => ⟨S256x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S5000x64, .f32⟩
  | .local _ .vmem, ⟨57, _⟩ => ⟨S5000x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S1x64, .f32⟩
  | .local _ .vmem, ⟨62, _⟩ => ⟨S64x64, .f32⟩
  | .local _ .vmem, ⟨63, _⟩ => ⟨S1x64, .f32⟩
  | .local _ .vmem, ⟨64, _⟩ => ⟨S5000x1, .i32⟩
  | .local _ .vmem, ⟨65, _⟩ => ⟨S5000x1, .i32⟩
  | .local _ .vmem, ⟨66, _⟩ => ⟨S256x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_6 : Ref sig .tc := ⟨.hbm, 64, rfl⟩
abbrev main_v46 : Ref sig .tc := ⟨.hbm, 65, rfl⟩
abbrev main_v47 : Ref sig .tc := ⟨.hbm, 66, rfl⟩
abbrev main_c_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73_0 : Ref sig .tc := ⟨.hbm, 94, rfl⟩
abbrev main_v73_1 : Ref sig .tc := ⟨.hbm, 95, rfl⟩
abbrev main_cst_9 : Ref sig .tc := ⟨.hbm, 96, rfl⟩
abbrev main_v74 : Ref sig .tc := ⟨.hbm, 97, rfl⟩
abbrev main_v75 : Ref sig .tc := ⟨.hbm, 98, rfl⟩
abbrev main_cst_10 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_11 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_12 : Ref sig .tc := ⟨.hbm, 108, rfl⟩
abbrev main_v83 : Ref sig .tc := ⟨.hbm, 109, rfl⟩
abbrev main_v84 : Ref sig .tc := ⟨.hbm, 110, rfl⟩
abbrev main_c_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110_0 : Ref sig .tc := ⟨.hbm, 138, rfl⟩
abbrev main_v110_1 : Ref sig .tc := ⟨.hbm, 139, rfl⟩
abbrev main_cst_15 : Ref sig .tc := ⟨.hbm, 140, rfl⟩
abbrev main_v111 : Ref sig .tc := ⟨.hbm, 141, rfl⟩
abbrev main_v112 : Ref sig .tc := ⟨.hbm, 142, rfl⟩
abbrev main_cst_16 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_17 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_18 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc5_stg7_0 : Ref sig .tc := ⟨.vmem, 42, rfl⟩
abbrev cc5_stg7_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg4_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg4_0 : Ref sig .tc := ⟨.vmem, 61, rfl⟩
abbrev cc8_stg5_0 : Ref sig .tc := ⟨.vmem, 62, rfl⟩
abbrev cc8_stg6_0 : Ref sig .tc := ⟨.vmem, 63, rfl⟩
abbrev cc8_stg7_0 : Ref sig .tc := ⟨.vmem, 64, rfl⟩
abbrev cc8_stg7_1 : Ref sig .tc := ⟨.vmem, 65, rfl⟩
abbrev cc8_stg8_0 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem6_0 : DmaSem sig := 41
abbrev cc5_sem7_0 : DmaSem sig := 42
abbrev cc5_sem7_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem4_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem3_0 : DmaSem sig := 60
abbrev cc8_sem4_0 : DmaSem sig := 61
abbrev cc8_sem5_0 : DmaSem sig := 62
abbrev cc8_sem6_0 : DmaSem sig := 63
abbrev cc8_sem7_0 : DmaSem sig := 64
abbrev cc8_sem7_1 : DmaSem sig := 65
abbrev cc8_sem8_0 : DmaSem sig := 66

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x1 .i32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 1 → Memref sig .tc .vmem S256x64 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S100000 : S_.BroadcastsInDim S100000 (![] : Fin 0 → Fin S100000.rank)
  bcast_S_S256 : S_.BroadcastsInDim S256 (![] : Fin 0 → Fin S256.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  inb_S256x64_S256x64_0_0 : ∀ a, (![0, 0] : Fin 2 → Nat) a + S256x64.size a ≤ S256x64.size a
  h_S256x64 : 0 < S256x64.numel
  iota_S1x256_d1_w32 : S1x256.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  broadcasts_S1x256_S5000x256 : S1x256.Broadcasts S5000x256
  natLt_1_32 : 1 < 32
  shapeCasts_S256x64_S256x64 : S256x64.ShapeCasts S256x64
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  scatter_S256_S100000x1_S100000_n_0_0_1_wf : ScatterDims.WF S256 S100000x1 S100000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x256_S5000x64_S256x64_0_0_1_1_n_n_wf : DotDims.WF S5000x256 S5000x64 S256x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x64.size a ≤ S100000x64.size a
  hwx5_7 : ∀ i : grid5.Coords, EltTy.bits .f32 = 32 ∨ (Rect.block (s := S100000x64) S5000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x64.size a ≤ S64x64.size a
  hwx8_5 : ∀ i : grid8.Coords, EltTy.bits .f32 = 32 ∨ (Rect.block (s := S64x64) S64x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x1.size a ≤ S100000x1.size a
  hwx8_7 : ∀ i : grid8.Coords, EltTy.bits .i32 = 32 ∨ (Rect.block (s := S100000x1) S5000x1.size (cc8_transform_7 i) (hinb8_7 i)).WholeWords (EltTy.packing .i32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S256x64.size a ≤ S256x64.size a
  hwx8_8 : ∀ i : grid8.Coords, EltTy.bits .f32 = 32 ∨ (Rect.block (s := S256x64) S256x64.size (cc8_transform_8 i) (hinb8_8 i)).WholeWords (EltTy.packing .f32)

variable [Facts₀]

def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v45) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v45) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v72) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v63) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v66) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v68) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v71) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v82) S5000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v82) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v94) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v97) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v109) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v109) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v110_0) S1x64.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v110_1) S1x64.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v109) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v112) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v118) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v100) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v103) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v105) S64x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v108) S1x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v4) S5000x1.size cc8_transform_7 reads8_7 false false 2 stage8_7 sem8_7
    hrank8 hreads8_7 hinb8_7 nbuf8_7 (Memref.isWhole_whole _) hwx8_7 hstage8_7

abbrev win8_8 : Pipeline.Window sig grid8 :=
  Pipeline.Window.ofSpec (Memref.whole main_v119) S256x64.size cc8_transform_8 reads8_8 true true 1 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩

abbrev nBuf : Space → Nat
  | .hbm => 239
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S1x1600000, .i32⟩
  | 10 => ⟨S1600000, .i32⟩
  | 11 => ⟨S1x1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S_, .f32⟩
  | 23 => ⟨S100000x64, .f32⟩
  | 24 => ⟨S1600000x1, .i32⟩
  | 25 => ⟨S100000x64, .f32⟩
  | 26 => ⟨S100000x64, .f32⟩
  | 27 => ⟨S1x64x64, .f32⟩
  | 28 => ⟨S64x64, .f32⟩
  | 29 => ⟨S100000x64, .f32⟩
  | 30 => ⟨S1x64, .f32⟩
  | 31 => ⟨S64, .f32⟩
  | 32 => ⟨S1x64, .f32⟩
  | 33 => ⟨S100000x64, .f32⟩
  | 34 => ⟨S100000x64, .f32⟩
  | 35 => ⟨S_, .f32⟩
  | 36 => ⟨S64, .f32⟩
  | 37 => ⟨S_, .f32⟩
  | 38 => ⟨S64, .f32⟩
  | 39 => ⟨S64, .f32⟩
  | 40 => ⟨S1x64, .f32⟩
  | 41 => ⟨S100000x64, .f32⟩
  | 42 => ⟨S100000x64, .f32⟩
  | 43 => ⟨S100000x64, .f32⟩
  | 44 => ⟨S_, .f32⟩
  | 45 => ⟨S64, .f32⟩
  | 46 => ⟨S_, .f32⟩
  | 47 => ⟨S64, .f32⟩
  | 48 => ⟨S64, .f32⟩
  | 49 => ⟨S1x64, .f32⟩
  | 50 => ⟨S100000x64, .f32⟩
  | 51 => ⟨S100000x64, .f32⟩
  | 52 => ⟨S_, .f32⟩
  | 53 => ⟨S64, .f32⟩
  | 54 => ⟨S64, .f32⟩
  | 55 => ⟨S64, .f32⟩
  | 56 => ⟨S1x64, .f32⟩
  | 57 => ⟨S100000x64, .f32⟩
  | 58 => ⟨S100000x64, .f32⟩
  | 59 => ⟨S1x64, .f32⟩
  | 60 => ⟨S64, .f32⟩
  | 61 => ⟨S1x64, .f32⟩
  | 62 => ⟨S100000x64, .f32⟩
  | 63 => ⟨S100000x64, .f32⟩
  | 64 => ⟨S1x64, .f32⟩
  | 65 => ⟨S64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S1x64x64, .f32⟩
  | 73 => ⟨S64x64, .f32⟩
  | 74 => ⟨S100000x64, .f32⟩
  | 75 => ⟨S1x64, .f32⟩
  | 76 => ⟨S64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S100000x64, .f32⟩
  | 97 => ⟨S1x64x64, .f32⟩
  | 98 => ⟨S64x64, .f32⟩
  | 99 => ⟨S100000x64, .f32⟩
  | 100 => ⟨S1x64, .f32⟩
  | 101 => ⟨S64, .f32⟩
  | 102 => ⟨S1x64, .f32⟩
  | 103 => ⟨S100000x64, .f32⟩
  | 104 => ⟨S100000x64, .f32⟩
  | 105 => ⟨S_, .f32⟩
  | 106 => ⟨S64, .f32⟩
  | 107 => ⟨S_, .f32⟩
  | 108 => ⟨S64, .f32⟩
  | 109 => ⟨S64, .f32⟩
  | 110 => ⟨S1x64, .f32⟩
  | 111 => ⟨S100000x64, .f32⟩
  | 112 => ⟨S100000x64, .f32⟩
  | 113 => ⟨S100000x64, .f32⟩
  | 114 => ⟨S_, .f32⟩
  | 115 => ⟨S64, .f32⟩
  | 116 => ⟨S_, .f32⟩
  | 117 => ⟨S64, .f32⟩
  | 118 => ⟨S64, .f32⟩
  | 119 => ⟨S1x64, .f32⟩
  | 120 => ⟨S100000x64, .f32⟩
  | 121 => ⟨S100000x64, .f32⟩
  | 122 => ⟨S_, .f32⟩
  | 123 => ⟨S64, .f32⟩
  | 124 => ⟨S64, .f32⟩
  | 125 => ⟨S64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S1x64, .f32⟩
  | 2 => ⟨S64, .f32⟩
  | 3 => ⟨S1x64, .f32⟩
  | 4 => ⟨S100000x64, .f32⟩
  | 5 => ⟨S100000x64, .f32⟩
  | 6 => ⟨S1x64, .f32⟩
  | 7 => ⟨S64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S1x64x64, .f32⟩
  | 15 => ⟨S64x64, .f32⟩
  | 16 => ⟨S100000x64, .f32⟩
  | 17 => ⟨S1x64, .f32⟩
  | 18 => ⟨S64, .f32⟩
  | 19 => ⟨S1x64, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S_, .f32⟩
  | 35 => ⟨S100000x64, .f32⟩
  | 36 => ⟨S1600000x1, .i32⟩
  | 37 => ⟨S100000x64, .f32⟩
  | 38 => ⟨S100000x64, .f32⟩
  | 39 => ⟨S1x64x64, .f32⟩
  | 40 => ⟨S64x64, .f32⟩
  | 41 => ⟨S100000x64, .f32⟩
  | 42 => ⟨S1x64, .f32⟩
  | 43 => ⟨S64, .f32⟩
  | 44 => ⟨S1x64, .f32⟩
  | 45 => ⟨S100000x64, .f32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S100000x64, .f32⟩
  | 56 => ⟨S_, .f32⟩
  | 57 => ⟨S64, .f32⟩
  | 58 => ⟨S_, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S_, .f32⟩
  | 65 => ⟨S64, .f32⟩
  | 66 => ⟨S64, .f32⟩
  | 67 => ⟨S64, .f32⟩
  | 68 => ⟨S1x64, .f32⟩
  | 69 => ⟨S100000x64, .f32⟩
  | 70 => ⟨S100000x64, .f32⟩
  | 71 => ⟨S1x64, .f32⟩
  | 72 => ⟨S64, .f32⟩
  | 73 => ⟨S1x64, .f32⟩
  | 74 => ⟨S100000x64, .f32⟩
  | 75 => ⟨S100000x64, .f32⟩
  | 76 => ⟨S1x64, .f32⟩
  | 77 => ⟨S64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S1x64x64, .f32⟩
  | 85 => ⟨S64x64, .f32⟩
  | 86 => ⟨S100000x64, .f32⟩
  | 87 => ⟨S1x64, .f32⟩
  | 88 => ⟨S64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S_, .f32⟩
  | 96 => ⟨S256x64, .f32⟩
  | 97 => ⟨S100000x1, .i32⟩
  | 98 => ⟨S256x64, .f32⟩
  | 99 => ⟨S_, .f32⟩
  | 100 => ⟨S100000, .f32⟩
  | 101 => ⟨S_, .f32⟩
  | 102 => ⟨S256, .f32⟩
  | 103 => ⟨S100000x1, .i32⟩
  | 104 => ⟨S256, .f32⟩
  | 105 => ⟨S_, .f32⟩
  | 106 => ⟨S256, .f32⟩
  | 107 => ⟨S256, .f32⟩
  | 108 => ⟨S256x1, .f32⟩
  | 109 => ⟨S256x64, .f32⟩
  | 110 => ⟨S256x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call0_cst : Ref sig .tc := ⟨.hbm, 69, rfl⟩
abbrev main_call0_v0 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_call1_cst : Ref sig .tc := ⟨.hbm, 80, rfl⟩
abbrev main_call1_v0 : Ref sig .tc := ⟨.hbm, 81, rfl⟩
abbrev main_v61 : Ref sig .tc := ⟨.hbm, 82, rfl⟩
abbrev main_c_6 : Ref sig .tc := ⟨.hbm, 83, rfl⟩
abbrev main_v62 : Ref sig .tc := ⟨.hbm, 84, rfl⟩
abbrev main_v63 : Ref sig .tc := ⟨.hbm, 85, rfl⟩
abbrev main_c_7 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_8 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_9 : Ref sig .tc := ⟨.hbm, 105, rfl⟩
abbrev main_v81 : Ref sig .tc := ⟨.hbm, 106, rfl⟩
abbrev main_cst_10 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_11 : Ref sig .tc := ⟨.hbm, 114, rfl⟩
abbrev main_v88 : Ref sig .tc := ⟨.hbm, 115, rfl⟩
abbrev main_cst_12 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_13 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_call2_cst : Ref sig .tc := ⟨.hbm, 139, rfl⟩
abbrev main_call2_v0 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_call3_cst : Ref sig .tc := ⟨.hbm, 150, rfl⟩
abbrev main_call3_v0 : Ref sig .tc := ⟨.hbm, 151, rfl⟩
abbrev main_v119 : Ref sig .tc := ⟨.hbm, 152, rfl⟩
abbrev main_c_14 : Ref sig .tc := ⟨.hbm, 153, rfl⟩
abbrev main_v120 : Ref sig .tc := ⟨.hbm, 154, rfl⟩
abbrev main_v121 : Ref sig .tc := ⟨.hbm, 155, rfl⟩
abbrev main_c_15 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_16 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_17 : Ref sig .tc := ⟨.hbm, 175, rfl⟩
abbrev main_v139 : Ref sig .tc := ⟨.hbm, 176, rfl⟩
abbrev main_cst_18 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_19 : Ref sig .tc := ⟨.hbm, 184, rfl⟩
abbrev main_v146 : Ref sig .tc := ⟨.hbm, 185, rfl⟩
abbrev main_cst_20 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_cst_21 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_call4_cst : Ref sig .tc := ⟨.hbm, 209, rfl⟩
abbrev main_call4_v0 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_call5_cst : Ref sig .tc := ⟨.hbm, 220, rfl⟩
abbrev main_call5_v0 : Ref sig .tc := ⟨.hbm, 221, rfl⟩
abbrev main_v177 : Ref sig .tc := ⟨.hbm, 222, rfl⟩
abbrev main_cst_22 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_23 : Ref sig .tc := ⟨.hbm, 227, rfl⟩
abbrev main_v181 : Ref sig .tc := ⟨.hbm, 228, rfl⟩
abbrev main_cst_24 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_cst_25 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.Spec.lean ====
/-
  The network as plain functions on arrays of extended reals, index by index.

  One layer takes node features x (100000 rows of 64), the neighbour sums a of the same shape, and computes
    h  = (x + a) · W1 + b1                      (a row times a 64 × 64 matrix, plus a row vector)
    y  = max (((h - mean h) · rsqrt (var h + ε)) · γ + β) 0       (statistics over the 100000 rows, per column)
    x' = max (y · W2 + b2) 0.
  The kernel takes the column statistics from the column sums s = Σ h and q = Σ h², as mean = s / n and
  var = max (q / n - mean², 0); the reference takes var as Σ (h - mean)² / n. Over the reals the two agree.
  The last layer's x' is summed per graph: row n goes to the graph whose number is batch n.
-/
import Idealize.ShloMosaic.PureOps.Ideal
import Idealize.ShloMosaic.Lib.ValueIdx

noncomputable section

namespace Cert.Spec

open Idealize.ShloMosaic Idealize.ShloMosaic.ValueIdx

/-- Node features: 100000 rows of 64. -/
abbrev NF : Type := (⟨2, ![100000, 64]⟩ : Shape).Idx → EReal
/-- One layer's 64 × 64 weight matrix. -/
abbrev MW : Type := (⟨2, ![64, 64]⟩ : Shape).Idx → EReal
/-- A row vector of 64, kept with a leading unit axis. -/
abbrev RV : Type := (⟨2, ![1, 64]⟩ : Shape).Idx → EReal
/-- Per-graph sums: 256 rows of 64. -/
abbrev PO : Type := (⟨2, ![256, 64]⟩ : Shape).Idx → EReal
/-- The three layers' weight matrices, stacked. -/
abbrev W3 : Type := (⟨3, ![3, 64, 64]⟩ : Shape).Idx → EReal
/-- The three layers' row vectors, stacked. -/
abbrev V3 : Type := (⟨2, ![3, 64]⟩ : Shape).Idx → EReal
/-- Graph numbers of the nodes, as a column. -/
abbrev BT : Type := (⟨2, ![100000, 1]⟩ : Shape).Idx → BitVec 32

/-- The batch-norm epsilon: the f32 nearest 1e-5, both programs' literal. -/
def eps : EReal := Ideal.ofBits .f32 0x3727C5AC#32
/-- The number of rows as both programs write it: the f32 100000. -/
def cnt : EReal := Ideal.ofBits .f32 0x47C35000#32

/-- Layer l's matrix out of the stack. -/
def sliceW (W : W3) (l : Fin 3) : MW := fun i => W (ix3 l (i 0) (i 1))
/-- Layer l's row vector out of the stack. -/
def sliceV (v : V3) (l : Fin 3) : RV := fun i => v (ix2 l (i 1))

/-- h = (x + a) · W + b. -/
def lin1 (x a : NF) (w : MW) (b : RV) : NF :=
  fun i => (∑ k : Fin 64, (x (ix2 (i 0) k) + a (ix2 (i 0) k)) * w (ix2 k (i 1))) + b (ix2 0 (i 1))

/-- Column sums of h. -/
def csum (h : NF) : RV := fun j => ∑ r : Fin 100000, h (ix2 r (j 1))
/-- Column sums of h². -/
def csumsq (h : NF) : RV := fun j => ∑ r : Fin 100000, h (ix2 r (j 1)) * h (ix2 r (j 1))

/-- The kernel's mean from the column sums. -/
def meanK (s : RV) : RV := fun j => Ideal.div (s j) cnt
/-- The kernel's variance from the column sums of h and h². -/
def varK (s q : RV) : RV := fun j => max (Ideal.div (q j) cnt - meanK s j * meanK s j) 0

/-- The reference's mean of column c. -/
def meanR (h : NF) (c : Fin 64) : EReal := Ideal.div (0 + ∑ r : Fin 100000, h (ix2 r c)) cnt
/-- The reference's variance of column c. -/
def varR (h : NF) (c : Fin 64) : EReal :=
  Ideal.div (0 + ∑ r : Fin 100000, (h (ix2 r c) - meanR h c) * (h (ix2 r c) - meanR h c)) cnt

/-- Normalise, scale, shift, clamp at zero: column statistics given as row vectors. -/
def bn (h : NF) (mu var ga be : RV) : NF :=
  fun i => max ((((h i - mu (ix2 0 (i 1))) * Ideal.rsqrt (var (ix2 0 (i 1)) + eps)) * ga (ix2 0 (i 1))) + be (ix2 0 (i 1))) 0

/-- x' = max (y · W + b) 0. -/
def lin2 (y : NF) (w : MW) (b : RV) : NF :=
  fun i => max ((∑ k : Fin 64, y (ix2 (i 0) k) * w (ix2 k (i 1))) + b (ix2 0 (i 1))) 0

/-- The second half of a layer as one kernel computes it. -/
def mlp2 (h : NF) (mu var ga be : RV) (w : MW) (b : RV) : NF := lin2 (bn h mu var ga be) w b

/-- Per-graph sums: row n of y is added into the graph whose number is batch n; a number matching no graph adds nowhere. -/
def pool (y : NF) (bat : BT) : PO :=
  fun j => ∑ n : Fin 100000, (if bat (ix2 n 0) = BitVec.ofNat 32 (j 0).val then (1 : EReal) else 0) * y (ix2 n (j 1))

/-- One whole layer as the kernel program computes it. -/
def layerK (x a : NF) (W1 : W3) (B1 G Be : V3) (W2 : W3) (B2 : V3) (l : Fin 3) : NF :=
  let h := lin1 x a (sliceW W1 l) (sliceV B1 l)
  mlp2 h (meanK (csum h)) (varK (csum h) (csumsq h)) (sliceV G l) (sliceV Be l) (sliceW W2 l) (sliceV B2 l)

/-- The reference's statistics as row vectors. -/
def meanRv (h : NF) : RV := fun j => meanR h (j 1)
def varRv (h : NF) : RV := fun j => varR h (j 1)

/-- One whole layer as the reference computes it. -/
def layerR (x a : NF) (W1 : W3) (B1 G Be : V3) (W2 : W3) (B2 : V3) (l : Fin 3) : NF :=
  let h := lin1 x a (sliceW W1 l) (sliceV B1 l)
  mlp2 h (meanRv h) (varRv h) (sliceV G l) (sliceV Be l) (sliceW W2 l) (sliceV B2 l)

/-- The sum of f over the rows below m (the running sum a kernel holds after the blocks that end at row m). -/
def runsum (f : Fin 100000 → EReal) (m : Nat) : EReal := ∑ n : Fin 100000, if n.val < m then f n else 0

/-- Every entry is a real number. -/
def IsReal {ι : Type} (f : ι → EReal) : Prop := ∀ i, f i ≠ ⊤ ∧ f i ≠ ⊥

/-- Three layers, the neighbour sums taken by the same function agg before each. -/
def net (layer : NF → NF → Fin 3 → NF) (agg : NF → NF) (x : NF) : NF :=
  let x1 := layer x (agg x) 0
  let x2 := layer x1 (agg x1) 1
  layer x2 (agg x2) 2

end Cert.Spec

end
-- ==== Proof.KDefs.lean ====
/-
  The host operations the kernel program applies between its kernels, as functions: the neighbour sums (a gather of the
  rows named by the edges' sources, added into the rows named by their targets), the per-graph node counts, the graph
  numbers as a column, and the final division of the per-graph sums by the counts clamped below at one.
-/
import proofs.«402690_j13675175870656_3_alg».proof.KernelIdeal
import proofs.«402690_j13675175870656_3_alg».proof.Proof.Gen.KernelIdeal
import proofs.«402690_j13675175870656_3_alg».proof.Proof.Spec
import Idealize.ShloMosaic.PureOps.Ideal

noncomputable section

namespace Cert.KernelIdeal.KV

open Idealize.ShloMosaic Cert.KernelIdeal Cert.KernelIdeal.Gen

/-- The edges' sources: row 0 of the edge array. -/
def v1Of (e : IVec S2x1600000 32) : IVec S1600000 32 :=
  shapeCast S1600000 (extractStridedSlice S1x1600000 ![0, 0] e slices_S2x1600000_S1x1600000_0_0) shapeCasts_S1x1600000_S1600000
/-- The edges' targets: row 1 of the edge array. -/
def v3Of (e : IVec S2x1600000 32) : IVec S1600000 32 :=
  shapeCast S1600000 (extractStridedSlice S1x1600000 ![1, 0] e slices_S2x1600000_S1x1600000_1_0) shapeCasts_S1x1600000_S1600000
/-- The graph numbers as a column. -/
def batOf (b : IVec S100000 32) : IVec S100000x1 32 := shapeCast S100000x1 b shapeCasts_S100000_S100000x1
/-- The per-graph node counts: ones added into the graphs' slots. -/
def cntOf (b : IVec S100000 32) : FVec Ideal S256 .f32 :=
  Host.scatterAdd scatter_S256_S100000x1_S100000_n_0_0_1 (broadcastInDim S256 ![] bcast_S_S256 (constant S_ .f32 0x00000000#32))
    (broadcastInDim S100000x1 ![0] bcast_S100000_S100000x1_0 b) (broadcastInDim S100000 ![] bcast_S_S100000 (constant S_ .f32 0x3F800000#32))
/-- The gather's start indices: a negative source counts from the end. -/
def srcIdx (v1 : IVec S1600000 32) : IVec S1600000x1 32 :=
  broadcastInDim S1600000x1 ![0] bcast_S1600000_S1600000x1_0
    (select (cmpi .slt v1 (broadcastInDim S1600000 ![] bcast_S_S1600000 (constantI S_ 32 0#32)))
      (addi v1 (broadcastInDim S1600000 ![] bcast_S_S1600000 (constantI S_ 32 100000#32))) v1)
/-- The neighbour sums of x along the edges (sources v1, targets v3). -/
def agg (v1 v3 : IVec S1600000 32) (x : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 v3)
    (Host.gather gather_S100000x64_S1600000x1_S1600000x64_1_0_n_n_0_1_164 x (srcIdx v1))
/-- The per-graph sums over the counts clamped below at one. -/
def tail (p : FVec Ideal S256x64 .f32) (cnt : FVec Ideal S256 .f32) : FVec Ideal S256x64 .f32 :=
  Host.divf p (broadcastInDim S256x64 ![0, 1] bcast_S256x1_S256x64_0_1 (broadcastInDim S256x1 ![0] bcast_S256_S256x1_0
    (maximumf cnt (broadcastInDim S256 ![] bcast_S_S256 (constant S_ .f32 0x3F800000#32)))))

end Cert.KernelIdeal.KV

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.Reg0.lean ====
/-
  What the first kernel of a layer leaves in its result array: h = (x + a) · W + b, row block by row block.
-/
import proofs.«402690_j13675175870656_3_alg».proof.Proof.Gen.KernelIdeal.Frame
import proofs.«402690_j13675175870656_3_alg».proof.Proof.Spec
import proofs.«402690_j13675175870656_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegV

open Idealize.ShloMosaic Idealize.ShloMosaic.TcCoe Idealize.SL.Sem Idealize.ShloMosaic.ValueIdx
open Idealize.ShloMosaic.Pipeline (Dat)
open Cert.KernelIdeal Cert.KernelIdeal.Gen

theorem hz0 : (![0, 0] : Fin 2 → Nat) = fun _ => 0 := funext fun a => by
  match a with
  | ⟨0, _⟩ => rfl
  | ⟨1, _⟩ => rfl

/-- The stored value at row p, column q of a block: the row of x + a times the column of W, plus b's entry. -/
theorem pay0_apply (x0 x1 : Vec Ideal S5000x64 .f32) (x2 : Vec Ideal S64x64 .f32) (x3 : Vec Ideal S1x64 .f32)
    (p : Fin 5000) (q : Fin 64) :
    (k0_pay1 x0 x1 x2 x3 (ix2 p q) : EReal)
      = (∑ k : Fin 64, ((x0 (ix2 p k) : EReal) + x1 (ix2 p k)) * x2 (ix2 k q)) + x3 (ix2 0 q) := by
  unfold k0_pay1
  rw [shapeCast_self, shapeCast_self, shapeCast_self]
  refine congrArg₂ (fun a b : EReal => a + b) ?_ ?_
  · exact Cert.Lib.PlainDot.matmul_plain_zero_ix2 5000 64 64 none _ _ p q
  · refine broadcastTo_apply x3 broadcasts_S1x64_S5000x64 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

/-- The four input blocks of a point, at their literal types. -/
abbrev xblk0 (c : Dev nD) (t : Fin cfg0.N) : Vec Ideal S5000x64 .f32 := iblk0 V c 0 t
abbrev ablk0 (c : Dev nD) (t : Fin cfg0.N) : Vec Ideal S5000x64 .f32 := iblk0 V c 1 t
abbrev wblk0 (c : Dev nD) (t : Fin cfg0.N) : Vec Ideal S64x64 .f32 := iblk0 V c 2 t
abbrev bblk0 (c : Dev nD) (t : Fin cfg0.N) : Vec Ideal S1x64 .f32 := iblk0 V c 3 t

/-- The four arrays the region reads, at their literal types. -/
abbrev xarr0 (c : Dev nD) : Spec.NF := V c main_arg0
abbrev aarr0 (c : Dev nD) : Spec.NF := V c main_v18
abbrev warr0 (c : Dev nD) : Spec.MW := V c main_v20
abbrev barr0 (c : Dev nD) : Spec.RV := V c main_v23

/-- Block t of x is rows 5000 t … 5000 t + 4999 of x. -/
theorem xblk0_apply (c : Dev nD) (t : Fin cfg0.N) (y : S5000x64.Idx) (i : S100000x64.Idx)
    (h0 : (i 0).val = t.val * 5000 + (y 0).val) (h1 : (i 1).val = (y 1).val) :
    xblk0 V c t y = xarr0 V c i := by
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; rw [hi.1, h0]; omega
  | ⟨1, _⟩ => show win0_0.index t (1 : Fin 2) * 64 + 1 * (y 1).val = (i 1).val; rw [hi.2, h1]; omega

/-- Block t of a is the same rows of a. -/
theorem ablk0_apply (c : Dev nD) (t : Fin cfg0.N) (y : S5000x64.Idx) (i : S100000x64.Idx)
    (h0 : (i 0).val = t.val * 5000 + (y 0).val) (h1 : (i 1).val = (y 1).val) :
    ablk0 V c t y = aarr0 V c i := by
  have hi : win0_1.index t (0 : Fin 2) = t.val ∧ win0_1.index t (1 : Fin 2) = 0 :=
    (by decide +kernel : ∀ t : Fin grid0.N, win0_1.index t (0 : Fin 2) = t.val ∧ win0_1.index t (1 : Fin 2) = 0) t
  show V c main_v18 (((cfg0.win 1).blk t).view.emb y) = V c main_v18 i
  refine congrArg (V c main_v18) (funext fun a => Fin.ext ?_)
  match a with
  | ⟨0, _⟩ => show win0_1.index t (0 : Fin 2) * 5000 + 1 * (y 0).val = (i 0).val; rw [hi.1, h0]; omega
  | ⟨1, _⟩ => show win0_1.index t (1 : Fin 2) * 64 + 1 * (y 1).val = (i 1).val; rw [hi.2, h1]; omega

/-- Every point's block of W is all of W. -/
theorem wblk0_apply (c : Dev nD) (t : Fin cfg0.N) (y : S64x64.Idx) : wblk0 V c t y = warr0 V c y := by
  have hi : win0_2.index t (0 : Fin 2) = 0 ∧ win0_2.index t (1 : Fin 2) = 0 :=
    (by decide +kernel : ∀ t : Fin grid0.N, win0_2.index t (0 : Fin 2) = 0 ∧ win0_2.index t (1 : Fin 2) = 0) t
  show V c main_v20 (((cfg0.win 2).blk t).view.emb y) = V c main_v20 y
  refine congrArg (V c main_v20) (funext fun a => Fin.ext ?_)
  match a with
  | ⟨0, _⟩ => show win0_2.index t (0 : Fin 2) * 64 + 1 * (y 0).val = (y 0).val; rw [hi.1]; omega
  | ⟨1, _⟩ => show win0_2.index t (1 : Fin 2) * 64 + 1 * (y 1).val = (y 1).val; rw [hi.2]; omega

/-- Every point's block of b is all of b. -/
theorem bblk0_apply (c : Dev nD) (t : Fin cfg0.N) (y : S1x64.Idx) : bblk0 V c t y = barr0 V c y := by
  have hi : win0_3.index t (0 : Fin 2) = 0 ∧ win0_3.index t (1 : Fin 2) = 0 :=
    (by decide +kernel : ∀ t : Fin grid0.N, win0_3.index t (0 : Fin 2) = 0 ∧ win0_3.index t (1 : Fin 2) = 0) t
  show V c main_v23 (((cfg0.win 3).blk t).view.emb y) = V c main_v23 y
  refine congrArg (V c main_v23) (funext fun a => Fin.ext ?_)
  match a with
  | ⟨0, _⟩ => show win0_3.index t (0 : Fin 2) * 1 + 1 * (y 0).val = (y 0).val; rw [hi.1]; omega
  | ⟨1, _⟩ => show win0_3.index t (1 : Fin 2) * 64 + 1 * (y 1).val = (y 1).val; rw [hi.2]; omega

/-- The whole result: (x + a) · W + b of the arrays the region was entered with. -/
abbrev G0 (c : Dev nD) : Spec.NF := Spec.lin1 (xarr0 V c) (aarr0 V c) (warr0 V c) (barr0 V c)

/-- What a point stores at row p, column q of its block is the whole result at row 5000 t + p, column q. -/
theorem blk0_val (c : Dev nD) (t : Fin cfg0.N) (p : Fin 5000) (q : Fin 64) (r : Fin 100000)
    (hr : r.val = t.val * 5000 + p.val) :
    (k0_pay1 (xblk0 V c t) (ablk0 V c t) (wblk0 V c t) (bblk0 V c t) (ix2 p q) : EReal) = G0 V c (ix2 r q) := by
  refine (pay0_apply (xblk0 V c t) (ablk0 V c t) (wblk0 V c t) (bblk0 V c t) p q).trans ?_
  show _ = (∑ k : Fin 64, (xarr0 V c (ix2 r k) + aarr0 V c (ix2 r k)) * warr0 V c (ix2 k q)) + barr0 V c (ix2 0 q)
  refine congrArg₂ (fun a b : EReal => a + b) (Finset.sum_congr rfl fun k _ => ?_) (bblk0_apply V c t (ix2 0 q))
  refine congrArg₂ (fun a b : EReal => a * b) (congrArg₂ (fun a b : EReal => a + b) ?_ ?_) (wblk0_apply V c t (ix2 k q))
  · exact xblk0_apply V c t (ix2 p k) (ix2 r k) hr rfl
  · exact ablk0_apply V c t (ix2 p k) (ix2 r k) hr rfl

/-- What point t writes back is block t of the whole result. -/
theorem flushed0_eq (c : Dev nD) (t : Fin cfg0.N) :
    (dat0 (F := Ideal) V c).flushed 4 t = ((cfg0.win 4).blk t).view.read (Elt Ideal) (G0 V c) := by
  have hi : win0_4.index t (0 : Fin 2) = t.val ∧ win0_4.index t (1 : Fin 2) = 0 :=
    (by decide +kernel : ∀ t : Fin grid0.N, win0_4.index t (0 : Fin 2) = t.val ∧ win0_4.index t (1 : Fin 2) = 0) t
  have ht : t.val < 20 := t.isLt
  show (cfg0.win 4).cut (grid0.coords t) ((dat0 (F := Ideal) V c).after 4 t) = _
  rw [after0_4]
  unfold out0_4
  rw [View.canon_unit_zero hz0]
  simp only [View.ld_unit_zero (S := S5000x64) hz0, View.ld_unit_zero (S := S64x64) hz0, View.ld_unit_zero (S := S1x64) hz0]
  refine funext fun (j : S5000x64.Idx) => ?_
  obtain ⟨p, q, rfl⟩ : ∃ (p : Fin 5000) (q : Fin 64), j = ix2 p q := ⟨j 0, j 1, eq_ix2 j⟩
  show (k0_pay1 (xblk0 V c t) (ablk0 V c t) (wblk0 V c t) (bblk0 V c t) (ix2 p q) : EReal)
    = G0 V c (((cfg0.win 4).blk t).view.emb (ix2 p q))
  refine (blk0_val V c t p q ⟨t.val * 5000 + p.val, by have := p.isLt; omega⟩ rfl).trans ?_
  refine congrArg (G0 V c) (funext fun a => Fin.ext ?_)
  match a with
  | ⟨0, _⟩ => show t.val * 5000 + p.val = win0_4.index t (0 : Fin 2) * 5000 + 1 * p.val; rw [hi.1]; omega
  | ⟨1, _⟩ => show q.val = win0_4.index t (1 : Fin 2) * 64 + 1 * q.val; rw [hi.2]; omega

/-- Region 0's result array after its twenty points is (x + a) · W + b of the arrays the region was entered with. -/
theorem mlp1_0 (c : Dev nD) :
    ((dat0 (F := Ideal) V c).arrAt 4 cfg0.N : Spec.NF)
      = Spec.lin1 (V c main_arg0) (V c main_v18) (V c main_v20) (V c main_v23) := by
  refine (dat0 (F := Ideal) V c).arrAt_eq_of_cover 4 (G0 V c) (fun t _ => flushed0_eq V c t) fun (i : S100000x64.Idx) => ?_
  have h0 : (i 0).val < 100000 := (i 0).isLt
  have h1 : (i 1).val < 64 := (i 1).isLt
  have hN : cfg0.N = 20 := N_0
  obtain ⟨t, htv⟩ : ∃ t : Fin cfg0.N, t.val = (i 0).val / 5000 := ⟨⟨(i 0).val / 5000, by rw [hN]; omega⟩, rfl⟩
  have hi : win0_4.index t (0 : Fin 2) = t.val ∧ win0_4.index t (1 : Fin 2) = 0 :=
    (by decide +kernel : ∀ t : Fin grid0.N, win0_4.index t (0 : Fin 2) = t.val ∧ win0_4.index t (1 : Fin 2) = 0) t
  refine ⟨t, flush0_4 t, ?_⟩
  show i ∈ ((View.whole main_v35).slice (win0_4.rect t)).set
  rw [View.set_slice_whole, Rect.mem_set_unit]
  intro a
  match a with
  | ⟨0, _⟩ =>
    show win0_4.index t (0 : Fin 2) * 5000 ≤ (i 0).val ∧ (i 0).val < win0_4.index t (0 : Fin 2) * 5000 + 5000
    rw [hi.1, htv]; omega
  | ⟨1, _⟩ =>
    show win0_4.index t (1 : Fin 2) * 64 ≤ (i 1).val ∧ (i 1).val < win0_4.index t (1 : Fin 2) * 64 + 64
    rw [hi.2]; omega

end Cert.KernelIdeal.RegV

end
-- ==== Proof.BlockMath.lean ====
/-
  Sums over the 100000 rows taken block by block: twenty blocks of 5000 consecutive rows.

  The running sum over the rows below m is the sum over k < m of the row function extended by zero
  to all natural numbers; a sum over k < m + 5000 splits into the sum over k < m and the sum over
  r < 5000 of the entries at m + r.
-/
import proofs.«402690_j13675175870656_3_alg».proof.Proof.Spec
import Mathlib.Algebra.BigOperators.Fin
import Mathlib.Algebra.BigOperators.Intervals

noncomputable section

namespace Cert.Spec

open Idealize.ShloMosaic Idealize.ShloMosaic.ValueIdx

/-- The row function extended by zero beyond the last row. -/
private def extZero (f : Fin 100000 → EReal) (k : Nat) : EReal :=
  if h : k < 100000 then f ⟨k, h⟩ else 0

private theorem extZero_of_lt (f : Fin 100000 → EReal) (k : Nat) (h : k < 100000) :
    extZero f k = f ⟨k, h⟩ := by
  unfold extZero
  rw [dif_pos h]

/-- The running sum below m, for m at most the number of rows, is the sum of the extension over k < m. -/
private theorem runsum_eq_range (f : Fin 100000 → EReal) (m : Nat) (hm : m ≤ 100000) :
    runsum f m = ∑ k ∈ Finset.range m, extZero f k := by
  unfold runsum
  have h1 : ∀ n : Fin 100000, (if n.val < m then f n else 0)
      = (fun k : Nat => if k < m then extZero f k else 0) n.val := by
    intro n
    show _ = if n.val < m then extZero f n.val else 0
    rw [extZero_of_lt f n.val n.isLt]
  rw [Finset.sum_congr rfl (fun n _ => h1 n)]
  rw [Fin.sum_univ_eq_sum_range (fun k : Nat => if k < m then extZero f k else 0) 100000]
  have hfilt : Finset.filter (fun k : Nat => k < m) (Finset.range 100000) = Finset.range m := by
    ext k
    simp only [Finset.mem_filter, Finset.mem_range]
    omega
  rw [← Finset.sum_filter, hfilt]

theorem runsum_zero (f : Fin 100000 → EReal) : runsum f 0 = 0 := by
  rw [runsum_eq_range f 0 (Nat.zero_le _)]
  exact Finset.sum_range_zero _

/-- The running sum grows by the block of 5000 rows that starts at row m. -/
theorem runsum_add_block (f : Fin 100000 → EReal) (m : Nat) (hm : m + 5000 ≤ 100000) :
    runsum f (m + 5000) = runsum f m + ∑ r : Fin 5000, f ⟨m + r.val, by have := r.isLt; omega⟩ := by
  have hblock : ∑ r ∈ Finset.range 5000, extZero f (m + r)
      = ∑ r : Fin 5000, f ⟨m + r.val, by have := r.isLt; omega⟩ := by
    rw [← Fin.sum_univ_eq_sum_range (fun r : Nat => extZero f (m + r)) 5000]
    apply Finset.sum_congr rfl
    intro r _
    exact extZero_of_lt f (m + r.val) (by have := r.isLt; omega)
  rw [runsum_eq_range f (m + 5000) hm, runsum_eq_range f m (by omega), Finset.sum_range_add, hblock]

theorem runsum_all (f : Fin 100000 → EReal) : runsum f 100000 = ∑ n : Fin 100000, f n := by
  rw [runsum_eq_range f 100000 (Nat.le_refl _),
    ← Fin.sum_univ_eq_sum_range (fun k : Nat => extZero f k) 100000]
  apply Finset.sum_congr rfl
  intro n _
  exact extZero_of_lt f n.val n.isLt

end Cert.Spec

end
-- ==== Proof.Reg1.lean ====
/-
  What the statistics kernel of a layer leaves in its two result arrays: the column sums of h and of h²,
  accumulated over the twenty row blocks.
-/
import proofs.«402690_j13675175870656_3_alg».proof.Proof.Gen.KernelIdeal.Frame
import proofs.«402690_j13675175870656_3_alg».proof.Proof.Spec
import proofs.«402690_j13675175870656_3_alg».proof.Proof.LibPlainDot
import proofs.«402690_j13675175870656_3_alg».proof.Proof.BlockMath
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.RegV

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The all-zero offsets of a whole-buffer access. -/
theorem zero_offsets1 : (![0, 0] : Fin 2 → Nat) = fun _ => 0 := funext fun a => by fin_cases a <;> rfl

/-! ## What each case leaves, as the stores' values -/

/-- After a point other than the first the first output holds the update of what it held. -/
theorem out1_B_1_eq (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec Ideal S5000x64 .f32) (xo1 xo2 : Vec Ideal S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero zero_offsets1]
  simp only [View.readAt_eq_ld, h1.read_unread, h2.read_unread, View.ld_unit_zero (S := S5000x64) zero_offsets1,
    View.ld_unit_zero (S := S1x64) zero_offsets1]

/-- After a point other than the first the second output holds the update of what it held. -/
theorem out1_B_2_eq (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec Ideal S5000x64 .f32) (xo1 xo2 : Vec Ideal S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero zero_offsets1]
  simp only [View.readAt_eq_ld, h1.read_unread, h3.read_unread, View.ld_unit_zero (S := S5000x64) zero_offsets1,
    View.ld_unit_zero (S := S1x64) zero_offsets1]

/-- After the first point the first output holds the update of the zero vector. -/
theorem out1_A_1_eq (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond1_0 i) (x : Vec Ideal S5000x64 .f32) :
    out1_A_1 c i a1 h1 a2 h2 a3 h3 hc x = k1_pay4 x (k1_pay1 (F := Ideal)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) zero_offsets1, View.readCov_unit_zero (S := S1x64) _ zero_offsets1]
  simp only [View.readAt_eq_ld, h1.read_unread, View.ld_unit_zero (S := S5000x64) zero_offsets1,
    View.ld_unit_zero (S := S1x64) zero_offsets1]

/-- After the first point the second output holds the update of the zero vector. -/
theorem out1_A_2_eq (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond1_0 i) (x : Vec Ideal S5000x64 .f32) :
    out1_A_2 c i a1 h1 a2 h2 a3 h3 hc x = k1_pay5 x (k1_pay2 (F := Ideal)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) zero_offsets1, View.readCov_unit_zero (S := S1x64) _ zero_offsets1]
  simp only [View.readAt_eq_ld, h1.read_unread, View.ld_unit_zero (S := S5000x64) zero_offsets1,
    View.ld_unit_zero (S := S1x64) zero_offsets1]

/-! ## The stores' values at a column -/

/-- The zero vector of the first reset is zero at every index. -/
theorem pay1_apply (j : S1x64.Idx) : k1_pay1 (F := Ideal) j = 0 := by
  unfold k1_pay1
  exact Ideal.ofBits_zero_f32

/-- The zero vector of the second reset is zero at every index. -/
theorem pay2_apply (j : S1x64.Idx) : k1_pay2 (F := Ideal) j = 0 := by
  unfold k1_pay2
  exact Ideal.ofBits_zero_f32

/-- The block's index above column q at row p of the block. -/
theorem lift_col1 (j : S64.Idx) (q : Fin 64) (hj : (j 0).val = q.val) (p : Fin 5000) :
    reduces_S5000x64_S64.lift j p = (ix2 p q : S5000x64.Idx) := by
  funext a
  apply Fin.ext
  match a with
  | ⟨0, _⟩ => rfl
  | ⟨1, _⟩ => exact hj

/-- A block's column sum, kept with a leading unit axis, at column q. -/
theorem colsum_apply1 (y : FVec Ideal S5000x64 .f32) (q : Fin 64) :
    shapeCast S1x64 (multiReduction .add [0] S64 y 0x00000000#32 reduces_S5000x64_S64 (.inl rfl) rfl) shapeCasts_S64_S1x64 (ix2 0 q)
      = ∑ p : Fin 5000, y (ix2 p q) := by
  refine (shapeCast_addUnit_apply ![64] _ shapeCasts_S64_S1x64 (ix2 0 q)).trans ?_
  refine (Ideal.multiReduction_add_single y _ reduces_S5000x64_S64 _ _ _).trans ?_
  exact Finset.sum_congr rfl fun p _ => congrArg y (lift_col1 _ q rfl p)

/-- The first update: the block's column sum added onto the row vector. -/
theorem pay4_apply (x : Vec Ideal S5000x64 .f32) (a : Vec Ideal S1x64 .f32) (q : Fin 64) :
    k1_pay4 x a (ix2 0 q) = a (ix2 0 q) + ∑ p : Fin 5000, x (ix2 p q) := by
  unfold k1_pay4 k1_pay3
  refine congrArg₂ (· + ·) (congrFun (shapeCast_self a shapeCasts_S1x64_S1x64) (ix2 0 q)) ?_
  refine (colsum_apply1 _ q).trans ?_
  exact Finset.sum_congr rfl fun p _ => congrFun (shapeCast_self x shapeCasts_S5000x64_S5000x64) (ix2 p q)

/-- The second update: the column sum of the block's squares added onto the row vector. -/
theorem pay5_apply (x : Vec Ideal S5000x64 .f32) (a : Vec Ideal S1x64 .f32) (q : Fin 64) :
    k1_pay5 x a (ix2 0 q) = a (ix2 0 q) + ∑ p : Fin 5000, x (ix2 p q) * x (ix2 p q) := by
  unfold k1_pay5 k1_pay3
  refine congrArg₂ (· + ·) (congrFun (shapeCast_self a shapeCasts_S1x64_S1x64) (ix2 0 q)) ?_
  refine (colsum_apply1 _ q).trans ?_
  refine Finset.sum_congr rfl fun p _ => ?_
  have e : shapeCast S5000x64 x shapeCasts_S5000x64_S5000x64 = x := shapeCast_self x shapeCasts_S5000x64_S5000x64
  show shapeCast S5000x64 x shapeCasts_S5000x64_S5000x64 (ix2 p q) * shapeCast S5000x64 x shapeCasts_S5000x64_S5000x64 (ix2 p q) = _
  rw [e]

/-! ## The blocks of h, and the running sums -/

/-- The array h the region is entered with. -/
abbrev harr1 (c : Dev nD) : Spec.NF := V c main_v35

/-- Its block of 5000 rows at a point. -/
abbrev hblk1 (c : Dev nD) (t : Fin cfg1.N) : Vec Ideal S5000x64 .f32 := iblk1 V c 0 t

/-- The first window's block index is the point on the row axis and zero on the column axis. -/
theorem idx_rows1 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row p of the block at point t is row 5000 t + p of h. -/
theorem hblk1_apply (c : Dev nD) (t : Fin cfg1.N) (p : Fin 5000) (q : Fin 64) (hr : 5000 * t.val + p.val < 100000) :
    hblk1 V c t (ix2 p q) = harr1 V c (ix2 ⟨5000 * t.val + p.val, hr⟩ q) := by
  obtain ⟨e0, e1⟩ := idx_rows1 t
  show iblk1 V c 0 t (ix2 p q) = V c main_v35 (ix2 ⟨5000 * t.val + p.val, hr⟩ q)
  unfold iblk1
  rw [View.read_apply]
  show V c main_v35 (((cfg1.win 0).blk t).view.emb (ix2 p q)) = V c main_v35 (ix2 ⟨5000 * t.val + p.val, hr⟩ q)
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 64 + 1 * q.val = q.val; rw [e1]; omega

/-- The running column sum grows by the block's column sum. -/
theorem runsum_step1 (c : Dev nD) (t : Fin cfg1.N) (q : Fin 64) :
    Spec.runsum (fun r => harr1 V c (ix2 r q)) (5000 * t.val) + ∑ p : Fin 5000, hblk1 V c t (ix2 p q)
      = Spec.runsum (fun r => harr1 V c (ix2 r q)) (5000 * (t.val + 1)) := by
  have hN : t.val < 20 := lt_of_lt_of_eq t.isLt (show cfg1.N = 20 from N_1)
  rw [show 5000 * (t.val + 1) = 5000 * t.val + 5000 from by omega,
    Spec.runsum_add_block (fun r => harr1 V c (ix2 r q)) (5000 * t.val) (by omega)]
  refine congrArg (fun z => Spec.runsum (fun r => harr1 V c (ix2 r q)) (5000 * t.val) + z) ?_
  exact Finset.sum_congr rfl fun p _ => hblk1_apply V c t p q (by have := p.isLt; omega)

/-- The running column sum of squares grows by the block's column sum of squares. -/
theorem runsumsq_step1 (c : Dev nD) (t : Fin cfg1.N) (q : Fin 64) :
    Spec.runsum (fun r => harr1 V c (ix2 r q) * harr1 V c (ix2 r q)) (5000 * t.val)
        + ∑ p : Fin 5000, hblk1 V c t (ix2 p q) * hblk1 V c t (ix2 p q)
      = Spec.runsum (fun r => harr1 V c (ix2 r q) * harr1 V c (ix2 r q)) (5000 * (t.val + 1)) := by
  have hN : t.val < 20 := lt_of_lt_of_eq t.isLt (show cfg1.N = 20 from N_1)
  rw [show 5000 * (t.val + 1) = 5000 * t.val + 5000 from by omega,
    Spec.runsum_add_block (fun r => harr1 V c (ix2 r q) * harr1 V c (ix2 r q)) (5000 * t.val) (by omega)]
  refine congrArg (fun z => Spec.runsum (fun r => harr1 V c (ix2 r q) * harr1 V c (ix2 r q)) (5000 * t.val) + z) ?_
  refine Finset.sum_congr rfl fun p _ => ?_
  rw [hblk1_apply V c t p q (by have := p.isLt; omega)]

/-- After point n the two outputs hold the running column sums of h and of h² over the rows below 5000 (n + 1). -/
theorem outsAt1_eq (c : Dev nD) : ∀ (n : ℕ) (hn : n < cfg1.N) (q : Fin 64),
    (outsAt1 V c n hn).1 (ix2 0 q) = Spec.runsum (fun r => harr1 V c (ix2 r q)) (5000 * (n + 1))
    ∧ (outsAt1 V c n hn).2 (ix2 0 q) = Spec.runsum (fun r => harr1 V c (ix2 r q) * harr1 V c (ix2 r q)) (5000 * (n + 1))
  | 0, hn, q => by
    rw [outsAt1_A V c ⟨0, hn⟩ rfl]
    dsimp only
    constructor
    · refine (congrFun (out1_A_1_eq c (grid1.coords ⟨0, hn⟩) (ms1_0 ⟨0, hn⟩) (hs1_0 ⟨0, hn⟩) (ms1_1 ⟨0, hn⟩) (hs1_1 ⟨0, hn⟩)
        (ms1_2 ⟨0, hn⟩) (hs1_2 ⟨0, hn⟩) ((hcond1_0 ⟨0, hn⟩).mpr rfl) (hblk1 V c ⟨0, hn⟩)) (ix2 0 q)).trans ?_
      rw [pay4_apply, pay1_apply]
      have h := runsum_step1 V c ⟨0, hn⟩ q
      rw [show 5000 * (⟨0, hn⟩ : Fin cfg1.N).val = 0 from rfl, Spec.runsum_zero] at h
      exact h
    · refine (congrFun (out1_A_2_eq c (grid1.coords ⟨0, hn⟩) (ms1_0 ⟨0, hn⟩) (hs1_0 ⟨0, hn⟩) (ms1_1 ⟨0, hn⟩) (hs1_1 ⟨0, hn⟩)
        (ms1_2 ⟨0, hn⟩) (hs1_2 ⟨0, hn⟩) ((hcond1_0 ⟨0, hn⟩).mpr rfl) (hblk1 V c ⟨0, hn⟩)) (ix2 0 q)).trans ?_
      rw [pay5_apply, pay2_apply]
      have h := runsumsq_step1 V c ⟨0, hn⟩ q
      rw [show 5000 * (⟨0, hn⟩ : Fin cfg1.N).val = 0 from rfl, Spec.runsum_zero] at h
      exact h
  | n + 1, hn, q => by
    have hN : cfg1.N = 20 := N_1
    have hB : ¬(⟨n + 1, hn⟩ : Fin cfg1.N).val % 20 = 0 := by dsimp only; omega
    obtain ⟨ih1, ih2⟩ := outsAt1_eq c n (Nat.lt_of_succ_lt hn) q
    rw [outsAt1_B V c ⟨n + 1, hn⟩ hB]
    dsimp only
    constructor
    · refine (congrFun (out1_B_1_eq c (grid1.coords ⟨n + 1, hn⟩) (ms1_0 ⟨n + 1, hn⟩) (hs1_0 ⟨n + 1, hn⟩) (ms1_1 ⟨n + 1, hn⟩) (hs1_1 ⟨n + 1, hn⟩)
        (ms1_2 ⟨n + 1, hn⟩) (hs1_2 ⟨n + 1, hn⟩) (fun h => hB ((hcond1_0 ⟨n + 1, hn⟩).mp h)) (hblk1 V c ⟨n + 1, hn⟩)
        (outsAt1 V c n (Nat.lt_of_succ_lt hn)).1 (outsAt1 V c n (Nat.lt_of_succ_lt hn)).2) (ix2 0 q)).trans ?_
      rw [pay4_apply, ih1]
      exact runsum_step1 V c ⟨n + 1, hn⟩ q
    · refine (congrFun (out1_B_2_eq c (grid1.coords ⟨n + 1, hn⟩) (ms1_0 ⟨n + 1, hn⟩) (hs1_0 ⟨n + 1, hn⟩) (ms1_1 ⟨n + 1, hn⟩) (hs1_1 ⟨n + 1, hn⟩)
        (ms1_2 ⟨n + 1, hn⟩) (hs1_2 ⟨n + 1, hn⟩) (fun h => hB ((hcond1_0 ⟨n + 1, hn⟩).mp h)) (hblk1 V c ⟨n + 1, hn⟩)
        (outsAt1 V c n (Nat.lt_of_succ_lt hn)).1 (outsAt1 V c n (Nat.lt_of_succ_lt hn)).2) (ix2 0 q)).trans ?_
      rw [pay5_apply, ih2]
      exact runsumsq_step1 V c ⟨n + 1, hn⟩ q

/-! ## The one write-back, and the arrays -/

/-- The last point. -/
abbrev last1 : Fin cfg1.N := ⟨19, by rw [show cfg1.N = 20 from N_1]; decide⟩

/-- The output windows' one block has index zero on both axes at every point. -/
theorem idx_out1 : ∀ t : Fin cfg1.N, (∀ a : Fin 2, win1_1.index t a = 0) ∧ (∀ a : Fin 2, win1_2.index t a = 0) :=
  (by decide +kernel : ∀ t : Fin grid1.N, (∀ a : Fin 2, win1_1.index t a = 0) ∧ (∀ a : Fin 2, win1_2.index t a = 0))

/-- After the last point the first output holds the column sums of h. -/
theorem outs_last1_1 (c : Dev nD) (t : Fin cfg1.N) (h19 : t.val = 19) :
    (outsAt1 V c t.val t.isLt).1 = Spec.csum (harr1 V c) := by
  funext j
  obtain ⟨j0, j1, rfl⟩ : ∃ (a : Fin 1) (b : Fin 64), j = ix2 a b := ⟨j 0, j 1, eq_ix2 j⟩
  obtain rfl : j0 = 0 := Subsingleton.elim _ _
  rw [(outsAt1_eq V c t.val t.isLt j1).1, h19, show 5000 * (19 + 1) = 100000 from rfl]
  exact Spec.runsum_all _

/-- After the last point the second output holds the column sums of h². -/
theorem outs_last1_2 (c : Dev nD) (t : Fin cfg1.N) (h19 : t.val = 19) :
    (outsAt1 V c t.val t.isLt).2 = Spec.csumsq (harr1 V c) := by
  funext j
  obtain ⟨j0, j1, rfl⟩ : ∃ (a : Fin 1) (b : Fin 64), j = ix2 a b := ⟨j 0, j 1, eq_ix2 j⟩
  obtain rfl : j0 = 0 := Subsingleton.elim _ _
  rw [(outsAt1_eq V c t.val t.isLt j1).2, h19, show 5000 * (19 + 1) = 100000 from rfl]
  exact Spec.runsum_all _

/-- The one write-back of the first output writes the column sums of h: its block is the whole array. -/
theorem flushed1_1_eq (c : Dev nD) (t : Fin cfg1.N) (hf : (cfg1.win 1).flush t = true) :
    (dat1 V c).flushed 1 t = ((cfg1.win 1).blk t).view.read (Elt Ideal) (Spec.csum (harr1 V c)) := by
  have hN : cfg1.N = 20 := N_1
  have h19 : t.val = 19 := by have := (flush1_1 t).mp hf; have := t.isLt; omega
  show (cfg1.win 1).cut (grid1.coords t) ((dat1 V c).after 1 t) = _
  rw [after1_1, outs_last1_1 V c t h19]
  have hz' : (fun a => win1_1.index t a * main_v36_0.ty.shape.size a) = fun _ => 0 :=
    funext fun a => by rw [(idx_out1 t).1 a]; exact Nat.zero_mul _
  exact (Memref.read_access_unit_zero (Elt Ideal) main_v36_0 hz' (fun a => by rw [congrFun hz' a]; simp) (Spec.csum (harr1 V c))).symm

/-- The one write-back of the second output writes the column sums of h²: its block is the whole array. -/
theorem flushed1_2_eq (c : Dev nD) (t : Fin cfg1.N) (hf : (cfg1.win 2).flush t = true) :
    (dat1 V c).flushed 2 t = ((cfg1.win 2).blk t).view.read (Elt Ideal) (Spec.csumsq (harr1 V c)) := by
  have hN : cfg1.N = 20 := N_1
  have h19 : t.val = 19 := by have := (flush1_2 t).mp hf; have := t.isLt; omega
  show (cfg1.win 2).cut (grid1.coords t) ((dat1 V c).after 2 t) = _
  rw [after1_2, outs_last1_2 V c t h19]
  have hz' : (fun a => win1_2.index t a * main_v36_1.ty.shape.size a) = fun _ => 0 :=
    funext fun a => by rw [(idx_out1 t).2 a]; exact Nat.zero_mul _
  exact (Memref.read_access_unit_zero (Elt Ideal) main_v36_1 hz' (fun a => by rw [congrFun hz' a]; simp) (Spec.csumsq (harr1 V c))).symm

/-- The first result array ends holding the column sums of h: the last point's block covers it. -/
theorem final1_1 (c : Dev nD) : (dat1 V c).arrAt 1 cfg1.N = Spec.csum (harr1 V c) :=
  (dat1 V c).arrAt_eq_of_cover 1 (Spec.csum (harr1 V c)) (flushed1_1_eq V c) fun i =>
    ⟨last1, (flush1_1 last1).mpr rfl, by
      show i ∈ ((View.whole main_v36_0).slice (win1_1.rect last1)).set
      rw [View.set_slice_whole, Rect.mem_set_unit]
      intro a
      have h0 : (i 0 : Nat) < 1 := (i 0).isLt
      have h1 : (i 1 : Nat) < 64 := (i 1).isLt
      match a with
      | ⟨0, _⟩ => show win1_1.index last1 0 * win1_1.size 0 ≤ (i 0 : Nat) ∧ (i 0 : Nat) < win1_1.index last1 0 * win1_1.size 0 + win1_1.xsize (grid1.coords last1) 0
                  rw [show win1_1.index last1 0 * win1_1.size 0 = 0 from by decide +kernel, show win1_1.xsize (grid1.coords last1) 0 = 1 from by decide +kernel]; omega
      | ⟨1, _⟩ => show win1_1.index last1 1 * win1_1.size 1 ≤ (i 1 : Nat) ∧ (i 1 : Nat) < win1_1.index last1 1 * win1_1.size 1 + win1_1.xsize (grid1.coords last1) 1
                  rw [show win1_1.index last1 1 * win1_1.size 1 = 0 from by decide +kernel, show win1_1.xsize (grid1.coords last1) 1 = 64 from by decide +kernel]; omega⟩

/-- The second result array ends holding the column sums of h²: the last point's block covers it. -/
theorem final1_2 (c : Dev nD) : (dat1 V c).arrAt 2 cfg1.N = Spec.csumsq (harr1 V c) :=
  (dat1 V c).arrAt_eq_of_cover 2 (Spec.csumsq (harr1 V c)) (flushed1_2_eq V c) fun i =>
    ⟨last1, (flush1_2 last1).mpr rfl, by
      show i ∈ ((View.whole main_v36_1).slice (win1_2.rect last1)).set
      rw [View.set_slice_whole, Rect.mem_set_unit]
      intro a
      have h0 : (i 0 : Nat) < 1 := (i 0).isLt
      have h1 : (i 1 : Nat) < 64 := (i 1).isLt
      match a with
      | ⟨0, _⟩ => show win1_2.index last1 0 * win1_2.size 0 ≤ (i 0 : Nat) ∧ (i 0 : Nat) < win1_2.index last1 0 * win1_2.size 0 + win1_2.xsize (grid1.coords last1) 0
                  rw [show win1_2.index last1 0 * win1_2.size 0 = 0 from by decide +kernel, show win1_2.xsize (grid1.coords last1) 0 = 1 from by decide +kernel]; omega
      | ⟨1, _⟩ => show win1_2.index last1 1 * win1_2.size 1 ≤ (i 1 : Nat) ∧ (i 1 : Nat) < win1_2.index last1 1 * win1_2.size 1 + win1_2.xsize (grid1.coords last1) 1
                  rw [show win1_2.index last1 1 * win1_2.size 1 = 0 from by decide +kernel, show win1_2.xsize (grid1.coords last1) 1 = 64 from by decide +kernel]; omega⟩

/-- Region 1's two result arrays after its twenty points are the column sums of h and of h², h the array the region was entered with. -/
theorem bn_1 (c : Dev nD) :
    ((dat1 (F := Ideal) V c).arrAt 1 cfg1.N : Spec.RV) = Spec.csum (V c main_v35)
    ∧ ((dat1 (F := Ideal) V c).arrAt 2 cfg1.N : Spec.RV) = Spec.csumsq (V c main_v35) :=
  ⟨final1_1 V c, final1_2 V c⟩

end Cert.KernelIdeal.RegV

end
-- ==== Proof.Reg2.lean ====
/-
  What the second kernel of a layer leaves in its result array: x' = max (y · W + b) 0 with
  y = max (((h - mean) · rsqrt (var + ε)) · γ + β) 0, row block by row block.

  The body's one stored value at row p, column q of a block is that expression of the blocks' entries (the matrix
  product is the plain sum over the 64 contraction coordinates; the row vectors are read at row 0). The block of h
  and of the result at point t is rows 5000 t … 5000 t + 4999; the row vectors and the matrix are whole at every
  point. So each point writes back its rows of the layer's second half, and the twenty blocks cover the 100000 rows.
-/
import proofs.«402690_j13675175870656_3_alg».proof.Proof.Gen.KernelIdeal.Frame
import proofs.«402690_j13675175870656_3_alg».proof.Proof.Spec
import proofs.«402690_j13675175870656_3_alg».proof.Proof.LibPlainDot
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.RegV

open Idealize.ShloMosaic Idealize.ShloMosaic.TcCoe Idealize.SL.Sem Idealize.ShloMosaic.ValueIdx
open Idealize.ShloMosaic.Pipeline (Dat)
open Cert.KernelIdeal Cert.KernelIdeal.Gen

/-- The block's value at row p, column q. -/
theorem pay_apply_r2 (x0 : Vec Ideal S5000x64 .f32) (mu va ga be : Vec Ideal S1x64 .f32) (w : Vec Ideal S64x64 .f32)
    (b : Vec Ideal S1x64 .f32) (p : Fin 5000) (q : Fin 64) :
    k2_pay1 (F := Ideal) x0 mu va ga be w b (ix2 p q)
      = max ((∑ k : Fin 64,
          max ((((x0 (ix2 p k) - mu (ix2 0 k)) * Ideal.rsqrt (va (ix2 0 k) + Spec.eps)) * ga (ix2 0 k)) + be (ix2 0 k)) 0
            * w (ix2 k q)) + b (ix2 0 q)) 0 := by
  unfold k2_pay1
  simp only [shapeCast_self]
  have hm : ∀ (l : FVec Ideal S5000x64 .bf16) (r : FVec Ideal S64x64 .bf16),
      matmul dot_S5000x64_S64x64_S5000x64_1_0_0_1_n_n none l r (constant S5000x64 .f32 0x00000000#32) (ix2 p q)
        = ∑ k : Fin 64, (l (ix2 p k) : EReal) * (r (ix2 k q) : EReal) :=
    fun l r => Cert.Lib.PlainDot.matmul_plain_zero_ix2 5000 64 64 none l r p q
  refine (congrArg₂ max (congrArg₂ (fun a b : EReal => a + b) (hm _ _) (broadcastTo_1b_ab_apply b _ p q)) Ideal.ofBits_zero_f32).trans ?_
  refine congrArg (fun s : EReal => max (s + b (ix2 0 q)) 0) (Finset.sum_congr rfl fun k _ => ?_)
  refine congrArg (fun y : EReal => y * w (ix2 k q)) ?_
  refine (congrArg₂ max (congrArg₂ (fun a b : EReal => a + b) (congrArg₂ (fun a b : EReal => a * b)
    (congrArg₂ (fun a b : EReal => a * b) (congrArg (fun m : EReal => x0 (ix2 p k) - m) (broadcastTo_1b_ab_apply mu _ p k))
      (broadcastTo_1b_ab_apply _ _ p k)) (broadcastTo_1b_ab_apply ga _ p k)) (broadcastTo_1b_ab_apply be _ p k))
    Ideal.ofBits_zero_f32).trans ?_
  rfl

variable (V : (c : Dev nD) → (b : Ref sig .tc) → Buf (Elt Ideal) ((c : Thread nD τ).loc b))

theorem hz_r2 : (![0, 0] : Fin 2 → Nat) = fun _ => 0 := funext fun a => by fin_cases a <;> rfl

/-- The blocks of the seven input arrays at point t. -/
abbrev hblk_r2 (c : Dev nD) (t : Fin cfg2.N) : Vec Ideal S5000x64 .f32 := iblk2 V c 0 t
abbrev mublk_r2 (c : Dev nD) (t : Fin cfg2.N) : Vec Ideal S1x64 .f32 := iblk2 V c 1 t
abbrev vablk_r2 (c : Dev nD) (t : Fin cfg2.N) : Vec Ideal S1x64 .f32 := iblk2 V c 2 t
abbrev gablk_r2 (c : Dev nD) (t : Fin cfg2.N) : Vec Ideal S1x64 .f32 := iblk2 V c 3 t
abbrev beblk_r2 (c : Dev nD) (t : Fin cfg2.N) : Vec Ideal S1x64 .f32 := iblk2 V c 4 t
abbrev wblk_r2 (c : Dev nD) (t : Fin cfg2.N) : Vec Ideal S64x64 .f32 := iblk2 V c 5 t
abbrev bblk_r2 (c : Dev nD) (t : Fin cfg2.N) : Vec Ideal S1x64 .f32 := iblk2 V c 6 t

/-- The block indices over the grid: the row windows move with the point, the others stay at block (0, 0). -/
theorem idx_facts_r2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row p of point t's block of h is row 5000 t + p of h. -/
theorem hblk_apply_r2 (c : Dev nD) (t : Fin cfg2.N) (p : Fin 5000) (k : Fin 64) (r : Fin 100000)
    (hr : r.val = t.val * 5000 + p.val) :
    hblk_r2 V c t (ix2 p k) = (V c main_v35 : Spec.NF) (ix2 r k) := by
  show V c main_v35 (((cfg2.win 0).blk t).view.emb (ix2 p k)) = V c main_v35 (ix2 r k)
  refine congrArg (V c main_v35) (funext fun a => Fin.ext ?_)
  match a with
  | ⟨0, _⟩ => show win2_0.index t (0 : Fin 2) * 5000 + 1 * p.val = r.val; rw [(idx_facts_r2 t).1, hr]; omega
  | ⟨1, _⟩ => show win2_0.index t (1 : Fin 2) * 64 + 1 * k.val = k.val; rw [(idx_facts_r2 t).2.1]; omega

/-- The row-vector windows and the matrix window hold their whole arrays at every point. -/
theorem mublk_apply_r2 (c : Dev nD) (t : Fin cfg2.N) (z : Fin 1) (k : Fin 64) :
    mublk_r2 V c t (ix2 z k) = (V c main_v38 : Spec.RV) (ix2 z k) := by
  show V c main_v38 (((cfg2.win 1).blk t).view.emb (ix2 z k)) = V c main_v38 (ix2 z k)
  refine congrArg (V c main_v38) (funext fun a => Fin.ext ?_)
  match a with
  | ⟨0, _⟩ => show win2_1.index t (0 : Fin 2) * 1 + 1 * z.val = z.val; rw [(idx_facts_r2 t).2.2.1]; omega
  | ⟨1, _⟩ => show win2_1.index t (1 : Fin 2) * 64 + 1 * k.val = k.val; rw [(idx_facts_r2 t).2.2.2.1]; omega
theorem vablk_apply_r2 (c : Dev nD) (t : Fin cfg2.N) (z : Fin 1) (k : Fin 64) :
    vablk_r2 V c t (ix2 z k) = (V c main_v44 : Spec.RV) (ix2 z k) := by
  show V c main_v44 (((cfg2.win 2).blk t).view.emb (ix2 z k)) = V c main_v44 (ix2 z k)
  refine congrArg (V c main_v44) (funext fun a => Fin.ext ?_)
  match a with
  | ⟨0, _⟩ => show win2_2.index t (0 : Fin 2) * 1 + 1 * z.val = z.val; rw [(idx_facts_r2 t).2.2.2.2.1]; omega
  | ⟨1, _⟩ => show win2_2.index t (1 : Fin 2) * 64 + 1 * k.val = k.val; rw [(idx_facts_r2 t).2.2.2.2.2.1]; omega
theorem gablk_apply_r2 (c : Dev nD) (t : Fin cfg2.N) (z : Fin 1) (k : Fin 64) :
    gablk_r2 V c t (ix2 z k) = (V c main_v26 : Spec.RV) (ix2 z k) := by
  show V c main_v26 (((cfg2.win 3).blk t).view.emb (ix2 z k)) = V c main_v26 (ix2 z k)
  refine congrArg (V c main_v26) (funext fun a => Fin.ext ?_)
  match a with
  | ⟨0, _⟩ => show win2_3.index t (0 : Fin 2) * 1 + 1 * z.val = z.val; rw [(idx_facts_r2 t).2.2.2.2.2.2.1]; omega
  | ⟨1, _⟩ => show win2_3.index t (1 : Fin 2) * 64 + 1 * k.val = k.val; rw [(idx_facts_r2 t).2.2.2.2.2.2.2.1]; omega
theorem beblk_apply_r2 (c : Dev nD) (t : Fin cfg2.N) (z : Fin 1) (k : Fin 64) :
    beblk_r2 V c t (ix2 z k) = (V c main_v29 : Spec.RV) (ix2 z k) := by
  show V c main_v29 (((cfg2.win 4).blk t).view.emb (ix2 z k)) = V c main_v29 (ix2 z k)
  refine congrArg (V c main_v29) (funext fun a => Fin.ext ?_)
  match a with
  | ⟨0, _⟩ => show win2_4.index t (0 : Fin 2) * 1 + 1 * z.val = z.val; rw [(idx_facts_r2 t).2.2.2.2.2.2.2.2.1]; omega
  | ⟨1, _⟩ => show win2_4.index t (1 : Fin 2) * 64 + 1 * k.val = k.val; rw [(idx_facts_r2 t).2.2.2.2.2.2.2.2.2.1]; omega
theorem wblk_apply_r2 (c : Dev nD) (t : Fin cfg2.N) (k : Fin 64) (q : Fin 64) :
    wblk_r2 V c t (ix2 k q) = (V c main_v31 : Spec.MW) (ix2 k q) := by
  show V c main_v31 (((cfg2.win 5).blk t).view.emb (ix2 k q)) = V c main_v31 (ix2 k q)
  refine congrArg (V c main_v31) (funext fun a => Fin.ext ?_)
  match a with
  | ⟨0, _⟩ => show win2_5.index t (0 : Fin 2) * 64 + 1 * k.val = k.val; rw [(idx_facts_r2 t).2.2.2.2.2.2.2.2.2.2.1]; omega
  | ⟨1, _⟩ => show win2_5.index t (1 : Fin 2) * 64 + 1 * q.val = q.val; rw [(idx_facts_r2 t).2.2.2.2.2.2.2.2.2.2.2.1]; omega
theorem bblk_apply_r2 (c : Dev nD) (t : Fin cfg2.N) (z : Fin 1) (k : Fin 64) :
    bblk_r2 V c t (ix2 z k) = (V c main_v34 : Spec.RV) (ix2 z k) := by
  show V c main_v34 (((cfg2.win 6).blk t).view.emb (ix2 z k)) = V c main_v34 (ix2 z k)
  refine congrArg (V c main_v34) (funext fun a => Fin.ext ?_)
  match a with
  | ⟨0, _⟩ => show win2_6.index t (0 : Fin 2) * 1 + 1 * z.val = z.val; rw [(idx_facts_r2 t).2.2.2.2.2.2.2.2.2.2.2.2.1]; omega
  | ⟨1, _⟩ => show win2_6.index t (1 : Fin 2) * 64 + 1 * k.val = k.val; rw [(idx_facts_r2 t).2.2.2.2.2.2.2.2.2.2.2.2.2.1]; omega

/-- The layer's second half of the arrays the region is entered with. -/
abbrev G_r2 (c : Dev nD) : Spec.NF :=
  Spec.mlp2 (V c main_v35) (V c main_v38) (V c main_v44) (V c main_v26) (V c main_v29) (V c main_v31) (V c main_v34)

/-- What point t writes back is rows 5000 t … 5000 t + 4999 of the layer's second half. -/
theorem flushed_eq_r2 (c : Dev nD) (t : Fin cfg2.N) :
    (dat2 V c).flushed 7 t = ((cfg2.win 7).blk t).view.read (Elt Ideal) (G_r2 V c) := by
  show (cfg2.win 7).cut (grid2.coords t) ((dat2 V c).after 7 t) = _
  rw [after2_7]
  unfold out2_7
  rw [View.canon_unit_zero hz_r2]
  simp only [View.ld_unit_zero (S := S5000x64) hz_r2, View.ld_unit_zero (S := S1x64) hz_r2, View.ld_unit_zero (S := S64x64) hz_r2]
  funext j
  show k2_pay1 (F := Ideal) (hblk_r2 V c t) (mublk_r2 V c t) (vablk_r2 V c t) (gablk_r2 V c t) (beblk_r2 V c t) (wblk_r2 V c t) (bblk_r2 V c t) j
    = G_r2 V c (((cfg2.win 7).blk t).view.emb j)
  obtain ⟨p, q, rfl⟩ : ∃ (p : Fin 5000) (q : Fin 64), j = ix2 p q := ⟨j 0, j 1, eq_ix2 (n0 := 5000) (n1 := 64) j⟩
  have hp : p.val < 5000 := p.isLt
  have ht : t.val < 20 := lt_of_lt_of_eq t.isLt N_2
  obtain ⟨_, _, _, _, _, _, _, _, _, _, _, _, _, _, e70, e71⟩ := idx_facts_r2 t
  have hi : ((cfg2.win 7).blk t).view.emb (ix2 p q)
      = (ix2 (⟨t.val * 5000 + p.val, by omega⟩ : Fin 100000) q : S100000x64.Idx) := funext fun a => Fin.ext (by
    match a with
    | ⟨0, _⟩ => show win2_7.index t (0 : Fin 2) * 5000 + 1 * p.val = t.val * 5000 + p.val; rw [e70]; omega
    | ⟨1, _⟩ => show win2_7.index t (1 : Fin 2) * 64 + 1 * q.val = q.val; rw [e71]; omega)
  rw [hi]
  refine (pay_apply_r2 _ _ _ _ _ _ _ p q).trans ?_
  show _ = max ((∑ k : Fin 64, Spec.bn (V c main_v35) (V c main_v38) (V c main_v44) (V c main_v26) (V c main_v29)
      (ix2 (⟨t.val * 5000 + p.val, by omega⟩ : Fin 100000) k) * (V c main_v31 : Spec.MW) (ix2 k q)) + (V c main_v34 : Spec.RV) (ix2 0 q)) 0
  refine congrArg₂ max (congrArg₂ (fun a b : EReal => a + b) (Finset.sum_congr rfl fun k _ => ?_) (bblk_apply_r2 V c t 0 q)) rfl
  refine congrArg₂ (fun a b : EReal => a * b) ?_ (wblk_apply_r2 V c t k q)
  rw [hblk_apply_r2 V c t p k ⟨t.val * 5000 + p.val, by omega⟩ rfl, mublk_apply_r2 V c t 0 k, vablk_apply_r2 V c t 0 k,
    gablk_apply_r2 V c t 0 k, beblk_apply_r2 V c t 0 k]
  rfl

/-- Every row is in the block of the point that is its quotient by 5000. -/
theorem cover_r2 (c : Dev nD) (i : S100000x64.Idx) :
    ∃ t : Fin cfg2.N, (cfg2.win 7).flush t = true ∧ i ∈ ((cfg2.win 7).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  have htv : t.val = (i 0).val / 5000 := rfl
  obtain ⟨_, _, _, _, _, _, _, _, _, _, _, _, _, _, e70, e71⟩ := idx_facts_r2 t
  refine ⟨t, flush2_7 t, ?_⟩
  show i ∈ ((View.whole main_v45).slice (win2_7.rect t)).set
  rw [View.set_slice_whole, Rect.mem_set_unit]
  intro a
  match a with
  | ⟨0, _⟩ =>
    show win2_7.index t (0 : Fin 2) * 5000 ≤ (i 0).val ∧ (i 0).val < win2_7.index t (0 : Fin 2) * 5000 + 5000
    rw [e70, htv]; omega
  | ⟨1, _⟩ =>
    show win2_7.index t (1 : Fin 2) * 64 ≤ (i 1).val ∧ (i 1).val < win2_7.index t (1 : Fin 2) * 64 + 64
    rw [e71]; omega

/-- Region 2's result array after its twenty points is the second half of a layer of the arrays the region was entered with. -/
theorem mlp2_2 (c : Dev nD) :
    ((dat2 (F := Ideal) V c).arrAt 7 cfg2.N : Spec.NF)
      = Spec.mlp2 (V c main_v35) (V c main_v38) (V c main_v44) (V c main_v26) (V c main_v29) (V c main_v31) (V c main_v34) :=
  (dat2 V c).arrAt_eq_of_cover 7 (G_r2 V c) (fun t _ => flushed_eq_r2 V c t) (cover_r2 c)

end Cert.KernelIdeal.RegV

end
-- ==== Proof.KSegA.lean ====
/-
  The kernel program from its launch to the end of its first layer: the buffers' contents at each boundary,
  read back to the launch memory.
-/
import proofs.«402690_j13675175870656_3_alg».proof.Proof.Gen.KernelIdeal.Frame
import proofs.«402690_j13675175870656_3_alg».proof.Proof.Spec
import proofs.«402690_j13675175870656_3_alg».proof.Proof.KDefs
import proofs.«402690_j13675175870656_3_alg».proof.Proof.Reg0
import proofs.«402690_j13675175870656_3_alg».proof.Proof.Reg1
import proofs.«402690_j13675175870656_3_alg».proof.Proof.Reg2
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

namespace Cert.KernelIdeal.KSeg

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-- A buffer none of a list of host operations writes keeps its contents over them. -/
local macro "host_keeps" ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ### The host operations' values, index by index -/

/-- Layer 0's slab of the three stacked matrices, its unit axis dropped, is the layer's matrix. -/
private theorem sliceW0_eq (W : FVec Ideal S3x64x64 .f32) :
    (shapeCast S64x64 (extractStridedSlice S1x64x64 ![0, 0, 0] W slices_S3x64x64_S1x64x64_0_0_0) shapeCasts_S1x64x64_S64x64 : Spec.MW)
      = Spec.sliceW W 0 := by
  funext i
  have h1 : (i 1).val < 64 := (i 1).isLt
  refine (shapeCast_apply _ _ i (ix3 (0 : Fin 1) (i 0 : Fin 64) (i 1 : Fin 64) : S1x64x64.Idx) (by
    rw [Shape.rowMajor_val_three, Shape.rowMajor_val_two]
    show (0 * 64 + (i 0).val) * 64 + (i 1).val = (i 0).val * 64 + (i 1).val
    omega)).trans ?_
  exact extractStridedSlice_apply _ W _ (ix3 (0 : Fin 1) (i 0 : Fin 64) (i 1 : Fin 64) : S1x64x64.Idx)
    (ix3 (0 : Fin 3) (i 0 : Fin 64) (i 1 : Fin 64) : S3x64x64.Idx) (fun a => by
    match a with
    | ⟨0, _⟩ => rfl
    | ⟨1, _⟩ => exact (Nat.zero_add _).symm
    | ⟨2, _⟩ => exact (Nat.zero_add _).symm)

/-- Layer 0's row of the three stacked row vectors, flattened and given its unit axis back, is the layer's row vector. -/
private theorem sliceV0_eq (v : FVec Ideal S3x64 .f32) :
    (shapeCast S1x64 (shapeCast S64 (extractStridedSlice S1x64 ![0, 0] v slices_S3x64_S1x64_0_0) shapeCasts_S1x64_S64) shapeCasts_S64_S1x64 : Spec.RV)
      = Spec.sliceV v 0 := by
  rw [shapeCast_shapeCast]
  funext i
  have h0 : (i 0).val = 0 := by have h : (i 0).val < 1 := (i 0).isLt; omega
  exact extractStridedSlice_apply _ v _ i (ix2 (0 : Fin 3) (i 1 : Fin 64) : S3x64.Idx) (fun a => by
    match a with
    | ⟨0, _⟩ => exact (by rw [h0] : (0 : Nat) = 0 + (i 0).val)
    | ⟨1, _⟩ => exact (Nat.zero_add _).symm)

/-- The column sums over the row count's literal are the kernel's means. -/
private theorem meanK_host (s : FVec Ideal S1x64 .f32) :
    (Host.divf s (broadcastInDim S1x64 ![] bcast_S_S1x64 (constant S_ .f32 0x47C35000#32)) : Spec.RV) = Spec.meanK s := by
  funext j; rfl

/-- The host's mean of squares less the squared mean, clamped at the zero literal, is the kernel's variance. -/
private theorem varK_host (s q : FVec Ideal S1x64 .f32) :
    (maximumf (subf (Host.divf q (broadcastInDim S1x64 ![] bcast_S_S1x64 (constant S_ .f32 0x47C35000#32)))
        (mulf (Host.divf s (broadcastInDim S1x64 ![] bcast_S_S1x64 (constant S_ .f32 0x47C35000#32)))
          (Host.divf s (broadcastInDim S1x64 ![] bcast_S_S1x64 (constant S_ .f32 0x47C35000#32)))))
      (broadcastInDim S1x64 ![] bcast_S_S1x64 (constant S_ .f32 0x00000000#32)) : Spec.RV) = Spec.varK s q := by
  funext j
  show max (Ideal.div (q j) Spec.cnt - Ideal.div (s j) Spec.cnt * Ideal.div (s j) Spec.cnt) (Ideal.ofBits .f32 0x00000000#32)
    = max (Ideal.div (q j) Spec.cnt - Spec.meanK s j * Spec.meanK s j) 0
  rw [Ideal.ofBits_zero_f32]; rfl

/-! ### After the host operations before the first kernel -/

/-- The host operations before the first kernel leave the edges' sources, targets, the graph column and the counts. -/
theorem W1_v1 : W1 m ρ c (Proc.devRef .tc main_v1) = KV.v1Of (m ((c : Thread nD τ).loc main_arg1)) := by
  show StableHlo.after hostOps0 (W0 m ρ c) (Proc.devRef .tc main_v1) = _
  after_results
  rfl
theorem W1_v3 : W1 m ρ c (Proc.devRef .tc main_v3) = KV.v3Of (m ((c : Thread nD τ).loc main_arg1)) := by
  show StableHlo.after hostOps0 (W0 m ρ c) (Proc.devRef .tc main_v3) = _
  after_results
  rfl
theorem W1_v4 : W1 m ρ c (Proc.devRef .tc main_v4) = KV.batOf (m ((c : Thread nD τ).loc main_arg2)) := by
  show StableHlo.after hostOps0 (W0 m ρ c) (Proc.devRef .tc main_v4) = _
  after_results
  rfl
theorem W1_v8 : W1 m ρ c (Proc.devRef .tc main_v8) = KV.cntOf (m ((c : Thread nD τ).loc main_arg2)) := by
  show StableHlo.after hostOps0 (W0 m ρ c) (Proc.devRef .tc main_v8) = _
  after_results
  rfl
/-- They write no argument. -/
private theorem W1_arg0 : W1 m ρ c (Proc.devRef .tc main_arg0) = m ((c : Thread nD τ).loc main_arg0) := by
  show StableHlo.after hostOps0 (W0 m ρ c) (Proc.devRef .tc main_arg0) = _
  host_keeps hostOps0
theorem W1_arg3 : W1 m ρ c (Proc.devRef .tc main_arg3) = m ((c : Thread nD τ).loc main_arg3) := by
  show StableHlo.after hostOps0 (W0 m ρ c) (Proc.devRef .tc main_arg3) = _
  host_keeps hostOps0
theorem W1_arg4 : W1 m ρ c (Proc.devRef .tc main_arg4) = m ((c : Thread nD τ).loc main_arg4) := by
  show StableHlo.after hostOps0 (W0 m ρ c) (Proc.devRef .tc main_arg4) = _
  host_keeps hostOps0
theorem W1_arg5 : W1 m ρ c (Proc.devRef .tc main_arg5) = m ((c : Thread nD τ).loc main_arg5) := by
  show StableHlo.after hostOps0 (W0 m ρ c) (Proc.devRef .tc main_arg5) = _
  host_keeps hostOps0
theorem W1_arg6 : W1 m ρ c (Proc.devRef .tc main_arg6) = m ((c : Thread nD τ).loc main_arg6) := by
  show StableHlo.after hostOps0 (W0 m ρ c) (Proc.devRef .tc main_arg6) = _
  host_keeps hostOps0
theorem W1_arg7 : W1 m ρ c (Proc.devRef .tc main_arg7) = m ((c : Thread nD τ).loc main_arg7) := by
  show StableHlo.after hostOps0 (W0 m ρ c) (Proc.devRef .tc main_arg7) = _
  host_keeps hostOps0
theorem W1_arg8 : W1 m ρ c (Proc.devRef .tc main_arg8) = m ((c : Thread nD τ).loc main_arg8) := by
  show StableHlo.after hostOps0 (W0 m ρ c) (Proc.devRef .tc main_arg8) = _
  host_keeps hostOps0

/-- The neighbour sums of the launch features along the launch edges. -/
private theorem W1_v18 : W1 m ρ c (Proc.devRef .tc main_v18)
    = KV.agg (KV.v1Of (m ((c : Thread nD τ).loc main_arg1))) (KV.v3Of (m ((c : Thread nD τ).loc main_arg1))) (m ((c : Thread nD τ).loc main_arg0)) := by
  show StableHlo.after hostOps0 (W0 m ρ c) (Proc.devRef .tc main_v18) = _
  after_results_simp
  rfl

/-- Layer 0's weights and row vectors, sliced out of the launch stacks. -/
private theorem W1_v20 : (W1 m ρ c (Proc.devRef .tc main_v20) : Spec.MW) = Spec.sliceW (m ((c : Thread nD τ).loc main_arg3)) 0 := by
  refine Eq.trans ?_ (sliceW0_eq (m ((c : Thread nD τ).loc main_arg3)))
  show StableHlo.after hostOps0 (W0 m ρ c) (Proc.devRef .tc main_v20) = _
  after_results
  rfl
private theorem W1_v31 : (W1 m ρ c (Proc.devRef .tc main_v31) : Spec.MW) = Spec.sliceW (m ((c : Thread nD τ).loc main_arg7)) 0 := by
  refine Eq.trans ?_ (sliceW0_eq (m ((c : Thread nD τ).loc main_arg7)))
  show StableHlo.after hostOps0 (W0 m ρ c) (Proc.devRef .tc main_v31) = _
  after_results
  rfl
private theorem W1_v23 : (W1 m ρ c (Proc.devRef .tc main_v23) : Spec.RV) = Spec.sliceV (m ((c : Thread nD τ).loc main_arg4)) 0 := by
  refine Eq.trans ?_ (sliceV0_eq (m ((c : Thread nD τ).loc main_arg4)))
  show StableHlo.after hostOps0 (W0 m ρ c) (Proc.devRef .tc main_v23) = _
  after_results
  rfl
private theorem W1_v26 : (W1 m ρ c (Proc.devRef .tc main_v26) : Spec.RV) = Spec.sliceV (m ((c : Thread nD τ).loc main_arg5)) 0 := by
  refine Eq.trans ?_ (sliceV0_eq (m ((c : Thread nD τ).loc main_arg5)))
  show StableHlo.after hostOps0 (W0 m ρ c) (Proc.devRef .tc main_v26) = _
  after_results
  rfl
private theorem W1_v29 : (W1 m ρ c (Proc.devRef .tc main_v29) : Spec.RV) = Spec.sliceV (m ((c : Thread nD τ).loc main_arg6)) 0 := by
  refine Eq.trans ?_ (sliceV0_eq (m ((c : Thread nD τ).loc main_arg6)))
  show StableHlo.after hostOps0 (W0 m ρ c) (Proc.devRef .tc main_v29) = _
  after_results
  rfl
private theorem W1_v34 : (W1 m ρ c (Proc.devRef .tc main_v34) : Spec.RV) = Spec.sliceV (m ((c : Thread nD τ).loc main_arg8)) 0 := by
  refine Eq.trans ?_ (sliceV0_eq (m ((c : Thread nD τ).loc main_arg8)))
  show StableHlo.after hostOps0 (W0 m ρ c) (Proc.devRef .tc main_v34) = _
  after_results
  rfl

/-! ### Through the first layer's three kernels -/

/-- The first kernel leaves h = (x + a) · W + b of its entry arrays. -/
private theorem W2_v35 : (W2 m ρ c (Proc.devRef .tc main_v35) : Spec.NF)
    = Spec.lin1 (W1 m ρ c (Proc.devRef .tc main_arg0)) (W1 m ρ c (Proc.devRef .tc main_v18)) (W1 m ρ c (Proc.devRef .tc main_v20)) (W1 m ρ c (Proc.devRef .tc main_v23)) :=
  (W2_arr m ρ c 4).trans (RegV.mlp1_0 (V1 m ρ) c)

/-- The second kernel leaves the column sums of h and of h². -/
private theorem W3_v36_0 : (W3 m ρ c (Proc.devRef .tc main_v36_0) : Spec.RV) = Spec.csum (W2 m ρ c (Proc.devRef .tc main_v35)) :=
  (W3_arr m ρ c 1).trans (RegV.bn_1 (V2 m ρ) c).1
private theorem W3_v36_1 : (W3 m ρ c (Proc.devRef .tc main_v36_1) : Spec.RV) = Spec.csumsq (W2 m ρ c (Proc.devRef .tc main_v35)) :=
  (W3_arr m ρ c 2).trans (RegV.bn_1 (V2 m ρ) c).2
/-- It only reads h. -/
private theorem W3_v35 : W3 m ρ c (Proc.devRef .tc main_v35) = W2 m ρ c (Proc.devRef .tc main_v35) :=
  (W3_arr m ρ c 0).trans (((dat1 (V2 m ρ) c).arrAt_in 0 rfl _).trans (A_eq1 (V2 m ρ) c 0))

/-- The host operations between the second and third kernels turn the sums into the kernel's mean and variance. -/
private theorem W4_v38 : (W4 m ρ c (Proc.devRef .tc main_v38) : Spec.RV) = Spec.meanK (W3 m ρ c (Proc.devRef .tc main_v36_0)) := by
  refine Eq.trans ?_ (meanK_host (W3 m ρ c (Proc.devRef .tc main_v36_0)))
  show StableHlo.after hostOps2 (W3 m ρ c) (Proc.devRef .tc main_v38) = _
  after_results
private theorem W4_v44 : (W4 m ρ c (Proc.devRef .tc main_v44) : Spec.RV) = Spec.varK (W3 m ρ c (Proc.devRef .tc main_v36_0)) (W3 m ρ c (Proc.devRef .tc main_v36_1)) := by
  refine Eq.trans ?_ (varK_host (W3 m ρ c (Proc.devRef .tc main_v36_0)) (W3 m ρ c (Proc.devRef .tc main_v36_1)))
  show StableHlo.after hostOps2 (W3 m ρ c) (Proc.devRef .tc main_v44) = _
  after_results
/-- They leave h alone. -/
private theorem W4_v35 : W4 m ρ c (Proc.devRef .tc main_v35) = W3 m ρ c (Proc.devRef .tc main_v35) := by
  show StableHlo.after hostOps2 (W3 m ρ c) (Proc.devRef .tc main_v35) = _
  host_keeps hostOps2

/-- Layer 0's scale, shift and second weights and bias stay as sliced until the third kernel reads them. -/
private theorem W4_v26 : W4 m ρ c (Proc.devRef .tc main_v26) = W1 m ρ c (Proc.devRef .tc main_v26) := by
  refine Eq.trans ?_ ((W3_of_ne m ρ c main_v26 (by decide)).trans (W2_of_ne m ρ c main_v26 (by decide)))
  show StableHlo.after hostOps2 (W3 m ρ c) (Proc.devRef .tc main_v26) = _
  host_keeps hostOps2
private theorem W4_v29 : W4 m ρ c (Proc.devRef .tc main_v29) = W1 m ρ c (Proc.devRef .tc main_v29) := by
  refine Eq.trans ?_ ((W3_of_ne m ρ c main_v29 (by decide)).trans (W2_of_ne m ρ c main_v29 (by decide)))
  show StableHlo.after hostOps2 (W3 m ρ c) (Proc.devRef .tc main_v29) = _
  host_keeps hostOps2
private theorem W4_v31 : W4 m ρ c (Proc.devRef .tc main_v31) = W1 m ρ c (Proc.devRef .tc main_v31) := by
  refine Eq.trans ?_ ((W3_of_ne m ρ c main_v31 (by decide)).trans (W2_of_ne m ρ c main_v31 (by decide)))
  show StableHlo.after hostOps2 (W3 m ρ c) (Proc.devRef .tc main_v31) = _
  host_keeps hostOps2
private theorem W4_v34 : W4 m ρ c (Proc.devRef .tc main_v34) = W1 m ρ c (Proc.devRef .tc main_v34) := by
  refine Eq.trans ?_ ((W3_of_ne m ρ c main_v34 (by decide)).trans (W2_of_ne m ρ c main_v34 (by decide)))
  show StableHlo.after hostOps2 (W3 m ρ c) (Proc.devRef .tc main_v34) = _
  host_keeps hostOps2

/-- The third kernel leaves the layer's second half of its entry arrays. -/
private theorem W5_v45_raw : (W5 m ρ c (Proc.devRef .tc main_v45) : Spec.NF)
    = Spec.mlp2 (W4 m ρ c (Proc.devRef .tc main_v35)) (W4 m ρ c (Proc.devRef .tc main_v38)) (W4 m ρ c (Proc.devRef .tc main_v44)) (W4 m ρ c (Proc.devRef .tc main_v26)) (W4 m ρ c (Proc.devRef .tc main_v29))
        (W4 m ρ c (Proc.devRef .tc main_v31)) (W4 m ρ c (Proc.devRef .tc main_v34)) :=
  (W5_arr m ρ c 7).trans (RegV.mlp2_2 (V4 m ρ) c)

/-- After the first layer's three kernels the feature array holds the layer of the launch arrays. -/
theorem W5_v45 :
    (W5 m ρ c (Proc.devRef .tc main_v45) : Spec.NF)
      = Spec.layerK (m ((c : Thread nD τ).loc main_arg0))
          (KV.agg (KV.v1Of (m ((c : Thread nD τ).loc main_arg1))) (KV.v3Of (m ((c : Thread nD τ).loc main_arg1))) (m ((c : Thread nD τ).loc main_arg0)))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) 0 := by
  refine (W5_v45_raw m ρ c).trans ?_
  rw [W4_v38, W4_v44, W3_v36_0, W3_v36_1, W4_v35, W3_v35, W2_v35, W4_v26, W4_v29, W4_v31, W4_v34,
    W1_arg0, W1_v18, W1_v20, W1_v23, W1_v26, W1_v29, W1_v31, W1_v34]
  rfl

/-- Nothing between the first kernel's entry and the second layer's entry writes these buffers. -/
theorem keepA : ∀ b ∈ ([main_v1, main_v3, main_v4, main_v8, main_arg3, main_arg4, main_arg5, main_arg6, main_arg7, main_arg8] : List (Ref sig .tc)),
    W5 m ρ c (Proc.devRef .tc b) = W1 m ρ c (Proc.devRef .tc b) := by
  intro b hb
  simp only [List.mem_cons, List.mem_singleton, List.not_mem_nil, or_false] at hb
  rcases hb with rfl | rfl | rfl | rfl | rfl | rfl | rfl | rfl | rfl | rfl
  all_goals
    refine (W5_of_ne m ρ c _ (by decide)).trans (Eq.trans ?_ ((W3_of_ne m ρ c _ (by decide)).trans (W2_of_ne m ρ c _ (by decide))))
    show StableHlo.after hostOps2 (W3 m ρ c) _ = _
    host_keeps hostOps2

end Cert.KernelIdeal.KSeg

end
-- ==== Proof.Reg3.lean ====
/-
  What the first kernel of the second layer leaves in its result array: h = (x + a) · W + b, row block by row block.
-/
import proofs.«402690_j13675175870656_3_alg».proof.Proof.Gen.KernelIdeal.Frame
import proofs.«402690_j13675175870656_3_alg».proof.Proof.Spec
import proofs.«402690_j13675175870656_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegV

open Idealize.ShloMosaic Idealize.ShloMosaic.TcCoe Idealize.SL.Sem Idealize.ShloMosaic.ValueIdx
open Idealize.ShloMosaic.Pipeline (Dat)
open Cert.KernelIdeal Cert.KernelIdeal.Gen

theorem hz3 : (![0, 0] : Fin 2 → Nat) = fun _ => 0 := funext fun a => by
  match a with
  | ⟨0, _⟩ => rfl
  | ⟨1, _⟩ => rfl

/-- The stored value at row p, column q of a block: the row of x + a times the column of W, plus b's entry. -/
theorem pay3_apply (x0 x1 : Vec Ideal S5000x64 .f32) (x2 : Vec Ideal S64x64 .f32) (x3 : Vec Ideal S1x64 .f32)
    (p : Fin 5000) (q : Fin 64) :
    (k3_pay1 x0 x1 x2 x3 (ix2 p q) : EReal)
      = (∑ k : Fin 64, ((x0 (ix2 p k) : EReal) + x1 (ix2 p k)) * x2 (ix2 k q)) + x3 (ix2 0 q) := by
  unfold k3_pay1
  rw [shapeCast_self, shapeCast_self, shapeCast_self, shapeCast_self]
  refine congrArg₂ (fun a b : EReal => a + b) ?_ ?_
  · exact Cert.Lib.PlainDot.matmul_plain_zero_ix2 5000 64 64 none _ _ p q
  · refine broadcastTo_apply x3 broadcasts_S1x64_S5000x64 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

/-- The four input blocks of a point, at their literal types. -/
abbrev xblk3 (c : Dev nD) (t : Fin cfg3.N) : Vec Ideal S5000x64 .f32 := iblk3 V c 0 t
abbrev ablk3 (c : Dev nD) (t : Fin cfg3.N) : Vec Ideal S5000x64 .f32 := iblk3 V c 1 t
abbrev wblk3 (c : Dev nD) (t : Fin cfg3.N) : Vec Ideal S64x64 .f32 := iblk3 V c 2 t
abbrev bblk3 (c : Dev nD) (t : Fin cfg3.N) : Vec Ideal S1x64 .f32 := iblk3 V c 3 t

/-- The four arrays the region reads, at their literal types. -/
abbrev xarr3 (c : Dev nD) : Spec.NF := V c main_v45
abbrev aarr3 (c : Dev nD) : Spec.NF := V c main_v55
abbrev warr3 (c : Dev nD) : Spec.MW := V c main_v57
abbrev barr3 (c : Dev nD) : Spec.RV := V c main_v60

/-- Block t of x is rows 5000 t … 5000 t + 4999 of x. -/
theorem xblk3_apply (c : Dev nD) (t : Fin cfg3.N) (y : S5000x64.Idx) (i : S100000x64.Idx)
    (h0 : (i 0).val = t.val * 5000 + (y 0).val) (h1 : (i 1).val = (y 1).val) :
    xblk3 V c t y = xarr3 V c i := by
  have hi : win3_0.index t (0 : Fin 2) = t.val ∧ win3_0.index t (1 : Fin 2) = 0 :=
    (by decide +kernel : ∀ t : Fin grid3.N, win3_0.index t (0 : Fin 2) = t.val ∧ win3_0.index t (1 : Fin 2) = 0) t
  show V c main_v45 (((cfg3.win 0).blk t).view.emb y) = V c main_v45 i
  refine congrArg (V c main_v45) (funext fun a => Fin.ext ?_)
  match a with
  | ⟨0, _⟩ => show win3_0.index t (0 : Fin 2) * 5000 + 1 * (y 0).val = (i 0).val; rw [hi.1, h0]; omega
  | ⟨1, _⟩ => show win3_0.index t (1 : Fin 2) * 64 + 1 * (y 1).val = (i 1).val; rw [hi.2, h1]; omega

/-- Block t of a is the same rows of a. -/
theorem ablk3_apply (c : Dev nD) (t : Fin cfg3.N) (y : S5000x64.Idx) (i : S100000x64.Idx)
    (h0 : (i 0).val = t.val * 5000 + (y 0).val) (h1 : (i 1).val = (y 1).val) :
    ablk3 V c t y = aarr3 V c i := by
  have hi : win3_1.index t (0 : Fin 2) = t.val ∧ win3_1.index t (1 : Fin 2) = 0 :=
    (by decide +kernel : ∀ t : Fin grid3.N, win3_1.index t (0 : Fin 2) = t.val ∧ win3_1.index t (1 : Fin 2) = 0) t
  show V c main_v55 (((cfg3.win 1).blk t).view.emb y) = V c main_v55 i
  refine congrArg (V c main_v55) (funext fun a => Fin.ext ?_)
  match a with
  | ⟨0, _⟩ => show win3_1.index t (0 : Fin 2) * 5000 + 1 * (y 0).val = (i 0).val; rw [hi.1, h0]; omega
  | ⟨1, _⟩ => show win3_1.index t (1 : Fin 2) * 64 + 1 * (y 1).val = (i 1).val; rw [hi.2, h1]; omega

/-- Every point's block of W is all of W. -/
theorem wblk3_apply (c : Dev nD) (t : Fin cfg3.N) (y : S64x64.Idx) : wblk3 V c t y = warr3 V c y := by
  have hi : win3_2.index t (0 : Fin 2) = 0 ∧ win3_2.index t (1 : Fin 2) = 0 :=
    (by decide +kernel : ∀ t : Fin grid3.N, win3_2.index t (0 : Fin 2) = 0 ∧ win3_2.index t (1 : Fin 2) = 0) t
  show V c main_v57 (((cfg3.win 2).blk t).view.emb y) = V c main_v57 y
  refine congrArg (V c main_v57) (funext fun a => Fin.ext ?_)
  match a with
  | ⟨0, _⟩ => show win3_2.index t (0 : Fin 2) * 64 + 1 * (y 0).val = (y 0).val; rw [hi.1]; omega
  | ⟨1, _⟩ => show win3_2.index t (1 : Fin 2) * 64 + 1 * (y 1).val = (y 1).val; rw [hi.2]; omega

/-- Every point's block of b is all of b. -/
theorem bblk3_apply (c : Dev nD) (t : Fin cfg3.N) (y : S1x64.Idx) : bblk3 V c t y = barr3 V c y := by
  have hi : win3_3.index t (0 : Fin 2) = 0 ∧ win3_3.index t (1 : Fin 2) = 0 :=
    (by decide +kernel : ∀ t : Fin grid3.N, win3_3.index t (0 : Fin 2) = 0 ∧ win3_3.index t (1 : Fin 2) = 0) t
  show V c main_v60 (((cfg3.win 3).blk t).view.emb y) = V c main_v60 y
  refine congrArg (V c main_v60) (funext fun a => Fin.ext ?_)
  match a with
  | ⟨0, _⟩ => show win3_3.index t (0 : Fin 2) * 1 + 1 * (y 0).val = (y 0).val; rw [hi.1]; omega
  | ⟨1, _⟩ => show win3_3.index t (1 : Fin 2) * 64 + 1 * (y 1).val = (y 1).val; rw [hi.2]; omega

/-- The whole result: (x + a) · W + b of the arrays the region was entered with. -/
abbrev G3 (c : Dev nD) : Spec.NF := Spec.lin1 (xarr3 V c) (aarr3 V c) (warr3 V c) (barr3 V c)

/-- What a point stores at row p, column q of its block is the whole result at row 5000 t + p, column q. -/
theorem blk3_val (c : Dev nD) (t : Fin cfg3.N) (p : Fin 5000) (q : Fin 64) (r : Fin 100000)
    (hr : r.val = t.val * 5000 + p.val) :
    (k3_pay1 (xblk3 V c t) (ablk3 V c t) (wblk3 V c t) (bblk3 V c t) (ix2 p q) : EReal) = G3 V c (ix2 r q) := by
  refine (pay3_apply (xblk3 V c t) (ablk3 V c t) (wblk3 V c t) (bblk3 V c t) p q).trans ?_
  show _ = (∑ k : Fin 64, (xarr3 V c (ix2 r k) + aarr3 V c (ix2 r k)) * warr3 V c (ix2 k q)) + barr3 V c (ix2 0 q)
  refine congrArg₂ (fun a b : EReal => a + b) (Finset.sum_congr rfl fun k _ => ?_) (bblk3_apply V c t (ix2 0 q))
  refine congrArg₂ (fun a b : EReal => a * b) (congrArg₂ (fun a b : EReal => a + b) ?_ ?_) (wblk3_apply V c t (ix2 k q))
  · exact xblk3_apply V c t (ix2 p k) (ix2 r k) hr rfl
  · exact ablk3_apply V c t (ix2 p k) (ix2 r k) hr rfl

/-- What point t writes back is block t of the whole result. -/
theorem flushed3_eq (c : Dev nD) (t : Fin cfg3.N) :
    (dat3 (F := Ideal) V c).flushed 4 t = ((cfg3.win 4).blk t).view.read (Elt Ideal) (G3 V c) := by
  have hi : win3_4.index t (0 : Fin 2) = t.val ∧ win3_4.index t (1 : Fin 2) = 0 :=
    (by decide +kernel : ∀ t : Fin grid3.N, win3_4.index t (0 : Fin 2) = t.val ∧ win3_4.index t (1 : Fin 2) = 0) t
  have ht : t.val < 20 := t.isLt
  show (cfg3.win 4).cut (grid3.coords t) ((dat3 (F := Ideal) V c).after 4 t) = _
  rw [after3_4]
  unfold out3_4
  rw [View.canon_unit_zero hz3]
  simp only [View.ld_unit_zero (S := S5000x64) hz3, View.ld_unit_zero (S := S64x64) hz3, View.ld_unit_zero (S := S1x64) hz3]
  refine funext fun (j : S5000x64.Idx) => ?_
  obtain ⟨p, q, rfl⟩ : ∃ (p : Fin 5000) (q : Fin 64), j = ix2 p q := ⟨j 0, j 1, eq_ix2 j⟩
  show (k3_pay1 (xblk3 V c t) (ablk3 V c t) (wblk3 V c t) (bblk3 V c t) (ix2 p q) : EReal)
    = G3 V c (((cfg3.win 4).blk t).view.emb (ix2 p q))
  refine (blk3_val V c t p q ⟨t.val * 5000 + p.val, by have := p.isLt; omega⟩ rfl).trans ?_
  refine congrArg (G3 V c) (funext fun a => Fin.ext ?_)
  match a with
  | ⟨0, _⟩ => show t.val * 5000 + p.val = win3_4.index t (0 : Fin 2) * 5000 + 1 * p.val; rw [hi.1]; omega
  | ⟨1, _⟩ => show q.val = win3_4.index t (1 : Fin 2) * 64 + 1 * q.val; rw [hi.2]; omega

/-- Region 3's result array after its twenty points is (x + a) · W + b of the arrays the region was entered with. -/
theorem mlp1_3 (c : Dev nD) :
    ((dat3 (F := Ideal) V c).arrAt 4 cfg3.N : Spec.NF)
      = Spec.lin1 (V c main_v45) (V c main_v55) (V c main_v57) (V c main_v60) := by
  refine (dat3 (F := Ideal) V c).arrAt_eq_of_cover 4 (G3 V c) (fun t _ => flushed3_eq V c t) fun (i : S100000x64.Idx) => ?_
  have h0 : (i 0).val < 100000 := (i 0).isLt
  have h1 : (i 1).val < 64 := (i 1).isLt
  have hN : cfg3.N = 20 := N_3
  obtain ⟨t, htv⟩ : ∃ t : Fin cfg3.N, t.val = (i 0).val / 5000 := ⟨⟨(i 0).val / 5000, by rw [hN]; omega⟩, rfl⟩
  have hi : win3_4.index t (0 : Fin 2) = t.val ∧ win3_4.index t (1 : Fin 2) = 0 :=
    (by decide +kernel : ∀ t : Fin grid3.N, win3_4.index t (0 : Fin 2) = t.val ∧ win3_4.index t (1 : Fin 2) = 0) t
  refine ⟨t, flush3_4 t, ?_⟩
  show i ∈ ((View.whole main_v72).slice (win3_4.rect t)).set
  rw [View.set_slice_whole, Rect.mem_set_unit]
  intro a
  match a with
  | ⟨0, _⟩ =>
    show win3_4.index t (0 : Fin 2) * 5000 ≤ (i 0).val ∧ (i 0).val < win3_4.index t (0 : Fin 2) * 5000 + 5000
    rw [hi.1, htv]; omega
  | ⟨1, _⟩ =>
    show win3_4.index t (1 : Fin 2) * 64 ≤ (i 1).val ∧ (i 1).val < win3_4.index t (1 : Fin 2) * 64 + 64
    rw [hi.2]; omega

end Cert.KernelIdeal.RegV

end
-- ==== Proof.Reg4.lean ====
/-
  What the statistics kernel of a layer leaves in its two result arrays: the column sums of h and of h²,
  accumulated over the twenty row blocks.
-/
import proofs.«402690_j13675175870656_3_alg».proof.Proof.Gen.KernelIdeal.Frame
import proofs.«402690_j13675175870656_3_alg».proof.Proof.Spec
import proofs.«402690_j13675175870656_3_alg».proof.Proof.LibPlainDot
import proofs.«402690_j13675175870656_3_alg».proof.Proof.BlockMath
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.RegV

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The all-zero offsets of a whole-buffer access. -/
theorem zero_offsets4 : (![0, 0] : Fin 2 → Nat) = fun _ => 0 := funext fun a => by fin_cases a <;> rfl

/-! ## What each case leaves, as the stores' values -/

/-- After a point other than the first the first output holds the update of what it held. -/
theorem out4_B_1_eq (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec Ideal S5000x64 .f32) (xo1 xo2 : Vec Ideal S1x64 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  sl_unfold_words
  rw [View.canon_unit_zero zero_offsets4]
  simp only [View.readAt_eq_ld, h1.read_unread, h2.read_unread, View.ld_unit_zero (S := S5000x64) zero_offsets4,
    View.ld_unit_zero (S := S1x64) zero_offsets4]

/-- After a point other than the first the second output holds the update of what it held. -/
theorem out4_B_2_eq (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec Ideal S5000x64 .f32) (xo1 xo2 : Vec Ideal S1x64 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  sl_unfold_words
  rw [View.canon_unit_zero zero_offsets4]
  simp only [View.readAt_eq_ld, h1.read_unread, h3.read_unread, View.ld_unit_zero (S := S5000x64) zero_offsets4,
    View.ld_unit_zero (S := S1x64) zero_offsets4]

/-- After the first point the first output holds the update of the zero vector. -/
theorem out4_A_1_eq (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond4_0 i) (x : Vec Ideal S5000x64 .f32) :
    out4_A_1 c i a1 h1 a2 h2 a3 h3 hc x = k4_pay4 x (k4_pay1 (F := Ideal)) := by
  unfold out4_A_1
  rw [View.read_writes_eq_canon _ _ _ (cover4_A_1 c i a1 h1 a2 h2 a3 h3 hc x)]
  unfold kernelRun4_A
  dsimp only
  sl_unfold_words
  rw [View.canon_cons_unit_zero (S := S1x64) zero_offsets4, View.readCov_unit_zero (S := S1x64) _ zero_offsets4]
  simp only [View.readAt_eq_ld, h1.read_unread, View.ld_unit_zero (S := S5000x64) zero_offsets4,
    View.ld_unit_zero (S := S1x64) zero_offsets4]

/-- After the first point the second output holds the update of the zero vector. -/
theorem out4_A_2_eq (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond4_0 i) (x : Vec Ideal S5000x64 .f32) :
    out4_A_2 c i a1 h1 a2 h2 a3 h3 hc x = k4_pay5 x (k4_pay2 (F := Ideal)) := by
  unfold out4_A_2
  rw [View.read_writes_eq_canon _ _ _ (cover4_A_2 c i a1 h1 a2 h2 a3 h3 hc x)]
  unfold kernelRun4_A
  dsimp only
  sl_unfold_words
  rw [View.canon_cons_unit_zero (S := S1x64) zero_offsets4, View.readCov_unit_zero (S := S1x64) _ zero_offsets4]
  simp only [View.readAt_eq_ld, h1.read_unread, View.ld_unit_zero (S := S5000x64) zero_offsets4,
    View.ld_unit_zero (S := S1x64) zero_offsets4]

/-! ## The stores' values at a column -/

/-- The zero vector of the first reset is zero at every index. -/
theorem r4_pay1_apply (j : S1x64.Idx) : k4_pay1 (F := Ideal) j = 0 := by
  unfold k4_pay1
  exact Ideal.ofBits_zero_f32

/-- The zero vector of the second reset is zero at every index. -/
theorem r4_pay2_apply (j : S1x64.Idx) : k4_pay2 (F := Ideal) j = 0 := by
  unfold k4_pay2
  exact Ideal.ofBits_zero_f32

/-- The block's index above column q at row p of the block. -/
theorem lift_col4 (j : S64.Idx) (q : Fin 64) (hj : (j 0).val = q.val) (p : Fin 5000) :
    reduces_S5000x64_S64.lift j p = (ix2 p q : S5000x64.Idx) := by
  funext a
  apply Fin.ext
  match a with
  | ⟨0, _⟩ => rfl
  | ⟨1, _⟩ => exact hj

/-- A block's column sum, kept with a leading unit axis, at column q. -/
theorem colsum_apply4 (y : FVec Ideal S5000x64 .f32) (q : Fin 64) :
    shapeCast S1x64 (multiReduction .add [0] S64 y 0x00000000#32 reduces_S5000x64_S64 (.inl rfl) rfl) shapeCasts_S64_S1x64 (ix2 0 q)
      = ∑ p : Fin 5000, y (ix2 p q) := by
  refine (shapeCast_addUnit_apply ![64] _ shapeCasts_S64_S1x64 (ix2 0 q)).trans ?_
  refine (Ideal.multiReduction_add_single y _ reduces_S5000x64_S64 _ _ _).trans ?_
  exact Finset.sum_congr rfl fun p _ => congrArg y (lift_col4 _ q rfl p)

/-- The first update: the block's column sum added onto the row vector. -/
theorem r4_pay4_apply (x : Vec Ideal S5000x64 .f32) (a : Vec Ideal S1x64 .f32) (q : Fin 64) :
    k4_pay4 x a (ix2 0 q) = a (ix2 0 q) + ∑ p : Fin 5000, x (ix2 p q) := by
  unfold k4_pay4 k4_pay3
  refine congrArg₂ (· + ·) (congrFun (shapeCast_self a shapeCasts_S1x64_S1x64) (ix2 0 q)) ?_
  refine (colsum_apply4 _ q).trans ?_
  exact Finset.sum_congr rfl fun p _ => congrFun (shapeCast_self x shapeCasts_S5000x64_S5000x64) (ix2 p q)

/-- The second update: the column sum of the block's squares added onto the row vector. -/
theorem r4_pay5_apply (x : Vec Ideal S5000x64 .f32) (a : Vec Ideal S1x64 .f32) (q : Fin 64) :
    k4_pay5 x a (ix2 0 q) = a (ix2 0 q) + ∑ p : Fin 5000, x (ix2 p q) * x (ix2 p q) := by
  unfold k4_pay5 k4_pay3
  refine congrArg₂ (· + ·) (congrFun (shapeCast_self a shapeCasts_S1x64_S1x64) (ix2 0 q)) ?_
  refine (colsum_apply4 _ q).trans ?_
  refine Finset.sum_congr rfl fun p _ => ?_
  have e : shapeCast S5000x64 x shapeCasts_S5000x64_S5000x64 = x := shapeCast_self x shapeCasts_S5000x64_S5000x64
  show shapeCast S5000x64 x shapeCasts_S5000x64_S5000x64 (ix2 p q) * shapeCast S5000x64 x shapeCasts_S5000x64_S5000x64 (ix2 p q) = _
  rw [e]

/-! ## The blocks of h, and the running sums -/

/-- The array h the region is entered with. -/
abbrev harr4 (c : Dev nD) : Spec.NF := V c main_v72

/-- Its block of 5000 rows at a point. -/
abbrev hblk4 (c : Dev nD) (t : Fin cfg4.N) : Vec Ideal S5000x64 .f32 := iblk4 V c 0 t

/-- The first window's block index is the point on the row axis and zero on the column axis. -/
theorem idx_rows4 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Row p of the block at point t is row 5000 t + p of h. -/
theorem hblk4_apply (c : Dev nD) (t : Fin cfg4.N) (p : Fin 5000) (q : Fin 64) (hr : 5000 * t.val + p.val < 100000) :
    hblk4 V c t (ix2 p q) = harr4 V c (ix2 ⟨5000 * t.val + p.val, hr⟩ q) := by
  obtain ⟨e0, e1⟩ := idx_rows4 t
  show iblk4 V c 0 t (ix2 p q) = V c main_v72 (ix2 ⟨5000 * t.val + p.val, hr⟩ q)
  unfold iblk4
  rw [View.read_apply]
  show V c main_v72 (((cfg4.win 0).blk t).view.emb (ix2 p q)) = V c main_v72 (ix2 ⟨5000 * t.val + p.val, hr⟩ q)
  congr 1
  funext a
  apply Fin.ext
  match a with
  | ⟨0, _⟩ => show win4_0.index t (0 : Fin 2) * 5000 + 1 * p.val = 5000 * t.val + p.val; rw [e0]; omega
  | ⟨1, _⟩ => show win4_0.index t (1 : Fin 2) * 64 + 1 * q.val = q.val; rw [e1]; omega

/-- The running column sum grows by the block's column sum. -/
theorem runsum_step4 (c : Dev nD) (t : Fin cfg4.N) (q : Fin 64) :
    Spec.runsum (fun r => harr4 V c (ix2 r q)) (5000 * t.val) + ∑ p : Fin 5000, hblk4 V c t (ix2 p q)
      = Spec.runsum (fun r => harr4 V c (ix2 r q)) (5000 * (t.val + 1)) := by
  have hN : t.val < 20 := lt_of_lt_of_eq t.isLt (show cfg4.N = 20 from N_4)
  rw [show 5000 * (t.val + 1) = 5000 * t.val + 5000 from by omega,
    Spec.runsum_add_block (fun r => harr4 V c (ix2 r q)) (5000 * t.val) (by omega)]
  refine congrArg (fun z => Spec.runsum (fun r => harr4 V c (ix2 r q)) (5000 * t.val) + z) ?_
  exact Finset.sum_congr rfl fun p _ => hblk4_apply V c t p q (by have := p.isLt; omega)

/-- The running column sum of squares grows by the block's column sum of squares. -/
theorem runsumsq_step4 (c : Dev nD) (t : Fin cfg4.N) (q : Fin 64) :
    Spec.runsum (fun r => harr4 V c (ix2 r q) * harr4 V c (ix2 r q)) (5000 * t.val)
        + ∑ p : Fin 5000, hblk4 V c t (ix2 p q) * hblk4 V c t (ix2 p q)
      = Spec.runsum (fun r => harr4 V c (ix2 r q) * harr4 V c (ix2 r q)) (5000 * (t.val + 1)) := by
  have hN : t.val < 20 := lt_of_lt_of_eq t.isLt (show cfg4.N = 20 from N_4)
  rw [show 5000 * (t.val + 1) = 5000 * t.val + 5000 from by omega,
    Spec.runsum_add_block (fun r => harr4 V c (ix2 r q) * harr4 V c (ix2 r q)) (5000 * t.val) (by omega)]
  refine congrArg (fun z => Spec.runsum (fun r => harr4 V c (ix2 r q) * harr4 V c (ix2 r q)) (5000 * t.val) + z) ?_
  refine Finset.sum_congr rfl fun p _ => ?_
  rw [hblk4_apply V c t p q (by have := p.isLt; omega)]

/-- After point n the two outputs hold the running column sums of h and of h² over the rows below 5000 (n + 1). -/
theorem outsAt4_eq (c : Dev nD) : ∀ (n : ℕ) (hn : n < cfg4.N) (q : Fin 64),
    (outsAt4 V c n hn).1 (ix2 0 q) = Spec.runsum (fun r => harr4 V c (ix2 r q)) (5000 * (n + 1))
    ∧ (outsAt4 V c n hn).2 (ix2 0 q) = Spec.runsum (fun r => harr4 V c (ix2 r q) * harr4 V c (ix2 r q)) (5000 * (n + 1))
  | 0, hn, q => by
    rw [outsAt4_A V c ⟨0, hn⟩ rfl]
    dsimp only
    constructor
    · refine (congrFun (out4_A_1_eq c (grid4.coords ⟨0, hn⟩) (ms4_0 ⟨0, hn⟩) (hs4_0 ⟨0, hn⟩) (ms4_1 ⟨0, hn⟩) (hs4_1 ⟨0, hn⟩)
        (ms4_2 ⟨0, hn⟩) (hs4_2 ⟨0, hn⟩) ((hcond4_0 ⟨0, hn⟩).mpr rfl) (hblk4 V c ⟨0, hn⟩)) (ix2 0 q)).trans ?_
      rw [r4_pay4_apply, r4_pay1_apply]
      have h := runsum_step4 V c ⟨0, hn⟩ q
      rw [show 5000 * (⟨0, hn⟩ : Fin cfg4.N).val = 0 from rfl, Spec.runsum_zero] at h
      exact h
    · refine (congrFun (out4_A_2_eq c (grid4.coords ⟨0, hn⟩) (ms4_0 ⟨0, hn⟩) (hs4_0 ⟨0, hn⟩) (ms4_1 ⟨0, hn⟩) (hs4_1 ⟨0, hn⟩)
        (ms4_2 ⟨0, hn⟩) (hs4_2 ⟨0, hn⟩) ((hcond4_0 ⟨0, hn⟩).mpr rfl) (hblk4 V c ⟨0, hn⟩)) (ix2 0 q)).trans ?_
      rw [r4_pay5_apply, r4_pay2_apply]
      have h := runsumsq_step4 V c ⟨0, hn⟩ q
      rw [show 5000 * (⟨0, hn⟩ : Fin cfg4.N).val = 0 from rfl, Spec.runsum_zero] at h
      exact h
  | n + 1, hn, q => by
    have hN : cfg4.N = 20 := N_4
    have hB : ¬(⟨n + 1, hn⟩ : Fin cfg4.N).val % 20 = 0 := by dsimp only; omega
    obtain ⟨ih1, ih2⟩ := outsAt4_eq c n (Nat.lt_of_succ_lt hn) q
    rw [outsAt4_B V c ⟨n + 1, hn⟩ hB]
    dsimp only
    constructor
    · refine (congrFun (out4_B_1_eq c (grid4.coords ⟨n + 1, hn⟩) (ms4_0 ⟨n + 1, hn⟩) (hs4_0 ⟨n + 1, hn⟩) (ms4_1 ⟨n + 1, hn⟩) (hs4_1 ⟨n + 1, hn⟩)
        (ms4_2 ⟨n + 1, hn⟩) (hs4_2 ⟨n + 1, hn⟩) (fun h => hB ((hcond4_0 ⟨n + 1, hn⟩).mp h)) (hblk4 V c ⟨n + 1, hn⟩)
        (outsAt4 V c n (Nat.lt_of_succ_lt hn)).1 (outsAt4 V c n (Nat.lt_of_succ_lt hn)).2) (ix2 0 q)).trans ?_
      rw [r4_pay4_apply, ih1]
      exact runsum_step4 V c ⟨n + 1, hn⟩ q
    · refine (congrFun (out4_B_2_eq c (grid4.coords ⟨n + 1, hn⟩) (ms4_0 ⟨n + 1, hn⟩) (hs4_0 ⟨n + 1, hn⟩) (ms4_1 ⟨n + 1, hn⟩) (hs4_1 ⟨n + 1, hn⟩)
        (ms4_2 ⟨n + 1, hn⟩) (hs4_2 ⟨n + 1, hn⟩) (fun h => hB ((hcond4_0 ⟨n + 1, hn⟩).mp h)) (hblk4 V c ⟨n + 1, hn⟩)
        (outsAt4 V c n (Nat.lt_of_succ_lt hn)).1 (outsAt4 V c n (Nat.lt_of_succ_lt hn)).2) (ix2 0 q)).trans ?_
      rw [r4_pay5_apply, ih2]
      exact runsumsq_step4 V c ⟨n + 1, hn⟩ q

/-! ## The one write-back, and the arrays -/

/-- The last point. -/
abbrev last4 : Fin cfg4.N := ⟨19, by rw [show cfg4.N = 20 from N_4]; decide⟩

/-- The output windows' one block has index zero on both axes at every point. -/
theorem idx_out4 : ∀ t : Fin cfg4.N, (∀ a : Fin 2, win4_1.index t a = 0) ∧ (∀ a : Fin 2, win4_2.index t a = 0) :=
  (by decide +kernel : ∀ t : Fin grid4.N, (∀ a : Fin 2, win4_1.index t a = 0) ∧ (∀ a : Fin 2, win4_2.index t a = 0))

/-- After the last point the first output holds the column sums of h. -/
theorem outs_last4_1 (c : Dev nD) (t : Fin cfg4.N) (h19 : t.val = 19) :
    (outsAt4 V c t.val t.isLt).1 = Spec.csum (harr4 V c) := by
  funext j
  obtain ⟨j0, j1, rfl⟩ : ∃ (a : Fin 1) (b : Fin 64), j = ix2 a b := ⟨j 0, j 1, eq_ix2 j⟩
  obtain rfl : j0 = 0 := Subsingleton.elim _ _
  rw [(outsAt4_eq V c t.val t.isLt j1).1, h19, show 5000 * (19 + 1) = 100000 from rfl]
  exact Spec.runsum_all _

/-- After the last point the second output holds the column sums of h². -/
theorem outs_last4_2 (c : Dev nD) (t : Fin cfg4.N) (h19 : t.val = 19) :
    (outsAt4 V c t.val t.isLt).2 = Spec.csumsq (harr4 V c) := by
  funext j
  obtain ⟨j0, j1, rfl⟩ : ∃ (a : Fin 1) (b : Fin 64), j = ix2 a b := ⟨j 0, j 1, eq_ix2 j⟩
  obtain rfl : j0 = 0 := Subsingleton.elim _ _
  rw [(outsAt4_eq V c t.val t.isLt j1).2, h19, show 5000 * (19 + 1) = 100000 from rfl]
  exact Spec.runsum_all _

/-- The one write-back of the first output writes the column sums of h: its block is the whole array. -/
theorem flushed4_1_eq (c : Dev nD) (t : Fin cfg4.N) (hf : (cfg4.win 1).flush t = true) :
    (dat4 V c).flushed 1 t = ((cfg4.win 1).blk t).view.read (Elt Ideal) (Spec.csum (harr4 V c)) := by
  have hN : cfg4.N = 20 := N_4
  have h19 : t.val = 19 := by have := (flush4_1 t).mp hf; have := t.isLt; omega
  show (cfg4.win 1).cut (grid4.coords t) ((dat4 V c).after 1 t) = _
  rw [after4_1, outs_last4_1 V c t h19]
  have hz' : (fun a => win4_1.index t a * main_v73_0.ty.shape.size a) = fun _ => 0 :=
    funext fun a => by rw [(idx_out4 t).1 a]; exact Nat.zero_mul _
  exact (Memref.read_access_unit_zero (Elt Ideal) main_v73_0 hz' (fun a => by rw [congrFun hz' a]; simp) (Spec.csum (harr4 V c))).symm

/-- The one write-back of the second output writes the column sums of h²: its block is the whole array. -/
theorem flushed4_2_eq (c : Dev nD) (t : Fin cfg4.N) (hf : (cfg4.win 2).flush t = true) :
    (dat4 V c).flushed 2 t = ((cfg4.win 2).blk t).view.read (Elt Ideal) (Spec.csumsq (harr4 V c)) := by
  have hN : cfg4.N = 20 := N_4
  have h19 : t.val = 19 := by have := (flush4_2 t).mp hf; have := t.isLt; omega
  show (cfg4.win 2).cut (grid4.coords t) ((dat4 V c).after 2 t) = _
  rw [after4_2, outs_last4_2 V c t h19]
  have hz' : (fun a => win4_2.index t a * main_v73_1.ty.shape.size a) = fun _ => 0 :=
    funext fun a => by rw [(idx_out4 t).2 a]; exact Nat.zero_mul _
  exact (Memref.read_access_unit_zero (Elt Ideal) main_v73_1 hz' (fun a => by rw [congrFun hz' a]; simp) (Spec.csumsq (harr4 V c))).symm

/-- The first result array ends holding the column sums of h: the last point's block covers it. -/
theorem final4_1 (c : Dev nD) : (dat4 V c).arrAt 1 cfg4.N = Spec.csum (harr4 V c) :=
  (dat4 V c).arrAt_eq_of_cover 1 (Spec.csum (harr4 V c)) (flushed4_1_eq V c) fun i =>
    ⟨last4, (flush4_1 last4).mpr rfl, by
      show i ∈ ((View.whole main_v73_0).slice (win4_1.rect last4)).set
      rw [View.set_slice_whole, Rect.mem_set_unit]
      intro a
      have h0 : (i 0 : Nat) < 1 := (i 0).isLt
      have h1 : (i 1 : Nat) < 64 := (i 1).isLt
      match a with
      | ⟨0, _⟩ => show win4_1.index last4 0 * win4_1.size 0 ≤ (i 0 : Nat) ∧ (i 0 : Nat) < win4_1.index last4 0 * win4_1.size 0 + win4_1.xsize (grid4.coords last4) 0
                  rw [show win4_1.index last4 0 * win4_1.size 0 = 0 from by decide +kernel, show win4_1.xsize (grid4.coords last4) 0 = 1 from by decide +kernel]; omega
      | ⟨1, _⟩ => show win4_1.index last4 1 * win4_1.size 1 ≤ (i 1 : Nat) ∧ (i 1 : Nat) < win4_1.index last4 1 * win4_1.size 1 + win4_1.xsize (grid4.coords last4) 1
                  rw [show win4_1.index last4 1 * win4_1.size 1 = 0 from by decide +kernel, show win4_1.xsize (grid4.coords last4) 1 = 64 from by decide +kernel]; omega⟩

/-- The second result array ends holding the column sums of h²: the last point's block covers it. -/
theorem final4_2 (c : Dev nD) : (dat4 V c).arrAt 2 cfg4.N = Spec.csumsq (harr4 V c) :=
  (dat4 V c).arrAt_eq_of_cover 2 (Spec.csumsq (harr4 V c)) (flushed4_2_eq V c) fun i =>
    ⟨last4, (flush4_2 last4).mpr rfl, by
      show i ∈ ((View.whole main_v73_1).slice (win4_2.rect last4)).set
      rw [View.set_slice_whole, Rect.mem_set_unit]
      intro a
      have h0 : (i 0 : Nat) < 1 := (i 0).isLt
      have h1 : (i 1 : Nat) < 64 := (i 1).isLt
      match a with
      | ⟨0, _⟩ => show win4_2.index last4 0 * win4_2.size 0 ≤ (i 0 : Nat) ∧ (i 0 : Nat) < win4_2.index last4 0 * win4_2.size 0 + win4_2.xsize (grid4.coords last4) 0
                  rw [show win4_2.index last4 0 * win4_2.size 0 = 0 from by decide +kernel, show win4_2.xsize (grid4.coords last4) 0 = 1 from by decide +kernel]; omega
      | ⟨1, _⟩ => show win4_2.index last4 1 * win4_2.size 1 ≤ (i 1 : Nat) ∧ (i 1 : Nat) < win4_2.index last4 1 * win4_2.size 1 + win4_2.xsize (grid4.coords last4) 1
                  rw [show win4_2.index last4 1 * win4_2.size 1 = 0 from by decide +kernel, show win4_2.xsize (grid4.coords last4) 1 = 64 from by decide +kernel]; omega⟩

/-- Region 4's two result arrays after its twenty points are the column sums of h and of h², h the array the region was entered with. -/
theorem bn_4 (c : Dev nD) :
    ((dat4 (F := Ideal) V c).arrAt 1 cfg4.N : Spec.RV) = Spec.csum (V c main_v72)
    ∧ ((dat4 (F := Ideal) V c).arrAt 2 cfg4.N : Spec.RV) = Spec.csumsq (V c main_v72) :=
  ⟨final4_1 V c, final4_2 V c⟩

end Cert.KernelIdeal.RegV

end
-- ==== Proof.Reg5.lean ====
/-
  The same kernel entered with other arrays; what it leaves in its result array: x' = max (y · W + b) 0 with
  y = max (((h - mean) · rsqrt (var + ε)) · γ + β) 0, row block by row block.

  The body's one stored value at row p, column q of a block is that expression of the blocks' entries (the matrix
  product is the plain sum over the 64 contraction coordinates; the row vectors are read at row 0). The block of h
  and of the result at point t is rows 5000 t … 5000 t + 4999; the row vectors and the matrix are whole at every
  point. So each point writes back its rows of the layer's second half, and the twenty blocks cover the 100000 rows.
-/
import proofs.«402690_j13675175870656_3_alg».proof.Proof.Gen.KernelIdeal.Frame
import proofs.«402690_j13675175870656_3_alg».proof.Proof.Spec
import proofs.«402690_j13675175870656_3_alg».proof.Proof.LibPlainDot
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.RegV

open Idealize.ShloMosaic Idealize.ShloMosaic.TcCoe Idealize.SL.Sem Idealize.ShloMosaic.ValueIdx
open Idealize.ShloMosaic.Pipeline (Dat)
open Cert.KernelIdeal Cert.KernelIdeal.Gen

/-- The block's value at row p, column q. -/
theorem pay_apply_r5 (x0 : Vec Ideal S5000x64 .f32) (mu va ga be : Vec Ideal S1x64 .f32) (w : Vec Ideal S64x64 .f32)
    (b : Vec Ideal S1x64 .f32) (p : Fin 5000) (q : Fin 64) :
    k5_pay1 (F := Ideal) x0 mu va ga be w b (ix2 p q)
      = max ((∑ k : Fin 64,
          max ((((x0 (ix2 p k) - mu (ix2 0 k)) * Ideal.rsqrt (va (ix2 0 k) + Spec.eps)) * ga (ix2 0 k)) + be (ix2 0 k)) 0
            * w (ix2 k q)) + b (ix2 0 q)) 0 := by
  unfold k5_pay1
  simp only [shapeCast_self]
  have hm : ∀ (l : FVec Ideal S5000x64 .bf16) (r : FVec Ideal S64x64 .bf16),
      matmul dot_S5000x64_S64x64_S5000x64_1_0_0_1_n_n none l r (constant S5000x64 .f32 0x00000000#32) (ix2 p q)
        = ∑ k : Fin 64, (l (ix2 p k) : EReal) * (r (ix2 k q) : EReal) :=
    fun l r => Cert.Lib.PlainDot.matmul_plain_zero_ix2 5000 64 64 none l r p q
  refine (congrArg₂ max (congrArg₂ (fun a b : EReal => a + b) (hm _ _) (broadcastTo_1b_ab_apply b _ p q)) Ideal.ofBits_zero_f32).trans ?_
  refine congrArg (fun s : EReal => max (s + b (ix2 0 q)) 0) (Finset.sum_congr rfl fun k _ => ?_)
  refine congrArg (fun y : EReal => y * w (ix2 k q)) ?_
  refine (congrArg₂ max (congrArg₂ (fun a b : EReal => a + b) (congrArg₂ (fun a b : EReal => a * b)
    (congrArg₂ (fun a b : EReal => a * b) (congrArg (fun m : EReal => x0 (ix2 p k) - m) (broadcastTo_1b_ab_apply mu _ p k))
      (broadcastTo_1b_ab_apply _ _ p k)) (broadcastTo_1b_ab_apply ga _ p k)) (broadcastTo_1b_ab_apply be _ p k))
    Ideal.ofBits_zero_f32).trans ?_
  rfl

variable (V : (c : Dev nD) → (b : Ref sig .tc) → Buf (Elt Ideal) ((c : Thread nD τ).loc b))

theorem hz_r5 : (![0, 0] : Fin 2 → Nat) = fun _ => 0 := funext fun a => by fin_cases a <;> rfl

/-- The blocks of the seven input arrays at point t. -/
abbrev hblk_r5 (c : Dev nD) (t : Fin cfg5.N) : Vec Ideal S5000x64 .f32 := iblk5 V c 0 t
abbrev mublk_r5 (c : Dev nD) (t : Fin cfg5.N) : Vec Ideal S1x64 .f32 := iblk5 V c 1 t
abbrev vablk_r5 (c : Dev nD) (t : Fin cfg5.N) : Vec Ideal S1x64 .f32 := iblk5 V c 2 t
abbrev gablk_r5 (c : Dev nD) (t : Fin cfg5.N) : Vec Ideal S1x64 .f32 := iblk5 V c 3 t
abbrev beblk_r5 (c : Dev nD) (t : Fin cfg5.N) : Vec Ideal S1x64 .f32 := iblk5 V c 4 t
abbrev wblk_r5 (c : Dev nD) (t : Fin cfg5.N) : Vec Ideal S64x64 .f32 := iblk5 V c 5 t
abbrev bblk_r5 (c : Dev nD) (t : Fin cfg5.N) : Vec Ideal S1x64 .f32 := iblk5 V c 6 t

/-- The block indices over the grid: the row windows move with the point, the others stay at block (0, 0). -/
theorem idx_facts_r5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- Row p of point t's block of h is row 5000 t + p of h. -/
theorem hblk_apply_r5 (c : Dev nD) (t : Fin cfg5.N) (p : Fin 5000) (k : Fin 64) (r : Fin 100000)
    (hr : r.val = t.val * 5000 + p.val) :
    hblk_r5 V c t (ix2 p k) = (V c main_v72 : Spec.NF) (ix2 r k) := by
  show V c main_v72 (((cfg5.win 0).blk t).view.emb (ix2 p k)) = V c main_v72 (ix2 r k)
  refine congrArg (V c main_v72) (funext fun a => Fin.ext ?_)
  match a with
  | ⟨0, _⟩ => show win5_0.index t (0 : Fin 2) * 5000 + 1 * p.val = r.val; rw [(idx_facts_r5 t).1, hr]; omega
  | ⟨1, _⟩ => show win5_0.index t (1 : Fin 2) * 64 + 1 * k.val = k.val; rw [(idx_facts_r5 t).2.1]; omega

/-- The row-vector windows and the matrix window hold their whole arrays at every point. -/
theorem mublk_apply_r5 (c : Dev nD) (t : Fin cfg5.N) (z : Fin 1) (k : Fin 64) :
    mublk_r5 V c t (ix2 z k) = (V c main_v75 : Spec.RV) (ix2 z k) := by
  show V c main_v75 (((cfg5.win 1).blk t).view.emb (ix2 z k)) = V c main_v75 (ix2 z k)
  refine congrArg (V c main_v75) (funext fun a => Fin.ext ?_)
  match a with
  | ⟨0, _⟩ => show win5_1.index t (0 : Fin 2) * 1 + 1 * z.val = z.val; rw [(idx_facts_r5 t).2.2.1]; omega
  | ⟨1, _⟩ => show win5_1.index t (1 : Fin 2) * 64 + 1 * k.val = k.val; rw [(idx_facts_r5 t).2.2.2.1]; omega
theorem vablk_apply_r5 (c : Dev nD) (t : Fin cfg5.N) (z : Fin 1) (k : Fin 64) :
    vablk_r5 V c t (ix2 z k) = (V c main_v81 : Spec.RV) (ix2 z k) := by
  show V c main_v81 (((cfg5.win 2).blk t).view.emb (ix2 z k)) = V c main_v81 (ix2 z k)
  refine congrArg (V c main_v81) (funext fun a => Fin.ext ?_)
  match a with
  | ⟨0, _⟩ => show win5_2.index t (0 : Fin 2) * 1 + 1 * z.val = z.val; rw [(idx_facts_r5 t).2.2.2.2.1]; omega
  | ⟨1, _⟩ => show win5_2.index t (1 : Fin 2) * 64 + 1 * k.val = k.val; rw [(idx_facts_r5 t).2.2.2.2.2.1]; omega
theorem gablk_apply_r5 (c : Dev nD) (t : Fin cfg5.N) (z : Fin 1) (k : Fin 64) :
    gablk_r5 V c t (ix2 z k) = (V c main_v63 : Spec.RV) (ix2 z k) := by
  show V c main_v63 (((cfg5.win 3).blk t).view.emb (ix2 z k)) = V c main_v63 (ix2 z k)
  refine congrArg (V c main_v63) (funext fun a => Fin.ext ?_)
  match a with
  | ⟨0, _⟩ => show win5_3.index t (0 : Fin 2) * 1 + 1 * z.val = z.val; rw [(idx_facts_r5 t).2.2.2.2.2.2.1]; omega
  | ⟨1, _⟩ => show win5_3.index t (1 : Fin 2) * 64 + 1 * k.val = k.val; rw [(idx_facts_r5 t).2.2.2.2.2.2.2.1]; omega
theorem beblk_apply_r5 (c : Dev nD) (t : Fin cfg5.N) (z : Fin 1) (k : Fin 64) :
    beblk_r5 V c t (ix2 z k) = (V c main_v66 : Spec.RV) (ix2 z k) := by
  show V c main_v66 (((cfg5.win 4).blk t).view.emb (ix2 z k)) = V c main_v66 (ix2 z k)
  refine congrArg (V c main_v66) (funext fun a => Fin.ext ?_)
  match a with
  | ⟨0, _⟩ => show win5_4.index t (0 : Fin 2) * 1 + 1 * z.val = z.val; rw [(idx_facts_r5 t).2.2.2.2.2.2.2.2.1]; omega
  | ⟨1, _⟩ => show win5_4.index t (1 : Fin 2) * 64 + 1 * k.val = k.val; rw [(idx_facts_r5 t).2.2.2.2.2.2.2.2.2.1]; omega
theorem wblk_apply_r5 (c : Dev nD) (t : Fin cfg5.N) (k : Fin 64) (q : Fin 64) :
    wblk_r5 V c t (ix2 k q) = (V c main_v68 : Spec.MW) (ix2 k q) := by
  show V c main_v68 (((cfg5.win 5).blk t).view.emb (ix2 k q)) = V c main_v68 (ix2 k q)
  refine congrArg (V c main_v68) (funext fun a => Fin.ext ?_)
  match a with
  | ⟨0, _⟩ => show win5_5.index t (0 : Fin 2) * 64 + 1 * k.val = k.val; rw [(idx_facts_r5 t).2.2.2.2.2.2.2.2.2.2.1]; omega
  | ⟨1, _⟩ => show win5_5.index t (1 : Fin 2) * 64 + 1 * q.val = q.val; rw [(idx_facts_r5 t).2.2.2.2.2.2.2.2.2.2.2.1]; omega
theorem bblk_apply_r5 (c : Dev nD) (t : Fin cfg5.N) (z : Fin 1) (k : Fin 64) :
    bblk_r5 V c t (ix2 z k) = (V c main_v71 : Spec.RV) (ix2 z k) := by
  show V c main_v71 (((cfg5.win 6).blk t).view.emb (ix2 z k)) = V c main_v71 (ix2 z k)
  refine congrArg (V c main_v71) (funext fun a => Fin.ext ?_)
  match a with
  | ⟨0, _⟩ => show win5_6.index t (0 : Fin 2) * 1 + 1 * z.val = z.val; rw [(idx_facts_r5 t).2.2.2.2.2.2.2.2.2.2.2.2.1]; omega
  | ⟨1, _⟩ => show win5_6.index t (1 : Fin 2) * 64 + 1 * k.val = k.val; rw [(idx_facts_r5 t).2.2.2.2.2.2.2.2.2.2.2.2.2.1]; omega

/-- The layer's second half of the arrays the region is entered with. -/
abbrev G_r5 (c : Dev nD) : Spec.NF :=
  Spec.mlp2 (V c main_v72) (V c main_v75) (V c main_v81) (V c main_v63) (V c main_v66) (V c main_v68) (V c main_v71)

/-- What point t writes back is rows 5000 t … 5000 t + 4999 of the layer's second half. -/
theorem flushed_eq_r5 (c : Dev nD) (t : Fin cfg5.N) :
    (dat5 V c).flushed 7 t = ((cfg5.win 7).blk t).view.read (Elt Ideal) (G_r5 V c) := by
  show (cfg5.win 7).cut (grid5.coords t) ((dat5 V c).after 7 t) = _
  rw [after5_7]
  unfold out5_7
  rw [View.canon_unit_zero hz_r5]
  simp only [View.ld_unit_zero (S := S5000x64) hz_r5, View.ld_unit_zero (S := S1x64) hz_r5, View.ld_unit_zero (S := S64x64) hz_r5]
  funext j
  show k5_pay1 (F := Ideal) (hblk_r5 V c t) (mublk_r5 V c t) (vablk_r5 V c t) (gablk_r5 V c t) (beblk_r5 V c t) (wblk_r5 V c t) (bblk_r5 V c t) j
    = G_r5 V c (((cfg5.win 7).blk t).view.emb j)
  obtain ⟨p, q, rfl⟩ : ∃ (p : Fin 5000) (q : Fin 64), j = ix2 p q := ⟨j 0, j 1, eq_ix2 (n0 := 5000) (n1 := 64) j⟩
  have hp : p.val < 5000 := p.isLt
  have ht : t.val < 20 := lt_of_lt_of_eq t.isLt N_5
  obtain ⟨_, _, _, _, _, _, _, _, _, _, _, _, _, _, e70, e71⟩ := idx_facts_r5 t
  have hi : ((cfg5.win 7).blk t).view.emb (ix2 p q)
      = (ix2 (⟨t.val * 5000 + p.val, by omega⟩ : Fin 100000) q : S100000x64.Idx) := funext fun a => Fin.ext (by
    match a with
    | ⟨0, _⟩ => show win5_7.index t (0 : Fin 2) * 5000 + 1 * p.val = t.val * 5000 + p.val; rw [e70]; omega
    | ⟨1, _⟩ => show win5_7.index t (1 : Fin 2) * 64 + 1 * q.val = q.val; rw [e71]; omega)
  rw [hi]
  refine (pay_apply_r5 _ _ _ _ _ _ _ p q).trans ?_
  show _ = max ((∑ k : Fin 64, Spec.bn (V c main_v72) (V c main_v75) (V c main_v81) (V c main_v63) (V c main_v66)
      (ix2 (⟨t.val * 5000 + p.val, by omega⟩ : Fin 100000) k) * (V c main_v68 : Spec.MW) (ix2 k q)) + (V c main_v71 : Spec.RV) (ix2 0 q)) 0
  refine congrArg₂ max (congrArg₂ (fun a b : EReal => a + b) (Finset.sum_congr rfl fun k _ => ?_) (bblk_apply_r5 V c t 0 q)) rfl
  refine congrArg₂ (fun a b : EReal => a * b) ?_ (wblk_apply_r5 V c t k q)
  rw [hblk_apply_r5 V c t p k ⟨t.val * 5000 + p.val, by omega⟩ rfl, mublk_apply_r5 V c t 0 k, vablk_apply_r5 V c t 0 k,
    gablk_apply_r5 V c t 0 k, beblk_apply_r5 V c t 0 k]
  rfl

/-- Every row is in the block of the point that is its quotient by 5000. -/
theorem cover_r5 (c : Dev nD) (i : S100000x64.Idx) :
    ∃ t : Fin cfg5.N, (cfg5.win 7).flush t = true ∧ i ∈ ((cfg5.win 7).blk t).view.set := by
  have hi0 : (i 0).val < 100000 := (i 0).isLt
  have hi1 : (i 1).val < 64 := (i 1).isLt
  have hN : cfg5.N = 20 := N_5
  let t : Fin cfg5.N := ⟨(i 0).val / 5000, by rw [hN]; omega⟩
  have htv : t.val = (i 0).val / 5000 := rfl
  obtain ⟨_, _, _, _, _, _, _, _, _, _, _, _, _, _, e70, e71⟩ := idx_facts_r5 t
  refine ⟨t, flush5_7 t, ?_⟩
  show i ∈ ((View.whole main_v82).slice (win5_7.rect t)).set
  rw [View.set_slice_whole, Rect.mem_set_unit]
  intro a
  match a with
  | ⟨0, _⟩ =>
    show win5_7.index t (0 : Fin 2) * 5000 ≤ (i 0).val ∧ (i 0).val < win5_7.index t (0 : Fin 2) * 5000 + 5000
    rw [e70, htv]; omega
  | ⟨1, _⟩ =>
    show win5_7.index t (1 : Fin 2) * 64 ≤ (i 1).val ∧ (i 1).val < win5_7.index t (1 : Fin 2) * 64 + 64
    rw [e71]; omega

/-- Region 5's result array after its twenty points is the second half of a layer of the arrays the region was entered with. -/
theorem mlp2_5 (c : Dev nD) :
    ((dat5 (F := Ideal) V c).arrAt 7 cfg5.N : Spec.NF)
      = Spec.mlp2 (V c main_v72) (V c main_v75) (V c main_v81) (V c main_v63) (V c main_v66) (V c main_v68) (V c main_v71) :=
  (dat5 V c).arrAt_eq_of_cover 7 (G_r5 V c) (fun t _ => flushed_eq_r5 V c t) (cover_r5 c)

end Cert.KernelIdeal.RegV

end
-- ==== Proof.KSegB.lean ====
/-
  The kernel program's second layer: from the contents at its entry to the contents at the third layer's entry.
-/
import proofs.«402690_j13675175870656_3_alg».proof.Proof.Gen.KernelIdeal.Frame
import proofs.«402690_j13675175870656_3_alg».proof.Proof.Spec
import proofs.«402690_j13675175870656_3_alg».proof.Proof.KDefs
import proofs.«402690_j13675175870656_3_alg».proof.Proof.Reg3
import proofs.«402690_j13675175870656_3_alg».proof.Proof.Reg4
import proofs.«402690_j13675175870656_3_alg».proof.Proof.Reg5
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

namespace Cert.KernelIdeal.KSeg

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-- A buffer no operation of a host stretch writes keeps its contents: the writes of the listed operations, one by one. -/
local macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ### The host's slices and statistics as the layer's functions -/

/-- Layer 1's matrix out of a stack: the slice at offset 1 with its unit axis dropped. -/
theorem sliceW_one_B (W : Spec.W3) :
    shapeCast S64x64 (extractStridedSlice S1x64x64 ![1, 0, 0] W slices_S3x64x64_S1x64x64_1_0_0) shapeCasts_S1x64x64_S64x64
      = Spec.sliceW W 1 := by
  funext i
  obtain ⟨a, b, rfl⟩ : ∃ (a : Fin 64) (b : Fin 64), i = ix2 a b := ⟨i 0, i 1, eq_ix2 i⟩
  rw [shapeCast_1ab_ab_apply]
  exact extractStridedSlice_apply _ _ _ _ (ix3 (1 : Fin 3) a b) fun ax => by
    match ax with
    | ⟨0, _⟩ => rfl
    | ⟨1, _⟩ => show a.val = 0 + a.val; omega
    | ⟨2, _⟩ => show b.val = 0 + b.val; omega

/-- Layer 1's row vector out of a stack: the slice at offset 1, flattened and given its unit axis back. -/
theorem sliceV_one_B (v : Spec.V3) :
    shapeCast S1x64 (shapeCast S64 (extractStridedSlice S1x64 ![1, 0] v slices_S3x64_S1x64_1_0) shapeCasts_S1x64_S64)
        shapeCasts_S64_S1x64
      = Spec.sliceV v 1 := by
  rw [shapeCast_shapeCast]
  funext i
  obtain ⟨a, b, rfl⟩ : ∃ (a : Fin 1) (b : Fin 64), i = ix2 a b := ⟨i 0, i 1, eq_ix2 i⟩
  exact extractStridedSlice_apply _ _ _ _ (ix2 (1 : Fin 3) b) fun ax => by
    match ax with
    | ⟨0, _⟩ => show 1 = 1 + a.val; omega
    | ⟨1, _⟩ => show b.val = 0 + b.val; omega

/-- The host's mean of a column-sum row: the division by the row count, entry by entry. -/
theorem mean_host_B (s : Spec.RV) :
    Host.divf (F := Ideal) (φ := .f32) (s := S1x64) s (broadcastInDim S1x64 ![] bcast_S_S1x64 (constant S_ .f32 0x47C35000#32))
      = Spec.meanK s := by
  funext j
  rfl

/-- The host's variance from the two column-sum rows: mean of squares less squared mean, clamped below at zero. -/
theorem var_host_B (s q : Spec.RV) :
    maximumf (F := Ideal) (φ := .f32) (s := S1x64)
        (subf (Host.divf q (broadcastInDim S1x64 ![] bcast_S_S1x64 (constant S_ .f32 0x47C35000#32)))
          (mulf (Host.divf s (broadcastInDim S1x64 ![] bcast_S_S1x64 (constant S_ .f32 0x47C35000#32)))
            (Host.divf s (broadcastInDim S1x64 ![] bcast_S_S1x64 (constant S_ .f32 0x47C35000#32)))))
        (broadcastInDim S1x64 ![] bcast_S_S1x64 (constant S_ .f32 0x00000000#32))
      = Spec.varK s q := by
  funext j
  show max (Ideal.div (q j) Spec.cnt - Ideal.div (s j) Spec.cnt * Ideal.div (s j) Spec.cnt) (Ideal.ofBits .f32 0x00000000#32)
    = max (Ideal.div (q j) Spec.cnt - Spec.meanK s j * Spec.meanK s j) 0
  rw [Ideal.ofBits_zero_f32]
  rfl

/-! ### The host operations before the layer's first kernel: the neighbour sums and the layer's parameters -/

theorem W6_v45 : W6 m ρ c (Proc.devRef .tc main_v45) = W5 m ρ c (Proc.devRef .tc main_v45) := by
  show StableHlo.after hostOps3 (W5 m ρ c) (Proc.devRef .tc main_v45) = _
  host_keeps hostOps3

set_option maxHeartbeats 1600000 in
theorem W6_v55 : W6 m ρ c (Proc.devRef .tc main_v55)
    = KV.agg (W5 m ρ c (Proc.devRef .tc main_v1)) (W5 m ρ c (Proc.devRef .tc main_v3)) (W5 m ρ c (Proc.devRef .tc main_v45)) := by
  show StableHlo.after hostOps3 (W5 m ρ c) (Proc.devRef .tc main_v55) = _
  after_results
  unfold KV.agg KV.srcIdx
  rfl

theorem W6_v57 : (W6 m ρ c (Proc.devRef .tc main_v57) : Spec.MW) = Spec.sliceW (W5 m ρ c (Proc.devRef .tc main_arg3)) 1 := by
  refine Eq.trans ?_ (sliceW_one_B _)
  show StableHlo.after hostOps3 (W5 m ρ c) (Proc.devRef .tc main_v57) = _
  after_results
  rfl

theorem W6_v60 : (W6 m ρ c (Proc.devRef .tc main_v60) : Spec.RV) = Spec.sliceV (W5 m ρ c (Proc.devRef .tc main_arg4)) 1 := by
  refine Eq.trans ?_ (sliceV_one_B _)
  show StableHlo.after hostOps3 (W5 m ρ c) (Proc.devRef .tc main_v60) = _
  after_results
  rfl

theorem W6_v63 : (W6 m ρ c (Proc.devRef .tc main_v63) : Spec.RV) = Spec.sliceV (W5 m ρ c (Proc.devRef .tc main_arg5)) 1 := by
  refine Eq.trans ?_ (sliceV_one_B _)
  show StableHlo.after hostOps3 (W5 m ρ c) (Proc.devRef .tc main_v63) = _
  after_results
  rfl

theorem W6_v66 : (W6 m ρ c (Proc.devRef .tc main_v66) : Spec.RV) = Spec.sliceV (W5 m ρ c (Proc.devRef .tc main_arg6)) 1 := by
  refine Eq.trans ?_ (sliceV_one_B _)
  show StableHlo.after hostOps3 (W5 m ρ c) (Proc.devRef .tc main_v66) = _
  after_results
  rfl

theorem W6_v68 : (W6 m ρ c (Proc.devRef .tc main_v68) : Spec.MW) = Spec.sliceW (W5 m ρ c (Proc.devRef .tc main_arg7)) 1 := by
  refine Eq.trans ?_ (sliceW_one_B _)
  show StableHlo.after hostOps3 (W5 m ρ c) (Proc.devRef .tc main_v68) = _
  after_results
  rfl

theorem W6_v71 : (W6 m ρ c (Proc.devRef .tc main_v71) : Spec.RV) = Spec.sliceV (W5 m ρ c (Proc.devRef .tc main_arg8)) 1 := by
  refine Eq.trans ?_ (sliceV_one_B _)
  show StableHlo.after hostOps3 (W5 m ρ c) (Proc.devRef .tc main_v71) = _
  after_results
  rfl

/-! ### The layer's first kernel: h = (x + a) · W1 + b1 -/

theorem W7_v72 : (W7 m ρ c (Proc.devRef .tc main_v72) : Spec.NF)
    = Spec.lin1 (W6 m ρ c (Proc.devRef .tc main_v45)) (W6 m ρ c (Proc.devRef .tc main_v55))
        (W6 m ρ c (Proc.devRef .tc main_v57)) (W6 m ρ c (Proc.devRef .tc main_v60)) :=
  (W7_arr m ρ c 4).trans (RegV.mlp1_3 (V6 m ρ) c)

theorem W7_v63 : W7 m ρ c (Proc.devRef .tc main_v63) = W6 m ρ c (Proc.devRef .tc main_v63) := W7_of_ne m ρ c main_v63 (by decide)
theorem W7_v66 : W7 m ρ c (Proc.devRef .tc main_v66) = W6 m ρ c (Proc.devRef .tc main_v66) := W7_of_ne m ρ c main_v66 (by decide)
theorem W7_v68 : W7 m ρ c (Proc.devRef .tc main_v68) = W6 m ρ c (Proc.devRef .tc main_v68) := W7_of_ne m ρ c main_v68 (by decide)
theorem W7_v71 : W7 m ρ c (Proc.devRef .tc main_v71) = W6 m ρ c (Proc.devRef .tc main_v71) := W7_of_ne m ρ c main_v71 (by decide)

/-! ### The layer's second kernel: the column sums of h and of h² -/

theorem W8_v73_0 : (W8 m ρ c (Proc.devRef .tc main_v73_0) : Spec.RV) = Spec.csum (W7 m ρ c (Proc.devRef .tc main_v72)) :=
  (W8_arr m ρ c 1).trans (RegV.bn_4 (V7 m ρ) c).1
theorem W8_v73_1 : (W8 m ρ c (Proc.devRef .tc main_v73_1) : Spec.RV) = Spec.csumsq (W7 m ρ c (Proc.devRef .tc main_v72)) :=
  (W8_arr m ρ c 2).trans (RegV.bn_4 (V7 m ρ) c).2

/-- The kernel reads h and leaves it. -/
theorem W8_v72 : W8 m ρ c (Proc.devRef .tc main_v72) = W7 m ρ c (Proc.devRef .tc main_v72) :=
  (W8_arr m ρ c 0).trans (((dat4 (V7 m ρ) c).arrAt_in 0 rfl _).trans (A_eq4 (V7 m ρ) c 0))

theorem W8_v63 : W8 m ρ c (Proc.devRef .tc main_v63) = W7 m ρ c (Proc.devRef .tc main_v63) := W8_of_ne m ρ c main_v63 (by decide)
theorem W8_v66 : W8 m ρ c (Proc.devRef .tc main_v66) = W7 m ρ c (Proc.devRef .tc main_v66) := W8_of_ne m ρ c main_v66 (by decide)
theorem W8_v68 : W8 m ρ c (Proc.devRef .tc main_v68) = W7 m ρ c (Proc.devRef .tc main_v68) := W8_of_ne m ρ c main_v68 (by decide)
theorem W8_v71 : W8 m ρ c (Proc.devRef .tc main_v71) = W7 m ρ c (Proc.devRef .tc main_v71) := W8_of_ne m ρ c main_v71 (by decide)

/-! ### The host's statistics from the column sums -/

theorem W9_v75 : (W9 m ρ c (Proc.devRef .tc main_v75) : Spec.RV) = Spec.meanK (W8 m ρ c (Proc.devRef .tc main_v73_0)) := by
  refine Eq.trans ?_ (mean_host_B _)
  show StableHlo.after hostOps5 (W8 m ρ c) (Proc.devRef .tc main_v75) = _
  after_results

theorem W9_v81 : (W9 m ρ c (Proc.devRef .tc main_v81) : Spec.RV)
    = Spec.varK (W8 m ρ c (Proc.devRef .tc main_v73_0)) (W8 m ρ c (Proc.devRef .tc main_v73_1)) := by
  refine Eq.trans ?_ (var_host_B _ _)
  show StableHlo.after hostOps5 (W8 m ρ c) (Proc.devRef .tc main_v81) = _
  after_results

theorem W9_v72 : W9 m ρ c (Proc.devRef .tc main_v72) = W8 m ρ c (Proc.devRef .tc main_v72) := by
  show StableHlo.after hostOps5 (W8 m ρ c) (Proc.devRef .tc main_v72) = _
  host_keeps hostOps5
theorem W9_v63 : W9 m ρ c (Proc.devRef .tc main_v63) = W8 m ρ c (Proc.devRef .tc main_v63) := by
  show StableHlo.after hostOps5 (W8 m ρ c) (Proc.devRef .tc main_v63) = _
  host_keeps hostOps5
theorem W9_v66 : W9 m ρ c (Proc.devRef .tc main_v66) = W8 m ρ c (Proc.devRef .tc main_v66) := by
  show StableHlo.after hostOps5 (W8 m ρ c) (Proc.devRef .tc main_v66) = _
  host_keeps hostOps5
theorem W9_v68 : W9 m ρ c (Proc.devRef .tc main_v68) = W8 m ρ c (Proc.devRef .tc main_v68) := by
  show StableHlo.after hostOps5 (W8 m ρ c) (Proc.devRef .tc main_v68) = _
  host_keeps hostOps5
theorem W9_v71 : W9 m ρ c (Proc.devRef .tc main_v71) = W8 m ρ c (Proc.devRef .tc main_v71) := by
  show StableHlo.after hostOps5 (W8 m ρ c) (Proc.devRef .tc main_v71) = _
  host_keeps hostOps5

/-! ### The layer's third kernel, and the layer -/

theorem W10_v82_mlp2 : (W10 m ρ c (Proc.devRef .tc main_v82) : Spec.NF)
    = Spec.mlp2 (W9 m ρ c (Proc.devRef .tc main_v72)) (W9 m ρ c (Proc.devRef .tc main_v75)) (W9 m ρ c (Proc.devRef .tc main_v81))
        (W9 m ρ c (Proc.devRef .tc main_v63)) (W9 m ρ c (Proc.devRef .tc main_v66)) (W9 m ρ c (Proc.devRef .tc main_v68))
        (W9 m ρ c (Proc.devRef .tc main_v71)) :=
  (W10_arr m ρ c 7).trans (RegV.mlp2_5 (V9 m ρ) c)

/-- After the second layer's three kernels the feature array holds the layer of the arrays the layer was entered with. -/
theorem W10_v82 :
    (W10 m ρ c (Proc.devRef .tc main_v82) : Spec.NF)
      = Spec.layerK (W5 m ρ c (Proc.devRef .tc main_v45))
          (KV.agg (W5 m ρ c (Proc.devRef .tc main_v1)) (W5 m ρ c (Proc.devRef .tc main_v3)) (W5 m ρ c (Proc.devRef .tc main_v45)))
          (W5 m ρ c (Proc.devRef .tc main_arg3)) (W5 m ρ c (Proc.devRef .tc main_arg4)) (W5 m ρ c (Proc.devRef .tc main_arg5))
          (W5 m ρ c (Proc.devRef .tc main_arg6)) (W5 m ρ c (Proc.devRef .tc main_arg7)) (W5 m ρ c (Proc.devRef .tc main_arg8)) 1 := by
  rw [W10_v82_mlp2, W9_v72, W9_v75, W9_v81, W9_v63, W9_v66, W9_v68, W9_v71,
    W8_v72, W8_v73_0, W8_v73_1, W8_v63, W8_v66, W8_v68, W8_v71,
    W7_v72, W7_v63, W7_v66, W7_v68, W7_v71,
    W6_v45, W6_v55, W6_v57, W6_v60, W6_v63, W6_v66, W6_v68, W6_v71]
  rfl

/-! ### What the layer leaves alone -/

/-- No operation of a host stretch writes the buffer: the writes of the listed operations, one by one. -/
local macro "host_writes" ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

theorem W6_keep_B (b : Ref sig .tc)
    (h : ∀ op ∈ (hostOps3 : List (HloOp τ sig (Elt Ideal))), Proc.devRef .tc b ∉ op.writes) :
    W6 m ρ c (Proc.devRef .tc b) = W5 m ρ c (Proc.devRef .tc b) :=
  StableHlo.after_of_forall_not_mem _ _ h

theorem W9_keep_B (b : Ref sig .tc)
    (h : ∀ op ∈ (hostOps5 : List (HloOp τ sig (Elt Ideal))), Proc.devRef .tc b ∉ op.writes) :
    W9 m ρ c (Proc.devRef .tc b) = W8 m ρ c (Proc.devRef .tc b) :=
  StableHlo.after_of_forall_not_mem _ _ h

/-- Through the layer's two host stretches and three kernels a buffer none of them writes keeps its contents. -/
local macro "keeps_layer" : tactic =>
  `(tactic| (
      refine (W10_of_ne _ _ _ _ (by decide)).trans ?_
      refine (W9_keep_B _ _ _ _ (by host_writes hostOps5)).trans ?_
      refine (W8_of_ne _ _ _ _ (by decide)).trans ?_
      refine (W7_of_ne _ _ _ _ (by decide)).trans ?_
      exact W6_keep_B _ _ _ _ (by host_writes hostOps3)))

/-- Nothing in the second layer writes these buffers. -/
theorem keepB : ∀ b ∈ ([main_v1, main_v3, main_v4, main_v8, main_arg3, main_arg4, main_arg5, main_arg6, main_arg7, main_arg8] : List (Ref sig .tc)),
    W10 m ρ c (Proc.devRef .tc b) = W5 m ρ c (Proc.devRef .tc b) := by
  intro b hb
  simp only [List.mem_cons, List.mem_singleton, List.not_mem_nil, or_false] at hb
  rcases hb with rfl | rfl | rfl | rfl | rfl | rfl | rfl | rfl | rfl | rfl
  all_goals keeps_layer

end Cert.KernelIdeal.KSeg

end
-- ==== Proof.Reg6.lean ====
/-
  What the first kernel of the third layer leaves in its result array: h = (x + a) · W + b, row block by row block.
-/
import proofs.«402690_j13675175870656_3_alg».proof.Proof.Gen.KernelIdeal.Frame
import proofs.«402690_j13675175870656_3_alg».proof.Proof.Spec
import proofs.«402690_j13675175870656_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegV

open Idealize.ShloMosaic Idealize.ShloMosaic.TcCoe Idealize.SL.Sem Idealize.ShloMosaic.ValueIdx
open Idealize.ShloMosaic.Pipeline (Dat)
open Cert.KernelIdeal Cert.KernelIdeal.Gen

theorem hz6 : (![0, 0] : Fin 2 → Nat) = fun _ => 0 := funext fun a => by
  match a with
  | ⟨0, _⟩ => rfl
  | ⟨1, _⟩ => rfl

/-- The stored value at row p, column q of a block: the row of x + a times the column of W, plus b's entry. -/
theorem pay6_apply (x0 x1 : Vec Ideal S5000x64 .f32) (x2 : Vec Ideal S64x64 .f32) (x3 : Vec Ideal S1x64 .f32)
    (p : Fin 5000) (q : Fin 64) :
    (k6_pay1 x0 x1 x2 x3 (ix2 p q) : EReal)
      = (∑ k : Fin 64, ((x0 (ix2 p k) : EReal) + x1 (ix2 p k)) * x2 (ix2 k q)) + x3 (ix2 0 q) := by
  unfold k6_pay1
  rw [shapeCast_self, shapeCast_self, shapeCast_self, shapeCast_self]
  refine congrArg₂ (fun a b : EReal => a + b) ?_ ?_
  · exact Cert.Lib.PlainDot.matmul_plain_zero_ix2 5000 64 64 none _ _ p q
  · refine broadcastTo_apply x3 broadcasts_S1x64_S5000x64 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

/-- The four input blocks of a point, at their literal types. -/
abbrev xblk6 (c : Dev nD) (t : Fin cfg6.N) : Vec Ideal S5000x64 .f32 := iblk6 V c 0 t
abbrev ablk6 (c : Dev nD) (t : Fin cfg6.N) : Vec Ideal S5000x64 .f32 := iblk6 V c 1 t
abbrev wblk6 (c : Dev nD) (t : Fin cfg6.N) : Vec Ideal S64x64 .f32 := iblk6 V c 2 t
abbrev bblk6 (c : Dev nD) (t : Fin cfg6.N) : Vec Ideal S1x64 .f32 := iblk6 V c 3 t

/-- The four arrays the region reads, at their literal types. -/
abbrev xarr6 (c : Dev nD) : Spec.NF := V c main_v82
abbrev aarr6 (c : Dev nD) : Spec.NF := V c main_v92
abbrev warr6 (c : Dev nD) : Spec.MW := V c main_v94
abbrev barr6 (c : Dev nD) : Spec.RV := V c main_v97

/-- Block t of x is rows 5000 t … 5000 t + 4999 of x. -/
theorem xblk6_apply (c : Dev nD) (t : Fin cfg6.N) (y : S5000x64.Idx) (i : S100000x64.Idx)
    (h0 : (i 0).val = t.val * 5000 + (y 0).val) (h1 : (i 1).val = (y 1).val) :
    xblk6 V c t y = xarr6 V c i := by
  have hi : win6_0.index t (0 : Fin 2) = t.val ∧ win6_0.index t (1 : Fin 2) = 0 :=
    (by decide +kernel : ∀ t : Fin grid6.N, win6_0.index t (0 : Fin 2) = t.val ∧ win6_0.index t (1 : Fin 2) = 0) t
  show V c main_v82 (((cfg6.win 0).blk t).view.emb y) = V c main_v82 i
  refine congrArg (V c main_v82) (funext fun a => Fin.ext ?_)
  match a with
  | ⟨0, _⟩ => show win6_0.index t (0 : Fin 2) * 5000 + 1 * (y 0).val = (i 0).val; rw [hi.1, h0]; omega
  | ⟨1, _⟩ => show win6_0.index t (1 : Fin 2) * 64 + 1 * (y 1).val = (i 1).val; rw [hi.2, h1]; omega

/-- Block t of a is the same rows of a. -/
theorem ablk6_apply (c : Dev nD) (t : Fin cfg6.N) (y : S5000x64.Idx) (i : S100000x64.Idx)
    (h0 : (i 0).val = t.val * 5000 + (y 0).val) (h1 : (i 1).val = (y 1).val) :
    ablk6 V c t y = aarr6 V c i := by
  have hi : win6_1.index t (0 : Fin 2) = t.val ∧ win6_1.index t (1 : Fin 2) = 0 :=
    (by decide +kernel : ∀ t : Fin grid6.N, win6_1.index t (0 : Fin 2) = t.val ∧ win6_1.index t (1 : Fin 2) = 0) t
  show V c main_v92 (((cfg6.win 1).blk t).view.emb y) = V c main_v92 i
  refine congrArg (V c main_v92) (funext fun a => Fin.ext ?_)
  match a with
  | ⟨0, _⟩ => show win6_1.index t (0 : Fin 2) * 5000 + 1 * (y 0).val = (i 0).val; rw [hi.1, h0]; omega
  | ⟨1, _⟩ => show win6_1.index t (1 : Fin 2) * 64 + 1 * (y 1).val = (i 1).val; rw [hi.2, h1]; omega

/-- Every point's block of W is all of W. -/
theorem wblk6_apply (c : Dev nD) (t : Fin cfg6.N) (y : S64x64.Idx) : wblk6 V c t y = warr6 V c y := by
  have hi : win6_2.index t (0 : Fin 2) = 0 ∧ win6_2.index t (1 : Fin 2) = 0 :=
    (by decide +kernel : ∀ t : Fin grid6.N, win6_2.index t (0 : Fin 2) = 0 ∧ win6_2.index t (1 : Fin 2) = 0) t
  show V c main_v94 (((cfg6.win 2).blk t).view.emb y) = V c main_v94 y
  refine congrArg (V c main_v94) (funext fun a => Fin.ext ?_)
  match a with
  | ⟨0, _⟩ => show win6_2.index t (0 : Fin 2) * 64 + 1 * (y 0).val = (y 0).val; rw [hi.1]; omega
  | ⟨1, _⟩ => show win6_2.index t (1 : Fin 2) * 64 + 1 * (y 1).val = (y 1).val; rw [hi.2]; omega

/-- Every point's block of b is all of b. -/
theorem bblk6_apply (c : Dev nD) (t : Fin cfg6.N) (y : S1x64.Idx) : bblk6 V c t y = barr6 V c y := by
  have hi : win6_3.index t (0 : Fin 2) = 0 ∧ win6_3.index t (1 : Fin 2) = 0 :=
    (by decide +kernel : ∀ t : Fin grid6.N, win6_3.index t (0 : Fin 2) = 0 ∧ win6_3.index t (1 : Fin 2) = 0) t
  show V c main_v97 (((cfg6.win 3).blk t).view.emb y) = V c main_v97 y
  refine congrArg (V c main_v97) (funext fun a => Fin.ext ?_)
  match a with
  | ⟨0, _⟩ => show win6_3.index t (0 : Fin 2) * 1 + 1 * (y 0).val = (y 0).val; rw [hi.1]; omega
  | ⟨1, _⟩ => show win6_3.index t (1 : Fin 2) * 64 + 1 * (y 1).val = (y 1).val; rw [hi.2]; omega

/-- The whole result: (x + a) · W + b of the arrays the region was entered with. -/
abbrev G6 (c : Dev nD) : Spec.NF := Spec.lin1 (xarr6 V c) (aarr6 V c) (warr6 V c) (barr6 V c)

/-- What a point stores at row p, column q of its block is the whole result at row 5000 t + p, column q. -/
theorem blk6_val (c : Dev nD) (t : Fin cfg6.N) (p : Fin 5000) (q : Fin 64) (r : Fin 100000)
    (hr : r.val = t.val * 5000 + p.val) :
    (k6_pay1 (xblk6 V c t) (ablk6 V c t) (wblk6 V c t) (bblk6 V c t) (ix2 p q) : EReal) = G6 V c (ix2 r q) := by
  refine (pay6_apply (xblk6 V c t) (ablk6 V c t) (wblk6 V c t) (bblk6 V c t) p q).trans ?_
  show _ = (∑ k : Fin 64, (xarr6 V c (ix2 r k) + aarr6 V c (ix2 r k)) * warr6 V c (ix2 k q)) + barr6 V c (ix2 0 q)
  refine congrArg₂ (fun a b : EReal => a + b) (Finset.sum_congr rfl fun k _ => ?_) (bblk6_apply V c t (ix2 0 q))
  refine congrArg₂ (fun a b : EReal => a * b) (congrArg₂ (fun a b : EReal => a + b) ?_ ?_) (wblk6_apply V c t (ix2 k q))
  · exact xblk6_apply V c t (ix2 p k) (ix2 r k) hr rfl
  · exact ablk6_apply V c t (ix2 p k) (ix2 r k) hr rfl

/-- What point t writes back is block t of the whole result. -/
theorem flushed6_eq (c : Dev nD) (t : Fin cfg6.N) :
    (dat6 (F := Ideal) V c).flushed 4 t = ((cfg6.win 4).blk t).view.read (Elt Ideal) (G6 V c) := by
  have hi : win6_4.index t (0 : Fin 2) = t.val ∧ win6_4.index t (1 : Fin 2) = 0 :=
    (by decide +kernel : ∀ t : Fin grid6.N, win6_4.index t (0 : Fin 2) = t.val ∧ win6_4.index t (1 : Fin 2) = 0) t
  have ht : t.val < 20 := t.isLt
  show (cfg6.win 4).cut (grid6.coords t) ((dat6 (F := Ideal) V c).after 4 t) = _
  rw [after6_4]
  unfold out6_4
  rw [View.canon_unit_zero hz6]
  simp only [View.ld_unit_zero (S := S5000x64) hz6, View.ld_unit_zero (S := S64x64) hz6, View.ld_unit_zero (S := S1x64) hz6]
  refine funext fun (j : S5000x64.Idx) => ?_
  obtain ⟨p, q, rfl⟩ : ∃ (p : Fin 5000) (q : Fin 64), j = ix2 p q := ⟨j 0, j 1, eq_ix2 j⟩
  show (k6_pay1 (xblk6 V c t) (ablk6 V c t) (wblk6 V c t) (bblk6 V c t) (ix2 p q) : EReal)
    = G6 V c (((cfg6.win 4).blk t).view.emb (ix2 p q))
  refine (blk6_val V c t p q ⟨t.val * 5000 + p.val, by have := p.isLt; omega⟩ rfl).trans ?_
  refine congrArg (G6 V c) (funext fun a => Fin.ext ?_)
  match a with
  | ⟨0, _⟩ => show t.val * 5000 + p.val = win6_4.index t (0 : Fin 2) * 5000 + 1 * p.val; rw [hi.1]; omega
  | ⟨1, _⟩ => show q.val = win6_4.index t (1 : Fin 2) * 64 + 1 * q.val; rw [hi.2]; omega

/-- Region 6's result array after its twenty points is (x + a) · W + b of the arrays the region was entered with. -/
theorem mlp1_6 (c : Dev nD) :
    ((dat6 (F := Ideal) V c).arrAt 4 cfg6.N : Spec.NF)
      = Spec.lin1 (V c main_v82) (V c main_v92) (V c main_v94) (V c main_v97) := by
  refine (dat6 (F := Ideal) V c).arrAt_eq_of_cover 4 (G6 V c) (fun t _ => flushed6_eq V c t) fun (i : S100000x64.Idx) => ?_
  have h0 : (i 0).val < 100000 := (i 0).isLt
  have h1 : (i 1).val < 64 := (i 1).isLt
  have hN : cfg6.N = 20 := N_6
  obtain ⟨t, htv⟩ : ∃ t : Fin cfg6.N, t.val = (i 0).val / 5000 := ⟨⟨(i 0).val / 5000, by rw [hN]; omega⟩, rfl⟩
  have hi : win6_4.index t (0 : Fin 2) = t.val ∧ win6_4.index t (1 : Fin 2) = 0 :=
    (by decide +kernel : ∀ t : Fin grid6.N, win6_4.index t (0 : Fin 2) = t.val ∧ win6_4.index t (1 : Fin 2) = 0) t
  refine ⟨t, flush6_4 t, ?_⟩
  show i ∈ ((View.whole main_v109).slice (win6_4.rect t)).set
  rw [View.set_slice_whole, Rect.mem_set_unit]
  intro a
  match a with
  | ⟨0, _⟩ =>
    show win6_4.index t (0 : Fin 2) * 5000 ≤ (i 0).val ∧ (i 0).val < win6_4.index t (0 : Fin 2) * 5000 + 5000
    rw [hi.1, htv]; omega
  | ⟨1, _⟩ =>
    show win6_4.index t (1 : Fin 2) * 64 ≤ (i 1).val ∧ (i 1).val < win6_4.index t (1 : Fin 2) * 64 + 64
    rw [hi.2]; omega

end Cert.KernelIdeal.RegV

end
-- ==== Proof.Reg7.lean ====
/-
  What the statistics kernel of a layer leaves in its two result arrays: the column sums of h and of h²,
  accumulated over the twenty row blocks.
-/
import proofs.«402690_j13675175870656_3_alg».proof.Proof.Gen.KernelIdeal.Frame
import proofs.«402690_j13675175870656_3_alg».proof.Proof.Spec
import proofs.«402690_j13675175870656_3_alg».proof.Proof.LibPlainDot
import proofs.«402690_j13675175870656_3_alg».proof.Proof.BlockMath
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.RegV

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The all-zero offsets of a whole-buffer access. -/
theorem zero_offsets7 : (![0, 0] : Fin 2 → Nat) = fun _ => 0 := funext fun a => by fin_cases a <;> rfl

/-! ## What each case leaves, as the stores' values -/

/-- After a point other than the first the first output holds the update of what it held. -/
theorem out7_B_1_eq (c : Dev nD) (i : grid7.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec Ideal S5000x64 .f32) (xo1 xo2 : Vec Ideal S1x64 .f32) :
    out7_B_1 c i a1 h1 a2 h2 a3 h3 hc x xo1 xo2 = k7_pay4 x xo1 := by
  unfold out7_B_1
  rw [View.read_writes_eq_canon _ _ _ (cover7_B_1 c i a1 h1 a2 h2 a3 h3 hc x xo1 xo2)]
  unfold kernelRun7_B
  dsimp only
  sl_unfold_words
  rw [View.canon_unit_zero zero_offsets7]
  simp only [View.readAt_eq_ld, h1.read_unread, h2.read_unread, View.ld_unit_zero (S := S5000x64) zero_offsets7,
    View.ld_unit_zero (S := S1x64) zero_offsets7]

/-- After a point other than the first the second output holds the update of what it held. -/
theorem out7_B_2_eq (c : Dev nD) (i : grid7.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec Ideal S5000x64 .f32) (xo1 xo2 : Vec Ideal S1x64 .f32) :
    out7_B_2 c i a1 h1 a2 h2 a3 h3 hc x xo1 xo2 = k7_pay5 x xo2 := by
  unfold out7_B_2
  rw [View.read_writes_eq_canon _ _ _ (cover7_B_2 c i a1 h1 a2 h2 a3 h3 hc x xo1 xo2)]
  unfold kernelRun7_B
  dsimp only
  sl_unfold_words
  rw [View.canon_unit_zero zero_offsets7]
  simp only [View.readAt_eq_ld, h1.read_unread, h3.read_unread, View.ld_unit_zero (S := S5000x64) zero_offsets7,
    View.ld_unit_zero (S := S1x64) zero_offsets7]

/-- After the first point the first output holds the update of the zero vector. -/
theorem out7_A_1_eq (c : Dev nD) (i : grid7.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond7_0 i) (x : Vec Ideal S5000x64 .f32) :
    out7_A_1 c i a1 h1 a2 h2 a3 h3 hc x = k7_pay4 x (k7_pay1 (F := Ideal)) := by
  unfold out7_A_1
  rw [View.read_writes_eq_canon _ _ _ (cover7_A_1 c i a1 h1 a2 h2 a3 h3 hc x)]
  unfold kernelRun7_A
  dsimp only
  sl_unfold_words
  rw [View.canon_cons_unit_zero (S := S1x64) zero_offsets7, View.readCov_unit_zero (S := S1x64) _ zero_offsets7]
  simp only [View.readAt_eq_ld, h1.read_unread, View.ld_unit_zero (S := S5000x64) zero_offsets7,
    View.ld_unit_zero (S := S1x64) zero_offsets7]

/-- After the first point the second output holds the update of the zero vector. -/
theorem out7_A_2_eq (c : Dev nD) (i : grid7.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond7_0 i) (x : Vec Ideal S5000x64 .f32) :
    out7_A_2 c i a1 h1 a2 h2 a3 h3 hc x = k7_pay5 x (k7_pay2 (F := Ideal)) := by
  unfold out7_A_2
  rw [View.read_writes_eq_canon _ _ _ (cover7_A_2 c i a1 h1 a2 h2 a3 h3 hc x)]
  unfold kernelRun7_A
  dsimp only
  sl_unfold_words
  rw [View.canon_cons_unit_zero (S := S1x64) zero_offsets7, View.readCov_unit_zero (S := S1x64) _ zero_offsets7]
  simp only [View.readAt_eq_ld, h1.read_unread, View.ld_unit_zero (S := S5000x64) zero_offsets7,
    View.ld_unit_zero (S := S1x64) zero_offsets7]

/-! ## The stores' values at a column -/

/-- The zero vector of the first reset is zero at every index. -/
theorem r7_pay1_apply (j : S1x64.Idx) : k7_pay1 (F := Ideal) j = 0 := by
  unfold k7_pay1
  exact Ideal.ofBits_zero_f32

/-- The zero vector of the second reset is zero at every index. -/
theorem r7_pay2_apply (j : S1x64.Idx) : k7_pay2 (F := Ideal) j = 0 := by
  unfold k7_pay2
  exact Ideal.ofBits_zero_f32

/-- The block's index above column q at row p of the block. -/
theorem lift_col7 (j : S64.Idx) (q : Fin 64) (hj : (j 0).val = q.val) (p : Fin 5000) :
    reduces_S5000x64_S64.lift j p = (ix2 p q : S5000x64.Idx) := by
  funext a
  apply Fin.ext
  match a with
  | ⟨0, _⟩ => rfl
  | ⟨1, _⟩ => exact hj

/-- A block's column sum, kept with a leading unit axis, at column q. -/
theorem colsum_apply7 (y : FVec Ideal S5000x64 .f32) (q : Fin 64) :
    shapeCast S1x64 (multiReduction .add [0] S64 y 0x00000000#32 reduces_S5000x64_S64 (.inl rfl) rfl) shapeCasts_S64_S1x64 (ix2 0 q)
      = ∑ p : Fin 5000, y (ix2 p q) := by
  refine (shapeCast_addUnit_apply ![64] _ shapeCasts_S64_S1x64 (ix2 0 q)).trans ?_
  refine (Ideal.multiReduction_add_single y _ reduces_S5000x64_S64 _ _ _).trans ?_
  exact Finset.sum_congr rfl fun p _ => congrArg y (lift_col7 _ q rfl p)

/-- The first update: the block's column sum added onto the row vector. -/
theorem r7_pay4_apply (x : Vec Ideal S5000x64 .f32) (a : Vec Ideal S1x64 .f32) (q : Fin 64) :
    k7_pay4 x a (ix2 0 q) = a (ix2 0 q) + ∑ p : Fin 5000, x (ix2 p q) := by
  unfold k7_pay4 k7_pay3
  refine congrArg₂ (· + ·) (congrFun (shapeCast_self a shapeCasts_S1x64_S1x64) (ix2 0 q)) ?_
  refine (colsum_apply7 _ q).trans ?_
  exact Finset.sum_congr rfl fun p _ => congrFun (shapeCast_self x shapeCasts_S5000x64_S5000x64) (ix2 p q)

/-- The second update: the column sum of the block's squares added onto the row vector. -/
theorem r7_pay5_apply (x : Vec Ideal S5000x64 .f32) (a : Vec Ideal S1x64 .f32) (q : Fin 64) :
    k7_pay5 x a (ix2 0 q) = a (ix2 0 q) + ∑ p : Fin 5000, x (ix2 p q) * x (ix2 p q) := by
  unfold k7_pay5 k7_pay3
  refine congrArg₂ (· + ·) (congrFun (shapeCast_self a shapeCasts_S1x64_S1x64) (ix2 0 q)) ?_
  refine (colsum_apply7 _ q).trans ?_
  refine Finset.sum_congr rfl fun p _ => ?_
  have e : shapeCast S5000x64 x shapeCasts_S5000x64_S5000x64 = x := shapeCast_self x shapeCasts_S5000x64_S5000x64
  show shapeCast S5000x64 x shapeCasts_S5000x64_S5000x64 (ix2 p q) * shapeCast S5000x64 x shapeCasts_S5000x64_S5000x64 (ix2 p q) = _
  rw [e]

/-! ## The blocks of h, and the running sums -/

/-- The array h the region is entered with. -/
abbrev harr7 (c : Dev nD) : Spec.NF := V c main_v109

/-- Its block of 5000 rows at a point. -/
abbrev hblk7 (c : Dev nD) (t : Fin cfg7.N) : Vec Ideal S5000x64 .f32 := iblk7 V c 0 t

/-- The first window's block index is the point on the row axis and zero on the column axis. -/
theorem idx_rows7 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

/-- Row p of the block at point t is row 5000 t + p of h. -/
theorem hblk7_apply (c : Dev nD) (t : Fin cfg7.N) (p : Fin 5000) (q : Fin 64) (hr : 5000 * t.val + p.val < 100000) :
    hblk7 V c t (ix2 p q) = harr7 V c (ix2 ⟨5000 * t.val + p.val, hr⟩ q) := by
  obtain ⟨e0, e1⟩ := idx_rows7 t
  show iblk7 V c 0 t (ix2 p q) = V c main_v109 (ix2 ⟨5000 * t.val + p.val, hr⟩ q)
  unfold iblk7
  rw [View.read_apply]
  show V c main_v109 (((cfg7.win 0).blk t).view.emb (ix2 p q)) = V c main_v109 (ix2 ⟨5000 * t.val + p.val, hr⟩ q)
  congr 1
  funext a
  apply Fin.ext
  match a with
  | ⟨0, _⟩ => show win7_0.index t (0 : Fin 2) * 5000 + 1 * p.val = 5000 * t.val + p.val; rw [e0]; omega
  | ⟨1, _⟩ => show win7_0.index t (1 : Fin 2) * 64 + 1 * q.val = q.val; rw [e1]; omega

/-- The running column sum grows by the block's column sum. -/
theorem runsum_step7 (c : Dev nD) (t : Fin cfg7.N) (q : Fin 64) :
    Spec.runsum (fun r => harr7 V c (ix2 r q)) (5000 * t.val) + ∑ p : Fin 5000, hblk7 V c t (ix2 p q)
      = Spec.runsum (fun r => harr7 V c (ix2 r q)) (5000 * (t.val + 1)) := by
  have hN : t.val < 20 := lt_of_lt_of_eq t.isLt (show cfg7.N = 20 from N_7)
  rw [show 5000 * (t.val + 1) = 5000 * t.val + 5000 from by omega,
    Spec.runsum_add_block (fun r => harr7 V c (ix2 r q)) (5000 * t.val) (by omega)]
  refine congrArg (fun z => Spec.runsum (fun r => harr7 V c (ix2 r q)) (5000 * t.val) + z) ?_
  exact Finset.sum_congr rfl fun p _ => hblk7_apply V c t p q (by have := p.isLt; omega)

/-- The running column sum of squares grows by the block's column sum of squares. -/
theorem runsumsq_step7 (c : Dev nD) (t : Fin cfg7.N) (q : Fin 64) :
    Spec.runsum (fun r => harr7 V c (ix2 r q) * harr7 V c (ix2 r q)) (5000 * t.val)
        + ∑ p : Fin 5000, hblk7 V c t (ix2 p q) * hblk7 V c t (ix2 p q)
      = Spec.runsum (fun r => harr7 V c (ix2 r q) * harr7 V c (ix2 r q)) (5000 * (t.val + 1)) := by
  have hN : t.val < 20 := lt_of_lt_of_eq t.isLt (show cfg7.N = 20 from N_7)
  rw [show 5000 * (t.val + 1) = 5000 * t.val + 5000 from by omega,
    Spec.runsum_add_block (fun r => harr7 V c (ix2 r q) * harr7 V c (ix2 r q)) (5000 * t.val) (by omega)]
  refine congrArg (fun z => Spec.runsum (fun r => harr7 V c (ix2 r q) * harr7 V c (ix2 r q)) (5000 * t.val) + z) ?_
  refine Finset.sum_congr rfl fun p _ => ?_
  rw [hblk7_apply V c t p q (by have := p.isLt; omega)]

/-- After point n the two outputs hold the running column sums of h and of h² over the rows below 5000 (n + 1). -/
theorem outsAt7_eq (c : Dev nD) : ∀ (n : ℕ) (hn : n < cfg7.N) (q : Fin 64),
    (outsAt7 V c n hn).1 (ix2 0 q) = Spec.runsum (fun r => harr7 V c (ix2 r q)) (5000 * (n + 1))
    ∧ (outsAt7 V c n hn).2 (ix2 0 q) = Spec.runsum (fun r => harr7 V c (ix2 r q) * harr7 V c (ix2 r q)) (5000 * (n + 1))
  | 0, hn, q => by
    rw [outsAt7_A V c ⟨0, hn⟩ rfl]
    dsimp only
    constructor
    · refine (congrFun (out7_A_1_eq c (grid7.coords ⟨0, hn⟩) (ms7_0 ⟨0, hn⟩) (hs7_0 ⟨0, hn⟩) (ms7_1 ⟨0, hn⟩) (hs7_1 ⟨0, hn⟩)
        (ms7_2 ⟨0, hn⟩) (hs7_2 ⟨0, hn⟩) ((hcond7_0 ⟨0, hn⟩).mpr rfl) (hblk7 V c ⟨0, hn⟩)) (ix2 0 q)).trans ?_
      rw [r7_pay4_apply, r7_pay1_apply]
      have h := runsum_step7 V c ⟨0, hn⟩ q
      rw [show 5000 * (⟨0, hn⟩ : Fin cfg7.N).val = 0 from rfl, Spec.runsum_zero] at h
      exact h
    · refine (congrFun (out7_A_2_eq c (grid7.coords ⟨0, hn⟩) (ms7_0 ⟨0, hn⟩) (hs7_0 ⟨0, hn⟩) (ms7_1 ⟨0, hn⟩) (hs7_1 ⟨0, hn⟩)
        (ms7_2 ⟨0, hn⟩) (hs7_2 ⟨0, hn⟩) ((hcond7_0 ⟨0, hn⟩).mpr rfl) (hblk7 V c ⟨0, hn⟩)) (ix2 0 q)).trans ?_
      rw [r7_pay5_apply, r7_pay2_apply]
      have h := runsumsq_step7 V c ⟨0, hn⟩ q
      rw [show 5000 * (⟨0, hn⟩ : Fin cfg7.N).val = 0 from rfl, Spec.runsum_zero] at h
      exact h
  | n + 1, hn, q => by
    have hN : cfg7.N = 20 := N_7
    have hB : ¬(⟨n + 1, hn⟩ : Fin cfg7.N).val % 20 = 0 := by dsimp only; omega
    obtain ⟨ih1, ih2⟩ := outsAt7_eq c n (Nat.lt_of_succ_lt hn) q
    rw [outsAt7_B V c ⟨n + 1, hn⟩ hB]
    dsimp only
    constructor
    · refine (congrFun (out7_B_1_eq c (grid7.coords ⟨n + 1, hn⟩) (ms7_0 ⟨n + 1, hn⟩) (hs7_0 ⟨n + 1, hn⟩) (ms7_1 ⟨n + 1, hn⟩) (hs7_1 ⟨n + 1, hn⟩)
        (ms7_2 ⟨n + 1, hn⟩) (hs7_2 ⟨n + 1, hn⟩) (fun h => hB ((hcond7_0 ⟨n + 1, hn⟩).mp h)) (hblk7 V c ⟨n + 1, hn⟩)
        (outsAt7 V c n (Nat.lt_of_succ_lt hn)).1 (outsAt7 V c n (Nat.lt_of_succ_lt hn)).2) (ix2 0 q)).trans ?_
      rw [r7_pay4_apply, ih1]
      exact runsum_step7 V c ⟨n + 1, hn⟩ q
    · refine (congrFun (out7_B_2_eq c (grid7.coords ⟨n + 1, hn⟩) (ms7_0 ⟨n + 1, hn⟩) (hs7_0 ⟨n + 1, hn⟩) (ms7_1 ⟨n + 1, hn⟩) (hs7_1 ⟨n + 1, hn⟩)
        (ms7_2 ⟨n + 1, hn⟩) (hs7_2 ⟨n + 1, hn⟩) (fun h => hB ((hcond7_0 ⟨n + 1, hn⟩).mp h)) (hblk7 V c ⟨n + 1, hn⟩)
        (outsAt7 V c n (Nat.lt_of_succ_lt hn)).1 (outsAt7 V c n (Nat.lt_of_succ_lt hn)).2) (ix2 0 q)).trans ?_
      rw [r7_pay5_apply, ih2]
      exact runsumsq_step7 V c ⟨n + 1, hn⟩ q

/-! ## The one write-back, and the arrays -/

/-- The last point. -/
abbrev last7 : Fin cfg7.N := ⟨19, by rw [show cfg7.N = 20 from N_7]; decide⟩

/-- The output windows' one block has index zero on both axes at every point. -/
theorem idx_out7 : ∀ t : Fin cfg7.N, (∀ a : Fin 2, win7_1.index t a = 0) ∧ (∀ a : Fin 2, win7_2.index t a = 0) :=
  (by decide +kernel : ∀ t : Fin grid7.N, (∀ a : Fin 2, win7_1.index t a = 0) ∧ (∀ a : Fin 2, win7_2.index t a = 0))

/-- After the last point the first output holds the column sums of h. -/
theorem outs_last7_1 (c : Dev nD) (t : Fin cfg7.N) (h19 : t.val = 19) :
    (outsAt7 V c t.val t.isLt).1 = Spec.csum (harr7 V c) := by
  funext j
  obtain ⟨j0, j1, rfl⟩ : ∃ (a : Fin 1) (b : Fin 64), j = ix2 a b := ⟨j 0, j 1, eq_ix2 j⟩
  obtain rfl : j0 = 0 := Subsingleton.elim _ _
  rw [(outsAt7_eq V c t.val t.isLt j1).1, h19, show 5000 * (19 + 1) = 100000 from rfl]
  exact Spec.runsum_all _

/-- After the last point the second output holds the column sums of h². -/
theorem outs_last7_2 (c : Dev nD) (t : Fin cfg7.N) (h19 : t.val = 19) :
    (outsAt7 V c t.val t.isLt).2 = Spec.csumsq (harr7 V c) := by
  funext j
  obtain ⟨j0, j1, rfl⟩ : ∃ (a : Fin 1) (b : Fin 64), j = ix2 a b := ⟨j 0, j 1, eq_ix2 j⟩
  obtain rfl : j0 = 0 := Subsingleton.elim _ _
  rw [(outsAt7_eq V c t.val t.isLt j1).2, h19, show 5000 * (19 + 1) = 100000 from rfl]
  exact Spec.runsum_all _

/-- The one write-back of the first output writes the column sums of h: its block is the whole array. -/
theorem flushed7_1_eq (c : Dev nD) (t : Fin cfg7.N) (hf : (cfg7.win 1).flush t = true) :
    (dat7 V c).flushed 1 t = ((cfg7.win 1).blk t).view.read (Elt Ideal) (Spec.csum (harr7 V c)) := by
  have hN : cfg7.N = 20 := N_7
  have h19 : t.val = 19 := by have := (flush7_1 t).mp hf; have := t.isLt; omega
  show (cfg7.win 1).cut (grid7.coords t) ((dat7 V c).after 1 t) = _
  rw [after7_1, outs_last7_1 V c t h19]
  have hz' : (fun a => win7_1.index t a * main_v110_0.ty.shape.size a) = fun _ => 0 :=
    funext fun a => by rw [(idx_out7 t).1 a]; exact Nat.zero_mul _
  exact (Memref.read_access_unit_zero (Elt Ideal) main_v110_0 hz' (fun a => by rw [congrFun hz' a]; simp) (Spec.csum (harr7 V c))).symm

/-- The one write-back of the second output writes the column sums of h²: its block is the whole array. -/
theorem flushed7_2_eq (c : Dev nD) (t : Fin cfg7.N) (hf : (cfg7.win 2).flush t = true) :
    (dat7 V c).flushed 2 t = ((cfg7.win 2).blk t).view.read (Elt Ideal) (Spec.csumsq (harr7 V c)) := by
  have hN : cfg7.N = 20 := N_7
  have h19 : t.val = 19 := by have := (flush7_2 t).mp hf; have := t.isLt; omega
  show (cfg7.win 2).cut (grid7.coords t) ((dat7 V c).after 2 t) = _
  rw [after7_2, outs_last7_2 V c t h19]
  have hz' : (fun a => win7_2.index t a * main_v110_1.ty.shape.size a) = fun _ => 0 :=
    funext fun a => by rw [(idx_out7 t).2 a]; exact Nat.zero_mul _
  exact (Memref.read_access_unit_zero (Elt Ideal) main_v110_1 hz' (fun a => by rw [congrFun hz' a]; simp) (Spec.csumsq (harr7 V c))).symm

/-- The first result array ends holding the column sums of h: the last point's block covers it. -/
theorem final7_1 (c : Dev nD) : (dat7 V c).arrAt 1 cfg7.N = Spec.csum (harr7 V c) :=
  (dat7 V c).arrAt_eq_of_cover 1 (Spec.csum (harr7 V c)) (flushed7_1_eq V c) fun i =>
    ⟨last7, (flush7_1 last7).mpr rfl, by
      show i ∈ ((View.whole main_v110_0).slice (win7_1.rect last7)).set
      rw [View.set_slice_whole, Rect.mem_set_unit]
      intro a
      have h0 : (i 0 : Nat) < 1 := (i 0).isLt
      have h1 : (i 1 : Nat) < 64 := (i 1).isLt
      match a with
      | ⟨0, _⟩ => show win7_1.index last7 0 * win7_1.size 0 ≤ (i 0 : Nat) ∧ (i 0 : Nat) < win7_1.index last7 0 * win7_1.size 0 + win7_1.xsize (grid7.coords last7) 0
                  rw [show win7_1.index last7 0 * win7_1.size 0 = 0 from by decide +kernel, show win7_1.xsize (grid7.coords last7) 0 = 1 from by decide +kernel]; omega
      | ⟨1, _⟩ => show win7_1.index last7 1 * win7_1.size 1 ≤ (i 1 : Nat) ∧ (i 1 : Nat) < win7_1.index last7 1 * win7_1.size 1 + win7_1.xsize (grid7.coords last7) 1
                  rw [show win7_1.index last7 1 * win7_1.size 1 = 0 from by decide +kernel, show win7_1.xsize (grid7.coords last7) 1 = 64 from by decide +kernel]; omega⟩

/-- The second result array ends holding the column sums of h²: the last point's block covers it. -/
theorem final7_2 (c : Dev nD) : (dat7 V c).arrAt 2 cfg7.N = Spec.csumsq (harr7 V c) :=
  (dat7 V c).arrAt_eq_of_cover 2 (Spec.csumsq (harr7 V c)) (flushed7_2_eq V c) fun i =>
    ⟨last7, (flush7_2 last7).mpr rfl, by
      show i ∈ ((View.whole main_v110_1).slice (win7_2.rect last7)).set
      rw [View.set_slice_whole, Rect.mem_set_unit]
      intro a
      have h0 : (i 0 : Nat) < 1 := (i 0).isLt
      have h1 : (i 1 : Nat) < 64 := (i 1).isLt
      match a with
      | ⟨0, _⟩ => show win7_2.index last7 0 * win7_2.size 0 ≤ (i 0 : Nat) ∧ (i 0 : Nat) < win7_2.index last7 0 * win7_2.size 0 + win7_2.xsize (grid7.coords last7) 0
                  rw [show win7_2.index last7 0 * win7_2.size 0 = 0 from by decide +kernel, show win7_2.xsize (grid7.coords last7) 0 = 1 from by decide +kernel]; omega
      | ⟨1, _⟩ => show win7_2.index last7 1 * win7_2.size 1 ≤ (i 1 : Nat) ∧ (i 1 : Nat) < win7_2.index last7 1 * win7_2.size 1 + win7_2.xsize (grid7.coords last7) 1
                  rw [show win7_2.index last7 1 * win7_2.size 1 = 0 from by decide +kernel, show win7_2.xsize (grid7.coords last7) 1 = 64 from by decide +kernel]; omega⟩

/-- Region 7's two result arrays after its twenty points are the column sums of h and of h², h the array the region was entered with. -/
theorem bn_7 (c : Dev nD) :
    ((dat7 (F := Ideal) V c).arrAt 1 cfg7.N : Spec.RV) = Spec.csum (V c main_v109)
    ∧ ((dat7 (F := Ideal) V c).arrAt 2 cfg7.N : Spec.RV) = Spec.csumsq (V c main_v109) :=
  ⟨final7_1 V c, final7_2 V c⟩

end Cert.KernelIdeal.RegV

end
-- ==== Proof.LibTransposedLhsDot.lean ====
/-
  A matrix product that contracts BOTH operands on their FIRST axis, at the ideal values, read as a plain sum over
  the one contraction coordinate.

  The dimension numbers `transposedLhs K M N` take a left operand of K rows and M columns and a right operand of K rows
  and N columns, contract the two row axes, and give an M × N result: at the result index (r, c) the product is the sum
  over k : Fin K of lhs (k, r) · rhs (k, c), that is (lhsᵀ · rhs) (r, c). Stated for a kernel's `tpu.matmul` into the zero
  accumulator and for the host's `dot_general`, at every K, M, N: a printed record with these six lists is
  `transposedLhs K M N` by `rfl` (the well-formedness field is a proposition).
-/
import Idealize.ShloMosaic.PureOps.Ideal.Laws
import Idealize.ShloMosaic.Lib.ValueIdx

noncomputable section

namespace Cert.Lib.TransposedLhsDot

open Idealize.ShloMosaic Idealize.ShloMosaic.ValueIdx

/-- `<[0], [0], [1], [1], [0, 1, 1, 1], [], []>`: `K×M` by `K×N`, both operands contracted on their first axis. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

variable (K M N : Nat)

/-! ## The operand indices, axis by axis -/

theorem transposedLhs_lhs_0 (i : (⟨2, ![M, N]⟩ : Shape).Idx) (q : (transposedLhs K M N).contr.Idx) :
    ((transposedLhs K M N).lhsIdx i q 0).val = (q ⟨0, Nat.zero_lt_one⟩).val :=
  (transposedLhs K M N).lhsIdx_val_of_single rfl i q
theorem transposedLhs_lhs_1 (i : (⟨2, ![M, N]⟩ : Shape).Idx) (q : (transposedLhs K M N).contr.Idx) :
    ((transposedLhs K M N).lhsIdx i q 1).val = (i 0).val := by
  unfold DotDims.lhsIdx
  rw [dif_neg (show ¬(1 : Fin (⟨2, ![K, M]⟩ : Shape).rank) ∈ (transposedLhs K M N).lhsBatch from List.not_mem_nil),
    dif_pos (show (1 : Fin (⟨2, ![K, M]⟩ : Shape).rank) ∈ (transposedLhs K M N).lhsNonContracting from List.mem_singleton.mpr rfl)]
  rfl
theorem transposedLhs_rhs_0 (i : (⟨2, ![M, N]⟩ : Shape).Idx) (q : (transposedLhs K M N).contr.Idx) :
    ((transposedLhs K M N).rhsIdx i q 0).val = (q ⟨0, Nat.zero_lt_one⟩).val :=
  (transposedLhs K M N).rhsIdx_val_of_single rfl i q
theorem transposedLhs_rhs_1 (i : (⟨2, ![M, N]⟩ : Shape).Idx) (q : (transposedLhs K M N).contr.Idx) :
    ((transposedLhs K M N).rhsIdx i q 1).val = (i 1).val := by
  unfold DotDims.rhsIdx
  rw [dif_neg (show ¬(1 : Fin (⟨2, ![K, N]⟩ : Shape).rank) ∈ (transposedLhs K M N).rhsBatch from List.not_mem_nil),
    dif_pos (show (1 : Fin (⟨2, ![K, N]⟩ : Shape).rank) ∈ (transposedLhs K M N).rhsNonContracting from List.mem_singleton.mpr rfl)]
  rfl

/-- The sum over the contraction shape, re-indexed by the one contraction coordinate: the row index of both operands. -/
theorem transposedLhs_sum (lhs : (⟨2, ![K, M]⟩ : Shape).Idx → EReal) (rhs : (⟨2, ![K, N]⟩ : Shape).Idx → EReal)
    (i : (⟨2, ![M, N]⟩ : Shape).Idx) :
    (∑ q : (transposedLhs K M N).contr.Idx,
        lhs ((transposedLhs K M N).lhsIdx i q) * rhs ((transposedLhs K M N).rhsIdx i q))
      = ∑ k : Fin K, lhs (ix2 k (i 0)) * rhs (ix2 k (i 1)) := by
  rw [← Equiv.sum_comp (contrEquiv1 (transposedLhs K M N) K rfl rfl).symm]
  refine Finset.sum_congr rfl fun k _ => ?_
  have hk := contrEquiv1_symm_val (transposedLhs K M N) K rfl rfl k
  have el : (transposedLhs K M N).lhsIdx i ((contrEquiv1 (transposedLhs K M N) K rfl rfl).symm k) = ix2 k (i 0) := by
    funext a
    apply Fin.ext
    match a with
    | ⟨0, _⟩ => exact (transposedLhs_lhs_0 K M N i _).trans hk
    | ⟨1, _⟩ => exact transposedLhs_lhs_1 K M N i _
  have er : (transposedLhs K M N).rhsIdx i ((contrEquiv1 (transposedLhs K M N) K rfl rfl).symm k) = ix2 k (i 1) := by
    funext a
    apply Fin.ext
    match a with
    | ⟨0, _⟩ => exact (transposedLhs_rhs_0 K M N i _).trans hk
    | ⟨1, _⟩ => exact transposedLhs_rhs_1 K M N i _
  exact congrArg₂ (fun a b : EReal => a * b) (congrArg lhs el) (congrArg rhs er)

/-- A kernel's `tpu.matmul` with these dimension numbers into the zero accumulator, at an index. -/
theorem matmul_transposedLhs_zero_apply {φ₁ φ₂ : FTy} (prec : Option ContractPrecision)
    (lhs : FVec Ideal ⟨2, ![K, M]⟩ φ₁) (rhs : FVec Ideal ⟨2, ![K, N]⟩ φ₂) (i : (⟨2, ![M, N]⟩ : Shape).Idx) :
    FloatOps.matmul (transposedLhs K M N) prec lhs rhs (constant ⟨2, ![M, N]⟩ .f32 0x00000000#32) i
      = ∑ k : Fin K, lhs (ix2 k (i 0)) * rhs (ix2 k (i 1)) := by
  rw [Ideal.matmul_constant_zero_apply]
  exact transposedLhs_sum K M N lhs rhs i

/-- The host's `dot_general` with these dimension numbers, at an index. -/
theorem dotGeneral_transposedLhs_apply {φ₁ φ₂ : FTy} (prec : Option ContractPrecision) (sched : HostSchedule)
    (lhs : FVec Ideal ⟨2, ![K, M]⟩ φ₁) (rhs : FVec Ideal ⟨2, ![K, N]⟩ φ₂) (i : (⟨2, ![M, N]⟩ : Shape).Idx) :
    FloatOps.dotGeneral (transposedLhs K M N) prec sched lhs rhs i
      = ∑ k : Fin K, lhs (ix2 k (i 0)) * rhs (ix2 k (i 1)) := by
  rw [Ideal.dotGeneral_apply]
  exact transposedLhs_sum K M N lhs rhs i

/-- The two at explicit coordinates (r, c): the form a proof rewrites with, free of the index's dependent coordinate types. -/
theorem matmul_transposedLhs_zero_ix2 {φ₁ φ₂ : FTy} (prec : Option ContractPrecision)
    (lhs : FVec Ideal ⟨2, ![K, M]⟩ φ₁) (rhs : FVec Ideal ⟨2, ![K, N]⟩ φ₂) (r : Fin M) (c : Fin N) :
    FloatOps.matmul (transposedLhs K M N) prec lhs rhs (constant ⟨2, ![M, N]⟩ .f32 0x00000000#32) (ix2 r c)
      = ∑ k : Fin K, (lhs (ix2 k r) : EReal) * (rhs (ix2 k c) : EReal) :=
  matmul_transposedLhs_zero_apply K M N prec lhs rhs (ix2 r c)
theorem dotGeneral_transposedLhs_ix2 {φ₁ φ₂ : FTy} (prec : Option ContractPrecision) (sched : HostSchedule)
    (lhs : FVec Ideal ⟨2, ![K, M]⟩ φ₁) (rhs : FVec Ideal ⟨2, ![K, N]⟩ φ₂) (r : Fin M) (c : Fin N) :
    FloatOps.dotGeneral (transposedLhs K M N) prec sched lhs rhs (ix2 r c)
      = ∑ k : Fin K, (lhs (ix2 k r) : EReal) * (rhs (ix2 k c) : EReal) :=
  dotGeneral_transposedLhs_apply K M N prec sched lhs rhs (ix2 r c)

end Cert.Lib.TransposedLhsDot

end
-- ==== Proof.Reg8.lean ====
/-
  What the last kernel leaves in its result array: the per-graph sums of the last layer's features,
  accumulated over the twenty row blocks by a product with the one-hot matrix of the graph numbers.
-/
import proofs.«402690_j13675175870656_3_alg».proof.Proof.Gen.KernelIdeal.Frame
import proofs.«402690_j13675175870656_3_alg».proof.Proof.Spec
import proofs.«402690_j13675175870656_3_alg».proof.Proof.LibPlainDot
import proofs.«402690_j13675175870656_3_alg».proof.Proof.LibTransposedLhsDot
import proofs.«402690_j13675175870656_3_alg».proof.Proof.BlockMath
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.RegV

open Idealize.ShloMosaic Idealize.ShloMosaic.TcCoe Idealize.SL.Sem Idealize.ShloMosaic.ValueIdx
open Idealize.ShloMosaic.Pipeline (Dat)
open Cert.KernelIdeal Cert.KernelIdeal.Gen

namespace Pool

theorem hz : (![0, 0] : Fin 2 → Nat) = fun _ => 0 := funext fun a => by fin_cases a <;> rfl

section pieces
variable {F : FTy → Type} [FloatOps F]

/-- The graph numbers 0 … 255 along the second axis. -/
abbrev lanes : IVec S1x256 32 := iota .tc S1x256 32 [1] iota_S1x256_d1_w32

/-- At a later point the result block holds what it held plus this block's share. -/
theorem out_B (c : Dev nD) (i : grid8.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x1 .i32) (h8 : a8.IsWhole) (a9 : Memref sig .tc .vmem S256x64 .f32) (h9 : a9.IsWhole) (hc : ¬cond8_0 i)
    (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) (x7 : Vec F S5000x1 .i32) (xo : Vec F S256x64 .f32) :
    out8_B_8 c i a1 h1 a2 h2 a3 h3 a4 h4 a5 h5 a6 h6 a7 h7 a8 h8 a9 h9 hc x0 x1 x2 x3 x4 x5 x6 x7 xo
      = k8_pay1 (k8_pay3 x0 x1 x2 x3 x4 x5 x6) lanes x7 xo := by
  unfold out8_B_8
  rw [View.read_writes_eq_canon _ _ _ (cover8_B_8 c i a1 h1 a2 h2 a3 h3 a4 h4 a5 h5 a6 h6 a7 h7 a8 h8 a9 h9 hc x0 x1 x2 x3 x4 x5 x6 x7 xo)]
  unfold kernelRun8_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread,
    View.ld_unit_zero (S := S5000x64) hz, View.ld_unit_zero (S := S1x64) hz, View.ld_unit_zero (S := S64x64) hz, View.ld_unit_zero (S := S5000x1) hz, View.ld_unit_zero (S := S256x64) hz]

/-- At the first point the result block is reset to zero and then holds this block's share. -/
theorem out_A (c : Dev nD) (i : grid8.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S5000x1 .i32) (h8 : a8.IsWhole) (a9 : Memref sig .tc .vmem S256x64 .f32) (h9 : a9.IsWhole) (hc : cond8_0 i)
    (x0 : Vec F S5000x64 .f32) (x1 : Vec F S1x64 .f32) (x2 : Vec F S1x64 .f32) (x3 : Vec F S1x64 .f32) (x4 : Vec F S1x64 .f32) (x5 : Vec F S64x64 .f32) (x6 : Vec F S1x64 .f32) (x7 : Vec F S5000x1 .i32) :
    out8_A_8 c i a1 h1 a2 h2 a3 h3 a4 h4 a5 h5 a6 h6 a7 h7 a8 h8 a9 h9 hc x0 x1 x2 x3 x4 x5 x6 x7
      = k8_pay1 (k8_pay3 x0 x1 x2 x3 x4 x5 x6) lanes x7 (k8_pay2 (F := F)) := by
  unfold out8_A_8
  rw [View.read_writes_eq_canon _ _ _ (cover8_A_8 c i a1 h1 a2 h2 a3 h3 a4 h4 a5 h5 a6 h6 a7 h7 a8 h8 a9 h9 hc x0 x1 x2 x3 x4 x5 x6 x7)]
  unfold kernelRun8_A
  dsimp only
  sl_unfold_words
  rw [View.canon_cons_unit_zero (S := S256x64) hz, View.readCov_unit_zero (S := S256x64) _ hz]
  simp only [View.readAt_eq_ld, h1.read_unread, h2.read_unread, h3.read_unread, h4.read_unread, h5.read_unread, h6.read_unread, h7.read_unread, h8.read_unread,
    View.ld_unit_zero (S := S5000x64) hz, View.ld_unit_zero (S := S1x64) hz, View.ld_unit_zero (S := S64x64) hz, View.ld_unit_zero (S := S5000x1) hz, View.ld_unit_zero (S := S256x64) hz]

end pieces

section payloads

/-- The product of the one-hot matrix's transpose with the block's features, entry by entry. -/
theorem tdot {φ₁ φ₂ : FTy} (prec : Option ContractPrecision)
    (lhs : FVec Ideal ⟨2, ![5000, 256]⟩ φ₁) (rhs : FVec Ideal ⟨2, ![5000, 64]⟩ φ₂) (r : Fin 256) (c : Fin 64) :
    FloatOps.matmul dot_S5000x256_S5000x64_S256x64_0_0_1_1_n_n prec lhs rhs (constant ⟨2, ![256, 64]⟩ .f32 0x00000000#32) (ix2 r c)
      = ∑ k : Fin 5000, (lhs (ix2 k r) : EReal) * (rhs (ix2 k c) : EReal) :=
  Cert.Lib.TransposedLhsDot.matmul_transposedLhs_zero_ix2 5000 256 64 prec lhs rhs r c

/-- A comparison of two words for equality, widened and read as a number, is 1 or 0. -/
theorem eqWord_toReal (a b : BitVec 32) :
    (FloatOps.sitofp (F := Ideal) .f32 ((IntOp.cmpi .eq a b).setWidth 32) : EReal) = if a = b then 1 else 0 := by
  by_cases h : a = b
  · subst h
    rw [if_pos rfl]
    show (((((BitVec.ofBool (a == a)).setWidth 32).toInt : ℤ) : ℝ) : EReal) = 1
    simp
  · rw [if_neg h]
    have hb : (a == b) = false := beq_eq_false_iff_ne.mpr h
    show (((((BitVec.ofBool (a == b)).setWidth 32).toInt : ℤ) : ℝ) : EReal) = 0
    rw [hb]
    simp

/-- A row vector spread over the block's rows reads its own column. -/
theorem spread_row {α : Type} (v : S1x64.Idx → α) (p : Fin 5000) (q : Fin 64) :
    broadcastTo S5000x64 v broadcasts_S1x64_S5000x64 (ix2 p q) = v (ix2 0 q) :=
  broadcastTo_apply v _ (ix2 p q) (ix2 0 q) (fun a => by fin_cases a <;> rfl)

/-- The column of graph numbers spread over the 256 lanes reads its own row. -/
theorem spread_col {α : Type} (v : S5000x1.Idx → α) (p : Fin 5000) (g : Fin 256) :
    broadcastTo S5000x256 v broadcasts_S5000x1_S5000x256 (ix2 p g) = v (ix2 p 0) :=
  broadcastTo_apply v _ (ix2 p g) (ix2 p 0) (fun a => by fin_cases a <;> rfl)

/-- The lane numbers spread over the block's rows read their own lane. -/
theorem spread_lane {α : Type} (v : S1x256.Idx → α) (p : Fin 5000) (g : Fin 256) :
    broadcastTo S5000x256 v broadcasts_S1x256_S5000x256 (ix2 p g) = v (ix2 0 g) :=
  broadcastTo_apply v _ (ix2 p g) (ix2 0 g) (fun a => by fin_cases a <;> rfl)

/-- Lane g carries the word of g. -/
theorem lanes_apply (g : Fin 256) : lanes (ix2 0 g) = BitVec.ofNat 32 g.val :=
  iota_single_apply .tc S1x256 32 1 iota_S1x256_d1_w32 (ix2 0 g)

/-- The reset block is zero. -/
theorem pay2_apply (g : Fin 256) (d : Fin 64) : (k8_pay2 (F := Ideal) (ix2 g d) : EReal) = 0 := by
  show Ideal.ofBits .f32 0x00000000#32 = 0
  simp [Ideal.ofBits, Ideal.ieee]

/-- The result block after a point: what it held, plus the sum over the block's rows that carry graph number g. -/
theorem pay1_apply (v36 : FVec Ideal S5000x64 .f32) (v38 : Vec Ideal S5000x1 .i32) (v46 : Vec Ideal S256x64 .f32)
    (g : Fin 256) (d : Fin 64) :
    (k8_pay1 v36 lanes v38 v46 (ix2 g d) : EReal)
      = v46 (ix2 g d) + ∑ p : Fin 5000, (if v38 (ix2 p 0) = BitVec.ofNat 32 g.val then (1 : EReal) else 0) * v36 (ix2 p d) := by
  unfold k8_pay1
  rw [shapeCast_self, shapeCast_self]
  refine congrArg (fun z : EReal => v46 (ix2 g d) + z) ?_
  refine (tdot (some .fp32) _ v36 g d).trans ?_
  refine Finset.sum_congr rfl fun p _ => ?_
  refine congrArg (fun z : EReal => z * v36 (ix2 p d)) ?_
  refine (eqWord_toReal _ _).trans ?_
  rw [spread_col, spread_lane, lanes_apply]

/-- This block's features: the second half of a layer on the block's rows. -/
theorem pay3_apply (x0 : Vec Ideal S5000x64 .f32) (x1 x2 x3 x4 : Vec Ideal S1x64 .f32) (x5 : Vec Ideal S64x64 .f32)
    (x6 : Vec Ideal S1x64 .f32) (p : Fin 5000) (q : Fin 64) :
    (k8_pay3 x0 x1 x2 x3 x4 x5 x6 (ix2 p q) : EReal)
      = max ((∑ k : Fin 64, (max ((((x0 (ix2 p k) - x1 (ix2 0 k)) * Ideal.rsqrt (x2 (ix2 0 k) + Spec.eps)) * x3 (ix2 0 k)) + x4 (ix2 0 k)) 0)
            * x5 (ix2 k q)) + x6 (ix2 0 q)) 0 := by
  have hzero : (FloatOps.ofBits (F := Ideal) .f32 0x00000000#32 : EReal) = 0 := by
    show Ideal.ofBits .f32 0x00000000#32 = 0
    simp [Ideal.ofBits, Ideal.ieee]
  unfold k8_pay3
  simp only [shapeCast_self]
  rw [maximumf_apply, addf_apply, broadcast_apply, spread_row, hzero]
  refine congrArg (fun z : EReal => max (z + x6 (ix2 0 q)) 0) ?_
  refine (Cert.Lib.PlainDot.matmul_plain_zero_ix2 5000 64 64 none _ _ p q).trans ?_
  refine Finset.sum_congr rfl fun k _ => ?_
  simp only [truncf_apply, maximumf_apply, addf_apply, mulf_apply, subf_apply, broadcast_apply, spread_row, hzero]
  rfl

end payloads

section region
variable (V : (c : Dev nD) → (b : Ref sig .tc) → Buf (Elt Ideal) ((c : Thread nD τ).loc b))

/-- The index maps, decided over the twenty points: the row blocks of the features and of the graph
    numbers move with the point, every other window stays at block (0, 0). -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = t.val ∧ win8_7.index t (1 : Fin 2) = 0 :=
  (by decide +kernel : ∀ t : Fin grid8.N, _)

/-- The arrays the region is entered with, each at its own type. -/
abbrev harr (c : Dev nD) : Spec.NF := V c main_v109
abbrev muarr (c : Dev nD) : Spec.RV := V c main_v112
abbrev vararr (c : Dev nD) : Spec.RV := V c main_v118
abbrev gaarr (c : Dev nD) : Spec.RV := V c main_v100
abbrev bearr (c : Dev nD) : Spec.RV := V c main_v103
abbrev warr (c : Dev nD) : Spec.MW := V c main_v105
abbrev barr (c : Dev nD) : Spec.RV := V c main_v108
abbrev batarr (c : Dev nD) : Spec.BT := V c main_v4

/-- The feature block at point t is rows 5000 t … 5000 t + 4999 of the feature array. -/
theorem hblk_apply (c : Dev nD) (t : Fin cfg8.N) (p : Fin 5000) (q : Fin 64) (r : Fin 100000)
    (hr : r.val = 5000 * t.val + p.val) :
    (iblk8 V c 0 t : Vec Ideal S5000x64 .f32) (ix2 p q) = harr V c (ix2 r q) := by
  obtain ⟨e0, e1, -⟩ := idx_facts t
  unfold iblk8
  rw [View.read_apply]
  show V c main_v109 _ = V c main_v109 _
  congr 1
  funext a
  apply Fin.ext
  match a with
  | ⟨0, _⟩ => show win8_0.index t (0 : Fin 2) * 5000 + 1 * p.val = r.val; rw [e0, hr]; omega
  | ⟨1, _⟩ => show win8_0.index t (1 : Fin 2) * 64 + 1 * q.val = q.val; rw [e1]; omega

/-- The block of graph numbers at point t is rows 5000 t … 5000 t + 4999 of their column. -/
theorem batblk_apply (c : Dev nD) (t : Fin cfg8.N) (p : Fin 5000) (r : Fin 100000)
    (hr : r.val = 5000 * t.val + p.val) :
    (iblk8 V c 7 t : Vec Ideal S5000x1 .i32) (ix2 p 0) = batarr V c (ix2 r 0) := by
  obtain ⟨-, -, -, -, -, -, -, -, -, -, -, -, -, -, e0, e1⟩ := idx_facts t
  unfold iblk8
  rw [View.read_apply]
  show V c main_v4 _ = V c main_v4 _
  congr 1
  funext a
  apply Fin.ext
  match a with
  | ⟨0, _⟩ => show win8_7.index t (0 : Fin 2) * 5000 + 1 * p.val = r.val; rw [e0, hr]; omega
  | ⟨1, _⟩ => show win8_7.index t (1 : Fin 2) * 1 + 1 * 0 = 0; rw [e1]

/-- The block of the column means is the whole row vector. -/
theorem mublk_eq (c : Dev nD) (t : Fin cfg8.N) : (iblk8 V c 1 t : Vec Ideal S1x64 .f32) = muarr V c := by
  obtain ⟨-, -, e0, e1, -⟩ := idx_facts t
  funext j
  unfold iblk8
  rw [View.read_apply]
  show V c main_v112 _ = V c main_v112 _
  congr 1
  funext a
  apply Fin.ext
  match a with
  | ⟨0, _⟩ => show win8_1.index t (0 : Fin 2) * 1 + 1 * (j 0).val = (j 0).val; rw [e0]; omega
  | ⟨1, _⟩ => show win8_1.index t (1 : Fin 2) * 64 + 1 * (j 1).val = (j 1).val; rw [e1]; omega

/-- The block of the column variances is the whole row vector. -/
theorem varblk_eq (c : Dev nD) (t : Fin cfg8.N) : (iblk8 V c 2 t : Vec Ideal S1x64 .f32) = vararr V c := by
  obtain ⟨-, -, -, -, e0, e1, -⟩ := idx_facts t
  funext j
  unfold iblk8
  rw [View.read_apply]
  show V c main_v118 _ = V c main_v118 _
  congr 1
  funext a
  apply Fin.ext
  match a with
  | ⟨0, _⟩ => show win8_2.index t (0 : Fin 2) * 1 + 1 * (j 0).val = (j 0).val; rw [e0]; omega
  | ⟨1, _⟩ => show win8_2.index t (1 : Fin 2) * 64 + 1 * (j 1).val = (j 1).val; rw [e1]; omega

/-- The block of the scales is the whole row vector. -/
theorem gablk_eq (c : Dev nD) (t : Fin cfg8.N) : (iblk8 V c 3 t : Vec Ideal S1x64 .f32) = gaarr V c := by
  obtain ⟨-, -, -, -, -, -, e0, e1, -⟩ := idx_facts t
  funext j
  unfold iblk8
  rw [View.read_apply]
  show V c main_v100 _ = V c main_v100 _
  congr 1
  funext a
  apply Fin.ext
  match a with
  | ⟨0, _⟩ => show win8_3.index t (0 : Fin 2) * 1 + 1 * (j 0).val = (j 0).val; rw [e0]; omega
  | ⟨1, _⟩ => show win8_3.index t (1 : Fin 2) * 64 + 1 * (j 1).val = (j 1).val; rw [e1]; omega

/-- The block of the shifts is the whole row vector. -/
theorem beblk_eq (c : Dev nD) (t : Fin cfg8.N) : (iblk8 V c 4 t : Vec Ideal S1x64 .f32) = bearr V c := by
  obtain ⟨-, -, -, -, -, -, -, -, e0, e1, -⟩ := idx_facts t
  funext j
  unfold iblk8
  rw [View.read_apply]
  show V c main_v103 _ = V c main_v103 _
  congr 1
  funext a
  apply Fin.ext
  match a with
  | ⟨0, _⟩ => show win8_4.index t (0 : Fin 2) * 1 + 1 * (j 0).val = (j 0).val; rw [e0]; omega
  | ⟨1, _⟩ => show win8_4.index t (1 : Fin 2) * 64 + 1 * (j 1).val = (j 1).val; rw [e1]; omega

/-- The block of the weights is the whole matrix. -/
theorem wblk_eq (c : Dev nD) (t : Fin cfg8.N) : (iblk8 V c 5 t : Vec Ideal S64x64 .f32) = warr V c := by
  obtain ⟨-, -, -, -, -, -, -, -, -, -, e0, e1, -⟩ := idx_facts t
  funext j
  unfold iblk8
  rw [View.read_apply]
  show V c main_v105 _ = V c main_v105 _
  congr 1
  funext a
  apply Fin.ext
  match a with
  | ⟨0, _⟩ => show win8_5.index t (0 : Fin 2) * 64 + 1 * (j 0).val = (j 0).val; rw [e0]; omega
  | ⟨1, _⟩ => show win8_5.index t (1 : Fin 2) * 64 + 1 * (j 1).val = (j 1).val; rw [e1]; omega

/-- The block of the offsets is the whole row vector. -/
theorem bblk_eq (c : Dev nD) (t : Fin cfg8.N) : (iblk8 V c 6 t : Vec Ideal S1x64 .f32) = barr V c := by
  obtain ⟨-, -, -, -, -, -, -, -, -, -, -, -, e0, e1, -⟩ := idx_facts t
  funext j
  unfold iblk8
  rw [View.read_apply]
  show V c main_v108 _ = V c main_v108 _
  congr 1
  funext a
  apply Fin.ext
  match a with
  | ⟨0, _⟩ => show win8_6.index t (0 : Fin 2) * 1 + 1 * (j 0).val = (j 0).val; rw [e0]; omega
  | ⟨1, _⟩ => show win8_6.index t (1 : Fin 2) * 64 + 1 * (j 1).val = (j 1).val; rw [e1]; omega

/-- The last layer's features of the arrays the region is entered with. -/
abbrev feat (c : Dev nD) : Spec.NF :=
  Spec.mlp2 (harr V c) (muarr V c) (vararr V c) (gaarr V c) (bearr V c) (warr V c) (barr V c)

/-- Row r's share of graph g's sum in column d: the row's feature if the row carries graph number g, else zero. -/
def share (c : Dev nD) (g : Fin 256) (d : Fin 64) (r : Fin 100000) : EReal :=
  (if batarr V c (ix2 r 0) = BitVec.ofNat 32 g.val then (1 : EReal) else 0) * feat V c (ix2 r d)

/-- One point's contribution: the shares of the rows of its block. -/
theorem block_share (c : Dev nD) (t : Fin cfg8.N) (g : Fin 256) (d : Fin 64) (m : Nat) (hm : m = 5000 * t.val)
    (hb : m + 5000 ≤ 100000) :
    ∑ p : Fin 5000, (if (iblk8 V c 7 t : Vec Ideal S5000x1 .i32) (ix2 p 0) = BitVec.ofNat 32 g.val then (1 : EReal) else 0)
        * (k8_pay3 (F := Ideal) (iblk8 V c 0 t) (iblk8 V c 1 t) (iblk8 V c 2 t) (iblk8 V c 3 t) (iblk8 V c 4 t) (iblk8 V c 5 t) (iblk8 V c 6 t) (ix2 p d) : EReal)
      = ∑ p : Fin 5000, share V c g d ⟨m + p.val, by have := p.isLt; omega⟩ := by
  refine Finset.sum_congr rfl fun p _ => ?_
  have hp : (⟨m + p.val, by have := p.isLt; omega⟩ : Fin 100000).val = 5000 * t.val + p.val := by
    show m + p.val = _
    rw [hm]
  rw [batblk_apply V c t p ⟨m + p.val, by have := p.isLt; omega⟩ hp]
  refine congrArg (fun z : EReal => (if batarr V c (ix2 (⟨m + p.val, by have := p.isLt; omega⟩ : Fin 100000) 0) = BitVec.ofNat 32 g.val then (1 : EReal) else 0) * z) ?_
  refine (pay3_apply (iblk8 V c 0 t) (iblk8 V c 1 t) (iblk8 V c 2 t) (iblk8 V c 3 t) (iblk8 V c 4 t) (iblk8 V c 5 t) (iblk8 V c 6 t) p d).trans ?_
  rw [mublk_eq V c t, varblk_eq V c t, gablk_eq V c t, beblk_eq V c t, wblk_eq V c t, bblk_eq V c t]
  refine congrArg (fun z : EReal => max (z + barr V c (ix2 0 d)) 0) ?_
  refine Finset.sum_congr rfl fun k _ => ?_
  rw [hblk_apply V c t p k ⟨m + p.val, by have := p.isLt; omega⟩ hp]
  rfl

/-- THE INVARIANT: after point n the result block holds, at (g, d), the shares of the rows below 5000 (n + 1). -/
theorem outsAt_eq (c : Dev nD) : ∀ (n : ℕ) (hn : n < cfg8.N) (g : Fin 256) (d : Fin 64),
    ((outsAt8 V c n hn : Vec Ideal S256x64 .f32) (ix2 g d) : EReal) = Spec.runsum (share V c g d) (5000 * (n + 1))
  | 0, hn, g, d => by
    refine (congrFun ((outsAt8_A V c ⟨0, hn⟩ rfl).trans (out_A (F := Ideal) c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) ((hcond8_0 ⟨0, hn⟩).mpr rfl) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩) (iblk8 V c 7 ⟨0, hn⟩))) (ix2 g d)).trans ?_
    refine (pay1_apply (k8_pay3 (F := Ideal) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩)) (iblk8 V c 7 ⟨0, hn⟩) (k8_pay2 (F := Ideal)) g d).trans ?_
    rw [pay2_apply, zero_add, block_share V c ⟨0, hn⟩ g d 0 rfl (by omega)]
    have h := Spec.runsum_add_block (share V c g d) 0 (by omega)
    have h0 : Spec.runsum (share V c g d) 0 + ∑ r : Fin 5000, share V c g d ⟨0 + r.val, by have := r.isLt; omega⟩
        = ∑ r : Fin 5000, share V c g d ⟨0 + r.val, by have := r.isLt; omega⟩ := by
      rw [Spec.runsum_zero, zero_add]
    exact h0.symm.trans h.symm
  | n + 1, hn, g, d => by
    have hN : cfg8.N = 20 := N_8
    have hB : ¬(⟨n + 1, hn⟩ : Fin cfg8.N).val % 20 = 0 := by dsimp only; omega
    refine (congrFun ((outsAt8_B V c ⟨n + 1, hn⟩ hB).trans (out_B (F := Ideal) c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (fun h => hB ((hcond8_0 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (outsAt8 V c n (Nat.lt_of_succ_lt hn)))) (ix2 g d)).trans ?_
    refine (pay1_apply (k8_pay3 (F := Ideal) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩)) (iblk8 V c 7 ⟨n + 1, hn⟩) (outsAt8 V c n (Nat.lt_of_succ_lt hn)) g d).trans ?_
    rw [outsAt_eq c n (Nat.lt_of_succ_lt hn) g d, block_share V c ⟨n + 1, hn⟩ g d (5000 * (n + 1)) rfl (by omega)]
    have h := Spec.runsum_add_block (share V c g d) (5000 * (n + 1)) (by omega)
    have e : 5000 * (n + 1 + 1) = 5000 * (n + 1) + 5000 := by omega
    rw [e]
    exact h.symm

/-- The per-graph sums of the last layer's features. -/
abbrev result (c : Dev nD) : Buf (Elt Ideal) ((c : Thread nD τ).loc main_v119) :=
  (Spec.pool (feat V c) (batarr V c) : Spec.PO)

/-- After the last point the result block holds the per-graph sums over all the rows. -/
theorem last_eq (c : Dev nD) (h : 19 < cfg8.N) : (outsAt8 V c 19 h : Vec Ideal S256x64 .f32) = result V c := by
  funext j
  refine (congrArg (outsAt8 V c 19 h : Vec Ideal S256x64 .f32) (eq_ix2 j)).trans ?_
  refine (outsAt_eq V c 19 h (j 0) (j 1)).trans ?_
  exact Spec.runsum_all (share V c (j 0) (j 1))

/-- The result window never moves: its block is (0, 0) at every point. -/
theorem idx_out : ∀ t : Fin cfg8.N, win8_8.index t (0 : Fin 2) = 0 ∧ win8_8.index t (1 : Fin 2) = 0 :=
  (by decide +kernel : ∀ t : Fin grid8.N, _)

/-- The one write-back, at the last point, writes the per-graph sums: the block is the whole array. -/
theorem flushed_eq (c : Dev nD) (t : Fin cfg8.N) (hf : (cfg8.win 8).flush t = true) :
    (dat8 V c).flushed 8 t = ((cfg8.win 8).blk t).view.read (Elt Ideal) (result V c) := by
  have hN : cfg8.N = 20 := N_8
  obtain ⟨n, hn⟩ := t
  have h19 : n = 19 := by have := (flush8_8 ⟨n, hn⟩).mp hf; dsimp only at this; omega
  subst h19
  obtain ⟨e0, e1⟩ := idx_out ⟨19, hn⟩
  show (cfg8.win 8).cut (grid8.coords ⟨19, hn⟩) ((dat8 V c).after 8 ⟨19, hn⟩) = _
  rw [after8_8]
  show (cfg8.win 8).cut (grid8.coords ⟨19, hn⟩) (outsAt8 V c 19 hn) = _
  rw [last_eq V c hn]
  have hz' : (fun a => win8_8.index ⟨19, hn⟩ a * main_v119.ty.shape.size a) = fun _ => 0 := funext fun a => by
    match a with
    | ⟨0, _⟩ => show win8_8.index ⟨19, hn⟩ (0 : Fin 2) * 256 = 0; rw [e0]
    | ⟨1, _⟩ => show win8_8.index ⟨19, hn⟩ (1 : Fin 2) * 64 = 0; rw [e1]
  exact (Memref.read_access_unit_zero (Elt Ideal) main_v119 hz' (fun a => by rw [congrFun hz' a]; simp) (result V c)).symm

/-- The last point's block covers the whole result array. -/
theorem final_pool (c : Dev nD) : (dat8 V c).arrAt 8 cfg8.N = result V c :=
  (dat8 V c).arrAt_eq_of_cover 8 (result V c) (flushed_eq V c) fun i => by
    have hN : cfg8.N = 20 := N_8
    have h19 : 19 < cfg8.N := by omega
    obtain ⟨e0, e1⟩ := idx_out ⟨19, h19⟩
    refine ⟨⟨19, h19⟩, (flush8_8 ⟨19, h19⟩).mpr rfl, ?_⟩
    show i ∈ ((View.whole main_v119).slice (win8_8.rect ⟨19, h19⟩)).set
    rw [View.set_slice_whole, Rect.mem_set_unit]
    intro a
    have h0 : (i 0 : Nat) < 256 := (i 0).isLt
    have h1 : (i 1 : Nat) < 64 := (i 1).isLt
    match a with
    | ⟨0, _⟩ =>
      show win8_8.index ⟨19, h19⟩ (0 : Fin 2) * 256 ≤ (i 0 : Nat) ∧ (i 0 : Nat) < win8_8.index ⟨19, h19⟩ (0 : Fin 2) * 256 + 256
      rw [e0]; omega
    | ⟨1, _⟩ =>
      show win8_8.index ⟨19, h19⟩ (1 : Fin 2) * 64 ≤ (i 1 : Nat) ∧ (i 1 : Nat) < win8_8.index ⟨19, h19⟩ (1 : Fin 2) * 64 + 64
      rw [e1]; omega

end region

end Pool

variable (V : (c : Dev nD) → (b : Ref sig .tc) → Buf (Elt Ideal) ((c : Thread nD τ).loc b))

/-- Region 8's result array after its twenty points is the per-graph sum of the second half of a layer of the arrays the region was entered with. -/
theorem pool_8 (c : Dev nD) :
    ((dat8 (F := Ideal) V c).arrAt 8 cfg8.N : Spec.PO)
      = Spec.pool (Spec.mlp2 (V c main_v109) (V c main_v112) (V c main_v118) (V c main_v100) (V c main_v103) (V c main_v105) (V c main_v108))
          (V c main_v4) :=
  Pool.final_pool V c

end Cert.KernelIdeal.RegV

end
-- ==== Proof.KSegC.lean ====
/-
  The kernel program's third layer, the per-graph sums and the final division: from the contents at the layer's
  entry to the result.
-/
import proofs.«402690_j13675175870656_3_alg».proof.Proof.Gen.KernelIdeal.Frame
import proofs.«402690_j13675175870656_3_alg».proof.Proof.Spec
import proofs.«402690_j13675175870656_3_alg».proof.Proof.KDefs
import proofs.«402690_j13675175870656_3_alg».proof.Proof.Reg6
import proofs.«402690_j13675175870656_3_alg».proof.Proof.Reg7
import proofs.«402690_j13675175870656_3_alg».proof.Proof.Reg8
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

namespace Cert.KernelIdeal.KSeg

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-- A host stretch leaves alone a buffer none of its operations writes. -/
local macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Host terms read as the layer's functions -/

/-- The broadcast row count, at an index. -/
theorem bcast_cnt_C (j : S1x64.Idx) :
    (broadcastInDim S1x64 ![] bcast_S_S1x64 (constant (F := Ideal) S_ .f32 0x47C35000#32) : FVec Ideal S1x64 .f32) j = Spec.cnt :=
  (broadcastInDim_apply ![] bcast_S_S1x64 (constant (F := Ideal) S_ .f32 0x47C35000#32) j ix0 (fun a => a.elim0)).trans rfl

/-- The broadcast zero, at an index. -/
theorem bcast_zero_C (j : S1x64.Idx) :
    (broadcastInDim S1x64 ![] bcast_S_S1x64 (constant (F := Ideal) S_ .f32 0x00000000#32) : FVec Ideal S1x64 .f32) j = 0 :=
  (broadcastInDim_apply ![] bcast_S_S1x64 (constant (F := Ideal) S_ .f32 0x00000000#32) j ix0 (fun a => a.elim0)).trans
    Ideal.ofBits_zero_f32

/-- The column sums over the row count are the mean. -/
theorem meanK_host_C (s : Spec.RV) :
    (Host.divf (F := Ideal) (s : FVec Ideal S1x64 .f32) (broadcastInDim S1x64 ![] bcast_S_S1x64 (constant S_ .f32 0x47C35000#32)) : Spec.RV)
      = Spec.meanK s := by
  funext j
  show Ideal.div (s j) _ = Ideal.div (s j) Spec.cnt
  rw [bcast_cnt_C]

/-- The mean of the squares less the square of the mean, clamped below at zero, is the variance. -/
theorem varK_host_C (s q : Spec.RV) :
    (maximumf (F := Ideal) (subf (Host.divf (q : FVec Ideal S1x64 .f32) (broadcastInDim S1x64 ![] bcast_S_S1x64 (constant S_ .f32 0x47C35000#32)))
        (mulf (Host.divf (s : FVec Ideal S1x64 .f32) (broadcastInDim S1x64 ![] bcast_S_S1x64 (constant S_ .f32 0x47C35000#32)))
          (Host.divf (s : FVec Ideal S1x64 .f32) (broadcastInDim S1x64 ![] bcast_S_S1x64 (constant S_ .f32 0x47C35000#32)))))
      (broadcastInDim S1x64 ![] bcast_S_S1x64 (constant S_ .f32 0x00000000#32)) : Spec.RV)
      = Spec.varK s q := by
  funext j
  show max (Ideal.div (q j) _ - Ideal.div (s j) _ * Ideal.div (s j) _) _
    = max (Ideal.div (q j) Spec.cnt - Ideal.div (s j) Spec.cnt * Ideal.div (s j) Spec.cnt) 0
  rw [bcast_cnt_C, bcast_zero_C]

/-- The third matrix of a stack, its unit axis dropped. -/
theorem sliceW_host_C (W : Spec.W3) :
    (shapeCast S64x64 (extractStridedSlice S1x64x64 ![2, 0, 0] W slices_S3x64x64_S1x64x64_2_0_0) shapeCasts_S1x64x64_S64x64 : Spec.MW)
      = Spec.sliceW W 2 := by
  funext i
  refine (shapeCast_dropUnit_apply ![64, 64] _ shapeCasts_S1x64x64_S64x64 i).trans ?_
  refine extractStridedSlice_apply ![2, 0, 0] W slices_S3x64x64_S1x64x64_2_0_0 _ (ix3 2 (i 0) (i 1)) (fun a => ?_)
  match a with
  | ⟨0, _⟩ => rfl
  | ⟨1, _⟩ => show (i 0).val = 0 + (i 0).val; omega
  | ⟨2, _⟩ => show (i 1).val = 0 + (i 1).val; omega

/-- The third row vector of a stack, flattened and given its unit axis back. -/
theorem sliceV_host_C (v : Spec.V3) :
    (shapeCast S1x64 (shapeCast S64 (extractStridedSlice S1x64 ![2, 0] v slices_S3x64_S1x64_2_0) shapeCasts_S1x64_S64) shapeCasts_S64_S1x64 : Spec.RV)
      = Spec.sliceV v 2 := by
  rw [shapeCast_shapeCast]
  funext i
  refine extractStridedSlice_apply ![2, 0] v slices_S3x64_S1x64_2_0 i (ix2 2 (i 1)) (fun a => ?_)
  match a with
  | ⟨0, _⟩ => show 2 = 2 + (i 0).val; have h : (i 0).val < 1 := (i 0).isLt; omega
  | ⟨1, _⟩ => show (i 1).val = 0 + (i 1).val; omega

/-! ## The host stretch before the layer's first kernel -/

/-- The features are not written. -/
theorem W11_v82 : W11 m ρ c (Proc.devRef .tc main_v82) = W10 m ρ c (Proc.devRef .tc main_v82) := by
  host_keeps hostOps6
/-- Neither are the graph column and the counts. -/
theorem W11_v4 : W11 m ρ c (Proc.devRef .tc main_v4) = W10 m ρ c (Proc.devRef .tc main_v4) := by
  host_keeps hostOps6
theorem W11_v8 : W11 m ρ c (Proc.devRef .tc main_v8) = W10 m ρ c (Proc.devRef .tc main_v8) := by
  host_keeps hostOps6

/-- The neighbour sums of the features along the edges. -/
theorem W11_v92 :
    W11 m ρ c (Proc.devRef .tc main_v92)
      = KV.agg (W10 m ρ c (Proc.devRef .tc main_v1)) (W10 m ρ c (Proc.devRef .tc main_v3)) (W10 m ρ c (Proc.devRef .tc main_v82)) := by
  show StableHlo.after hostOps6 (W10 m ρ c) (Proc.devRef .tc main_v92) = _
  after_results_simp
  unfold KV.agg KV.srcIdx
  rfl

/-- The layer's two matrices and four row vectors, out of the stacks. -/
theorem W11_v94 :
    (W11 m ρ c (Proc.devRef .tc main_v94) : Spec.MW) = Spec.sliceW (W10 m ρ c (Proc.devRef .tc main_arg3)) 2 := by
  refine Eq.trans ?_ (sliceW_host_C (W10 m ρ c (Proc.devRef .tc main_arg3)))
  show StableHlo.after hostOps6 (W10 m ρ c) (Proc.devRef .tc main_v94) = _
  after_results_simp
  rfl
theorem W11_v105 :
    (W11 m ρ c (Proc.devRef .tc main_v105) : Spec.MW) = Spec.sliceW (W10 m ρ c (Proc.devRef .tc main_arg7)) 2 := by
  refine Eq.trans ?_ (sliceW_host_C (W10 m ρ c (Proc.devRef .tc main_arg7)))
  show StableHlo.after hostOps6 (W10 m ρ c) (Proc.devRef .tc main_v105) = _
  after_results_simp
  rfl
theorem W11_v97 :
    (W11 m ρ c (Proc.devRef .tc main_v97) : Spec.RV) = Spec.sliceV (W10 m ρ c (Proc.devRef .tc main_arg4)) 2 := by
  refine Eq.trans ?_ (sliceV_host_C (W10 m ρ c (Proc.devRef .tc main_arg4)))
  show StableHlo.after hostOps6 (W10 m ρ c) (Proc.devRef .tc main_v97) = _
  after_results_simp
  rfl
theorem W11_v100 :
    (W11 m ρ c (Proc.devRef .tc main_v100) : Spec.RV) = Spec.sliceV (W10 m ρ c (Proc.devRef .tc main_arg5)) 2 := by
  refine Eq.trans ?_ (sliceV_host_C (W10 m ρ c (Proc.devRef .tc main_arg5)))
  show StableHlo.after hostOps6 (W10 m ρ c) (Proc.devRef .tc main_v100) = _
  after_results_simp
  rfl
theorem W11_v103 :
    (W11 m ρ c (Proc.devRef .tc main_v103) : Spec.RV) = Spec.sliceV (W10 m ρ c (Proc.devRef .tc main_arg6)) 2 := by
  refine Eq.trans ?_ (sliceV_host_C (W10 m ρ c (Proc.devRef .tc main_arg6)))
  show StableHlo.after hostOps6 (W10 m ρ c) (Proc.devRef .tc main_v103) = _
  after_results_simp
  rfl
theorem W11_v108 :
    (W11 m ρ c (Proc.devRef .tc main_v108) : Spec.RV) = Spec.sliceV (W10 m ρ c (Proc.devRef .tc main_arg8)) 2 := by
  refine Eq.trans ?_ (sliceV_host_C (W10 m ρ c (Proc.devRef .tc main_arg8)))
  show StableHlo.after hostOps6 (W10 m ρ c) (Proc.devRef .tc main_v108) = _
  after_results_simp
  rfl

/-! ## The layer's first kernel -/

/-- h = (x + a) · W1 + b1 of the arrays the kernel was entered with. -/
theorem W12_v109 :
    (W12 m ρ c (Proc.devRef .tc main_v109) : Spec.NF)
      = Spec.lin1 (W11 m ρ c (Proc.devRef .tc main_v82)) (W11 m ρ c (Proc.devRef .tc main_v92))
          (W11 m ρ c (Proc.devRef .tc main_v94)) (W11 m ρ c (Proc.devRef .tc main_v97)) :=
  (W12_arr m ρ c 4).trans (RegV.mlp1_6 (V11 m ρ) c)

/-- It names none of these buffers. -/
theorem W12_keep : ∀ b ∈ ([main_v100, main_v103, main_v105, main_v108, main_v4, main_v8] : List (Ref sig .tc)),
    W12 m ρ c (Proc.devRef .tc b) = W11 m ρ c (Proc.devRef .tc b) := by
  intro b hb
  simp only [List.mem_cons, List.mem_nil_iff, or_false] at hb
  rcases hb with rfl | rfl | rfl | rfl | rfl | rfl <;> exact W12_of_ne m ρ c _ (by decide)

/-! ## The column sums -/

theorem W13_v110_0 :
    (W13 m ρ c (Proc.devRef .tc main_v110_0) : Spec.RV) = Spec.csum (W12 m ρ c (Proc.devRef .tc main_v109)) :=
  (W13_arr m ρ c 1).trans (RegV.bn_7 (V12 m ρ) c).1
theorem W13_v110_1 :
    (W13 m ρ c (Proc.devRef .tc main_v110_1) : Spec.RV) = Spec.csumsq (W12 m ρ c (Proc.devRef .tc main_v109)) :=
  (W13_arr m ρ c 2).trans (RegV.bn_7 (V12 m ρ) c).2

/-- The kernel reads h and leaves it as it was. -/
theorem W13_v109 : W13 m ρ c (Proc.devRef .tc main_v109) = W12 m ρ c (Proc.devRef .tc main_v109) :=
  (W13_arr m ρ c 0).trans (((dat7 (V12 m ρ) c).arrAt_in 0 rfl _).trans (A_eq7 (V12 m ρ) c 0))

/-- It names none of these buffers. -/
theorem W13_keep : ∀ b ∈ ([main_v100, main_v103, main_v105, main_v108, main_v4, main_v8] : List (Ref sig .tc)),
    W13 m ρ c (Proc.devRef .tc b) = W12 m ρ c (Proc.devRef .tc b) := by
  intro b hb
  simp only [List.mem_cons, List.mem_nil_iff, or_false] at hb
  rcases hb with rfl | rfl | rfl | rfl | rfl | rfl <;> exact W13_of_ne m ρ c _ (by decide)

/-! ## The host stretch between the sums and the last kernel: mean and variance -/

theorem W14_v112 :
    (W14 m ρ c (Proc.devRef .tc main_v112) : Spec.RV) = Spec.meanK (W13 m ρ c (Proc.devRef .tc main_v110_0)) := by
  refine Eq.trans ?_ (meanK_host_C (W13 m ρ c (Proc.devRef .tc main_v110_0)))
  show StableHlo.after hostOps8 (W13 m ρ c) (Proc.devRef .tc main_v112) = _
  after_results
theorem W14_v118 :
    (W14 m ρ c (Proc.devRef .tc main_v118) : Spec.RV)
      = Spec.varK (W13 m ρ c (Proc.devRef .tc main_v110_0)) (W13 m ρ c (Proc.devRef .tc main_v110_1)) := by
  refine Eq.trans ?_ (varK_host_C (W13 m ρ c (Proc.devRef .tc main_v110_0)) (W13 m ρ c (Proc.devRef .tc main_v110_1)))
  show StableHlo.after hostOps8 (W13 m ρ c) (Proc.devRef .tc main_v118) = _
  after_results

/-- It writes none of these buffers. -/
theorem W14_v109 : W14 m ρ c (Proc.devRef .tc main_v109) = W13 m ρ c (Proc.devRef .tc main_v109) := by
  host_keeps hostOps8
theorem W14_v100 : W14 m ρ c (Proc.devRef .tc main_v100) = W13 m ρ c (Proc.devRef .tc main_v100) := by
  host_keeps hostOps8
theorem W14_v103 : W14 m ρ c (Proc.devRef .tc main_v103) = W13 m ρ c (Proc.devRef .tc main_v103) := by
  host_keeps hostOps8
theorem W14_v105 : W14 m ρ c (Proc.devRef .tc main_v105) = W13 m ρ c (Proc.devRef .tc main_v105) := by
  host_keeps hostOps8
theorem W14_v108 : W14 m ρ c (Proc.devRef .tc main_v108) = W13 m ρ c (Proc.devRef .tc main_v108) := by
  host_keeps hostOps8
theorem W14_v4 : W14 m ρ c (Proc.devRef .tc main_v4) = W13 m ρ c (Proc.devRef .tc main_v4) := by
  host_keeps hostOps8
theorem W14_v8 : W14 m ρ c (Proc.devRef .tc main_v8) = W13 m ρ c (Proc.devRef .tc main_v8) := by
  host_keeps hostOps8

/-! ## The last kernel: the second half of the layer, summed per graph -/

theorem W15_v119 :
    (W15 m ρ c (Proc.devRef .tc main_v119) : Spec.PO)
      = Spec.pool (Spec.mlp2 (W14 m ρ c (Proc.devRef .tc main_v109)) (W14 m ρ c (Proc.devRef .tc main_v112))
          (W14 m ρ c (Proc.devRef .tc main_v118)) (W14 m ρ c (Proc.devRef .tc main_v100)) (W14 m ρ c (Proc.devRef .tc main_v103))
          (W14 m ρ c (Proc.devRef .tc main_v105)) (W14 m ρ c (Proc.devRef .tc main_v108))) (W14 m ρ c (Proc.devRef .tc main_v4)) :=
  (W15_arr m ρ c 8).trans (RegV.pool_8 (V14 m ρ) c)

/-- It does not name the counts. -/
theorem W15_v8 : W15 m ρ c (Proc.devRef .tc main_v8) = W14 m ρ c (Proc.devRef .tc main_v8) :=
  W15_of_ne m ρ c main_v8 (by decide)

/-! ## The last host stretch: the division by the clamped counts -/

theorem W16_v124_host :
    W16 m ρ c (Proc.devRef .tc main_v124)
      = KV.tail (W15 m ρ c (Proc.devRef .tc main_v119)) (W15 m ρ c (Proc.devRef .tc main_v8)) := by
  show StableHlo.after hostOps9 (W15 m ρ c) (Proc.devRef .tc main_v124) = _
  after_results
  unfold KV.tail
  rfl
/-- The result buffer at the end: the per-graph sums of the third layer of the arrays it was entered with, over the clamped counts. -/
theorem W16_v124 :
    (W16 m ρ c (Proc.devRef .tc main_v124) : Spec.PO)
      = KV.tail (Spec.pool (Spec.layerK (W10 m ρ c (Proc.devRef .tc main_v82))
          (KV.agg (W10 m ρ c (Proc.devRef .tc main_v1)) (W10 m ρ c (Proc.devRef .tc main_v3)) (W10 m ρ c (Proc.devRef .tc main_v82)))
          (W10 m ρ c (Proc.devRef .tc main_arg3)) (W10 m ρ c (Proc.devRef .tc main_arg4)) (W10 m ρ c (Proc.devRef .tc main_arg5))
          (W10 m ρ c (Proc.devRef .tc main_arg6)) (W10 m ρ c (Proc.devRef .tc main_arg7)) (W10 m ρ c (Proc.devRef .tc main_arg8)) 2)
          (W10 m ρ c (Proc.devRef .tc main_v4))) (W10 m ρ c (Proc.devRef .tc main_v8)) := by
  have e8 : W15 m ρ c (Proc.devRef .tc main_v8) = W10 m ρ c (Proc.devRef .tc main_v8) :=
    (W15_v8 m ρ c).trans ((W14_v8 m ρ c).trans ((W13_keep m ρ c main_v8 (by simp)).trans
      ((W12_keep m ρ c main_v8 (by simp)).trans (W11_v8 m ρ c))))
  have e4 : W14 m ρ c (Proc.devRef .tc main_v4) = W10 m ρ c (Proc.devRef .tc main_v4) :=
    (W14_v4 m ρ c).trans ((W13_keep m ρ c main_v4 (by simp)).trans ((W12_keep m ρ c main_v4 (by simp)).trans (W11_v4 m ρ c)))
  have e100 : (W14 m ρ c (Proc.devRef .tc main_v100) : Spec.RV) = Spec.sliceV (W10 m ρ c (Proc.devRef .tc main_arg5)) 2 :=
    (W14_v100 m ρ c).trans ((W13_keep m ρ c main_v100 (by simp)).trans ((W12_keep m ρ c main_v100 (by simp)).trans (W11_v100 m ρ c)))
  have e103 : (W14 m ρ c (Proc.devRef .tc main_v103) : Spec.RV) = Spec.sliceV (W10 m ρ c (Proc.devRef .tc main_arg6)) 2 :=
    (W14_v103 m ρ c).trans ((W13_keep m ρ c main_v103 (by simp)).trans ((W12_keep m ρ c main_v103 (by simp)).trans (W11_v103 m ρ c)))
  have e105 : (W14 m ρ c (Proc.devRef .tc main_v105) : Spec.MW) = Spec.sliceW (W10 m ρ c (Proc.devRef .tc main_arg7)) 2 :=
    (W14_v105 m ρ c).trans ((W13_keep m ρ c main_v105 (by simp)).trans ((W12_keep m ρ c main_v105 (by simp)).trans (W11_v105 m ρ c)))
  have e108 : (W14 m ρ c (Proc.devRef .tc main_v108) : Spec.RV) = Spec.sliceV (W10 m ρ c (Proc.devRef .tc main_arg8)) 2 :=
    (W14_v108 m ρ c).trans ((W13_keep m ρ c main_v108 (by simp)).trans ((W12_keep m ρ c main_v108 (by simp)).trans (W11_v108 m ρ c)))
  rw [W16_v124_host, W15_v119, e8, e4, W14_v112, W14_v118, W13_v110_0, W13_v110_1, e100, e103, e105, e108,
    W14_v109, W13_v109, W12_v109, W11_v82, W11_v92, W11_v94, W11_v97]
  unfold Spec.layerK
  rfl

end Cert.KernelIdeal.KSeg

end
-- ==== Proof.KValue.lean ====
/-
  The kernel program's result as one function of the launch arrays: three layers, the per-graph sums, the division
  by the clamped counts.
-/
import proofs.«402690_j13675175870656_3_alg».proof.Proof.KSegA
import proofs.«402690_j13675175870656_3_alg».proof.Proof.KSegB
import proofs.«402690_j13675175870656_3_alg».proof.Proof.KSegC

noncomputable section

namespace Cert.KernelIdeal.KVal

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- One layer of the kernel program with the launch parameters. -/
def layerKf : Spec.NF → Spec.NF → Fin 3 → Spec.NF := fun x a l =>
  Spec.layerK x a (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) l

/-- The neighbour sums along the launch edges. -/
def aggK : Spec.NF → Spec.NF :=
  KV.agg (KV.v1Of (m ((c : Thread nD τ).loc main_arg1))) (KV.v3Of (m ((c : Thread nD τ).loc main_arg1)))

private theorem mem10 (b : Ref sig .tc)
    (hb : b ∈ ([main_v1, main_v3, main_v4, main_v8, main_arg3, main_arg4, main_arg5, main_arg6, main_arg7, main_arg8] : List (Ref sig .tc))) :
    W10 m ρ c (Proc.devRef .tc b) = W1 m ρ c (Proc.devRef .tc b) :=
  (KSeg.keepB m ρ c b hb).trans (KSeg.keepA m ρ c b hb)

/-- The result buffer at the end of the kernel program. -/
theorem W16_value :
    (W16 m ρ c (Proc.devRef .tc main_v124) : Spec.PO)
      = KV.tail (Spec.pool (Spec.net (layerKf m c) (aggK m c) (m ((c : Thread nD τ).loc main_arg0)))
          (KV.batOf (m ((c : Thread nD τ).loc main_arg2)))) (KV.cntOf (m ((c : Thread nD τ).loc main_arg2))) := by
  rw [KSeg.W16_v124, KSeg.W10_v82]
  rw [mem10 m ρ c main_v1 (by simp), mem10 m ρ c main_v3 (by simp), mem10 m ρ c main_v4 (by simp), mem10 m ρ c main_v8 (by simp),
    mem10 m ρ c main_arg3 (by simp), mem10 m ρ c main_arg4 (by simp), mem10 m ρ c main_arg5 (by simp),
    mem10 m ρ c main_arg6 (by simp), mem10 m ρ c main_arg7 (by simp), mem10 m ρ c main_arg8 (by simp)]
  rw [KSeg.keepA m ρ c main_v1 (by simp), KSeg.keepA m ρ c main_v3 (by simp),
    KSeg.keepA m ρ c main_arg3 (by simp), KSeg.keepA m ρ c main_arg4 (by simp), KSeg.keepA m ρ c main_arg5 (by simp),
    KSeg.keepA m ρ c main_arg6 (by simp), KSeg.keepA m ρ c main_arg7 (by simp), KSeg.keepA m ρ c main_arg8 (by simp)]
  rw [KSeg.W5_v45, KSeg.W1_v1, KSeg.W1_v3, KSeg.W1_v4, KSeg.W1_v8, KSeg.W1_arg3, KSeg.W1_arg4, KSeg.W1_arg5, KSeg.W1_arg6,
    KSeg.W1_arg7, KSeg.W1_arg8]
  rfl

end Cert.KernelIdeal.KVal

end
-- ==== Proof.RefStages.lean ====
/-
  The reference's run, read back: the fold of its 230 host operations over the launch contents leaves the result
  buffer at the composed stages of the arguments, and every argument as launched.
-/
import proofs.«402690_j13675175870656_3_alg».proof.Proof.RefRun
import proofs.«402690_j13675175870656_3_alg».proof.Proof.ReadP
import Idealize.ShloMosaic.Lib.StableHlo.Run
import Idealize.ShloMosaic.Lib.Tactic

noncomputable section

namespace Cert.ReferenceIdeal.RS

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## The operations in consecutive stretches -/

section Stretches

variable {F : FTy → Type} [FloatOps F]

/-- Operations 0 to 73 of the 230, in order. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    unary main_arg3 main_v15 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v15 main_v16 rfl shapeCasts_S1x64x64_S64x64,
    binary main_v14 main_v16 main_v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v18 ((extractStridedSlice S1x64 ![0, 0] · slices_S3x64_S1x64_0_0) : (⟨S3x64, .f32⟩ : BufTy).Contents (Elt F) → (⟨S1x64, .f32⟩ : BufTy).Contents (Elt F)),
    reshape main_v18 main_v19 rfl shapeCasts_S1x64_S64,
    unary main_v19 main_v20 (broadcastInDim S1x64 ![1] bcast_S64_S1x64_1 : (⟨S64, .f32⟩ : BufTy).Contents (Elt F) → (⟨S1x64, .f32⟩ : BufTy).Contents (Elt F)),
    unary main_v20 main_v21 (broadcastInDim S100000x64 ![0, 1] bcast_S1x64_S100000x64_0_1 : (⟨S1x64, .f32⟩ : BufTy).Contents (Elt F) → (⟨S100000x64, .f32⟩ : BufTy).Contents (Elt F)),
    binary main_v17 main_v21 main_v22 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v22 main_cst_1 main_v23 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v24 (broadcastInDim S64 ![] bcast_S_S64 : (⟨S_, .f32⟩ : BufTy).Contents (Elt F) → (⟨S64, .f32⟩ : BufTy).Contents (Elt F)),
    binary main_v23 main_v24 main_v25 (Host.divf : (⟨S64, .f32⟩ : BufTy).Contents (Elt F) → (⟨S64, .f32⟩ : BufTy).Contents (Elt F) → (⟨S64, .f32⟩ : BufTy).Contents (Elt F)),
    unary main_v25 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v22 main_v27 main_v28 (subf : (⟨S100000x64, .f32⟩ : BufTy).Contents (Elt F) → (⟨S100000x64, .f32⟩ : BufTy).Contents (Elt F) → (⟨S100000x64, .f32⟩ : BufTy).Contents (Elt F)),
    binary main_v28 main_v28 main_v29 (mulf : (⟨S100000x64, .f32⟩ : BufTy).Contents (Elt F) → (⟨S100000x64, .f32⟩ : BufTy).Contents (Elt F) → (⟨S100000x64, .f32⟩ : BufTy).Contents (Elt F)),
    nullary main_cst_3 (constant S_ .f32 0x00000000#32),
    binary main_v29 main_cst_3 main_v30 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_4 (constant S_ .f32 0x47C35000#32),
    unary main_cst_4 main_v31 (broadcastInDim S64 ![] bcast_S_S64 : (⟨S_, .f32⟩ : BufTy).Contents (Elt F) → (⟨S64, .f32⟩ : BufTy).Contents (Elt F)),
    binary main_v30 main_v31 main_v32 (Host.divf : (⟨S64, .f32⟩ : BufTy).Contents (Elt F) → (⟨S64, .f32⟩ : BufTy).Contents (Elt F) → (⟨S64, .f32⟩ : BufTy).Contents (Elt F)),
    unary main_v25 main_v33 (broadcastInDim S1x64 ![1] bcast_S64_S1x64_1 : (⟨S64, .f32⟩ : BufTy).Contents (Elt F) → (⟨S1x64, .f32⟩ : BufTy).Contents (Elt F)),
    unary main_v33 main_v34 (broadcastInDim S100000x64 ![0, 1] bcast_S1x64_S100000x64_0_1 : (⟨S1x64, .f32⟩ : BufTy).Contents (Elt F) → (⟨S100000x64, .f32⟩ : BufTy).Contents (Elt F)),
    binary main_v22 main_v34 main_v35 (subf : (⟨S100000x64, .f32⟩ : BufTy).Contents (Elt F) → (⟨S100000x64, .f32⟩ : BufTy).Contents (Elt F) → (⟨S100000x64, .f32⟩ : BufTy).Contents (Elt F)),
    nullary main_cst_5 (constant S_ .f32 0x3727C5AC#32),
    unary main_cst_5 main_v36 (broadcastInDim S64 ![] bcast_S_S64 : (⟨S_, .f32⟩ : BufTy).Contents (Elt F) → (⟨S64, .f32⟩ : BufTy).Contents (Elt F)),
    binary main_v32 main_v36 main_v37 (addf : (⟨S64, .f32⟩ : BufTy).Contents (Elt F) → (⟨S64, .f32⟩ : BufTy).Contents (Elt F) → (⟨S64, .f32⟩ : BufTy).Contents (Elt F)),
    unary main_v37 main_v38 (Host.rsqrt : (⟨S64, .f32⟩ : BufTy).Contents (Elt F) → (⟨S64, .f32⟩ : BufTy).Contents (Elt F)),
    unary main_v38 main_v39 (broadcastInDim S1x64 ![1] bcast_S64_S1x64_1 : (⟨S64, .f32⟩ : BufTy).Contents (Elt F) → (⟨S1x64, .f32⟩ : BufTy).Contents (Elt F)),
    unary main_v39 main_v40 (broadcastInDim S100000x64 ![0, 1] bcast_S1x64_S100000x64_0_1 : (⟨S1x64, .f32⟩ : BufTy).Contents (Elt F) → (⟨S100000x64, .f32⟩ : BufTy).Contents (Elt F)),
    binary main_v35 main_v40 main_v41 (mulf : (⟨S100000x64, .f32⟩ : BufTy).Contents (Elt F) → (⟨S100000x64, .f32⟩ : BufTy).Contents (Elt F) → (⟨S100000x64, .f32⟩ : BufTy).Contents (Elt F)),
    unary main_arg5 main_v42 ((extractStridedSlice S1x64 ![0, 0] · slices_S3x64_S1x64_0_0) : (⟨S3x64, .f32⟩ : BufTy).Contents (Elt F) → (⟨S1x64, .f32⟩ : BufTy).Contents (Elt F)),
    reshape main_v42 main_v43 rfl shapeCasts_S1x64_S64,
    unary main_v43 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v41 main_v45 main_v46 (mulf : (⟨S100000x64, .f32⟩ : BufTy).Contents (Elt F) → (⟨S100000x64, .f32⟩ : BufTy).Contents (Elt F) → (⟨S100000x64, .f32⟩ : BufTy).Contents (Elt F)),
    unary main_arg6 main_v47 ((extractStridedSlice S1x64 ![0, 0] · slices_S3x64_S1x64_0_0) : (⟨S3x64, .f32⟩ : BufTy).Contents (Elt F) → (⟨S1x64, .f32⟩ : BufTy).Contents (Elt F)),
    reshape main_v47 main_v48 rfl shapeCasts_S1x64_S64,
    unary main_v48 main_v49 (broadcastInDim S1x64 ![1] bcast_S64_S1x64_1 : (⟨S64, .f32⟩ : BufTy).Contents (Elt F) → (⟨S1x64, .f32⟩ : BufTy).Contents (Elt F)),
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v46 main_v50 main_v51 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v51) (TRef.of (T := ⟨S100000x64, .f32⟩) main_call0_v0) (TRef.of (T := ⟨S100000x64, .f32⟩) main_v52) maximumf,
    unary main_arg7 main_v53 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v53 main_v54 rfl shapeCasts_S1x64x64_S64x64,
    binary main_v52 main_v54 main_v55 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v56 ((extractStridedSlice S1x64 ![0, 0] · slices_S3x64_S1x64_0_0) : (⟨S3x64, .f32⟩ : BufTy).Contents (Elt F) → (⟨S1x64, .f32⟩ : BufTy).Contents (Elt F)),
    reshape main_v56 main_v57 rfl shapeCasts_S1x64_S64,
    unary main_v57 main_v58 (broadcastInDim S1x64 ![1] bcast_S64_S1x64_1 : (⟨S64, .f32⟩ : BufTy).Contents (Elt F) → (⟨S1x64, .f32⟩ : BufTy).Contents (Elt F)),
    unary main_v58 main_v59 (broadcastInDim S100000x64 ![0, 1] bcast_S1x64_S100000x64_0_1 : (⟨S1x64, .f32⟩ : BufTy).Contents (Elt F) → (⟨S100000x64, .f32⟩ : BufTy).Contents (Elt F)),
    binary main_v55 main_v59 main_v60 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v60) (TRef.of (T := ⟨S100000x64, .f32⟩) main_call1_v0) (TRef.of (T := ⟨S100000x64, .f32⟩) main_v61) maximumf ]

/-- Operations 74 to 143 of the 230, in order. -/
abbrev opsB : List (HloOp τ sig (Elt F)) :=
  [ nullary main_c_6 (constantI S_ 32 0#32),
    unary main_c_6 main_v62 (broadcastInDim S1600000 ![] bcast_S_S1600000 : (⟨S_, .i32⟩ : BufTy).Contents (Elt F) → (⟨S1600000, .i32⟩ : BufTy).Contents (Elt F)),
    binary main_v1 main_v62 main_v63 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v64 (broadcastInDim S1600000 ![] bcast_S_S1600000 : (⟨S_, .i32⟩ : BufTy).Contents (Elt F) → (⟨S1600000, .i32⟩ : BufTy).Contents (Elt F)),
    binary main_v1 main_v64 main_v65 (addi : (⟨S1600000, .i32⟩ : BufTy).Contents (Elt F) → (⟨S1600000, .i32⟩ : BufTy).Contents (Elt F) → (⟨S1600000, .i32⟩ : BufTy).Contents (Elt F)),
    ternary main_v63 main_v65 main_v1 main_v66 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v66 main_v67 (broadcastInDim S1600000x1 ![0] bcast_S1600000_S1600000x1_0 : (⟨S1600000, .i32⟩ : BufTy).Contents (Elt F) → (⟨S1600000x1, .i32⟩ : BufTy).Contents (Elt F)),
    binary main_v61 main_v67 main_v68 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_8 (constant S_ .f32 0x00000000#32),
    unary main_cst_8 main_v69 (broadcastInDim S100000x64 ![] bcast_S_S100000x64 : (⟨S_, .f32⟩ : BufTy).Contents (Elt F) → (⟨S100000x64, .f32⟩ : BufTy).Contents (Elt F)),
    unary main_v3 main_v70 (broadcastInDim S1600000x1 ![0] bcast_S1600000_S1600000x1_0 : (⟨S1600000, .i32⟩ : BufTy).Contents (Elt F) → (⟨S1600000x1, .i32⟩ : BufTy).Contents (Elt F)),
    ternary main_v69 main_v70 main_v68 main_v71 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v61 main_v71 main_v72 (addf : (⟨S100000x64, .f32⟩ : BufTy).Contents (Elt F) → (⟨S100000x64, .f32⟩ : BufTy).Contents (Elt F) → (⟨S100000x64, .f32⟩ : BufTy).Contents (Elt F)),
    unary main_arg3 main_v73 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v73 main_v74 rfl shapeCasts_S1x64x64_S64x64,
    binary main_v72 main_v74 main_v75 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v76 ((extractStridedSlice S1x64 ![1, 0] · slices_S3x64_S1x64_1_0) : (⟨S3x64, .f32⟩ : BufTy).Contents (Elt F) → (⟨S1x64, .f32⟩ : BufTy).Contents (Elt F)),
    reshape main_v76 main_v77 rfl shapeCasts_S1x64_S64,
    unary main_v77 main_v78 (broadcastInDim S1x64 ![1] bcast_S64_S1x64_1 : (⟨S64, .f32⟩ : BufTy).Contents (Elt F) → (⟨S1x64, .f32⟩ : BufTy).Contents (Elt F)),
    unary main_v78 main_v79 (broadcastInDim S100000x64 ![0, 1] bcast_S1x64_S100000x64_0_1 : (⟨S1x64, .f32⟩ : BufTy).Contents (Elt F) → (⟨S100000x64, .f32⟩ : BufTy).Contents (Elt F)),
    binary main_v75 main_v79 main_v80 (addf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x00000000#32),
    binary main_v80 main_cst_9 main_v81 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_10 (constant S_ .f32 0x47C35000#32),
    unary main_cst_10 main_v82 (broadcastInDim S64 ![] bcast_S_S64 : (⟨S_, .f32⟩ : BufTy).Contents (Elt F) → (⟨S64, .f32⟩ : BufTy).Contents (Elt F)),
    binary main_v81 main_v82 main_v83 (Host.divf : (⟨S64, .f32⟩ : BufTy).Contents (Elt F) → (⟨S64, .f32⟩ : BufTy).Contents (Elt F) → (⟨S64, .f32⟩ : BufTy).Contents (Elt F)),
    unary main_v83 main_v84 (broadcastInDim S1x64 ![1] bcast_S64_S1x64_1 : (⟨S64, .f32⟩ : BufTy).Contents (Elt F) → (⟨S1x64, .f32⟩ : BufTy).Contents (Elt F)),
    unary main_v84 main_v85 (broadcastInDim S100000x64 ![0, 1] bcast_S1x64_S100000x64_0_1 : (⟨S1x64, .f32⟩ : BufTy).Contents (Elt F) → (⟨S100000x64, .f32⟩ : BufTy).Contents (Elt F)),
    binary main_v80 main_v85 main_v86 (subf : (⟨S100000x64, .f32⟩ : BufTy).Contents (Elt F) → (⟨S100000x64, .f32⟩ : BufTy).Contents (Elt F) → (⟨S100000x64, .f32⟩ : BufTy).Contents (Elt F)),
    binary main_v86 main_v86 main_v87 (mulf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x00000000#32),
    binary main_v87 main_cst_11 main_v88 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_12 (constant S_ .f32 0x47C35000#32),
    unary main_cst_12 main_v89 (broadcastInDim S64 ![] bcast_S_S64 : (⟨S_, .f32⟩ : BufTy).Contents (Elt F) → (⟨S64, .f32⟩ : BufTy).Contents (Elt F)),
    binary main_v88 main_v89 main_v90 (Host.divf : (⟨S64, .f32⟩ : BufTy).Contents (Elt F) → (⟨S64, .f32⟩ : BufTy).Contents (Elt F) → (⟨S64, .f32⟩ : BufTy).Contents (Elt F)),
    unary main_v83 main_v91 (broadcastInDim S1x64 ![1] bcast_S64_S1x64_1 : (⟨S64, .f32⟩ : BufTy).Contents (Elt F) → (⟨S1x64, .f32⟩ : BufTy).Contents (Elt F)),
    unary main_v91 main_v92 (broadcastInDim S100000x64 ![0, 1] bcast_S1x64_S100000x64_0_1 : (⟨S1x64, .f32⟩ : BufTy).Contents (Elt F) → (⟨S100000x64, .f32⟩ : BufTy).Contents (Elt F)),
    binary main_v80 main_v92 main_v93 (subf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v94 (broadcastInDim S64 ![] bcast_S_S64 : (⟨S_, .f32⟩ : BufTy).Contents (Elt F) → (⟨S64, .f32⟩ : BufTy).Contents (Elt F)),
    binary main_v90 main_v94 main_v95 (addf : (⟨S64, .f32⟩ : BufTy).Contents (Elt F) → (⟨S64, .f32⟩ : BufTy).Contents (Elt F) → (⟨S64, .f32⟩ : BufTy).Contents (Elt F)),
    unary main_v95 main_v96 (Host.rsqrt : (⟨S64, .f32⟩ : BufTy).Contents (Elt F) → (⟨S64, .f32⟩ : BufTy).Contents (Elt F)),
    unary main_v96 main_v97 (broadcastInDim S1x64 ![1] bcast_S64_S1x64_1 : (⟨S64, .f32⟩ : BufTy).Contents (Elt F) → (⟨S1x64, .f32⟩ : BufTy).Contents (Elt F)),
    unary main_v97 main_v98 (broadcastInDim S100000x64 ![0, 1] bcast_S1x64_S100000x64_0_1 : (⟨S1x64, .f32⟩ : BufTy).Contents (Elt F) → (⟨S100000x64, .f32⟩ : BufTy).Contents (Elt F)),
    binary main_v93 main_v98 main_v99 (mulf : (⟨S100000x64, .f32⟩ : BufTy).Contents (Elt F) → (⟨S100000x64, .f32⟩ : BufTy).Contents (Elt F) → (⟨S100000x64, .f32⟩ : BufTy).Contents (Elt F)),
    unary main_arg5 main_v100 ((extractStridedSlice S1x64 ![1, 0] · slices_S3x64_S1x64_1_0) : (⟨S3x64, .f32⟩ : BufTy).Contents (Elt F) → (⟨S1x64, .f32⟩ : BufTy).Contents (Elt F)),
    reshape main_v100 main_v101 rfl shapeCasts_S1x64_S64,
    unary main_v101 main_v102 (broadcastInDim S1x64 ![1] bcast_S64_S1x64_1 : (⟨S64, .f32⟩ : BufTy).Contents (Elt F) → (⟨S1x64, .f32⟩ : BufTy).Contents (Elt F)),
    unary main_v102 main_v103 (broadcastInDim S100000x64 ![0, 1] bcast_S1x64_S100000x64_0_1 : (⟨S1x64, .f32⟩ : BufTy).Contents (Elt F) → (⟨S100000x64, .f32⟩ : BufTy).Contents (Elt F)),
    binary main_v99 main_v103 main_v104 (mulf : (⟨S100000x64, .f32⟩ : BufTy).Contents (Elt F) → (⟨S100000x64, .f32⟩ : BufTy).Contents (Elt F) → (⟨S100000x64, .f32⟩ : BufTy).Contents (Elt F)),
    unary main_arg6 main_v105 ((extractStridedSlice S1x64 ![1, 0] · slices_S3x64_S1x64_1_0) : (⟨S3x64, .f32⟩ : BufTy).Contents (Elt F) → (⟨S1x64, .f32⟩ : BufTy).Contents (Elt F)),
    reshape main_v105 main_v106 rfl shapeCasts_S1x64_S64,
    unary main_v106 main_v107 (broadcastInDim S1x64 ![1] bcast_S64_S1x64_1 : (⟨S64, .f32⟩ : BufTy).Contents (Elt F) → (⟨S1x64, .f32⟩ : BufTy).Contents (Elt F)),
    unary main_v107 main_v108 (broadcastInDim S100000x64 ![0, 1] bcast_S1x64_S100000x64_0_1 : (⟨S1x64, .f32⟩ : BufTy).Contents (Elt F) → (⟨S100000x64, .f32⟩ : BufTy).Contents (Elt F)),
    binary main_v104 main_v108 main_v109 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v109) (TRef.of (T := ⟨S100000x64, .f32⟩) main_call2_v0) (TRef.of (T := ⟨S100000x64, .f32⟩) main_v110) maximumf,
    unary main_arg7 main_v111 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v111 main_v112 rfl shapeCasts_S1x64x64_S64x64,
    binary main_v110 main_v112 main_v113 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v114 ((extractStridedSlice S1x64 ![1, 0] · slices_S3x64_S1x64_1_0) : (⟨S3x64, .f32⟩ : BufTy).Contents (Elt F) → (⟨S1x64, .f32⟩ : BufTy).Contents (Elt F)),
    reshape main_v114 main_v115 rfl shapeCasts_S1x64_S64,
    unary main_v115 main_v116 (broadcastInDim S1x64 ![1] bcast_S64_S1x64_1 : (⟨S64, .f32⟩ : BufTy).Contents (Elt F) → (⟨S1x64, .f32⟩ : BufTy).Contents (Elt F)),
    unary main_v116 main_v117 (broadcastInDim S100000x64 ![0, 1] bcast_S1x64_S100000x64_0_1 : (⟨S1x64, .f32⟩ : BufTy).Contents (Elt F) → (⟨S100000x64, .f32⟩ : BufTy).Contents (Elt F)),
    binary main_v113 main_v117 main_v118 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v118) (TRef.of (T := ⟨S100000x64, .f32⟩) main_call3_v0) (TRef.of (T := ⟨S100000x64, .f32⟩) main_v119) maximumf ]

/-- Operations 144 to 213 of the 230, in order. -/
abbrev opsC : List (HloOp τ sig (Elt F)) :=
  [ nullary main_c_14 (constantI S_ 32 0#32),
    unary main_c_14 main_v120 (broadcastInDim S1600000 ![] bcast_S_S1600000 : (⟨S_, .i32⟩ : BufTy).Contents (Elt F) → (⟨S1600000, .i32⟩ : BufTy).Contents (Elt F)),
    binary main_v1 main_v120 main_v121 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v122 (broadcastInDim S1600000 ![] bcast_S_S1600000 : (⟨S_, .i32⟩ : BufTy).Contents (Elt F) → (⟨S1600000, .i32⟩ : BufTy).Contents (Elt F)),
    binary main_v1 main_v122 main_v123 (addi : (⟨S1600000, .i32⟩ : BufTy).Contents (Elt F) → (⟨S1600000, .i32⟩ : BufTy).Contents (Elt F) → (⟨S1600000, .i32⟩ : BufTy).Contents (Elt F)),
    ternary main_v121 main_v123 main_v1 main_v124 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v124 main_v125 (broadcastInDim S1600000x1 ![0] bcast_S1600000_S1600000x1_0 : (⟨S1600000, .i32⟩ : BufTy).Contents (Elt F) → (⟨S1600000x1, .i32⟩ : BufTy).Contents (Elt F)),
    binary main_v119 main_v125 main_v126 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_16 (constant S_ .f32 0x00000000#32),
    unary main_cst_16 main_v127 (broadcastInDim S100000x64 ![] bcast_S_S100000x64 : (⟨S_, .f32⟩ : BufTy).Contents (Elt F) → (⟨S100000x64, .f32⟩ : BufTy).Contents (Elt F)),
    unary main_v3 main_v128 (broadcastInDim S1600000x1 ![0] bcast_S1600000_S1600000x1_0 : (⟨S1600000, .i32⟩ : BufTy).Contents (Elt F) → (⟨S1600000x1, .i32⟩ : BufTy).Contents (Elt F)),
    ternary main_v127 main_v128 main_v126 main_v129 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v119 main_v129 main_v130 (addf : (⟨S100000x64, .f32⟩ : BufTy).Contents (Elt F) → (⟨S100000x64, .f32⟩ : BufTy).Contents (Elt F) → (⟨S100000x64, .f32⟩ : BufTy).Contents (Elt F)),
    unary main_arg3 main_v131 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v131 main_v132 rfl shapeCasts_S1x64x64_S64x64,
    binary main_v130 main_v132 main_v133 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v134 ((extractStridedSlice S1x64 ![2, 0] · slices_S3x64_S1x64_2_0) : (⟨S3x64, .f32⟩ : BufTy).Contents (Elt F) → (⟨S1x64, .f32⟩ : BufTy).Contents (Elt F)),
    reshape main_v134 main_v135 rfl shapeCasts_S1x64_S64,
    unary main_v135 main_v136 (broadcastInDim S1x64 ![1] bcast_S64_S1x64_1 : (⟨S64, .f32⟩ : BufTy).Contents (Elt F) → (⟨S1x64, .f32⟩ : BufTy).Contents (Elt F)),
    unary main_v136 main_v137 (broadcastInDim S100000x64 ![0, 1] bcast_S1x64_S100000x64_0_1 : (⟨S1x64, .f32⟩ : BufTy).Contents (Elt F) → (⟨S100000x64, .f32⟩ : BufTy).Contents (Elt F)),
    binary main_v133 main_v137 main_v138 (addf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x00000000#32),
    binary main_v138 main_cst_17 main_v139 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_18 (constant S_ .f32 0x47C35000#32),
    unary main_cst_18 main_v140 (broadcastInDim S64 ![] bcast_S_S64 : (⟨S_, .f32⟩ : BufTy).Contents (Elt F) → (⟨S64, .f32⟩ : BufTy).Contents (Elt F)),
    binary main_v139 main_v140 main_v141 (Host.divf : (⟨S64, .f32⟩ : BufTy).Contents (Elt F) → (⟨S64, .f32⟩ : BufTy).Contents (Elt F) → (⟨S64, .f32⟩ : BufTy).Contents (Elt F)),
    unary main_v141 main_v142 (broadcastInDim S1x64 ![1] bcast_S64_S1x64_1 : (⟨S64, .f32⟩ : BufTy).Contents (Elt F) → (⟨S1x64, .f32⟩ : BufTy).Contents (Elt F)),
    unary main_v142 main_v143 (broadcastInDim S100000x64 ![0, 1] bcast_S1x64_S100000x64_0_1 : (⟨S1x64, .f32⟩ : BufTy).Contents (Elt F) → (⟨S100000x64, .f32⟩ : BufTy).Contents (Elt F)),
    binary main_v138 main_v143 main_v144 (subf : (⟨S100000x64, .f32⟩ : BufTy).Contents (Elt F) → (⟨S100000x64, .f32⟩ : BufTy).Contents (Elt F) → (⟨S100000x64, .f32⟩ : BufTy).Contents (Elt F)),
    binary main_v144 main_v144 main_v145 (mulf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x00000000#32),
    binary main_v145 main_cst_19 main_v146 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_20 (constant S_ .f32 0x47C35000#32),
    unary main_cst_20 main_v147 (broadcastInDim S64 ![] bcast_S_S64 : (⟨S_, .f32⟩ : BufTy).Contents (Elt F) → (⟨S64, .f32⟩ : BufTy).Contents (Elt F)),
    binary main_v146 main_v147 main_v148 (Host.divf : (⟨S64, .f32⟩ : BufTy).Contents (Elt F) → (⟨S64, .f32⟩ : BufTy).Contents (Elt F) → (⟨S64, .f32⟩ : BufTy).Contents (Elt F)),
    unary main_v141 main_v149 (broadcastInDim S1x64 ![1] bcast_S64_S1x64_1 : (⟨S64, .f32⟩ : BufTy).Contents (Elt F) → (⟨S1x64, .f32⟩ : BufTy).Contents (Elt F)),
    unary main_v149 main_v150 (broadcastInDim S100000x64 ![0, 1] bcast_S1x64_S100000x64_0_1 : (⟨S1x64, .f32⟩ : BufTy).Contents (Elt F) → (⟨S100000x64, .f32⟩ : BufTy).Contents (Elt F)),
    binary main_v138 main_v150 main_v151 (subf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x3727C5AC#32),
    unary main_cst_21 main_v152 (broadcastInDim S64 ![] bcast_S_S64 : (⟨S_, .f32⟩ : BufTy).Contents (Elt F) → (⟨S64, .f32⟩ : BufTy).Contents (Elt F)),
    binary main_v148 main_v152 main_v153 (addf : (⟨S64, .f32⟩ : BufTy).Contents (Elt F) → (⟨S64, .f32⟩ : BufTy).Contents (Elt F) → (⟨S64, .f32⟩ : BufTy).Contents (Elt F)),
    unary main_v153 main_v154 (Host.rsqrt : (⟨S64, .f32⟩ : BufTy).Contents (Elt F) → (⟨S64, .f32⟩ : BufTy).Contents (Elt F)),
    unary main_v154 main_v155 (broadcastInDim S1x64 ![1] bcast_S64_S1x64_1 : (⟨S64, .f32⟩ : BufTy).Contents (Elt F) → (⟨S1x64, .f32⟩ : BufTy).Contents (Elt F)),
    unary main_v155 main_v156 (broadcastInDim S100000x64 ![0, 1] bcast_S1x64_S100000x64_0_1 : (⟨S1x64, .f32⟩ : BufTy).Contents (Elt F) → (⟨S100000x64, .f32⟩ : BufTy).Contents (Elt F)),
    binary main_v151 main_v156 main_v157 (mulf : (⟨S100000x64, .f32⟩ : BufTy).Contents (Elt F) → (⟨S100000x64, .f32⟩ : BufTy).Contents (Elt F) → (⟨S100000x64, .f32⟩ : BufTy).Contents (Elt F)),
    unary main_arg5 main_v158 ((extractStridedSlice S1x64 ![2, 0] · slices_S3x64_S1x64_2_0) : (⟨S3x64, .f32⟩ : BufTy).Contents (Elt F) → (⟨S1x64, .f32⟩ : BufTy).Contents (Elt F)),
    reshape main_v158 main_v159 rfl shapeCasts_S1x64_S64,
    unary main_v159 main_v160 (broadcastInDim S1x64 ![1] bcast_S64_S1x64_1 : (⟨S64, .f32⟩ : BufTy).Contents (Elt F) → (⟨S1x64, .f32⟩ : BufTy).Contents (Elt F)),
    unary main_v160 main_v161 (broadcastInDim S100000x64 ![0, 1] bcast_S1x64_S100000x64_0_1 : (⟨S1x64, .f32⟩ : BufTy).Contents (Elt F) → (⟨S100000x64, .f32⟩ : BufTy).Contents (Elt F)),
    binary main_v157 main_v161 main_v162 (mulf : (⟨S100000x64, .f32⟩ : BufTy).Contents (Elt F) → (⟨S100000x64, .f32⟩ : BufTy).Contents (Elt F) → (⟨S100000x64, .f32⟩ : BufTy).Contents (Elt F)),
    unary main_arg6 main_v163 ((extractStridedSlice S1x64 ![2, 0] · slices_S3x64_S1x64_2_0) : (⟨S3x64, .f32⟩ : BufTy).Contents (Elt F) → (⟨S1x64, .f32⟩ : BufTy).Contents (Elt F)),
    reshape main_v163 main_v164 rfl shapeCasts_S1x64_S64,
    unary main_v164 main_v165 (broadcastInDim S1x64 ![1] bcast_S64_S1x64_1 : (⟨S64, .f32⟩ : BufTy).Contents (Elt F) → (⟨S1x64, .f32⟩ : BufTy).Contents (Elt F)),
    unary main_v165 main_v166 (broadcastInDim S100000x64 ![0, 1] bcast_S1x64_S100000x64_0_1 : (⟨S1x64, .f32⟩ : BufTy).Contents (Elt F) → (⟨S100000x64, .f32⟩ : BufTy).Contents (Elt F)),
    binary main_v162 main_v166 main_v167 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v167) (TRef.of (T := ⟨S100000x64, .f32⟩) main_call4_v0) (TRef.of (T := ⟨S100000x64, .f32⟩) main_v168) maximumf,
    unary main_arg7 main_v169 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v169 main_v170 rfl shapeCasts_S1x64x64_S64x64,
    binary main_v168 main_v170 main_v171 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v172 ((extractStridedSlice S1x64 ![2, 0] · slices_S3x64_S1x64_2_0) : (⟨S3x64, .f32⟩ : BufTy).Contents (Elt F) → (⟨S1x64, .f32⟩ : BufTy).Contents (Elt F)),
    reshape main_v172 main_v173 rfl shapeCasts_S1x64_S64,
    unary main_v173 main_v174 (broadcastInDim S1x64 ![1] bcast_S64_S1x64_1 : (⟨S64, .f32⟩ : BufTy).Contents (Elt F) → (⟨S1x64, .f32⟩ : BufTy).Contents (Elt F)),
    unary main_v174 main_v175 (broadcastInDim S100000x64 ![0, 1] bcast_S1x64_S100000x64_0_1 : (⟨S1x64, .f32⟩ : BufTy).Contents (Elt F) → (⟨S100000x64, .f32⟩ : BufTy).Contents (Elt F)),
    binary main_v171 main_v175 main_v176 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v176) (TRef.of (T := ⟨S100000x64, .f32⟩) main_call5_v0) (TRef.of (T := ⟨S100000x64, .f32⟩) main_v177) maximumf ]

/-- Operations 214 to 229 of the 230, in order. -/
abbrev opsD : List (HloOp τ sig (Elt F)) :=
  [ nullary main_cst_22 (constant S_ .f32 0x00000000#32),
    unary main_cst_22 main_v178 (broadcastInDim S256x64 ![] bcast_S_S256x64 : (⟨S_, .f32⟩ : BufTy).Contents (Elt F) → (⟨S256x64, .f32⟩ : BufTy).Contents (Elt F)),
    unary main_arg2 main_v179 (broadcastInDim S100000x1 ![0] bcast_S100000_S100000x1_0 : (⟨S100000, .i32⟩ : BufTy).Contents (Elt F) → (⟨S100000x1, .i32⟩ : BufTy).Contents (Elt F)),
    ternary main_v178 main_v179 main_v177 main_v180 ((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)),
    nullary main_cst_23 (constant S_ .f32 0x3F800000#32),
    unary main_cst_23 main_v181 (broadcastInDim S100000 ![] bcast_S_S100000 : (⟨S_, .f32⟩ : BufTy).Contents (Elt F) → (⟨S100000, .f32⟩ : BufTy).Contents (Elt F)),
    nullary main_cst_24 (constant S_ .f32 0x00000000#32),
    unary main_cst_24 main_v182 (broadcastInDim S256 ![] bcast_S_S256 : (⟨S_, .f32⟩ : BufTy).Contents (Elt F) → (⟨S256, .f32⟩ : BufTy).Contents (Elt F)),
    unary main_arg2 main_v183 (broadcastInDim S100000x1 ![0] bcast_S100000_S100000x1_0 : (⟨S100000, .i32⟩ : BufTy).Contents (Elt F) → (⟨S100000x1, .i32⟩ : BufTy).Contents (Elt F)),
    ternary main_v182 main_v183 main_v181 main_v184 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_25 (constant S_ .f32 0x3F800000#32),
    unary main_cst_25 main_v185 (broadcastInDim S256 ![] bcast_S_S256 : (⟨S_, .f32⟩ : BufTy).Contents (Elt F) → (⟨S256, .f32⟩ : BufTy).Contents (Elt F)),
    binary main_v184 main_v185 main_v186 (maximumf : (⟨S256, .f32⟩ : BufTy).Contents (Elt F) → (⟨S256, .f32⟩ : BufTy).Contents (Elt F) → (⟨S256, .f32⟩ : BufTy).Contents (Elt F)),
    unary main_v186 main_v187 (broadcastInDim S256x1 ![0] bcast_S256_S256x1_0 : (⟨S256, .f32⟩ : BufTy).Contents (Elt F) → (⟨S256x1, .f32⟩ : BufTy).Contents (Elt F)),
    unary main_v187 main_v188 (broadcastInDim S256x64 ![0, 1] bcast_S256x1_S256x64_0_1 : (⟨S256x1, .f32⟩ : BufTy).Contents (Elt F) → (⟨S256x64, .f32⟩ : BufTy).Contents (Elt F)),
    binary main_v180 main_v188 main_v189 (Host.divf : (⟨S256x64, .f32⟩ : BufTy).Contents (Elt F) → (⟨S256x64, .f32⟩ : BufTy).Contents (Elt F) → (⟨S256x64, .f32⟩ : BufTy).Contents (Elt F)) ]

set_option maxRecDepth 65536 in
/-- The 230 operations are the stretches one after the other. -/
theorem ops_eq : (ops : List (HloOp τ sig (Elt F))) = opsA ++ (opsB ++ (opsC ++ (opsD))) := rfl

end Stretches

/-- The fold over two stretches in a row is the fold over the second after the fold over the first. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-! ## No stretch writes an argument, nor a buffer a later stretch still reads -/

/-- Stretch A leaves these buffers as it finds them. -/
theorem keepsA (V : Valuation τ sig (Elt Ideal)) : ∀ b ∈ ([main_arg0, main_arg1, main_arg2, main_arg3, main_arg4, main_arg5, main_arg6, main_arg7, main_arg8] : List (Ref sig .tc)),
    after (opsA (F := Ideal)) V (Proc.devRef .tc b) = V (Proc.devRef .tc b) := by
  intro b hb
  simp only [List.mem_cons, List.mem_nil_iff, or_false] at hb
  rcases hb with rfl | rfl | rfl | rfl | rfl | rfl | rfl | rfl | rfl
  all_goals exact after_of_forall_not_mem (opsA (F := Ideal)) V (List.forall_iff_forall_mem.mp (by
    simp only [opsA, List.Forall, nullary_writes, unary_writes, binary_writes, ternary_writes, reshape_writes, Finset.mem_singleton]
    repeat' apply And.intro
    all_goals exact devRef_ne_of_ne (by decide)))

/-- Stretch B leaves these buffers as it finds them. -/
theorem keepsB (V : Valuation τ sig (Elt Ideal)) : ∀ b ∈ ([main_arg0, main_arg1, main_arg2, main_arg3, main_arg4, main_arg5, main_arg6, main_arg7, main_arg8, main_v1, main_v3] : List (Ref sig .tc)),
    after (opsB (F := Ideal)) V (Proc.devRef .tc b) = V (Proc.devRef .tc b) := by
  intro b hb
  simp only [List.mem_cons, List.mem_nil_iff, or_false] at hb
  rcases hb with rfl | rfl | rfl | rfl | rfl | rfl | rfl | rfl | rfl | rfl | rfl
  all_goals exact after_of_forall_not_mem (opsB (F := Ideal)) V (List.forall_iff_forall_mem.mp (by
    simp only [opsB, List.Forall, nullary_writes, unary_writes, binary_writes, ternary_writes, reshape_writes, Finset.mem_singleton]
    repeat' apply And.intro
    all_goals exact devRef_ne_of_ne (by decide)))

/-- Stretch C leaves these buffers as it finds them. -/
theorem keepsC (V : Valuation τ sig (Elt Ideal)) : ∀ b ∈ ([main_arg0, main_arg1, main_arg2, main_arg3, main_arg4, main_arg5, main_arg6, main_arg7, main_arg8] : List (Ref sig .tc)),
    after (opsC (F := Ideal)) V (Proc.devRef .tc b) = V (Proc.devRef .tc b) := by
  intro b hb
  simp only [List.mem_cons, List.mem_nil_iff, or_false] at hb
  rcases hb with rfl | rfl | rfl | rfl | rfl | rfl | rfl | rfl | rfl
  all_goals exact after_of_forall_not_mem (opsC (F := Ideal)) V (List.forall_iff_forall_mem.mp (by
    simp only [opsC, List.Forall, nullary_writes, unary_writes, binary_writes, ternary_writes, reshape_writes, Finset.mem_singleton]
    repeat' apply And.intro
    all_goals exact devRef_ne_of_ne (by decide)))

/-- Stretch D leaves these buffers as it finds them. -/
theorem keepsD (V : Valuation τ sig (Elt Ideal)) : ∀ b ∈ ([main_arg0, main_arg1, main_arg2, main_arg3, main_arg4, main_arg5, main_arg6, main_arg7, main_arg8] : List (Ref sig .tc)),
    after (opsD (F := Ideal)) V (Proc.devRef .tc b) = V (Proc.devRef .tc b) := by
  intro b hb
  simp only [List.mem_cons, List.mem_nil_iff, or_false] at hb
  rcases hb with rfl | rfl | rfl | rfl | rfl | rfl | rfl | rfl | rfl
  all_goals exact after_of_forall_not_mem (opsD (F := Ideal)) V (List.forall_iff_forall_mem.mp (by
    simp only [opsD, List.Forall, nullary_writes, unary_writes, binary_writes, ternary_writes, reshape_writes, Finset.mem_singleton]
    repeat' apply And.intro
    all_goals exact devRef_ne_of_ne (by decide)))

/-! ## The contents at each cut -/

variable (m : (ℓ : Loc nD τ sig) → Buf (Elt Ideal) ℓ) (c : Dev nD)

/-- The buffers' contents after stretch A. -/
def RA : Valuation τ sig (Elt Ideal) := after (opsA (F := Ideal)) (launchContents m c)

theorem RA_arg3 : RA m c (Proc.devRef .tc main_arg3) = m ((c.tc : Thread nD τ).loc main_arg3) :=
  (keepsA (launchContents m c) main_arg3 (by decide)).trans rfl
theorem RA_arg4 : RA m c (Proc.devRef .tc main_arg4) = m ((c.tc : Thread nD τ).loc main_arg4) :=
  (keepsA (launchContents m c) main_arg4 (by decide)).trans rfl
theorem RA_arg5 : RA m c (Proc.devRef .tc main_arg5) = m ((c.tc : Thread nD τ).loc main_arg5) :=
  (keepsA (launchContents m c) main_arg5 (by decide)).trans rfl
theorem RA_arg6 : RA m c (Proc.devRef .tc main_arg6) = m ((c.tc : Thread nD τ).loc main_arg6) :=
  (keepsA (launchContents m c) main_arg6 (by decide)).trans rfl
theorem RA_arg7 : RA m c (Proc.devRef .tc main_arg7) = m ((c.tc : Thread nD τ).loc main_arg7) :=
  (keepsA (launchContents m c) main_arg7 (by decide)).trans rfl
theorem RA_arg8 : RA m c (Proc.devRef .tc main_arg8) = m ((c.tc : Thread nD τ).loc main_arg8) :=
  (keepsA (launchContents m c) main_arg8 (by decide)).trans rfl
theorem RA_arg2 : RA m c (Proc.devRef .tc main_arg2) = m ((c.tc : Thread nD τ).loc main_arg2) :=
  (keepsA (launchContents m c) main_arg2 (by decide)).trans rfl
set_option maxRecDepth 65536 in
set_option maxHeartbeats 4000000 in
theorem RA_v1 : RA m c (Proc.devRef .tc main_v1) = val_main_v1 (F := Ideal) (m ((c.tc : Thread nD τ).loc main_arg1)) := by
  show after (opsA (F := Ideal)) (launchContents m c) (Proc.devRef .tc main_v1) = _
  after_results_simp
  rfl
set_option maxRecDepth 65536 in
set_option maxHeartbeats 4000000 in
theorem RA_v61 : RA m c (Proc.devRef .tc main_v61) = val_main_v61 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show after (opsA (F := Ideal)) (launchContents m c) (Proc.devRef .tc main_v61) = _
  after_results_simp
  rfl
set_option maxRecDepth 65536 in
set_option maxHeartbeats 4000000 in
theorem RA_v3 : RA m c (Proc.devRef .tc main_v3) = val_main_v3 (F := Ideal) (m ((c.tc : Thread nD τ).loc main_arg1)) := by
  show after (opsA (F := Ideal)) (launchContents m c) (Proc.devRef .tc main_v3) = _
  after_results_simp
  rfl

/-- The buffers' contents after stretch B. -/
def RB : Valuation τ sig (Elt Ideal) := after (opsB (F := Ideal)) (RA m c)

theorem RB_arg3 : RB m c (Proc.devRef .tc main_arg3) = m ((c.tc : Thread nD τ).loc main_arg3) :=
  (keepsB (RA m c) main_arg3 (by decide)).trans (RA_arg3 m c)
theorem RB_arg4 : RB m c (Proc.devRef .tc main_arg4) = m ((c.tc : Thread nD τ).loc main_arg4) :=
  (keepsB (RA m c) main_arg4 (by decide)).trans (RA_arg4 m c)
theorem RB_arg5 : RB m c (Proc.devRef .tc main_arg5) = m ((c.tc : Thread nD τ).loc main_arg5) :=
  (keepsB (RA m c) main_arg5 (by decide)).trans (RA_arg5 m c)
theorem RB_arg6 : RB m c (Proc.devRef .tc main_arg6) = m ((c.tc : Thread nD τ).loc main_arg6) :=
  (keepsB (RA m c) main_arg6 (by decide)).trans (RA_arg6 m c)
theorem RB_arg7 : RB m c (Proc.devRef .tc main_arg7) = m ((c.tc : Thread nD τ).loc main_arg7) :=
  (keepsB (RA m c) main_arg7 (by decide)).trans (RA_arg7 m c)
theorem RB_arg8 : RB m c (Proc.devRef .tc main_arg8) = m ((c.tc : Thread nD τ).loc main_arg8) :=
  (keepsB (RA m c) main_arg8 (by decide)).trans (RA_arg8 m c)
theorem RB_arg2 : RB m c (Proc.devRef .tc main_arg2) = m ((c.tc : Thread nD τ).loc main_arg2) :=
  (keepsB (RA m c) main_arg2 (by decide)).trans (RA_arg2 m c)
theorem RB_v1 : RB m c (Proc.devRef .tc main_v1) = val_main_v1 (F := Ideal) (m ((c.tc : Thread nD τ).loc main_arg1)) :=
  (keepsB (RA m c) main_v1 (by decide)).trans (RA_v1 m c)
theorem RB_v3 : RB m c (Proc.devRef .tc main_v3) = val_main_v3 (F := Ideal) (m ((c.tc : Thread nD τ).loc main_arg1)) :=
  (keepsB (RA m c) main_v3 (by decide)).trans (RA_v3 m c)
set_option maxRecDepth 65536 in
set_option maxHeartbeats 4000000 in
theorem RB_v119 : RB m c (Proc.devRef .tc main_v119) = val_main_v119 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show after (opsB (F := Ideal)) (RA m c) (Proc.devRef .tc main_v119) = _
  after_results_simp
  rw [RA_v1 m c, RA_v61 m c, RA_v3 m c, RA_arg3 m c, RA_arg4 m c, RA_arg5 m c, RA_arg6 m c, RA_arg7 m c, RA_arg8 m c]
  rfl

/-- The buffers' contents after stretch C. -/
def RC : Valuation τ sig (Elt Ideal) := after (opsC (F := Ideal)) (RB m c)

theorem RC_arg2 : RC m c (Proc.devRef .tc main_arg2) = m ((c.tc : Thread nD τ).loc main_arg2) :=
  (keepsC (RB m c) main_arg2 (by decide)).trans (RB_arg2 m c)
set_option maxRecDepth 65536 in
set_option maxHeartbeats 4000000 in
theorem RC_v177 : RC m c (Proc.devRef .tc main_v177) = val_main_v177 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show after (opsC (F := Ideal)) (RB m c) (Proc.devRef .tc main_v177) = _
  after_results_simp
  rw [RB_v1 m c, RB_v119 m c, RB_v3 m c, RB_arg3 m c, RB_arg4 m c, RB_arg5 m c, RB_arg6 m c, RB_arg7 m c, RB_arg8 m c]
  rfl

/-- The buffers' contents after stretch D. -/
def RD : Valuation τ sig (Elt Ideal) := after (opsD (F := Ideal)) (RC m c)

set_option maxRecDepth 65536 in
set_option maxHeartbeats 4000000 in
theorem RD_v189 : RD m c (Proc.devRef .tc main_v189) = val_main_v189 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show after (opsD (F := Ideal)) (RC m c) (Proc.devRef .tc main_v189) = _
  after_results_simp
  rw [RC_arg2 m c, RC_v177 m c]
  rfl

/-! ## The whole run -/

/-- The fold of the 230 operations is the stretches' folds in a row. -/
theorem after_ops (V : Valuation τ sig (Elt Ideal)) :
    after (ops (F := Ideal)) V = after (opsD (F := Ideal)) (after (opsC (F := Ideal)) (after (opsB (F := Ideal)) (after (opsA (F := Ideal)) (V)))) := by
  rw [ops_eq, after_app, after_app, after_app]

/-- The result buffer after the 230 operations holds the last stage of the launch contents of the arguments. -/
theorem after_v189 :
    after (ops (F := Ideal)) (launchContents m c) (Proc.devRef .tc main_v189)
      = val_main_v189 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  rw [after_ops]
  exact RD_v189 m c

/-- No operation writes an argument. -/
theorem after_args : ∀ b ∈ ([main_arg0, main_arg1, main_arg2, main_arg3, main_arg4, main_arg5, main_arg6, main_arg7, main_arg8] : List (Ref sig .tc)),
    after (ops (F := Ideal)) (launchContents m c) (Proc.devRef .tc b) = launchContents m c (Proc.devRef .tc b) := by
  intro b hb
  simp only [List.mem_cons, List.mem_nil_iff, or_false] at hb
  rw [after_ops]
  rcases hb with rfl | rfl | rfl | rfl | rfl | rfl | rfl | rfl | rfl
  all_goals rw [keepsD _ _ (by decide), keepsC _ _ (by decide), keepsB _ _ (by decide), keepsA _ _ (by decide)]

end Cert.ReferenceIdeal.RS

end
-- ==== Proof.PreReal.lean ====
/-
  The precondition says every float argument is finite: each entry's absolute value is below the word of +∞.
  So every float argument array is an array of reals.
-/
import proofs.«402690_j13675175870656_3_alg».proof.Defs
import proofs.«402690_j13675175870656_3_alg».proof.Proof.Spec
import Idealize.ShloMosaic.Lib.ReduceAll
import Idealize.ShloMosaic.Lib.ValueIdx
import Idealize.ShloMosaic.PureOps.Ideal.Laws

noncomputable section

namespace Cert.PreReal

open Idealize.ShloMosaic Idealize.SL.Sem

variable [hPre_finite_inputs : Cert.Pre_finite_inputs.Facts]

/-- The result of a reduction over all axes has one index. -/
instance : Subsingleton Cert.Pre_finite_inputs.S_.Idx := ⟨fun a b => funext fun d => d.elim0⟩

/-- The word of +∞ denotes the top element. -/
theorem inf_word : Ideal.ofBits .f32 0x7F800000#32 = (⊤ : EReal) := by
  simp [Ideal.ofBits, Ideal.ieee]

/-- An extended real whose absolute value is below the top element is a real number. -/
theorem real_of_abs_lt_top (x : EReal) (h : max x (-x) < ⊤) : x ≠ ⊤ ∧ x ≠ ⊥ := by
  induction x using EReal.rec with
  | bot => simp at h
  | top => simp at h
  | coe r => exact ⟨EReal.coe_ne_top r, EReal.coe_ne_bot r⟩

/-- An array all of whose entries have absolute value below +∞ (the conjunction over all entries is true) is an array of reals. -/
theorem isReal_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi (cmpf .olt (Host.absf v) (broadcastInDim s ![] hb (constant Cert.Pre_finite_inputs.S_ .f32 0x7F800000#32))) init hr hu ValueIdx.ix0 = 1#1) :
    Spec.IsReal (v : s.Idx → EReal) := by
  intro i
  have h1 := Host.reduce_andi_all _ init hr hu ValueIdx.ix0 e i
  have h2 : Ideal.cmp .olt (max (v i) (-(v i))) (Ideal.ofBits .f32 0x7F800000#32) = 1#1 := h1
  rw [inf_word] at h2
  have h3 : max (v i) (-(v i)) < ⊤ := by
    by_contra hn
    unfold Ideal.cmp at h2
    simp [hn] at h2
  exact real_of_abs_lt_top _ h3

/-- Under the precondition the seven float arguments of the idealized kernel program are arrays of reals, on every device. -/
theorem isReal_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Spec.IsReal (m ((c.tc : Thread Cert.KernelIdeal.nD Cert.KernelIdeal.τ).loc Cert.KernelIdeal.main_arg0) : Spec.NF)
    ∧ Spec.IsReal (m ((c.tc : Thread Cert.KernelIdeal.nD Cert.KernelIdeal.τ).loc Cert.KernelIdeal.main_arg3) : Spec.W3)
    ∧ Spec.IsReal (m ((c.tc : Thread Cert.KernelIdeal.nD Cert.KernelIdeal.τ).loc Cert.KernelIdeal.main_arg4) : Spec.V3)
    ∧ Spec.IsReal (m ((c.tc : Thread Cert.KernelIdeal.nD Cert.KernelIdeal.τ).loc Cert.KernelIdeal.main_arg5) : Spec.V3)
    ∧ Spec.IsReal (m ((c.tc : Thread Cert.KernelIdeal.nD Cert.KernelIdeal.τ).loc Cert.KernelIdeal.main_arg6) : Spec.V3)
    ∧ Spec.IsReal (m ((c.tc : Thread Cert.KernelIdeal.nD Cert.KernelIdeal.τ).loc Cert.KernelIdeal.main_arg7) : Spec.W3)
    ∧ Spec.IsReal (m ((c.tc : Thread Cert.KernelIdeal.nD Cert.KernelIdeal.τ).loc Cert.KernelIdeal.main_arg8) : Spec.V3) := by
  have h0 := congrFun (h c) ValueIdx.ix0
  unfold Cert.Pre_finite_inputs.fn Cert.Pre_finite_inputs.fn_part1 at h0
  simp only [andi, IntOp.andi_eq_one] at h0
  obtain ⟨⟨⟨⟨⟨⟨e0, e3⟩, e4⟩, e5⟩, e6⟩, e7⟩, e8⟩ := h0
  exact ⟨isReal_of_all _ _ _ _ _ e0, isReal_of_all _ _ _ _ _ e3, isReal_of_all _ _ _ _ _ e4, isReal_of_all _ _ _ _ _ e5,
    isReal_of_all _ _ _ _ _ e6, isReal_of_all _ _ _ _ _ e7, isReal_of_all _ _ _ _ _ e8⟩

end Cert.PreReal

end
-- ==== Proof.RefL0.lean ====
/-
  The reference's first layer, read index by index: its result array is the layer of the array it starts from
  and of that array's neighbour sums.
-/
import proofs.«402690_j13675175870656_3_alg».proof.Proof.ReadP
import proofs.«402690_j13675175870656_3_alg».proof.Proof.Spec
import proofs.«402690_j13675175870656_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RL

open Cert.ReferenceIdeal Cert.ReferenceIdeal.Gen Cert.ReferenceIdeal.ReadP Idealize.ShloMosaic Idealize.ShloMosaic.ValueIdx

namespace L0

/-- A layer's row of a stack of row vectors, spread over the 100000 rows: column q holds the row's entry q. -/
theorem row_b1 (x4 : (⟨S3x64, .f32⟩ : BufTy).Contents (Elt Ideal)) (p : Fin 100000) (q : Fin 64) :
    val_main_v21 (F := Ideal) x4 (ix2 p q) = Spec.sliceV x4 0 (ix2 0 q) := by
  rw [val_main_v21_apply, val_main_v20_apply, val_main_v19_apply, val_main_v18_apply]
  show x4 _ = x4 (ix2 (0 : Fin 3) q)
  refine congrArg x4 (funext fun a => Fin.ext ?_)
  match a with
  | ⟨0, _⟩ => rfl
  | ⟨1, _⟩ => exact Nat.mod_eq_of_lt q.isLt
theorem row_ga (x5 : (⟨S3x64, .f32⟩ : BufTy).Contents (Elt Ideal)) (p : Fin 100000) (q : Fin 64) :
    val_main_v45 (F := Ideal) x5 (ix2 p q) = Spec.sliceV x5 0 (ix2 0 q) := by
  rw [val_main_v45_apply, val_main_v44_apply, val_main_v43_apply, val_main_v42_apply]
  show x5 _ = x5 (ix2 (0 : Fin 3) q)
  refine congrArg x5 (funext fun a => Fin.ext ?_)
  match a with
  | ⟨0, _⟩ => rfl
  | ⟨1, _⟩ => exact Nat.mod_eq_of_lt q.isLt
theorem row_be (x6 : (⟨S3x64, .f32⟩ : BufTy).Contents (Elt Ideal)) (p : Fin 100000) (q : Fin 64) :
    val_main_v50 (F := Ideal) x6 (ix2 p q) = Spec.sliceV x6 0 (ix2 0 q) := by
  rw [val_main_v50_apply, val_main_v49_apply, val_main_v48_apply, val_main_v47_apply]
  show x6 _ = x6 (ix2 (0 : Fin 3) q)
  refine congrArg x6 (funext fun a => Fin.ext ?_)
  match a with
  | ⟨0, _⟩ => rfl
  | ⟨1, _⟩ => exact Nat.mod_eq_of_lt q.isLt
theorem row_b2 (x8 : (⟨S3x64, .f32⟩ : BufTy).Contents (Elt Ideal)) (p : Fin 100000) (q : Fin 64) :
    val_main_v59 (F := Ideal) x8 (ix2 p q) = Spec.sliceV x8 0 (ix2 0 q) := by
  rw [val_main_v59_apply, val_main_v58_apply, val_main_v57_apply, val_main_v56_apply]
  show x8 _ = x8 (ix2 (0 : Fin 3) q)
  refine congrArg x8 (funext fun a => Fin.ext ?_)
  match a with
  | ⟨0, _⟩ => rfl
  | ⟨1, _⟩ => exact Nat.mod_eq_of_lt q.isLt

/-- A layer's matrix of a stack of matrices. -/
theorem mat_w1 (x3 : (⟨S3x64x64, .f32⟩ : BufTy).Contents (Elt Ideal)) (k q : Fin 64) :
    val_main_v16 (F := Ideal) x3 (ix2 k q) = Spec.sliceW x3 0 (ix2 k q) := by
  rw [val_main_v16_apply, val_main_v15_apply]
  show x3 _ = x3 (ix3 (0 : Fin 3) k q)
  refine congrArg x3 (funext fun a => Fin.ext ?_)
  have hk : k.val < 64 := k.isLt
  have hq : q.val < 64 := q.isLt
  match a with
  | ⟨0, _⟩ => rfl
  | ⟨1, _⟩ => show (k.val * 64 + q.val) / 64 % 64 = k.val; omega
  | ⟨2, _⟩ => show (k.val * 64 + q.val) % 64 = q.val; omega
theorem mat_w2 (x7 : (⟨S3x64x64, .f32⟩ : BufTy).Contents (Elt Ideal)) (k q : Fin 64) :
    val_main_v54 (F := Ideal) x7 (ix2 k q) = Spec.sliceW x7 0 (ix2 k q) := by
  rw [val_main_v54_apply, val_main_v53_apply]
  show x7 _ = x7 (ix3 (0 : Fin 3) k q)
  refine congrArg x7 (funext fun a => Fin.ext ?_)
  have hk : k.val < 64 := k.isLt
  have hq : q.val < 64 := q.isLt
  match a with
  | ⟨0, _⟩ => rfl
  | ⟨1, _⟩ => show (k.val * 64 + q.val) / 64 % 64 = k.val; omega
  | ⟨2, _⟩ => show (k.val * 64 + q.val) % 64 = q.val; omega

variable (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 x5 x6 : (⟨S3x64, .f32⟩ : BufTy).Contents (Elt Ideal)) (x7 : (⟨S3x64x64, .f32⟩ : BufTy).Contents (Elt Ideal)) (x8 : (⟨S3x64, .f32⟩ : BufTy).Contents (Elt Ideal))

/-- h = (x + a) · W1 + b1, with a the neighbour sums. -/
abbrev H : Spec.NF := Spec.lin1 x0 (val_main_v13 (F := Ideal) x0 x1) (Spec.sliceW x3 0) (Spec.sliceV x4 0)

theorem h_apply (p : Fin 100000) (q : Fin 64) :
    val_main_v22 (F := Ideal) x0 x1 x3 x4 (ix2 p q) = H x0 x1 x3 x4 (ix2 p q) := by
  rw [val_main_v22_apply, val_main_v17_apply, row_b1 x4 p q]
  show (∑ k : Fin 64, val_main_v14 (F := Ideal) x0 x1 (lidx_main_v17 (ix2 p q) k) * val_main_v16 (F := Ideal) x3 (ridx_main_v17 (ix2 p q) k))
      + Spec.sliceV x4 0 (ix2 0 q)
    = (∑ k : Fin 64, (x0 (ix2 p k) + val_main_v13 (F := Ideal) x0 x1 (ix2 p k)) * Spec.sliceW x3 0 (ix2 k q)) + Spec.sliceV x4 0 (ix2 0 q)
  refine congrArg (fun s : EReal => s + Spec.sliceV x4 0 (ix2 0 q)) (Finset.sum_congr rfl fun k _ => ?_)
  have el : lidx_main_v17 (ix2 p q) k = ix2 p k := funext fun a => Fin.ext (by match a with | ⟨0, _⟩ => rfl | ⟨1, _⟩ => rfl)
  have er : ridx_main_v17 (ix2 p q) k = ix2 k q := funext fun a => Fin.ext (by match a with | ⟨0, _⟩ => rfl | ⟨1, _⟩ => rfl)
  rw [el, er, mat_w1 x3 k q]
  rfl

/-- The column mean: the column's sum from zero, divided by the number of rows. -/
theorem mean_apply (q : Fin 64) :
    val_main_v25 (F := Ideal) x0 x1 x3 x4 (ix1 q) = Spec.meanR (H x0 x1 x3 x4) q := by
  rw [val_main_v25_apply, val_main_v23_apply, val_main_v24_apply]
  show Ideal.div (Ideal.ofBits .f32 0x00000000#32 + ∑ k : Fin 100000, val_main_v22 (F := Ideal) x0 x1 x3 x4 (idx_main_v23 (ix1 q) k))
      (Ideal.ofBits .f32 0x47C35000#32)
    = Ideal.div (0 + ∑ r : Fin 100000, H x0 x1 x3 x4 (ix2 r q)) (Ideal.ofBits .f32 0x47C35000#32)
  rw [Ideal.ofBits_zero_f32]
  refine congrArg (fun s : EReal => Ideal.div (0 + s) (Ideal.ofBits .f32 0x47C35000#32)) (Finset.sum_congr rfl fun r _ => ?_)
  have e : idx_main_v23 (ix1 q) r = ix2 r q := funext fun a => Fin.ext (by match a with | ⟨0, _⟩ => rfl | ⟨1, _⟩ => rfl)
  rw [e, h_apply]

/-- The column variance: the sum from zero of the squared distances to the mean, divided by the number of rows. -/
theorem var_apply (q : Fin 64) :
    val_main_v32 (F := Ideal) x0 x1 x3 x4 (ix1 q) = Spec.varR (H x0 x1 x3 x4) q := by
  rw [val_main_v32_apply, val_main_v30_apply, val_main_v31_apply]
  show Ideal.div (Ideal.ofBits .f32 0x00000000#32 + ∑ k : Fin 100000, val_main_v29 (F := Ideal) x0 x1 x3 x4 (idx_main_v30 (ix1 q) k))
      (Ideal.ofBits .f32 0x47C35000#32)
    = Ideal.div (0 + ∑ r : Fin 100000, (H x0 x1 x3 x4 (ix2 r q) - Spec.meanR (H x0 x1 x3 x4) q) * (H x0 x1 x3 x4 (ix2 r q) - Spec.meanR (H x0 x1 x3 x4) q))
      (Ideal.ofBits .f32 0x47C35000#32)
  rw [Ideal.ofBits_zero_f32]
  refine congrArg (fun s : EReal => Ideal.div (0 + s) (Ideal.ofBits .f32 0x47C35000#32)) (Finset.sum_congr rfl fun r _ => ?_)
  have e : idx_main_v30 (ix1 q) r = ix2 r q := funext fun a => Fin.ext (by match a with | ⟨0, _⟩ => rfl | ⟨1, _⟩ => rfl)
  have e2 : idx_main_v26 (idx_main_v27 (ix2 r q)) = ix1 q := funext fun a => Fin.ext (by match a with | ⟨0, _⟩ => rfl)
  rw [e, val_main_v29_apply, val_main_v28_apply, val_main_v27_apply, val_main_v26_apply, e2, mean_apply, h_apply]
  rfl

/-- The normalised entry: the distance to the column mean times the reciprocal root of the column variance plus ε. -/
theorem norm_apply (p : Fin 100000) (q : Fin 64) :
    val_main_v41 (F := Ideal) x0 x1 x3 x4 (ix2 p q)
      = (H x0 x1 x3 x4 (ix2 p q) - Spec.meanR (H x0 x1 x3 x4) q) * Ideal.rsqrt (Spec.varR (H x0 x1 x3 x4) q + Spec.eps) := by
  have e1 : idx_main_v33 (idx_main_v34 (ix2 p q)) = ix1 q := funext fun a => Fin.ext (by match a with | ⟨0, _⟩ => rfl)
  have e2 : idx_main_v39 (idx_main_v40 (ix2 p q)) = ix1 q := funext fun a => Fin.ext (by match a with | ⟨0, _⟩ => rfl)
  rw [val_main_v41_apply, val_main_v35_apply, val_main_v34_apply, val_main_v33_apply, val_main_v40_apply, val_main_v39_apply,
    val_main_v38_apply, val_main_v37_apply, val_main_v36_apply, e1, e2, h_apply, mean_apply, var_apply]
  rfl

/-- y = max (normalised · γ + β) 0. -/
theorem y_apply (p : Fin 100000) (q : Fin 64) :
    val_main_v52 (F := Ideal) x0 x1 x3 x4 x5 x6 (ix2 p q)
      = Spec.bn (H x0 x1 x3 x4) (Spec.meanRv (H x0 x1 x3 x4)) (Spec.varRv (H x0 x1 x3 x4)) (Spec.sliceV x5 0) (Spec.sliceV x6 0) (ix2 p q) := by
  rw [val_main_v52_apply, val_main_v51_apply, val_main_v46_apply, norm_apply, row_ga x5 p q, row_be x6 p q, val_main_call0_v0_apply]
  show max (_ + _) (Ideal.ofBits .f32 0x00000000#32) = _
  rw [Ideal.ofBits_zero_f32]
  rfl

end L0

open L0 in
/-- The reference's first layer is the layer function of its input features and their neighbour sums. -/
theorem layer0 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 x5 x6 : (⟨S3x64, .f32⟩ : BufTy).Contents (Elt Ideal)) (x7 : (⟨S3x64x64, .f32⟩ : BufTy).Contents (Elt Ideal)) (x8 : (⟨S3x64, .f32⟩ : BufTy).Contents (Elt Ideal)) :
    (val_main_v61 (F := Ideal) x0 x1 x3 x4 x5 x6 x7 x8 : Spec.NF)
      = Spec.layerR x0 (val_main_v13 (F := Ideal) x0 x1) x3 x4 x5 x6 x7 x8 0 := by
  funext i
  obtain ⟨p, q, rfl⟩ : ∃ (p : Fin 100000) (q : Fin 64), i = ix2 p q := ⟨i 0, i 1, eq_ix2 i⟩
  rw [val_main_v61_apply, val_main_v60_apply, val_main_v55_apply, row_b2 x8 p q, val_main_call1_v0_apply]
  show max ((∑ k : Fin 64, val_main_v52 (F := Ideal) x0 x1 x3 x4 x5 x6 (lidx_main_v55 (ix2 p q) k) * val_main_v54 (F := Ideal) x7 (ridx_main_v55 (ix2 p q) k))
      + Spec.sliceV x8 0 (ix2 0 q)) (Ideal.ofBits .f32 0x00000000#32)
    = max ((∑ k : Fin 64, Spec.bn (H x0 x1 x3 x4) (Spec.meanRv (H x0 x1 x3 x4)) (Spec.varRv (H x0 x1 x3 x4)) (Spec.sliceV x5 0) (Spec.sliceV x6 0) (ix2 p k)
      * Spec.sliceW x7 0 (ix2 k q)) + Spec.sliceV x8 0 (ix2 0 q)) 0
  rw [Ideal.ofBits_zero_f32]
  refine congrArg (fun s : EReal => max (s + Spec.sliceV x8 0 (ix2 0 q)) 0) (Finset.sum_congr rfl fun k _ => ?_)
  have el : lidx_main_v55 (ix2 p q) k = ix2 p k := funext fun a => Fin.ext (by match a with | ⟨0, _⟩ => rfl | ⟨1, _⟩ => rfl)
  have er : ridx_main_v55 (ix2 p q) k = ix2 k q := funext fun a => Fin.ext (by match a with | ⟨0, _⟩ => rfl | ⟨1, _⟩ => rfl)
  rw [el, er, y_apply, mat_w2 x7 k q]

end Cert.ReferenceIdeal.RL

end
-- ==== Proof.RefL1.lean ====
/-
  The reference's second layer, read index by index: its result array is the layer of the array it starts from
  and of that array's neighbour sums.
-/
import proofs.«402690_j13675175870656_3_alg».proof.Proof.ReadP
import proofs.«402690_j13675175870656_3_alg».proof.Proof.Spec
import proofs.«402690_j13675175870656_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RL

open Cert.ReferenceIdeal Cert.ReferenceIdeal.Gen Cert.ReferenceIdeal.ReadP Idealize.ShloMosaic Idealize.ShloMosaic.ValueIdx

namespace L1

/-- A layer's row of a stack of row vectors, spread over the 100000 rows: column q holds the row's entry q. -/
theorem row_b1 (x4 : (⟨S3x64, .f32⟩ : BufTy).Contents (Elt Ideal)) (p : Fin 100000) (q : Fin 64) :
    val_main_v79 (F := Ideal) x4 (ix2 p q) = Spec.sliceV x4 1 (ix2 0 q) := by
  rw [val_main_v79_apply, val_main_v78_apply, val_main_v77_apply, val_main_v76_apply]
  show x4 _ = x4 (ix2 (1 : Fin 3) q)
  refine congrArg x4 (funext fun a => Fin.ext ?_)
  match a with
  | ⟨0, _⟩ => rfl
  | ⟨1, _⟩ => exact Nat.mod_eq_of_lt q.isLt
theorem row_ga (x5 : (⟨S3x64, .f32⟩ : BufTy).Contents (Elt Ideal)) (p : Fin 100000) (q : Fin 64) :
    val_main_v103 (F := Ideal) x5 (ix2 p q) = Spec.sliceV x5 1 (ix2 0 q) := by
  rw [val_main_v103_apply, val_main_v102_apply, val_main_v101_apply, val_main_v100_apply]
  show x5 _ = x5 (ix2 (1 : Fin 3) q)
  refine congrArg x5 (funext fun a => Fin.ext ?_)
  match a with
  | ⟨0, _⟩ => rfl
  | ⟨1, _⟩ => exact Nat.mod_eq_of_lt q.isLt
theorem row_be (x6 : (⟨S3x64, .f32⟩ : BufTy).Contents (Elt Ideal)) (p : Fin 100000) (q : Fin 64) :
    val_main_v108 (F := Ideal) x6 (ix2 p q) = Spec.sliceV x6 1 (ix2 0 q) := by
  rw [val_main_v108_apply, val_main_v107_apply, val_main_v106_apply, val_main_v105_apply]
  show x6 _ = x6 (ix2 (1 : Fin 3) q)
  refine congrArg x6 (funext fun a => Fin.ext ?_)
  match a with
  | ⟨0, _⟩ => rfl
  | ⟨1, _⟩ => exact Nat.mod_eq_of_lt q.isLt
theorem row_b2 (x8 : (⟨S3x64, .f32⟩ : BufTy).Contents (Elt Ideal)) (p : Fin 100000) (q : Fin 64) :
    val_main_v117 (F := Ideal) x8 (ix2 p q) = Spec.sliceV x8 1 (ix2 0 q) := by
  rw [val_main_v117_apply, val_main_v116_apply, val_main_v115_apply, val_main_v114_apply]
  show x8 _ = x8 (ix2 (1 : Fin 3) q)
  refine congrArg x8 (funext fun a => Fin.ext ?_)
  match a with
  | ⟨0, _⟩ => rfl
  | ⟨1, _⟩ => exact Nat.mod_eq_of_lt q.isLt

/-- A layer's matrix of a stack of matrices. -/
theorem mat_w1 (x3 : (⟨S3x64x64, .f32⟩ : BufTy).Contents (Elt Ideal)) (k q : Fin 64) :
    val_main_v74 (F := Ideal) x3 (ix2 k q) = Spec.sliceW x3 1 (ix2 k q) := by
  rw [val_main_v74_apply, val_main_v73_apply]
  show x3 _ = x3 (ix3 (1 : Fin 3) k q)
  refine congrArg x3 (funext fun a => Fin.ext ?_)
  have hk : k.val < 64 := k.isLt
  have hq : q.val < 64 := q.isLt
  match a with
  | ⟨0, _⟩ => rfl
  | ⟨1, _⟩ => show (k.val * 64 + q.val) / 64 % 64 = k.val; omega
  | ⟨2, _⟩ => show (k.val * 64 + q.val) % 64 = q.val; omega
theorem mat_w2 (x7 : (⟨S3x64x64, .f32⟩ : BufTy).Contents (Elt Ideal)) (k q : Fin 64) :
    val_main_v112 (F := Ideal) x7 (ix2 k q) = Spec.sliceW x7 1 (ix2 k q) := by
  rw [val_main_v112_apply, val_main_v111_apply]
  show x7 _ = x7 (ix3 (1 : Fin 3) k q)
  refine congrArg x7 (funext fun a => Fin.ext ?_)
  have hk : k.val < 64 := k.isLt
  have hq : q.val < 64 := q.isLt
  match a with
  | ⟨0, _⟩ => rfl
  | ⟨1, _⟩ => show (k.val * 64 + q.val) / 64 % 64 = k.val; omega
  | ⟨2, _⟩ => show (k.val * 64 + q.val) % 64 = q.val; omega

variable (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 x5 x6 : (⟨S3x64, .f32⟩ : BufTy).Contents (Elt Ideal)) (x7 : (⟨S3x64x64, .f32⟩ : BufTy).Contents (Elt Ideal)) (x8 : (⟨S3x64, .f32⟩ : BufTy).Contents (Elt Ideal))

/-- h = (x + a) · W1 + b1, with a the neighbour sums. -/
abbrev H : Spec.NF := Spec.lin1 (val_main_v61 (F := Ideal) x0 x1 x3 x4 x5 x6 x7 x8) (val_main_v71 (F := Ideal) x0 x1 x3 x4 x5 x6 x7 x8) (Spec.sliceW x3 1) (Spec.sliceV x4 1)

theorem h_apply (p : Fin 100000) (q : Fin 64) :
    val_main_v80 (F := Ideal) x0 x1 x3 x4 x5 x6 x7 x8 (ix2 p q) = H x0 x1 x3 x4 x5 x6 x7 x8 (ix2 p q) := by
  rw [val_main_v80_apply, val_main_v75_apply, row_b1 x4 p q]
  show (∑ k : Fin 64, val_main_v72 (F := Ideal) x0 x1 x3 x4 x5 x6 x7 x8 (lidx_main_v75 (ix2 p q) k) * val_main_v74 (F := Ideal) x3 (ridx_main_v75 (ix2 p q) k))
      + Spec.sliceV x4 1 (ix2 0 q)
    = (∑ k : Fin 64, (val_main_v61 (F := Ideal) x0 x1 x3 x4 x5 x6 x7 x8 (ix2 p k) + val_main_v71 (F := Ideal) x0 x1 x3 x4 x5 x6 x7 x8 (ix2 p k)) * Spec.sliceW x3 1 (ix2 k q)) + Spec.sliceV x4 1 (ix2 0 q)
  refine congrArg (fun s : EReal => s + Spec.sliceV x4 1 (ix2 0 q)) (Finset.sum_congr rfl fun k _ => ?_)
  have el : lidx_main_v75 (ix2 p q) k = ix2 p k := funext fun a => Fin.ext (by match a with | ⟨0, _⟩ => rfl | ⟨1, _⟩ => rfl)
  have er : ridx_main_v75 (ix2 p q) k = ix2 k q := funext fun a => Fin.ext (by match a with | ⟨0, _⟩ => rfl | ⟨1, _⟩ => rfl)
  rw [el, er, mat_w1 x3 k q]
  rfl

/-- The column mean: the column's sum from zero, divided by the number of rows. -/
theorem mean_apply (q : Fin 64) :
    val_main_v83 (F := Ideal) x0 x1 x3 x4 x5 x6 x7 x8 (ix1 q) = Spec.meanR (H x0 x1 x3 x4 x5 x6 x7 x8) q := by
  rw [val_main_v83_apply, val_main_v81_apply, val_main_v82_apply]
  show Ideal.div (Ideal.ofBits .f32 0x00000000#32 + ∑ k : Fin 100000, val_main_v80 (F := Ideal) x0 x1 x3 x4 x5 x6 x7 x8 (idx_main_v81 (ix1 q) k))
      (Ideal.ofBits .f32 0x47C35000#32)
    = Ideal.div (0 + ∑ r : Fin 100000, H x0 x1 x3 x4 x5 x6 x7 x8 (ix2 r q)) (Ideal.ofBits .f32 0x47C35000#32)
  rw [Ideal.ofBits_zero_f32]
  refine congrArg (fun s : EReal => Ideal.div (0 + s) (Ideal.ofBits .f32 0x47C35000#32)) (Finset.sum_congr rfl fun r _ => ?_)
  have e : idx_main_v81 (ix1 q) r = ix2 r q := funext fun a => Fin.ext (by match a with | ⟨0, _⟩ => rfl | ⟨1, _⟩ => rfl)
  rw [e, h_apply]

/-- The column variance: the sum from zero of the squared distances to the mean, divided by the number of rows. -/
theorem var_apply (q : Fin 64) :
    val_main_v90 (F := Ideal) x0 x1 x3 x4 x5 x6 x7 x8 (ix1 q) = Spec.varR (H x0 x1 x3 x4 x5 x6 x7 x8) q := by
  rw [val_main_v90_apply, val_main_v88_apply, val_main_v89_apply]
  show Ideal.div (Ideal.ofBits .f32 0x00000000#32 + ∑ k : Fin 100000, val_main_v87 (F := Ideal) x0 x1 x3 x4 x5 x6 x7 x8 (idx_main_v88 (ix1 q) k))
      (Ideal.ofBits .f32 0x47C35000#32)
    = Ideal.div (0 + ∑ r : Fin 100000, (H x0 x1 x3 x4 x5 x6 x7 x8 (ix2 r q) - Spec.meanR (H x0 x1 x3 x4 x5 x6 x7 x8) q) * (H x0 x1 x3 x4 x5 x6 x7 x8 (ix2 r q) - Spec.meanR (H x0 x1 x3 x4 x5 x6 x7 x8) q))
      (Ideal.ofBits .f32 0x47C35000#32)
  rw [Ideal.ofBits_zero_f32]
  refine congrArg (fun s : EReal => Ideal.div (0 + s) (Ideal.ofBits .f32 0x47C35000#32)) (Finset.sum_congr rfl fun r _ => ?_)
  have e : idx_main_v88 (ix1 q) r = ix2 r q := funext fun a => Fin.ext (by match a with | ⟨0, _⟩ => rfl | ⟨1, _⟩ => rfl)
  have e2 : idx_main_v84 (idx_main_v85 (ix2 r q)) = ix1 q := funext fun a => Fin.ext (by match a with | ⟨0, _⟩ => rfl)
  rw [e, val_main_v87_apply, val_main_v86_apply, val_main_v85_apply, val_main_v84_apply, e2, mean_apply, h_apply]
  rfl

/-- The normalised entry: the distance to the column mean times the reciprocal root of the column variance plus ε. -/
theorem norm_apply (p : Fin 100000) (q : Fin 64) :
    val_main_v99 (F := Ideal) x0 x1 x3 x4 x5 x6 x7 x8 (ix2 p q)
      = (H x0 x1 x3 x4 x5 x6 x7 x8 (ix2 p q) - Spec.meanR (H x0 x1 x3 x4 x5 x6 x7 x8) q) * Ideal.rsqrt (Spec.varR (H x0 x1 x3 x4 x5 x6 x7 x8) q + Spec.eps) := by
  have e1 : idx_main_v91 (idx_main_v92 (ix2 p q)) = ix1 q := funext fun a => Fin.ext (by match a with | ⟨0, _⟩ => rfl)
  have e2 : idx_main_v97 (idx_main_v98 (ix2 p q)) = ix1 q := funext fun a => Fin.ext (by match a with | ⟨0, _⟩ => rfl)
  rw [val_main_v99_apply, val_main_v93_apply, val_main_v92_apply, val_main_v91_apply, val_main_v98_apply, val_main_v97_apply,
    val_main_v96_apply, val_main_v95_apply, val_main_v94_apply, e1, e2, h_apply, mean_apply, var_apply]
  rfl

/-- y = max (normalised · γ + β) 0. -/
theorem y_apply (p : Fin 100000) (q : Fin 64) :
    val_main_v110 (F := Ideal) x0 x1 x3 x4 x5 x6 x7 x8 (ix2 p q)
      = Spec.bn (H x0 x1 x3 x4 x5 x6 x7 x8) (Spec.meanRv (H x0 x1 x3 x4 x5 x6 x7 x8)) (Spec.varRv (H x0 x1 x3 x4 x5 x6 x7 x8)) (Spec.sliceV x5 1) (Spec.sliceV x6 1) (ix2 p q) := by
  rw [val_main_v110_apply, val_main_v109_apply, val_main_v104_apply, norm_apply, row_ga x5 p q, row_be x6 p q, val_main_call2_v0_apply]
  show max (_ + _) (Ideal.ofBits .f32 0x00000000#32) = _
  rw [Ideal.ofBits_zero_f32]
  rfl

end L1

open L1 in
/-- The reference's second layer is the layer function of its input features and their neighbour sums. -/
theorem layer1 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 x5 x6 : (⟨S3x64, .f32⟩ : BufTy).Contents (Elt Ideal)) (x7 : (⟨S3x64x64, .f32⟩ : BufTy).Contents (Elt Ideal)) (x8 : (⟨S3x64, .f32⟩ : BufTy).Contents (Elt Ideal)) :
    (val_main_v119 (F := Ideal) x0 x1 x3 x4 x5 x6 x7 x8 : Spec.NF)
      = Spec.layerR (val_main_v61 (F := Ideal) x0 x1 x3 x4 x5 x6 x7 x8) (val_main_v71 (F := Ideal) x0 x1 x3 x4 x5 x6 x7 x8) x3 x4 x5 x6 x7 x8 1 := by
  funext i
  obtain ⟨p, q, rfl⟩ : ∃ (p : Fin 100000) (q : Fin 64), i = ix2 p q := ⟨i 0, i 1, eq_ix2 i⟩
  rw [val_main_v119_apply, val_main_v118_apply, val_main_v113_apply, row_b2 x8 p q, val_main_call3_v0_apply]
  show max ((∑ k : Fin 64, val_main_v110 (F := Ideal) x0 x1 x3 x4 x5 x6 x7 x8 (lidx_main_v113 (ix2 p q) k) * val_main_v112 (F := Ideal) x7 (ridx_main_v113 (ix2 p q) k))
      + Spec.sliceV x8 1 (ix2 0 q)) (Ideal.ofBits .f32 0x00000000#32)
    = max ((∑ k : Fin 64, Spec.bn (H x0 x1 x3 x4 x5 x6 x7 x8) (Spec.meanRv (H x0 x1 x3 x4 x5 x6 x7 x8)) (Spec.varRv (H x0 x1 x3 x4 x5 x6 x7 x8)) (Spec.sliceV x5 1) (Spec.sliceV x6 1) (ix2 p k)
      * Spec.sliceW x7 1 (ix2 k q)) + Spec.sliceV x8 1 (ix2 0 q)) 0
  rw [Ideal.ofBits_zero_f32]
  refine congrArg (fun s : EReal => max (s + Spec.sliceV x8 1 (ix2 0 q)) 0) (Finset.sum_congr rfl fun k _ => ?_)
  have el : lidx_main_v113 (ix2 p q) k = ix2 p k := funext fun a => Fin.ext (by match a with | ⟨0, _⟩ => rfl | ⟨1, _⟩ => rfl)
  have er : ridx_main_v113 (ix2 p q) k = ix2 k q := funext fun a => Fin.ext (by match a with | ⟨0, _⟩ => rfl | ⟨1, _⟩ => rfl)
  rw [el, er, y_apply, mat_w2 x7 k q]

end Cert.ReferenceIdeal.RL

end
-- ==== Proof.RefL2.lean ====
/-
  The reference's third layer, read index by index: its result array is the layer of the array it starts from
  and of that array's neighbour sums.
-/
import proofs.«402690_j13675175870656_3_alg».proof.Proof.ReadP
import proofs.«402690_j13675175870656_3_alg».proof.Proof.Spec
import proofs.«402690_j13675175870656_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RL

open Cert.ReferenceIdeal Cert.ReferenceIdeal.Gen Cert.ReferenceIdeal.ReadP Idealize.ShloMosaic Idealize.ShloMosaic.ValueIdx

namespace L2

/-- The first bias row of the third layer, spread over the rows. -/
theorem row_b1 (x4 : (⟨S3x64, .f32⟩ : BufTy).Contents (Elt Ideal)) (p : Fin 100000) (q : Fin 64) :
    val_main_v137 (F := Ideal) x4 (ix2 p q) = x4 (ix2 2 q) := by
  refine (val_main_v137_apply x4 (ix2 p q)).trans ?_
  refine (val_main_v136_apply x4 _).trans ?_
  refine (val_main_v135_apply x4 _).trans ?_
  refine (val_main_v134_apply x4 _).trans ?_
  refine congrArg x4 (funext fun a => Fin.ext ?_)
  match a with
  | ⟨0, _⟩ => rfl
  | ⟨1, _⟩ => exact Nat.mod_eq_of_lt q.isLt

/-- The scale row of the third layer, spread over the rows. -/
theorem row_ga (x5 : (⟨S3x64, .f32⟩ : BufTy).Contents (Elt Ideal)) (p : Fin 100000) (q : Fin 64) :
    val_main_v161 (F := Ideal) x5 (ix2 p q) = x5 (ix2 2 q) := by
  refine (val_main_v161_apply x5 (ix2 p q)).trans ?_
  refine (val_main_v160_apply x5 _).trans ?_
  refine (val_main_v159_apply x5 _).trans ?_
  refine (val_main_v158_apply x5 _).trans ?_
  refine congrArg x5 (funext fun a => Fin.ext ?_)
  match a with
  | ⟨0, _⟩ => rfl
  | ⟨1, _⟩ => exact Nat.mod_eq_of_lt q.isLt

/-- The shift row of the third layer, spread over the rows. -/
theorem row_be (x6 : (⟨S3x64, .f32⟩ : BufTy).Contents (Elt Ideal)) (p : Fin 100000) (q : Fin 64) :
    val_main_v166 (F := Ideal) x6 (ix2 p q) = x6 (ix2 2 q) := by
  refine (val_main_v166_apply x6 (ix2 p q)).trans ?_
  refine (val_main_v165_apply x6 _).trans ?_
  refine (val_main_v164_apply x6 _).trans ?_
  refine (val_main_v163_apply x6 _).trans ?_
  refine congrArg x6 (funext fun a => Fin.ext ?_)
  match a with
  | ⟨0, _⟩ => rfl
  | ⟨1, _⟩ => exact Nat.mod_eq_of_lt q.isLt

/-- The second bias row of the third layer, spread over the rows. -/
theorem row_b2 (x8 : (⟨S3x64, .f32⟩ : BufTy).Contents (Elt Ideal)) (p : Fin 100000) (q : Fin 64) :
    val_main_v175 (F := Ideal) x8 (ix2 p q) = x8 (ix2 2 q) := by
  refine (val_main_v175_apply x8 (ix2 p q)).trans ?_
  refine (val_main_v174_apply x8 _).trans ?_
  refine (val_main_v173_apply x8 _).trans ?_
  refine (val_main_v172_apply x8 _).trans ?_
  refine congrArg x8 (funext fun a => Fin.ext ?_)
  match a with
  | ⟨0, _⟩ => rfl
  | ⟨1, _⟩ => exact Nat.mod_eq_of_lt q.isLt

/-- The first weight matrix of the third layer. -/
theorem mat_w1 (x3 : (⟨S3x64x64, .f32⟩ : BufTy).Contents (Elt Ideal)) (k q : Fin 64) :
    val_main_v132 (F := Ideal) x3 (ix2 k q) = x3 (ix3 2 k q) := by
  refine (val_main_v132_apply x3 (ix2 k q)).trans ?_
  refine (val_main_v131_apply x3 _).trans ?_
  refine congrArg x3 (funext fun a => Fin.ext ?_)
  have hk : k.val < 64 := k.isLt
  have hq : q.val < 64 := q.isLt
  match a with
  | ⟨0, _⟩ => rfl
  | ⟨1, _⟩ => show (k.val * 64 + q.val) / 64 % 64 = k.val; omega
  | ⟨2, _⟩ => show (k.val * 64 + q.val) % 64 = q.val; omega

/-- The second weight matrix of the third layer. -/
theorem mat_w2 (x7 : (⟨S3x64x64, .f32⟩ : BufTy).Contents (Elt Ideal)) (k q : Fin 64) :
    val_main_v170 (F := Ideal) x7 (ix2 k q) = x7 (ix3 2 k q) := by
  refine (val_main_v170_apply x7 (ix2 k q)).trans ?_
  refine (val_main_v169_apply x7 _).trans ?_
  refine congrArg x7 (funext fun a => Fin.ext ?_)
  have hk : k.val < 64 := k.isLt
  have hq : q.val < 64 := q.isLt
  match a with
  | ⟨0, _⟩ => rfl
  | ⟨1, _⟩ => show (k.val * 64 + q.val) / 64 % 64 = k.val; omega
  | ⟨2, _⟩ => show (k.val * 64 + q.val) % 64 = q.val; omega

section layer
variable (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 x5 x6 : (⟨S3x64, .f32⟩ : BufTy).Contents (Elt Ideal)) (x7 : (⟨S3x64x64, .f32⟩ : BufTy).Contents (Elt Ideal)) (x8 : (⟨S3x64, .f32⟩ : BufTy).Contents (Elt Ideal))

/-- h of the third layer: the layer's input plus its neighbour sums, times the first matrix, plus the first bias. -/
abbrev H : Spec.NF :=
  Spec.lin1 (val_main_v119 (F := Ideal) x0 x1 x3 x4 x5 x6 x7 x8) (val_main_v129 (F := Ideal) x0 x1 x3 x4 x5 x6 x7 x8) (Spec.sliceW x3 2) (Spec.sliceV x4 2)

theorem h_apply (p : Fin 100000) (q : Fin 64) :
    val_main_v138 (F := Ideal) x0 x1 x3 x4 x5 x6 x7 x8 (ix2 p q) = H x0 x1 x3 x4 x5 x6 x7 x8 (ix2 p q) := by
  refine (val_main_v138_apply x0 x1 x3 x4 x5 x6 x7 x8 (ix2 p q)).trans ?_
  rw [val_main_v133_apply, row_b1]
  refine congrArg (fun z : EReal => z + x4 (ix2 2 q)) ?_
  refine Finset.sum_congr rfl fun k _ => ?_
  have el : lidx_main_v133 (ix2 p q) k = ix2 p k := funext fun a => Fin.ext (by match a with | ⟨0, _⟩ => rfl | ⟨1, _⟩ => rfl)
  have er : ridx_main_v133 (ix2 p q) k = ix2 k q := funext fun a => Fin.ext (by match a with | ⟨0, _⟩ => rfl | ⟨1, _⟩ => rfl)
  rw [el, er, mat_w1]
  rfl

/-- The column mean of h. -/
theorem mean_apply (q : Fin 64) :
    val_main_v141 (F := Ideal) x0 x1 x3 x4 x5 x6 x7 x8 (ix1 q) = Spec.meanR (H x0 x1 x3 x4 x5 x6 x7 x8) q := by
  refine (val_main_v141_apply x0 x1 x3 x4 x5 x6 x7 x8 (ix1 q)).trans ?_
  rw [val_main_v139_apply, val_main_v140_apply]
  show Ideal.div (Ideal.ofBits .f32 0x00000000#32 + ∑ k : Fin 100000, val_main_v138 (F := Ideal) x0 x1 x3 x4 x5 x6 x7 x8 (idx_main_v139 (ix1 q) k)) Spec.cnt = _
  rw [Ideal.ofBits_zero_f32]
  refine congrArg (fun z : EReal => Ideal.div (0 + z) Spec.cnt) ?_
  refine Finset.sum_congr rfl fun r _ => ?_
  have e : idx_main_v139 (ix1 q) r = ix2 r q := funext fun a => Fin.ext (by match a with | ⟨0, _⟩ => rfl | ⟨1, _⟩ => rfl)
  rw [e, h_apply]

/-- The mean spread over the rows (its first use). -/
theorem mean_row_a (p : Fin 100000) (q : Fin 64) :
    val_main_v143 (F := Ideal) x0 x1 x3 x4 x5 x6 x7 x8 (ix2 p q) = Spec.meanR (H x0 x1 x3 x4 x5 x6 x7 x8) q := by
  refine (val_main_v143_apply x0 x1 x3 x4 x5 x6 x7 x8 (ix2 p q)).trans ?_
  refine (val_main_v142_apply x0 x1 x3 x4 x5 x6 x7 x8 _).trans ?_
  have e : idx_main_v142 (idx_main_v143 (ix2 p q)) = ix1 q := funext fun a => Fin.ext (by match a with | ⟨0, _⟩ => rfl)
  rw [e, mean_apply]

/-- The mean spread over the rows (its second use). -/
theorem mean_row_b (p : Fin 100000) (q : Fin 64) :
    val_main_v150 (F := Ideal) x0 x1 x3 x4 x5 x6 x7 x8 (ix2 p q) = Spec.meanR (H x0 x1 x3 x4 x5 x6 x7 x8) q := by
  refine (val_main_v150_apply x0 x1 x3 x4 x5 x6 x7 x8 (ix2 p q)).trans ?_
  refine (val_main_v149_apply x0 x1 x3 x4 x5 x6 x7 x8 _).trans ?_
  have e : idx_main_v149 (idx_main_v150 (ix2 p q)) = ix1 q := funext fun a => Fin.ext (by match a with | ⟨0, _⟩ => rfl)
  rw [e, mean_apply]

/-- The column variance of h. -/
theorem var_apply (q : Fin 64) :
    val_main_v148 (F := Ideal) x0 x1 x3 x4 x5 x6 x7 x8 (ix1 q) = Spec.varR (H x0 x1 x3 x4 x5 x6 x7 x8) q := by
  refine (val_main_v148_apply x0 x1 x3 x4 x5 x6 x7 x8 (ix1 q)).trans ?_
  rw [val_main_v146_apply, val_main_v147_apply]
  show Ideal.div (Ideal.ofBits .f32 0x00000000#32 + ∑ k : Fin 100000, val_main_v145 (F := Ideal) x0 x1 x3 x4 x5 x6 x7 x8 (idx_main_v146 (ix1 q) k)) Spec.cnt = _
  rw [Ideal.ofBits_zero_f32]
  refine congrArg (fun z : EReal => Ideal.div (0 + z) Spec.cnt) ?_
  refine Finset.sum_congr rfl fun r _ => ?_
  have e : idx_main_v146 (ix1 q) r = ix2 r q := funext fun a => Fin.ext (by match a with | ⟨0, _⟩ => rfl | ⟨1, _⟩ => rfl)
  rw [e]
  show (val_main_v138 (F := Ideal) x0 x1 x3 x4 x5 x6 x7 x8 (ix2 r q) - val_main_v143 (F := Ideal) x0 x1 x3 x4 x5 x6 x7 x8 (ix2 r q))
      * (val_main_v138 (F := Ideal) x0 x1 x3 x4 x5 x6 x7 x8 (ix2 r q) - val_main_v143 (F := Ideal) x0 x1 x3 x4 x5 x6 x7 x8 (ix2 r q)) = _
  rw [h_apply, mean_row_a]

/-- The normalising factor spread over the rows. -/
theorem rsqrt_row (p : Fin 100000) (q : Fin 64) :
    val_main_v156 (F := Ideal) x0 x1 x3 x4 x5 x6 x7 x8 (ix2 p q) = Ideal.rsqrt (Spec.varR (H x0 x1 x3 x4 x5 x6 x7 x8) q + Spec.eps) := by
  refine (val_main_v156_apply x0 x1 x3 x4 x5 x6 x7 x8 (ix2 p q)).trans ?_
  refine (val_main_v155_apply x0 x1 x3 x4 x5 x6 x7 x8 _).trans ?_
  have e : idx_main_v155 (idx_main_v156 (ix2 p q)) = ix1 q := funext fun a => Fin.ext (by match a with | ⟨0, _⟩ => rfl)
  rw [e]
  show Ideal.rsqrt (val_main_v148 (F := Ideal) x0 x1 x3 x4 x5 x6 x7 x8 (ix1 q) + val_main_v152 (F := Ideal) (ix1 q)) = _
  rw [var_apply, val_main_v152_apply]
  rfl

/-- y of the third layer: h normalised, scaled, shifted and clamped at zero. -/
theorem y_apply (p : Fin 100000) (q : Fin 64) :
    val_main_v168 (F := Ideal) x0 x1 x3 x4 x5 x6 x7 x8 (ix2 p q)
      = Spec.bn (H x0 x1 x3 x4 x5 x6 x7 x8) (Spec.meanRv (H x0 x1 x3 x4 x5 x6 x7 x8)) (Spec.varRv (H x0 x1 x3 x4 x5 x6 x7 x8)) (Spec.sliceV x5 2) (Spec.sliceV x6 2) (ix2 p q) := by
  show max ((((val_main_v138 (F := Ideal) x0 x1 x3 x4 x5 x6 x7 x8 (ix2 p q) - val_main_v150 (F := Ideal) x0 x1 x3 x4 x5 x6 x7 x8 (ix2 p q))
      * val_main_v156 (F := Ideal) x0 x1 x3 x4 x5 x6 x7 x8 (ix2 p q)) * val_main_v161 (F := Ideal) x5 (ix2 p q)) + val_main_v166 (F := Ideal) x6 (ix2 p q))
      (val_main_call4_v0 (F := Ideal) (ix2 p q)) = _
  rw [h_apply, mean_row_b, rsqrt_row, row_ga, row_be, val_main_call4_v0_apply]
  show max _ (Ideal.ofBits .f32 0x00000000#32) = _
  rw [Ideal.ofBits_zero_f32]
  rfl

end layer
end L2

/-- The reference's third layer is the layer function of its input features and their neighbour sums. -/
theorem layer2 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 x5 x6 : (⟨S3x64, .f32⟩ : BufTy).Contents (Elt Ideal)) (x7 : (⟨S3x64x64, .f32⟩ : BufTy).Contents (Elt Ideal)) (x8 : (⟨S3x64, .f32⟩ : BufTy).Contents (Elt Ideal)) :
    (val_main_v177 (F := Ideal) x0 x1 x3 x4 x5 x6 x7 x8 : Spec.NF)
      = Spec.layerR (val_main_v119 (F := Ideal) x0 x1 x3 x4 x5 x6 x7 x8) (val_main_v129 (F := Ideal) x0 x1 x3 x4 x5 x6 x7 x8) x3 x4 x5 x6 x7 x8 2 := by
  funext i
  obtain ⟨p, q, rfl⟩ : ∃ (p : Fin 100000) (q : Fin 64), i = ix2 p q := ⟨i 0, i 1, eq_ix2 i⟩
  show max (val_main_v171 (F := Ideal) x0 x1 x3 x4 x5 x6 x7 x8 (ix2 p q) + val_main_v175 (F := Ideal) x8 (ix2 p q))
      (val_main_call5_v0 (F := Ideal) (ix2 p q)) = _
  rw [val_main_v171_apply, L2.row_b2, val_main_call5_v0_apply]
  show max _ (Ideal.ofBits .f32 0x00000000#32) = _
  rw [Ideal.ofBits_zero_f32]
  refine congrArg (fun z : EReal => max (z + x8 (ix2 2 q)) 0) ?_
  refine Finset.sum_congr rfl fun k _ => ?_
  have el : lidx_main_v171 (ix2 p q) k = ix2 p k := funext fun a => Fin.ext (by match a with | ⟨0, _⟩ => rfl | ⟨1, _⟩ => rfl)
  have er : ridx_main_v171 (ix2 p q) k = ix2 k q := funext fun a => Fin.ext (by match a with | ⟨0, _⟩ => rfl | ⟨1, _⟩ => rfl)
  rw [el, er, L2.mat_w2, L2.y_apply]
  rfl

end Cert.ReferenceIdeal.RL

end
-- ==== Proof.RefValue.lean ====
/-
  The reference's result as one function of its arguments: three layers with the neighbour sums between them,
  the per-graph sums by a scatter, the division by the clamped counts.
-/
import proofs.«402690_j13675175870656_3_alg».proof.Proof.ReadP
import proofs.«402690_j13675175870656_3_alg».proof.Proof.RefL0
import proofs.«402690_j13675175870656_3_alg».proof.Proof.RefL1
import proofs.«402690_j13675175870656_3_alg».proof.Proof.RefL2
import proofs.«402690_j13675175870656_3_alg».proof.Proof.Spec

noncomputable section

namespace Cert.ReferenceIdeal.RVal

open Cert.ReferenceIdeal Cert.ReferenceIdeal.Gen Cert.ReferenceIdeal.ReadP Idealize.ShloMosaic

/-- The reference's neighbour sums of x along the edges x1. -/
def aggR (x1 : (⟨S2x1600000, .i32⟩ : BufTy).Contents (Elt Ideal)) (x : FVec Ideal S100000x64 .f32) : FVec Ideal S100000x64 .f32 :=
  Host.scatterAdd (F := Ideal) scatter_S100000x64_S1600000x1_S1600000x64_1_0_0_1 (val_main_v11 (F := Ideal)) (val_main_v12 (F := Ideal) x1)
    (Host.gather gather_S100000x64_S1600000x1_S1600000x64_1_0_n_n_0_1_164 x (val_main_v9 (F := Ideal) x1))

/-- One layer of the reference with its parameters. -/
def layerRf (x3 : Spec.W3) (x4 x5 x6 : Spec.V3) (x7 : Spec.W3) (x8 : Spec.V3) : Spec.NF → Spec.NF → Fin 3 → Spec.NF :=
  fun x a l => Spec.layerR x a x3 x4 x5 x6 x7 x8 l

theorem v13_eq (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 x5 x6 : (⟨S3x64, .f32⟩ : BufTy).Contents (Elt Ideal)) (x7 : (⟨S3x64x64, .f32⟩ : BufTy).Contents (Elt Ideal)) (x8 : (⟨S3x64, .f32⟩ : BufTy).Contents (Elt Ideal)) : val_main_v13 (F := Ideal) x0 x1 = aggR x1 x0 := rfl
theorem v71_eq (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 x5 x6 : (⟨S3x64, .f32⟩ : BufTy).Contents (Elt Ideal)) (x7 : (⟨S3x64x64, .f32⟩ : BufTy).Contents (Elt Ideal)) (x8 : (⟨S3x64, .f32⟩ : BufTy).Contents (Elt Ideal)) :
    val_main_v71 (F := Ideal) x0 x1 x3 x4 x5 x6 x7 x8 = aggR x1 (val_main_v61 (F := Ideal) x0 x1 x3 x4 x5 x6 x7 x8) := rfl
theorem v129_eq (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 x5 x6 : (⟨S3x64, .f32⟩ : BufTy).Contents (Elt Ideal)) (x7 : (⟨S3x64x64, .f32⟩ : BufTy).Contents (Elt Ideal)) (x8 : (⟨S3x64, .f32⟩ : BufTy).Contents (Elt Ideal)) :
    val_main_v129 (F := Ideal) x0 x1 x3 x4 x5 x6 x7 x8 = aggR x1 (val_main_v119 (F := Ideal) x0 x1 x3 x4 x5 x6 x7 x8) := rfl

/-- The reference's features after its three layers. -/
theorem v177_eq (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 x5 x6 : (⟨S3x64, .f32⟩ : BufTy).Contents (Elt Ideal)) (x7 : (⟨S3x64x64, .f32⟩ : BufTy).Contents (Elt Ideal)) (x8 : (⟨S3x64, .f32⟩ : BufTy).Contents (Elt Ideal)) :
    (val_main_v177 (F := Ideal) x0 x1 x3 x4 x5 x6 x7 x8 : Spec.NF) = Spec.net (layerRf x3 x4 x5 x6 x7 x8) (aggR x1) x0 := by
  rw [RL.layer2, v129_eq x0 x1 x3 x4 x5 x6 x7 x8, RL.layer1, v71_eq x0 x1 x3 x4 x5 x6 x7 x8, RL.layer0, v13_eq x0 x1 x3 x4 x5 x6 x7 x8]
  rfl

end Cert.ReferenceIdeal.RVal

end
-- ==== Proof.Consts.lean ====
/-
  The float literals the two programs share, as the extended reals they denote.
-/
import proofs.«402690_j13675175870656_3_alg».proof.Proof.Spec

noncomputable section

namespace Cert.Spec

open Idealize.ShloMosaic

/-- The row count's literal is the real 100000 exactly. -/
theorem cnt_eq : cnt = ((100000 : ℝ) : EReal) := by
  simp [cnt, Ideal.ofBits, Ideal.ieee, -EReal.coe_mul]; norm_num

/-- The epsilon's literal is a positive real. -/
theorem eps_eq : ∃ e : ℝ, 0 < e ∧ eps = (e : EReal) := by
  refine ⟨(10995116 : ℝ) * (2 : ℝ) ^ (-40 : Int), by positivity, ?_⟩
  simp [eps, Ideal.ofBits, Ideal.ieee, -EReal.coe_mul]

/-- The literal 1.0 is the real 1. -/
theorem ofBits_one : Ideal.ofBits .f32 0x3F800000#32 = 1 := by
  simp [Ideal.ofBits, Ideal.ieee, -EReal.coe_mul]; norm_num

end Cert.Spec

end
-- ==== Proof.SpecMath.lean ====
/-
  The two ways of taking a column's variance agree on real columns, so the kernel's layer and the reference's
  layer are one function of real inputs; and a layer of real inputs is real.
-/
import proofs.«402690_j13675175870656_3_alg».proof.Proof.Spec
import proofs.«402690_j13675175870656_3_alg».proof.Proof.Consts

noncomputable section

namespace Cert.Spec

open Idealize.ShloMosaic Idealize.ShloMosaic.ValueIdx

/-! ### Real numbers inside the extended reals -/

/-- A real number is neither infinity. -/
private theorem real_coe (r : ℝ) : (r : EReal) ≠ ⊤ ∧ (r : EReal) ≠ ⊥ := ⟨EReal.coe_ne_top r, EReal.coe_ne_bot r⟩

/-- An extended real that is neither infinity is a real number. -/
private theorem real_exists {x : EReal} (h : x ≠ ⊤ ∧ x ≠ ⊥) : ∃ r : ℝ, x = (r : EReal) :=
  ⟨x.toReal, (EReal.coe_toReal h.1 h.2).symm⟩

private theorem real_zero : (0 : EReal) ≠ ⊤ ∧ (0 : EReal) ≠ ⊥ := real_coe 0

private theorem real_add {x y : EReal} (hx : x ≠ ⊤ ∧ x ≠ ⊥) (hy : y ≠ ⊤ ∧ y ≠ ⊥) : x + y ≠ ⊤ ∧ x + y ≠ ⊥ := by
  obtain ⟨a, rfl⟩ := real_exists hx
  obtain ⟨b, rfl⟩ := real_exists hy
  rw [← EReal.coe_add]; exact real_coe _

private theorem real_sub {x y : EReal} (hx : x ≠ ⊤ ∧ x ≠ ⊥) (hy : y ≠ ⊤ ∧ y ≠ ⊥) : x - y ≠ ⊤ ∧ x - y ≠ ⊥ := by
  obtain ⟨a, rfl⟩ := real_exists hx
  obtain ⟨b, rfl⟩ := real_exists hy
  rw [← EReal.coe_sub]; exact real_coe _

private theorem real_mul {x y : EReal} (hx : x ≠ ⊤ ∧ x ≠ ⊥) (hy : y ≠ ⊤ ∧ y ≠ ⊥) : x * y ≠ ⊤ ∧ x * y ≠ ⊥ := by
  obtain ⟨a, rfl⟩ := real_exists hx
  obtain ⟨b, rfl⟩ := real_exists hy
  rw [← EReal.coe_mul]; exact real_coe _

/-- The larger of two reals, taken in the extended reals, is the larger real. -/
private theorem coe_max (a b : ℝ) : max (a : EReal) (b : EReal) = ((max a b : ℝ) : EReal) :=
  (EReal.coe_strictMono.monotone.map_max).symm

private theorem real_max0 {x : EReal} (hx : x ≠ ⊤ ∧ x ≠ ⊥) : max x 0 ≠ ⊤ ∧ max x 0 ≠ ⊥ := by
  obtain ⟨a, rfl⟩ := real_exists hx
  rw [← EReal.coe_zero, coe_max]; exact real_coe _

/-- The coercion commutes with finite sums. -/
private theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A family is real exactly when it is the coercion of a real family. -/
private theorem isReal_iff {ι : Type} (f : ι → EReal) : IsReal f ↔ ∃ g : ι → ℝ, f = fun i => (g i : EReal) := by
  constructor
  · intro h
    exact ⟨fun i => (f i).toReal, funext fun i => (EReal.coe_toReal (h i).1 (h i).2).symm⟩
  · rintro ⟨g, rfl⟩ i
    exact real_coe _

theorem IsReal.sliceW {W : W3} (h : IsReal W) (l : Fin 3) : IsReal (sliceW W l) := by
  intro i; exact h _

theorem IsReal.sliceV {v : V3} (h : IsReal v) (l : Fin 3) : IsReal (sliceV v l) := by
  intro i; exact h _

/-- A finite sum of reals is real. -/
theorem isReal_sum {ι : Type} (s : Finset ι) (f : ι → EReal) (h : ∀ i ∈ s, f i ≠ ⊤ ∧ f i ≠ ⊥) :
    (∑ i ∈ s, f i) ≠ ⊤ ∧ (∑ i ∈ s, f i) ≠ ⊥ :=
  Finset.sum_induction f (fun x => x ≠ ⊤ ∧ x ≠ ⊥) (fun _ _ => real_add) real_zero h

theorem IsReal.lin1 {x a : NF} {w : MW} {b : RV} (hx : IsReal x) (ha : IsReal a) (hw : IsReal w) (hb : IsReal b) :
    IsReal (lin1 x a w b) := by
  intro i
  exact real_add (isReal_sum _ _ fun k _ => real_mul (real_add (hx _) (ha _)) (hw _)) (hb _)

/-- The kernel's mean is the reference's, on any column. -/
theorem meanK_csum (h : NF) : meanK (csum h) = meanRv h := by
  funext j
  simp only [meanK, csum, meanRv, meanR, zero_add]

/-! ### The variance identity over the reals -/

/-- For N numbers f: Σ f² / N − (Σ f / N)² = Σ (f − Σ f / N)² / N, and the right side is not negative, so the
    clamp at zero on the left changes nothing. -/
private theorem var_real {ι : Type} [Fintype ι] (f : ι → ℝ) (N : ℝ) (hN : (Fintype.card ι : ℝ) = N) (hpos : 0 < N) :
    max ((∑ i, f i * f i) * (1 / N) - (∑ i, f i) * (1 / N) * ((∑ i, f i) * (1 / N))) 0
      = (∑ i, (f i - (∑ i, f i) * (1 / N)) * (f i - (∑ i, f i) * (1 / N))) * (1 / N) := by
  set S : ℝ := ∑ i, f i with hS
  set Q : ℝ := ∑ i, f i * f i with hQ
  set m : ℝ := S * (1 / N) with hm
  have hexp : (∑ i, (f i - m) * (f i - m)) = Q - 2 * m * S + N * (m * m) := by
    have e : ∀ i, (f i - m) * (f i - m) = f i * f i - 2 * m * f i + m * m := fun i => by ring
    simp only [e]
    rw [Finset.sum_add_distrib, Finset.sum_sub_distrib, ← Finset.mul_sum, Finset.sum_const, Finset.card_univ,
      nsmul_eq_mul, hN]
  have key : Q * (1 / N) - m * m = (∑ i, (f i - m) * (f i - m)) * (1 / N) := by
    rw [hexp, hm]
    field_simp
    ring
  rw [key]
  exact max_eq_left (mul_nonneg (Finset.sum_nonneg fun i _ => mul_self_nonneg _) (by positivity))

/-- The reference's mean of a real column is the real mean. -/
private theorem meanR_coe (g : (⟨2, ![100000, 64]⟩ : Shape).Idx → ℝ) (c : Fin 64) :
    meanR (fun i => (g i : EReal)) c = (((∑ r : Fin 100000, g (ix2 r c)) * (1 / 100000 : ℝ) : ℝ) : EReal) := by
  simp only [meanR]
  rw [cnt_eq, Ideal.div_coe (by norm_num), zero_add, coe_sum, ← EReal.coe_mul]

/-- The reference's variance of a real column is the real mean of the squared deviations. -/
private theorem varR_coe (g : (⟨2, ![100000, 64]⟩ : Shape).Idx → ℝ) (c : Fin 64) :
    varR (fun i => (g i : EReal)) c
      = (((∑ r : Fin 100000, (g (ix2 r c) - (∑ r : Fin 100000, g (ix2 r c)) * (1 / 100000 : ℝ))
            * (g (ix2 r c) - (∑ r : Fin 100000, g (ix2 r c)) * (1 / 100000 : ℝ))) * (1 / 100000 : ℝ) : ℝ) : EReal) := by
  simp only [varR, meanR_coe]
  simp only [← EReal.coe_sub, ← EReal.coe_mul, coe_sum]
  rw [cnt_eq, Ideal.div_coe (by norm_num), zero_add, ← EReal.coe_mul]

/-- The reference's variance of a real column is a real number that is not negative. -/
private theorem varRv_real (h : NF) (hh : IsReal h) (j : (⟨2, ![1, 64]⟩ : Shape).Idx) :
    ∃ v : ℝ, 0 ≤ v ∧ varRv h j = (v : EReal) := by
  obtain ⟨g, rfl⟩ := (isReal_iff h).1 hh
  refine ⟨_, ?_, varR_coe g (j 1)⟩
  exact mul_nonneg (Finset.sum_nonneg fun i _ => mul_self_nonneg _) (by norm_num)

/-- The reference's mean of a real column is real. -/
private theorem meanRv_real (h : NF) (hh : IsReal h) : IsReal (meanRv h) := by
  obtain ⟨g, rfl⟩ := (isReal_iff h).1 hh
  intro j
  rw [show meanRv (fun i => (g i : EReal)) j = _ from meanR_coe g (j 1)]
  exact real_coe _

/-- Σ h² / n − (Σ h / n)² = Σ (h − Σ h / n)² / n ≥ 0 for real h and n the number of rows. -/
theorem varK_csum (h : NF) (hh : IsReal h) : varK (csum h) (csumsq h) = varRv h := by
  obtain ⟨g, rfl⟩ := (isReal_iff h).1 hh
  funext j
  rw [show varRv (fun i => (g i : EReal)) j = _ from varR_coe g (j 1)]
  simp only [varK, meanK, csum, csumsq]
  simp only [← EReal.coe_mul, coe_sum]
  rw [cnt_eq, Ideal.div_coe (by norm_num), Ideal.div_coe (by norm_num)]
  simp only [← EReal.coe_mul, ← EReal.coe_sub]
  rw [← EReal.coe_zero, coe_max]
  exact congrArg _ (var_real (fun r : Fin 100000 => g (ix2 r (j 1))) 100000 (by simp) (by norm_num))

theorem layerK_eq_layerR (x a : NF) (W1 : W3) (B1 G Be : V3) (W2 : W3) (B2 : V3) (l : Fin 3)
    (hx : IsReal x) (ha : IsReal a) (hW1 : IsReal W1) (hB1 : IsReal B1) :
    layerK x a W1 B1 G Be W2 B2 l = layerR x a W1 B1 G Be W2 B2 l := by
  simp only [layerK, layerR]
  rw [meanK_csum, varK_csum _ (IsReal.lin1 hx ha (hW1.sliceW l) (hB1.sliceV l))]

/-- Normalising a real array by real statistics, the variance not negative, gives a real array: the square root
    is of a positive real. -/
private theorem IsReal.bn {h : NF} {mu var ga be : RV} (hh : IsReal h) (hmu : IsReal mu)
    (hvar : ∀ j, ∃ v : ℝ, 0 ≤ v ∧ var j = (v : EReal)) (hga : IsReal ga) (hbe : IsReal be) :
    IsReal (bn h mu var ga be) := by
  intro i
  obtain ⟨v, hv, hvj⟩ := hvar (ix2 0 (i 1))
  obtain ⟨e, he, hee⟩ := eps_eq
  have hpos : 0 < v + e := by positivity
  have hrs : Ideal.rsqrt (var (ix2 0 (i 1)) + eps) ≠ ⊤ ∧ Ideal.rsqrt (var (ix2 0 (i 1)) + eps) ≠ ⊥ := by
    rw [hvj, hee, ← EReal.coe_add, Ideal.rsqrt_coe, if_neg (not_lt.mpr hpos.le), if_neg hpos.ne']
    exact real_coe _
  exact real_max0 (real_add (real_mul (real_mul (real_sub (hh _) (hmu _)) hrs) (hga _)) (hbe _))

private theorem IsReal.lin2 {y : NF} {w : MW} {b : RV} (hy : IsReal y) (hw : IsReal w) (hb : IsReal b) :
    IsReal (lin2 y w b) := by
  intro i
  exact real_max0 (real_add (isReal_sum _ _ fun k _ => real_mul (hy _) (hw _)) (hb _))

theorem layerR_isReal (x a : NF) (W1 : W3) (B1 G Be : V3) (W2 : W3) (B2 : V3) (l : Fin 3)
    (hx : IsReal x) (ha : IsReal a) (hW1 : IsReal W1) (hB1 : IsReal B1) (hG : IsReal G) (hBe : IsReal Be)
    (hW2 : IsReal W2) (hB2 : IsReal B2) :
    IsReal (layerR x a W1 B1 G Be W2 B2 l) := by
  have hh := IsReal.lin1 hx ha (hW1.sliceW l) (hB1.sliceV l)
  simp only [layerR, mlp2]
  exact IsReal.lin2 (IsReal.bn hh (meanRv_real _ hh) (varRv_real _ hh) (hG.sliceV l) (hBe.sliceV l))
    (hW2.sliceW l) (hB2.sliceV l)

/-- Three layers: the kernel's and the reference's agree on real inputs, when the neighbour sums of real features are real. -/
theorem net_eq (agg : NF → NF) (hagg : ∀ x, IsReal x → IsReal (agg x)) (x : NF) (W1 : W3) (B1 G Be : V3) (W2 : W3) (B2 : V3)
    (hx : IsReal x) (hW1 : IsReal W1) (hB1 : IsReal B1) (hG : IsReal G) (hBe : IsReal Be) (hW2 : IsReal W2) (hB2 : IsReal B2) :
    net (fun x a l => layerK x a W1 B1 G Be W2 B2 l) agg x = net (fun x a l => layerR x a W1 B1 G Be W2 B2 l) agg x := by
  have r1 := layerR_isReal x (agg x) W1 B1 G Be W2 B2 0 hx (hagg x hx) hW1 hB1 hG hBe hW2 hB2
  have e1 := layerK_eq_layerR x (agg x) W1 B1 G Be W2 B2 0 hx (hagg x hx) hW1 hB1
  have r2 := layerR_isReal _ (agg _) W1 B1 G Be W2 B2 1 r1 (hagg _ r1) hW1 hB1 hG hBe hW2 hB2
  have e2 := layerK_eq_layerR _ (agg _) W1 B1 G Be W2 B2 1 r1 (hagg _ r1) hW1 hB1
  have e3 := layerK_eq_layerR _ (agg _) W1 B1 G Be W2 B2 2 r2 (hagg _ r2) hW1 hB1
  simp only [net]
  rw [e1, e2, e3]

end Cert.Spec

end
-- ==== Proof.PoolMath.lean ====
/-
  The host's accumulating scatter at the ideal values: each target entry plus the sum of the updates that land on it.
  Reals stay real; and scattering the rows of a 100000 × 64 array into 256 rows by a column of row numbers is the
  per-graph sum: row n is added into row g exactly when its number, read as a signed word, is g.
-/
import proofs.«402690_j13675175870656_3_alg».proof.Proof.Spec
import proofs.«402690_j13675175870656_3_alg».proof.Proof.SpecMath
import Idealize.ShloMosaic.PureOps.Ideal.Laws

noncomputable section

namespace Cert.Spec

open Idealize.ShloMosaic Idealize.ShloMosaic.ValueIdx

/-- A gather of a real array is real: every entry is an entry of the operand. -/
theorem isReal_gather {s si t : Shape} {w : Nat} (g : GatherDims s si t) (x : s.Idx → EReal) (idx : IVec si w)
    (hx : IsReal x) : IsReal (Host.gather g x idx) := by
  intro j
  exact hx (g.operandIdx j idx)

/-- The sum of two real numbers is real. -/
private theorem add_real {x y : EReal} (hx : x ≠ ⊤ ∧ x ≠ ⊥) (hy : y ≠ ⊤ ∧ y ≠ ⊥) : x + y ≠ ⊤ ∧ x + y ≠ ⊥ := by
  rw [← EReal.coe_toReal hx.1 hx.2, ← EReal.coe_toReal hy.1 hy.2, ← EReal.coe_add]
  exact ⟨EReal.coe_ne_top _, EReal.coe_ne_bot _⟩

/-- An accumulating scatter of real updates into a real array is real. -/
theorem isReal_scatterAdd {s si su : Shape} {w : Nat} (d : ScatterDims s si su) (z : s.Idx → EReal) (idx : IVec si w)
    (u : su.Idx → EReal) (hz : IsReal z) (hu : IsReal u) : IsReal (Ideal.hostScatterAdd d z idx u) := by
  intro i
  exact add_real (hz i) (isReal_sum _ u fun j _ => hu j)

/-! ### Scattering rows by their numbers -/

/-- The dimension numbers of a row scatter: the updates' second axis is the window, the target's first axis is
    addressed by the one index component, which the column of indices holds on its unit axis. -/
private abbrev rowScatter (wf : ScatterDims.WF ⟨2, ![256, 64]⟩ ⟨2, ![100000, 1]⟩ ⟨2, ![100000, 64]⟩ [1] [0] [0] 1) :
    ScatterDims ⟨2, ![256, 64]⟩ ⟨2, ![100000, 1]⟩ ⟨2, ![100000, 64]⟩ :=
  ⟨[1], [0], [0], 1, wf⟩

section RowScatter

variable (wf : ScatterDims.WF ⟨2, ![256, 64]⟩ ⟨2, ![100000, 1]⟩ ⟨2, ![100000, 64]⟩ [1] [0] [0] 1)

/-- Update (n, e) reads its start index at (n, 0) of the index column. -/
private theorem rowScatter_siIdx (j : (⟨2, ![100000, 64]⟩ : Shape).Idx) (c : Fin 1) :
    (rowScatter wf).siIdx j c = ix2 (j 0) 0 := by
  funext b
  apply Fin.ext
  match b with
  | ⟨0, _⟩ => rfl
  | ⟨1, _⟩ =>
    show c.val = 0
    omega

/-- On the row axis the window starts at the row number, read signed. -/
private theorem rowScatter_start0 (j : (⟨2, ![100000, 64]⟩ : Shape).Idx) (bat : BT) :
    (rowScatter wf).start j bat 0 = (bat (ix2 (j 0) 0)).toInt := by
  unfold ScatterDims.start
  rw [dif_pos (show (0 : Fin 2) ∈ [(0 : Fin 2)] from List.mem_singleton.mpr rfl), rowScatter_siIdx]
  rfl

/-- On the column axis the window starts at 0. -/
private theorem rowScatter_start1 (j : (⟨2, ![100000, 64]⟩ : Shape).Idx) (bat : BT) :
    (rowScatter wf).start j bat 1 = 0 := by
  unfold ScatterDims.start
  rw [dif_neg (show ¬ (1 : Fin 2) ∈ [(0 : Fin 2)] by decide)]

/-- The row axis is inserted: no window coordinate. -/
private theorem rowScatter_window0 (j : (⟨2, ![100000, 64]⟩ : Shape).Idx) : (rowScatter wf).window j 0 = 0 := by
  unfold ScatterDims.window
  rw [dif_neg (show (0 : Fin 2) ∉ (⟨2, ![256, 64]⟩ : Shape).kept [0] by decide)]

/-- The column axis carries the update's column. -/
private theorem rowScatter_window1 (j : (⟨2, ![100000, 64]⟩ : Shape).Idx) : (rowScatter wf).window j 1 = (j 1).val := by
  unfold ScatterDims.window
  rw [dif_pos (show (1 : Fin 2) ∈ (⟨2, ![256, 64]⟩ : Shape).kept [0] by decide)]
  rfl

/-- A 32-bit word read signed is the row number g < 256 exactly when it is the word of g. -/
private theorem toInt_eq_iff (b : BitVec 32) (g : Nat) (hg : g < 256) : b.toInt = (g : Int) ↔ b = BitVec.ofNat 32 g := by
  have hb := b.isLt
  constructor
  · intro h
    apply BitVec.eq_of_toNat_eq
    rw [BitVec.toNat_ofNat]
    rw [BitVec.toInt_eq_toNat_cond] at h
    split at h <;> omega
  · intro h
    have hn : b.toNat = g := by rw [h, BitVec.toNat_ofNat]; omega
    rw [BitVec.toInt_eq_toNat_cond, hn, if_pos (by omega)]

/-- Update (n, e) lands on target (g, c) exactly when row n's number is g and e = c. -/
private theorem rowScatter_resultIdx (j : (⟨2, ![100000, 64]⟩ : Shape).Idx) (bat : BT)
    (i : (⟨2, ![256, 64]⟩ : Shape).Idx) :
    (rowScatter wf).resultIdx? j bat = some i
      ↔ bat (ix2 (j 0) 0) = BitVec.ofNat 32 (i 0).val ∧ (j 1).val = (i 1).val := by
  have hi0 : (i 0).val < 256 := idx2_lt0 i
  have hi1 : (i 1).val < 64 := idx2_lt1 i
  have hj1 : (j 1).val < 64 := idx2_lt1 j
  rw [← toInt_eq_iff _ _ hi0]
  unfold ScatterDims.resultIdx?
  constructor
  · intro hres
    split at hres
    · rename_i h
      have hf := Option.some.inj hres
      have h0 : ((rowScatter wf).start j bat 0 + ((rowScatter wf).window j 0 : Int)).toNat = (i 0).val := by
        rw [← hf]
      have h1 : ((rowScatter wf).start j bat 1 + ((rowScatter wf).window j 1 : Int)).toNat = (i 1).val := by
        rw [← hf]
      have hh0 := (h 0).1
      rw [rowScatter_start0, rowScatter_window0] at h0 hh0
      rw [rowScatter_start1, rowScatter_window1] at h1
      constructor <;> omega
    · cases hres
  · rintro ⟨h0, h1⟩
    have e0 : (rowScatter wf).start j bat 0 + ((rowScatter wf).window j 0 : Int) = ((i 0).val : Int) := by
      rw [rowScatter_start0, rowScatter_window0, h0]; omega
    have e1 : (rowScatter wf).start j bat 1 + ((rowScatter wf).window j 1 : Int) = ((i 1).val : Int) := by
      rw [rowScatter_start1, rowScatter_window1]; omega
    have h : ∀ a, 0 ≤ (rowScatter wf).start j bat a + ((rowScatter wf).window j a : Int)
        ∧ (rowScatter wf).start j bat a + ((rowScatter wf).window j a : Int)
          < ((⟨2, ![256, 64]⟩ : Shape).size a : Int) := by
      refine Fin.forall_fin_two.mpr ⟨?_, ?_⟩
      · rw [e0]
        show (0 : Int) ≤ _ ∧ _ < ((256 : Nat) : Int)
        omega
      · rw [e1]
        show (0 : Int) ≤ _ ∧ _ < ((64 : Nat) : Int)
        omega
    rw [dif_pos h]
    congr 1
    funext a
    apply Fin.ext
    revert a
    have t0 : ((rowScatter wf).start j bat 0 + ((rowScatter wf).window j 0 : Int)).toNat = (i 0).val := by
      rw [e0]; omega
    have t1 : ((rowScatter wf).start j bat 1 + ((rowScatter wf).window j 1 : Int)).toNat = (i 1).val := by
      rw [e1]; omega
    exact Fin.forall_fin_two.mpr ⟨t0, t1⟩

end RowScatter

/-- Rows scattered into 256 rows by their numbers, from zero, is the per-graph sum. -/
theorem scatterAdd_pool (d : ScatterDims ⟨2, ![256, 64]⟩ ⟨2, ![100000, 1]⟩ ⟨2, ![100000, 64]⟩)
    (h1 : d.updateWindowDims = [1]) (h2 : d.insertedWindowDims = [0]) (h3 : d.scatterDimsToOperandDims = [0])
    (h4 : d.indexVectorDim = 1) (z : PO) (hz : ∀ i, z i = 0) (bat : BT) (y : NF) :
    Ideal.hostScatterAdd d z bat y = pool y bat := by
  obtain ⟨uw, iw, sd, iv, wf⟩ := d
  simp only at h1 h2 h3 h4
  subst h1 h2 h3 h4
  funext i
  obtain ⟨g, c, rfl⟩ : ∃ (g : Fin 256) (c : Fin 64), i = ix2 g c := ⟨i 0, i 1, eq_ix2 i⟩
  show z (ix2 g c) + ∑ j ∈ Finset.univ.filter (fun j => (rowScatter wf).resultIdx? j bat = some (ix2 g c)), y j
    = ∑ n : Fin 100000, (if bat (ix2 n 0) = BitVec.ofNat 32 g.val then (1 : EReal) else 0) * y (ix2 n c)
  rw [hz, zero_add, Finset.sum_filter, sum_idx2]
  refine Finset.sum_congr rfl fun n _ => ?_
  have key : ∀ e : Fin 64, (rowScatter wf).resultIdx? (ix2 n e) bat = some (ix2 g c)
      ↔ bat (ix2 n 0) = BitVec.ofNat 32 g.val ∧ e = c := fun e =>
    (rowScatter_resultIdx wf (ix2 n e) bat (ix2 g c)).trans
      ⟨fun h => ⟨h.1, Fin.ext h.2⟩, fun h => ⟨h.1, congrArg Fin.val h.2⟩⟩
  by_cases hb : bat (ix2 n 0) = BitVec.ofNat 32 g.val
  · rw [if_pos hb, one_mul]
    have key' : ∀ e : Fin 64, (rowScatter wf).resultIdx? (ix2 n e) bat = some (ix2 g c) ↔ e = c := fun e =>
      (key e).trans ⟨fun h => h.2, fun h => ⟨hb, h⟩⟩
    refine Eq.trans (Finset.sum_congr rfl fun e _ => if_congr (key' e) rfl rfl) ?_
    rw [Finset.sum_ite_eq', if_pos (Finset.mem_univ _)]
  · rw [if_neg hb, zero_mul]
    refine Finset.sum_eq_zero fun e _ => if_neg ?_
    intro h
    exact hb ((key e).1 h).1

end Cert.Spec

end
-- ==== Proof.Bridge.lean ====
/-
  The two programs' results are one function of the arguments.
-/
import proofs.«402690_j13675175870656_3_alg».proof.Proof.KValue
import proofs.«402690_j13675175870656_3_alg».proof.Proof.RefValue
import proofs.«402690_j13675175870656_3_alg».proof.Proof.SpecMath
import proofs.«402690_j13675175870656_3_alg».proof.Proof.PoolMath

noncomputable section

namespace Cert.Bridge

open Idealize.ShloMosaic Idealize.ShloMosaic.ValueIdx
open Cert.ReferenceIdeal Cert.ReferenceIdeal.ReadP Cert.ReferenceIdeal.RVal

/-- The kernel program's neighbour sums are the reference's: the same gather and the same scatter along the same edges. -/
theorem aggK_eq_aggR (e : IVec ⟨2, ![2, 1600000]⟩ 32) (x : Spec.NF) :
    Cert.KernelIdeal.KV.agg (Cert.KernelIdeal.KV.v1Of e) (Cert.KernelIdeal.KV.v3Of e) x = aggR e x := rfl

/-- The final division by the clamped counts is the same operation in both programs. -/
theorem tail_eq (p : Spec.PO) (b : IVec ⟨1, ![100000]⟩ 32) :
    Cert.KernelIdeal.KV.tail p (Cert.KernelIdeal.KV.cntOf b) = Host.divf (F := Ideal) p (val_main_v188 (F := Ideal) b) := rfl

/-- The graph numbers as a column: the kernel program reshapes, the reference broadcasts along a new last axis; the same column. -/
theorem bat_eq (b : IVec ⟨1, ![100000]⟩ 32) : Cert.KernelIdeal.KV.batOf b = val_main_v179 (F := Ideal) b := by
  funext i
  rw [val_main_v179_apply]
  unfold Cert.KernelIdeal.KV.batOf
  refine shapeCast_apply b _ i (idx_main_v179 i) ?_
  rw [Shape.rowMajor_val_one, Shape.rowMajor_val_two]
  have h1 : (i 1).val < 1 := (i 1).isLt
  show (i 0).val = (i 0).val * 1 + (i 1).val
  omega

/-- The scatter's target starts from zero. -/
theorem zeros178 : ∀ i, val_main_v178 (F := Ideal) i = 0 := fun i => by
  rw [val_main_v178_apply, val_main_cst_22_apply]; exact Ideal.ofBits_zero_f32

/-- The neighbour sums' target starts from zero, a real. -/
theorem zeros11_real : Spec.IsReal (val_main_v11 (F := Ideal)) := fun i => by
  rw [val_main_v11_apply, val_main_cst_apply]
  show Ideal.ofBits .f32 0x00000000#32 ≠ ⊤ ∧ Ideal.ofBits .f32 0x00000000#32 ≠ ⊥
  rw [Ideal.ofBits_zero_f32]; exact ⟨EReal.zero_ne_top, EReal.zero_ne_bot⟩

/-- The neighbour sums of real features are real. -/
theorem aggR_isReal (e : IVec ⟨2, ![2, 1600000]⟩ 32) (x : Spec.NF) (hx : Spec.IsReal x) : Spec.IsReal (aggR e x) :=
  Spec.isReal_scatterAdd _ _ _ _ zeros11_real (Spec.isReal_gather _ _ _ hx)

/-- On real arguments the kernel program's result is the reference's last stage. -/
theorem value_eq (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S3x64x64, .f32⟩ : BufTy).Contents (Elt Ideal)) (x4 x5 x6 : (⟨S3x64, .f32⟩ : BufTy).Contents (Elt Ideal)) (x7 : (⟨S3x64x64, .f32⟩ : BufTy).Contents (Elt Ideal)) (x8 : (⟨S3x64, .f32⟩ : BufTy).Contents (Elt Ideal))
    (h0 : Spec.IsReal (x0 : Spec.NF)) (h3 : Spec.IsReal (x3 : Spec.W3)) (h4 : Spec.IsReal (x4 : Spec.V3)) (h5 : Spec.IsReal (x5 : Spec.V3))
    (h6 : Spec.IsReal (x6 : Spec.V3)) (h7 : Spec.IsReal (x7 : Spec.W3)) (h8 : Spec.IsReal (x8 : Spec.V3)) :
    Cert.KernelIdeal.KV.tail (Spec.pool (Spec.net (fun x a l => Spec.layerK x a x3 x4 x5 x6 x7 x8 l)
        (Cert.KernelIdeal.KV.agg (Cert.KernelIdeal.KV.v1Of x1) (Cert.KernelIdeal.KV.v3Of x1)) x0) (Cert.KernelIdeal.KV.batOf x2))
        (Cert.KernelIdeal.KV.cntOf x2)
      = val_main_v189 (F := Ideal) x0 x1 x2 x3 x4 x5 x6 x7 x8 := by
  have hagg : Cert.KernelIdeal.KV.agg (Cert.KernelIdeal.KV.v1Of x1) (Cert.KernelIdeal.KV.v3Of x1) = aggR x1 :=
    funext (aggK_eq_aggR x1)
  rw [hagg, Spec.net_eq (aggR x1) (fun x hx => aggR_isReal x1 x hx) x0 x3 x4 x5 x6 x7 x8 h0 h3 h4 h5 h6 h7 h8, tail_eq]
  unfold val_main_v189 val_main_v180
  rw [v177_eq]
  refine congrArg (fun p => Host.divf (F := Ideal) p (val_main_v188 (F := Ideal) x2)) ?_
  rw [bat_eq]
  exact (Spec.scatterAdd_pool _ rfl rfl rfl rfl _ zeros178 _ _).symm

end Cert.Bridge

end
-- ==== Proof.lean ====
/-
  Both programs compute a three-layer graph network followed by a per-graph mean. Each layer adds to every node's
  features the sum of its neighbours' features, applies a linear map, normalises every column by its mean and variance
  over all nodes, clamps at zero, and applies a second linear map and clamp. The kernel program takes the column
  statistics from the sums of h and of h² accumulated block by block; the reference takes the variance as the mean of
  (h − mean)². On finite inputs every intermediate is a real number and the two variances agree, so the layers agree;
  the last kernel's one-hot product per graph is the reference's scatter of rows by graph number.

  The frames of the two kernel programs are the generated ones. The reference's frame and run are the generated
  operation list run by the library's straight-line theorem, read back stage by stage.
-/
import proofs.«402690_j13675175870656_3_alg».proof.Defs
import proofs.«402690_j13675175870656_3_alg».proof.Proof.Gen.Kernel
import proofs.«402690_j13675175870656_3_alg».proof.Proof.Gen.Kernel.Skeleton
import proofs.«402690_j13675175870656_3_alg».proof.Proof.Gen.Kernel.Launch
import proofs.«402690_j13675175870656_3_alg».proof.Proof.Gen.Kernel.Points
import proofs.«402690_j13675175870656_3_alg».proof.Proof.Gen.Kernel.Frame
import proofs.«402690_j13675175870656_3_alg».proof.Proof.Gen.KernelIdeal
import proofs.«402690_j13675175870656_3_alg».proof.Proof.Gen.KernelIdeal.Skeleton
import proofs.«402690_j13675175870656_3_alg».proof.Proof.Gen.KernelIdeal.Launch
import proofs.«402690_j13675175870656_3_alg».proof.Proof.Gen.KernelIdeal.Points
import proofs.«402690_j13675175870656_3_alg».proof.Proof.Gen.KernelIdeal.Frame
import proofs.«402690_j13675175870656_3_alg».proof.Proof.Gen.ReferenceIdeal
import proofs.«402690_j13675175870656_3_alg».proof.Proof.Gen.Pre_finite_inputs
import proofs.«402690_j13675175870656_3_alg».proof.Proof.KRun
import proofs.«402690_j13675175870656_3_alg».proof.Proof.KValue
import proofs.«402690_j13675175870656_3_alg».proof.Proof.RefRun
import proofs.«402690_j13675175870656_3_alg».proof.Proof.RefStages
import proofs.«402690_j13675175870656_3_alg».proof.Proof.PreReal
import proofs.«402690_j13675175870656_3_alg».proof.Proof.Bridge
import Idealize.ShloMosaic.Adequacy
import Idealize.ShloMosaic.Init

noncomputable section

namespace Cert.Proof

open Idealize.ShloMosaic Idealize.SL.Sem

/-- The word-level kernel program runs and leaves its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments: no host operation writes one. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun r h c =>
    ⟨(h c Cert.ReferenceIdeal.main_arg0).trans (Cert.ReferenceIdeal.RS.after_args m c Cert.ReferenceIdeal.main_arg0 (by simp)),
      (h c Cert.ReferenceIdeal.main_arg1).trans (Cert.ReferenceIdeal.RS.after_args m c Cert.ReferenceIdeal.main_arg1 (by simp)),
      (h c Cert.ReferenceIdeal.main_arg2).trans (Cert.ReferenceIdeal.RS.after_args m c Cert.ReferenceIdeal.main_arg2 (by simp)),
      (h c Cert.ReferenceIdeal.main_arg3).trans (Cert.ReferenceIdeal.RS.after_args m c Cert.ReferenceIdeal.main_arg3 (by simp)),
      (h c Cert.ReferenceIdeal.main_arg4).trans (Cert.ReferenceIdeal.RS.after_args m c Cert.ReferenceIdeal.main_arg4 (by simp)),
      (h c Cert.ReferenceIdeal.main_arg5).trans (Cert.ReferenceIdeal.RS.after_args m c Cert.ReferenceIdeal.main_arg5 (by simp)),
      (h c Cert.ReferenceIdeal.main_arg6).trans (Cert.ReferenceIdeal.RS.after_args m c Cert.ReferenceIdeal.main_arg6 (by simp)),
      (h c Cert.ReferenceIdeal.main_arg7).trans (Cert.ReferenceIdeal.RS.after_args m c Cert.ReferenceIdeal.main_arg7 (by simp)),
      (h c Cert.ReferenceIdeal.main_arg8).trans (Cert.ReferenceIdeal.RS.after_args m c Cert.ReferenceIdeal.main_arg8 (by simp))⟩)
    (Cert.ReferenceIdeal.ValueP.run_folded (F := Ideal) m ρ)

/-- From memories that agree on the arguments both idealized programs end with the same result array: the kernel
    program's last boundary holds the three layers, the per-graph sums and the division as one function of the launch
    arrays; the reference's last stage is the same function, the inputs being real under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W16 m ρ c (Proc.devRef .tc Cert.KernelIdeal.main_v124),
    Cert.KernelIdeal.Gen.run_named m ρ, ?_⟩
  refine (θ_run (Cert.ReferenceIdeal.defs (F := Ideal)) _ _).mono (fun r h c =>
    ⟨(h c Cert.ReferenceIdeal.main_v189).trans ?_,
      (h c Cert.ReferenceIdeal.main_arg0).trans (Cert.ReferenceIdeal.RS.after_args m' c Cert.ReferenceIdeal.main_arg0 (by simp)),
      (h c Cert.ReferenceIdeal.main_arg1).trans (Cert.ReferenceIdeal.RS.after_args m' c Cert.ReferenceIdeal.main_arg1 (by simp)),
      (h c Cert.ReferenceIdeal.main_arg2).trans (Cert.ReferenceIdeal.RS.after_args m' c Cert.ReferenceIdeal.main_arg2 (by simp)),
      (h c Cert.ReferenceIdeal.main_arg3).trans (Cert.ReferenceIdeal.RS.after_args m' c Cert.ReferenceIdeal.main_arg3 (by simp)),
      (h c Cert.ReferenceIdeal.main_arg4).trans (Cert.ReferenceIdeal.RS.after_args m' c Cert.ReferenceIdeal.main_arg4 (by simp)),
      (h c Cert.ReferenceIdeal.main_arg5).trans (Cert.ReferenceIdeal.RS.after_args m' c Cert.ReferenceIdeal.main_arg5 (by simp)),
      (h c Cert.ReferenceIdeal.main_arg6).trans (Cert.ReferenceIdeal.RS.after_args m' c Cert.ReferenceIdeal.main_arg6 (by simp)),
      (h c Cert.ReferenceIdeal.main_arg7).trans (Cert.ReferenceIdeal.RS.after_args m' c Cert.ReferenceIdeal.main_arg7 (by simp)),
      (h c Cert.ReferenceIdeal.main_arg8).trans (Cert.ReferenceIdeal.RS.after_args m' c Cert.ReferenceIdeal.main_arg8 (by simp))⟩)
    (Cert.ReferenceIdeal.ValueP.run_folded (F := Ideal) m' ρ')
  obtain ⟨h0, h3, h4, h5, h6, h7, h8⟩ := Cert.PreReal.isReal_of_pre (hPre_finite_inputs := Cert.Pre_finite_inputs.Gen.facts) m hpre c
  obtain ⟨e0, e1, e2, e3, e4, e5, e6, e7, e8⟩ := hagree c
  rw [Cert.ReferenceIdeal.RS.after_v189, e0, e1, e2, e3, e4, e5, e6, e7, e8]
  refine Eq.trans ?_ (Cert.KernelIdeal.KVal.W16_value m ρ c).symm
  exact (Cert.Bridge.value_eq _ _ _ _ _ _ _ _ _ h0 h3 h4 h5 h6 h7 h8).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
